-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x64 .f32) (main_arg1 : IVec S1600000 32) (main_arg2 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_c_0 : IVec S_ 32 := constantI S_ 32 0#32
  let main_v4 : IVec S1600000 32 := broadcastInDim S1600000 ![] bcast_S_S1600000 main_c_0
  let main_v5 : IVec S1600000 1 := cmpi .sge main_arg1 main_v4
  let main_c_1 : IVec S_ 32 := constantI S_ 32 100000#32
  let main_v6 : IVec S1600000 32 := broadcastInDim S1600000 ![] bcast_S_S1600000 main_c_1
  let main_v7 : IVec S1600000 1 := cmpi .slt main_arg1 main_v6
  let main_v8 : IVec S1600000 1 := andi main_v5 main_v7
  let main_c_2 : IVec S_ 1 := constantI S_ 1 1#1
  let main_v9 : IVec S_ 1 := (fun x v => Host.reduce IntOp.andi x v reducesTo_S1600000_S_d0 h_S_) main_v8 main_c_2
  let main_v10 : IVec S_ 1 := andi main_v3 main_v9
  main_v10
-- ==== Kernel.lean ====
abbrev S100000x64 : Shape := ⟨2, ![100000, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S128 : Shape := ⟨1, ![128]⟩
abbrev S128x64 : Shape := ⟨2, ![128, 64]⟩
abbrev S2x64 : Shape := ⟨2, ![2, 64]⟩
abbrev S2 : Shape := ⟨1, ![2]⟩
abbrev S1 : Shape := ⟨1, ![1]⟩
abbrev S1x64 : Shape := ⟨2, ![1, 64]⟩
abbrev S64 : Shape := ⟨1, ![64]⟩

abbrev nBuf : Space → Nat
  | .hbm => 34
  | .vmem => 6
  | .smem => 4
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S_, .f32⟩
  | .hbm, ⟨4, _⟩ => ⟨S1600000, .f32⟩
  | .hbm, ⟨5, _⟩ => ⟨S_, .f32⟩
  | .hbm, ⟨6, _⟩ => ⟨S100000, .f32⟩
  | .hbm, ⟨7, _⟩ => ⟨S1600000x1, .i32⟩
  | .hbm, ⟨8, _⟩ => ⟨S100000, .f32⟩
  | .hbm, ⟨9, _⟩ => ⟨S_, .f32⟩
  | .hbm, ⟨10, _⟩ => ⟨S100000, .f32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .local _ .vmem, ⟨0, _⟩ => ⟨S128x64, .f32⟩
  | .local _ .vmem, ⟨1, _⟩ => ⟨S128x64, .f32⟩
  | .local _ .vmem, ⟨2, _⟩ => ⟨S2x64, .f32⟩
  | .local _ .vmem, ⟨3, _⟩ => ⟨S128x64, .f32⟩
  | .local _ .vmem, ⟨4, _⟩ => ⟨S128x64, .f32⟩
  | .local _ .vmem, ⟨5, _⟩ => ⟨S2x64, .f32⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_scratch0 : Ref sig .tc := ⟨.vmem, 5, rfl⟩
abbrev cc0_stg0_0 : Ref sig .tc := ⟨.smem, 0, rfl⟩
abbrev cc0_stg0_1 : Ref sig .tc := ⟨.smem, 1, rfl⟩
abbrev cc1_stg0_0 : Ref sig .tc := ⟨.smem, 2, rfl⟩
abbrev cc1_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![12500], ![false]⟩

def k0_off1 (v0 : BitVec 32) : Fin 2 → Nat :=
  let c0_i32_2 : BitVec 32 := 0#32
  ![v0.toNat, 0]

def k0_chk1 (v0 : BitVec 32) : Prop :=
  (∀ a, (k0_off1 v0) a + S1x64.size a ≤ S100000x64.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x64.size a ≤ S100000x64.size a := fun v0 k0_hw1 => k0_hw1

def k0_off2 (v13 : BitVec 32) : Fin 2 → Nat :=
  let c0_i32_10 : BitVec 32 := 0#32
  ![v13.toNat, 0]

def k0_chk2 (v13 : BitVec 32) : Prop :=
  (∀ a, (k0_off2 v13) a + S1x64.size a ≤ S100000x64.size a)
instance k0_chk2.dec : ∀ (v13 : BitVec 32), Decidable (k0_chk2 v13) := fun v13 => decidable_of_iff' _ (Iff.of_eq (k0_chk2.eq_1 v13))
theorem k0_off2_inb : ∀ (v13 : BitVec 32) (k0_hw2 : k0_chk2 v13), ∀ a, (k0_off2 v13) a + S1x64.size a ≤ S100000x64.size a := fun v13 k0_hw2 => k0_hw2

def k0_off3 (v31 : BitVec 32) : Fin 2 → Nat :=
  let c0_i32_23 : BitVec 32 := 0#32
  ![v31.toNat, 0]

def k0_chk3 (v31 : BitVec 32) : Prop :=
  (∀ a, (k0_off3 v31) a + S1x64.size a ≤ S100000x64.size a)
instance k0_chk3.dec : ∀ (v31 : BitVec 32), Decidable (k0_chk3 v31) := fun v31 => decidable_of_iff' _ (Iff.of_eq (k0_chk3.eq_1 v31))
theorem k0_off3_inb : ∀ (v31 : BitVec 32) (k0_hw3 : k0_chk3 v31), ∀ a, (k0_off3 v31) a + S1x64.size a ≤ S100000x64.size a := fun v31 k0_hw3 => k0_hw3

def k0_off4 (v49 : BitVec 32) : Fin 2 → Nat :=
  let c0_i32_36 : BitVec 32 := 0#32
  ![v49.toNat, 0]

def k0_chk4 (v49 : BitVec 32) : Prop :=
  (∀ a, (k0_off4 v49) a + S1x64.size a ≤ S100000x64.size a)
instance k0_chk4.dec : ∀ (v49 : BitVec 32), Decidable (k0_chk4 v49) := fun v49 => decidable_of_iff' _ (Iff.of_eq (k0_chk4.eq_1 v49))
theorem k0_off4_inb : ∀ (v49 : BitVec 32) (k0_hw4 : k0_chk4 v49), ∀ a, (k0_off4 v49) a + S1x64.size a ≤ S100000x64.size a := fun v49 k0_hw4 => k0_hw4

def k0_off5 (v67 : BitVec 32) : Fin 2 → Nat :=
  let c0_i32_49 : BitVec 32 := 0#32
  ![v67.toNat, 0]

def k0_chk5 (v67 : BitVec 32) : Prop :=
  (∀ a, (k0_off5 v67) a + S1x64.size a ≤ S100000x64.size a)
instance k0_chk5.dec : ∀ (v67 : BitVec 32), Decidable (k0_chk5 v67) := fun v67 => decidable_of_iff' _ (Iff.of_eq (k0_chk5.eq_1 v67))
theorem k0_off5_inb : ∀ (v67 : BitVec 32) (k0_hw5 : k0_chk5 v67), ∀ a, (k0_off5 v67) a + S1x64.size a ≤ S100000x64.size a := fun v67 k0_hw5 => k0_hw5

def k0_off6 (v85 : BitVec 32) : Fin 2 → Nat :=
  let c0_i32_62 : BitVec 32 := 0#32
  ![v85.toNat, 0]

def k0_chk6 (v85 : BitVec 32) : Prop :=
  (∀ a, (k0_off6 v85) a + S1x64.size a ≤ S100000x64.size a)
instance k0_chk6.dec : ∀ (v85 : BitVec 32), Decidable (k0_chk6 v85) := fun v85 => decidable_of_iff' _ (Iff.of_eq (k0_chk6.eq_1 v85))
theorem k0_off6_inb : ∀ (v85 : BitVec 32) (k0_hw6 : k0_chk6 v85), ∀ a, (k0_off6 v85) a + S1x64.size a ≤ S100000x64.size a := fun v85 k0_hw6 => k0_hw6

def k0_off7 (v103 : BitVec 32) : Fin 2 → Nat :=
  let c0_i32_75 : BitVec 32 := 0#32
  ![v103.toNat, 0]

def k0_chk7 (v103 : BitVec 32) : Prop :=
  (∀ a, (k0_off7 v103) a + S1x64.size a ≤ S100000x64.size a)
instance k0_chk7.dec : ∀ (v103 : BitVec 32), Decidable (k0_chk7 v103) := fun v103 => decidable_of_iff' _ (Iff.of_eq (k0_chk7.eq_1 v103))
theorem k0_off7_inb : ∀ (v103 : BitVec 32) (k0_hw7 : k0_chk7 v103), ∀ a, (k0_off7 v103) a + S1x64.size a ≤ S100000x64.size a := fun v103 k0_hw7 => k0_hw7

def k0_off8 (v121 : BitVec 32) : Fin 2 → Nat :=
  let c0_i32_88 : BitVec 32 := 0#32
  ![v121.toNat, 0]

def k0_chk8 (v121 : BitVec 32) : Prop :=
  (∀ a, (k0_off8 v121) a + S1x64.size a ≤ S100000x64.size a)
instance k0_chk8.dec : ∀ (v121 : BitVec 32), Decidable (k0_chk8 v121) := fun v121 => decidable_of_iff' _ (Iff.of_eq (k0_chk8.eq_1 v121))
theorem k0_off8_inb : ∀ (v121 : BitVec 32) (k0_hw8 : k0_chk8 v121), ∀ a, (k0_off8 v121) a + S1x64.size a ≤ S100000x64.size a := fun v121 k0_hw8 => k0_hw8

def k0_off9 (v139 : BitVec 32) : Fin 2 → Nat :=
  let c0_i32_101 : BitVec 32 := 0#32
  ![v139.toNat, 0]

def k0_chk9 (v139 : BitVec 32) : Prop :=
  (∀ a, (k0_off9 v139) a + S1x64.size a ≤ S100000x64.size a)
instance k0_chk9.dec : ∀ (v139 : BitVec 32), Decidable (k0_chk9 v139) := fun v139 => decidable_of_iff' _ (Iff.of_eq (k0_chk9.eq_1 v139))
theorem k0_off9_inb : ∀ (v139 : BitVec 32) (k0_hw9 : k0_chk9 v139), ∀ a, (k0_off9 v139) a + S1x64.size a ≤ S100000x64.size a := fun v139 k0_hw9 => k0_hw9

def k0_off10 (v157 : BitVec 32) : Fin 2 → Nat :=
  let c0_i32_114 : BitVec 32 := 0#32
  ![v157.toNat, 0]

def k0_chk10 (v157 : BitVec 32) : Prop :=
  (∀ a, (k0_off10 v157) a + S1x64.size a ≤ S100000x64.size a)
instance k0_chk10.dec : ∀ (v157 : BitVec 32), Decidable (k0_chk10 v157) := fun v157 => decidable_of_iff' _ (Iff.of_eq (k0_chk10.eq_1 v157))
theorem k0_off10_inb : ∀ (v157 : BitVec 32) (k0_hw10 : k0_chk10 v157), ∀ a, (k0_off10 v157) a + S1x64.size a ≤ S100000x64.size a := fun v157 k0_hw10 => k0_hw10

def k0_off11 (v175 : BitVec 32) : Fin 2 → Nat :=
  let c0_i32_127 : BitVec 32 := 0#32
  ![v175.toNat, 0]

def k0_chk11 (v175 : BitVec 32) : Prop :=
  (∀ a, (k0_off11 v175) a + S1x64.size a ≤ S100000x64.size a)
instance k0_chk11.dec : ∀ (v175 : BitVec 32), Decidable (k0_chk11 v175) := fun v175 => decidable_of_iff' _ (Iff.of_eq (k0_chk11.eq_1 v175))
theorem k0_off11_inb : ∀ (v175 : BitVec 32) (k0_hw11 : k0_chk11 v175), ∀ a, (k0_off11 v175) a + S1x64.size a ≤ S100000x64.size a := fun v175 k0_hw11 => k0_hw11

def k0_off12 (v193 : BitVec 32) : Fin 2 → Nat :=
  let c0_i32_140 : BitVec 32 := 0#32
  ![v193.toNat, 0]

def k0_chk12 (v193 : BitVec 32) : Prop :=
  (∀ a, (k0_off12 v193) a + S1x64.size a ≤ S100000x64.size a)
instance k0_chk12.dec : ∀ (v193 : BitVec 32), Decidable (k0_chk12 v193) := fun v193 => decidable_of_iff' _ (Iff.of_eq (k0_chk12.eq_1 v193))
theorem k0_off12_inb : ∀ (v193 : BitVec 32) (k0_hw12 : k0_chk12 v193), ∀ a, (k0_off12 v193) a + S1x64.size a ≤ S100000x64.size a := fun v193 k0_hw12 => k0_hw12

def k0_off13 (v211 : BitVec 32) : Fin 2 → Nat :=
  let c0_i32_153 : BitVec 32 := 0#32
  ![v211.toNat, 0]

def k0_chk13 (v211 : BitVec 32) : Prop :=
  (∀ a, (k0_off13 v211) a + S1x64.size a ≤ S100000x64.size a)
instance k0_chk13.dec : ∀ (v211 : BitVec 32), Decidable (k0_chk13 v211) := fun v211 => decidable_of_iff' _ (Iff.of_eq (k0_chk13.eq_1 v211))
theorem k0_off13_inb : ∀ (v211 : BitVec 32) (k0_hw13 : k0_chk13 v211), ∀ a, (k0_off13 v211) a + S1x64.size a ≤ S100000x64.size a := fun v211 k0_hw13 => k0_hw13

def k0_off14 (v229 : BitVec 32) : Fin 2 → Nat :=
  let c0_i32_166 : BitVec 32 := 0#32
  ![v229.toNat, 0]

def k0_chk14 (v229 : BitVec 32) : Prop :=
  (∀ a, (k0_off14 v229) a + S1x64.size a ≤ S100000x64.size a)
instance k0_chk14.dec : ∀ (v229 : BitVec 32), Decidable (k0_chk14 v229) := fun v229 => decidable_of_iff' _ (Iff.of_eq (k0_chk14.eq_1 v229))
theorem k0_off14_inb : ∀ (v229 : BitVec 32) (k0_hw14 : k0_chk14 v229), ∀ a, (k0_off14 v229) a + S1x64.size a ≤ S100000x64.size a := fun v229 k0_hw14 => k0_hw14

def k0_off15 (v247 : BitVec 32) : Fin 2 → Nat :=
  let c0_i32_179 : BitVec 32 := 0#32
  ![v247.toNat, 0]

def k0_chk15 (v247 : BitVec 32) : Prop :=
  (∀ a, (k0_off15 v247) a + S1x64.size a ≤ S100000x64.size a)
instance k0_chk15.dec : ∀ (v247 : BitVec 32), Decidable (k0_chk15 v247) := fun v247 => decidable_of_iff' _ (Iff.of_eq (k0_chk15.eq_1 v247))
theorem k0_off15_inb : ∀ (v247 : BitVec 32) (k0_hw15 : k0_chk15 v247), ∀ a, (k0_off15 v247) a + S1x64.size a ≤ S100000x64.size a := fun v247 k0_hw15 => k0_hw15

def k0_off16 (v265 : BitVec 32) : Fin 2 → Nat :=
  let c0_i32_192 : BitVec 32 := 0#32
  ![v265.toNat, 0]

def k0_chk16 (v265 : BitVec 32) : Prop :=
  (∀ a, (k0_off16 v265) a + S1x64.size a ≤ S100000x64.size a)
instance k0_chk16.dec : ∀ (v265 : BitVec 32), Decidable (k0_chk16 v265) := fun v265 => decidable_of_iff' _ (Iff.of_eq (k0_chk16.eq_1 v265))
theorem k0_off16_inb : ∀ (v265 : BitVec 32) (k0_hw16 : k0_chk16 v265), ∀ a, (k0_off16 v265) a + S1x64.size a ≤ S100000x64.size a := fun v265 k0_hw16 => k0_hw16

def k0_off17 (v283 : BitVec 32) : Fin 2 → Nat :=
  let c0_i32_205 : BitVec 32 := 0#32
  ![v283.toNat, 0]

def k0_chk17 (v283 : BitVec 32) : Prop :=
  (∀ a, (k0_off17 v283) a + S1x64.size a ≤ S100000x64.size a)
instance k0_chk17.dec : ∀ (v283 : BitVec 32), Decidable (k0_chk17 v283) := fun v283 => decidable_of_iff' _ (Iff.of_eq (k0_chk17.eq_1 v283))
theorem k0_off17_inb : ∀ (v283 : BitVec 32) (k0_hw17 : k0_chk17 v283), ∀ a, (k0_off17 v283) a + S1x64.size a ≤ S100000x64.size a := fun v283 k0_hw17 => k0_hw17

def k0_off18 (v301 : BitVec 32) : Fin 2 → Nat :=
  let c0_i32_218 : BitVec 32 := 0#32
  ![v301.toNat, 0]

def k0_chk18 (v301 : BitVec 32) : Prop :=
  (∀ a, (k0_off18 v301) a + S1x64.size a ≤ S100000x64.size a)
instance k0_chk18.dec : ∀ (v301 : BitVec 32), Decidable (k0_chk18 v301) := fun v301 => decidable_of_iff' _ (Iff.of_eq (k0_chk18.eq_1 v301))
theorem k0_off18_inb : ∀ (v301 : BitVec 32) (k0_hw18 : k0_chk18 v301), ∀ a, (k0_off18 v301) a + S1x64.size a ≤ S100000x64.size a := fun v301 k0_hw18 => k0_hw18

def k0_off19 (v319 : BitVec 32) : Fin 2 → Nat :=
  let c0_i32_231 : BitVec 32 := 0#32
  ![v319.toNat, 0]

def k0_chk19 (v319 : BitVec 32) : Prop :=
  (∀ a, (k0_off19 v319) a + S1x64.size a ≤ S100000x64.size a)
instance k0_chk19.dec : ∀ (v319 : BitVec 32), Decidable (k0_chk19 v319) := fun v319 => decidable_of_iff' _ (Iff.of_eq (k0_chk19.eq_1 v319))
theorem k0_off19_inb : ∀ (v319 : BitVec 32) (k0_hw19 : k0_chk19 v319), ∀ a, (k0_off19 v319) a + S1x64.size a ≤ S100000x64.size a := fun v319 k0_hw19 => k0_hw19

def k0_off20 (v337 : BitVec 32) : Fin 2 → Nat :=
  let c0_i32_244 : BitVec 32 := 0#32
  ![v337.toNat, 0]

def k0_chk20 (v337 : BitVec 32) : Prop :=
  (∀ a, (k0_off20 v337) a + S1x64.size a ≤ S100000x64.size a)
instance k0_chk20.dec : ∀ (v337 : BitVec 32), Decidable (k0_chk20 v337) := fun v337 => decidable_of_iff' _ (Iff.of_eq (k0_chk20.eq_1 v337))
theorem k0_off20_inb : ∀ (v337 : BitVec 32) (k0_hw20 : k0_chk20 v337), ∀ a, (k0_off20 v337) a + S1x64.size a ≤ S100000x64.size a := fun v337 k0_hw20 => k0_hw20

def k0_off21 (v355 : BitVec 32) : Fin 2 → Nat :=
  let c0_i32_257 : BitVec 32 := 0#32
  ![v355.toNat, 0]

def k0_chk21 (v355 : BitVec 32) : Prop :=
  (∀ a, (k0_off21 v355) a + S1x64.size a ≤ S100000x64.size a)
instance k0_chk21.dec : ∀ (v355 : BitVec 32), Decidable (k0_chk21 v355) := fun v355 => decidable_of_iff' _ (Iff.of_eq (k0_chk21.eq_1 v355))
theorem k0_off21_inb : ∀ (v355 : BitVec 32) (k0_hw21 : k0_chk21 v355), ∀ a, (k0_off21 v355) a + S1x64.size a ≤ S100000x64.size a := fun v355 k0_hw21 => k0_hw21

def k0_off22 (v373 : BitVec 32) : Fin 2 → Nat :=
  let c0_i32_270 : BitVec 32 := 0#32
  ![v373.toNat, 0]

def k0_chk22 (v373 : BitVec 32) : Prop :=
  (∀ a, (k0_off22 v373) a + S1x64.size a ≤ S100000x64.size a)
instance k0_chk22.dec : ∀ (v373 : BitVec 32), Decidable (k0_chk22 v373) := fun v373 => decidable_of_iff' _ (Iff.of_eq (k0_chk22.eq_1 v373))
theorem k0_off22_inb : ∀ (v373 : BitVec 32) (k0_hw22 : k0_chk22 v373), ∀ a, (k0_off22 v373) a + S1x64.size a ≤ S100000x64.size a := fun v373 k0_hw22 => k0_hw22

def k0_off23 (v391 : BitVec 32) : Fin 2 → Nat :=
  let c0_i32_283 : BitVec 32 := 0#32
  ![v391.toNat, 0]

def k0_chk23 (v391 : BitVec 32) : Prop :=
  (∀ a, (k0_off23 v391) a + S1x64.size a ≤ S100000x64.size a)
instance k0_chk23.dec : ∀ (v391 : BitVec 32), Decidable (k0_chk23 v391) := fun v391 => decidable_of_iff' _ (Iff.of_eq (k0_chk23.eq_1 v391))
theorem k0_off23_inb : ∀ (v391 : BitVec 32) (k0_hw23 : k0_chk23 v391), ∀ a, (k0_off23 v391) a + S1x64.size a ≤ S100000x64.size a := fun v391 k0_hw23 => k0_hw23

def k0_off24 (v409 : BitVec 32) : Fin 2 → Nat :=
  let c0_i32_296 : BitVec 32 := 0#32
  ![v409.toNat, 0]

def k0_chk24 (v409 : BitVec 32) : Prop :=
  (∀ a, (k0_off24 v409) a + S1x64.size a ≤ S100000x64.size a)
instance k0_chk24.dec : ∀ (v409 : BitVec 32), Decidable (k0_chk24 v409) := fun v409 => decidable_of_iff' _ (Iff.of_eq (k0_chk24.eq_1 v409))
theorem k0_off24_inb : ∀ (v409 : BitVec 32) (k0_hw24 : k0_chk24 v409), ∀ a, (k0_off24 v409) a + S1x64.size a ≤ S100000x64.size a := fun v409 k0_hw24 => k0_hw24

def k0_off25 (v427 : BitVec 32) : Fin 2 → Nat :=
  let c0_i32_309 : BitVec 32 := 0#32
  ![v427.toNat, 0]

def k0_chk25 (v427 : BitVec 32) : Prop :=
  (∀ a, (k0_off25 v427) a + S1x64.size a ≤ S100000x64.size a)
instance k0_chk25.dec : ∀ (v427 : BitVec 32), Decidable (k0_chk25 v427) := fun v427 => decidable_of_iff' _ (Iff.of_eq (k0_chk25.eq_1 v427))
theorem k0_off25_inb : ∀ (v427 : BitVec 32) (k0_hw25 : k0_chk25 v427), ∀ a, (k0_off25 v427) a + S1x64.size a ≤ S100000x64.size a := fun v427 k0_hw25 => k0_hw25

def k0_off26 (v445 : BitVec 32) : Fin 2 → Nat :=
  let c0_i32_322 : BitVec 32 := 0#32
  ![v445.toNat, 0]

def k0_chk26 (v445 : BitVec 32) : Prop :=
  (∀ a, (k0_off26 v445) a + S1x64.size a ≤ S100000x64.size a)
instance k0_chk26.dec : ∀ (v445 : BitVec 32), Decidable (k0_chk26 v445) := fun v445 => decidable_of_iff' _ (Iff.of_eq (k0_chk26.eq_1 v445))
theorem k0_off26_inb : ∀ (v445 : BitVec 32) (k0_hw26 : k0_chk26 v445), ∀ a, (k0_off26 v445) a + S1x64.size a ≤ S100000x64.size a := fun v445 k0_hw26 => k0_hw26

def k0_off27 (v463 : BitVec 32) : Fin 2 → Nat :=
  let c0_i32_335 : BitVec 32 := 0#32
  ![v463.toNat, 0]

def k0_chk27 (v463 : BitVec 32) : Prop :=
  (∀ a, (k0_off27 v463) a + S1x64.size a ≤ S100000x64.size a)
instance k0_chk27.dec : ∀ (v463 : BitVec 32), Decidable (k0_chk27 v463) := fun v463 => decidable_of_iff' _ (Iff.of_eq (k0_chk27.eq_1 v463))
theorem k0_off27_inb : ∀ (v463 : BitVec 32) (k0_hw27 : k0_chk27 v463), ∀ a, (k0_off27 v463) a + S1x64.size a ≤ S100000x64.size a := fun v463 k0_hw27 => k0_hw27

def k0_off28 (v481 : BitVec 32) : Fin 2 → Nat :=
  let c0_i32_348 : BitVec 32 := 0#32
  ![v481.toNat, 0]

def k0_chk28 (v481 : BitVec 32) : Prop :=
  (∀ a, (k0_off28 v481) a + S1x64.size a ≤ S100000x64.size a)
instance k0_chk28.dec : ∀ (v481 : BitVec 32), Decidable (k0_chk28 v481) := fun v481 => decidable_of_iff' _ (Iff.of_eq (k0_chk28.eq_1 v481))
theorem k0_off28_inb : ∀ (v481 : BitVec 32) (k0_hw28 : k0_chk28 v481), ∀ a, (k0_off28 v481) a + S1x64.size a ≤ S100000x64.size a := fun v481 k0_hw28 => k0_hw28

def k0_off29 (v499 : BitVec 32) : Fin 2 → Nat :=
  let c0_i32_361 : BitVec 32 := 0#32
  ![v499.toNat, 0]

def k0_chk29 (v499 : BitVec 32) : Prop :=
  (∀ a, (k0_off29 v499) a + S1x64.size a ≤ S100000x64.size a)
instance k0_chk29.dec : ∀ (v499 : BitVec 32), Decidable (k0_chk29 v499) := fun v499 => decidable_of_iff' _ (Iff.of_eq (k0_chk29.eq_1 v499))
theorem k0_off29_inb : ∀ (v499 : BitVec 32) (k0_hw29 : k0_chk29 v499), ∀ a, (k0_off29 v499) a + S1x64.size a ≤ S100000x64.size a := fun v499 k0_hw29 => k0_hw29

def k0_off30 (v517 : BitVec 32) : Fin 2 → Nat :=
  let c0_i32_374 : BitVec 32 := 0#32
  ![v517.toNat, 0]

def k0_chk30 (v517 : BitVec 32) : Prop :=
  (∀ a, (k0_off30 v517) a + S1x64.size a ≤ S100000x64.size a)
instance k0_chk30.dec : ∀ (v517 : BitVec 32), Decidable (k0_chk30 v517) := fun v517 => decidable_of_iff' _ (Iff.of_eq (k0_chk30.eq_1 v517))
theorem k0_off30_inb : ∀ (v517 : BitVec 32) (k0_hw30 : k0_chk30 v517), ∀ a, (k0_off30 v517) a + S1x64.size a ≤ S100000x64.size a := fun v517 k0_hw30 => k0_hw30

def k0_off31 (v535 : BitVec 32) : Fin 2 → Nat :=
  let c0_i32_387 : BitVec 32 := 0#32
  ![v535.toNat, 0]

def k0_chk31 (v535 : BitVec 32) : Prop :=
  (∀ a, (k0_off31 v535) a + S1x64.size a ≤ S100000x64.size a)
instance k0_chk31.dec : ∀ (v535 : BitVec 32), Decidable (k0_chk31 v535) := fun v535 => decidable_of_iff' _ (Iff.of_eq (k0_chk31.eq_1 v535))
theorem k0_off31_inb : ∀ (v535 : BitVec 32) (k0_hw31 : k0_chk31 v535), ∀ a, (k0_off31 v535) a + S1x64.size a ≤ S100000x64.size a := fun v535 k0_hw31 => k0_hw31

def k0_off32 (v553 : BitVec 32) : Fin 2 → Nat :=
  let c0_i32_400 : BitVec 32 := 0#32
  ![v553.toNat, 0]

def k0_chk32 (v553 : BitVec 32) : Prop :=
  (∀ a, (k0_off32 v553) a + S1x64.size a ≤ S100000x64.size a)
instance k0_chk32.dec : ∀ (v553 : BitVec 32), Decidable (k0_chk32 v553) := fun v553 => decidable_of_iff' _ (Iff.of_eq (k0_chk32.eq_1 v553))
theorem k0_off32_inb : ∀ (v553 : BitVec 32) (k0_hw32 : k0_chk32 v553), ∀ a, (k0_off32 v553) a + S1x64.size a ≤ S100000x64.size a := fun v553 k0_hw32 => k0_hw32

def k0_off33 (v571 : BitVec 32) : Fin 2 → Nat :=
  let c0_i32_413 : BitVec 32 := 0#32
  ![v571.toNat, 0]

def k0_chk33 (v571 : BitVec 32) : Prop :=
  (∀ a, (k0_off33 v571) a + S1x64.size a ≤ S100000x64.size a)
instance k0_chk33.dec : ∀ (v571 : BitVec 32), Decidable (k0_chk33 v571) := fun v571 => decidable_of_iff' _ (Iff.of_eq (k0_chk33.eq_1 v571))
theorem k0_off33_inb : ∀ (v571 : BitVec 32) (k0_hw33 : k0_chk33 v571), ∀ a, (k0_off33 v571) a + S1x64.size a ≤ S100000x64.size a := fun v571 k0_hw33 => k0_hw33

def k0_off34 (v589 : BitVec 32) : Fin 2 → Nat :=
  let c0_i32_426 : BitVec 32 := 0#32
  ![v589.toNat, 0]

def k0_chk34 (v589 : BitVec 32) : Prop :=
  (∀ a, (k0_off34 v589) a + S1x64.size a ≤ S100000x64.size a)
instance k0_chk34.dec : ∀ (v589 : BitVec 32), Decidable (k0_chk34 v589) := fun v589 => decidable_of_iff' _ (Iff.of_eq (k0_chk34.eq_1 v589))
theorem k0_off34_inb : ∀ (v589 : BitVec 32) (k0_hw34 : k0_chk34 v589), ∀ a, (k0_off34 v589) a + S1x64.size a ≤ S100000x64.size a := fun v589 k0_hw34 => k0_hw34

def k0_off35 (v607 : BitVec 32) : Fin 2 → Nat :=
  let c0_i32_439 : BitVec 32 := 0#32
  ![v607.toNat, 0]

def k0_chk35 (v607 : BitVec 32) : Prop :=
  (∀ a, (k0_off35 v607) a + S1x64.size a ≤ S100000x64.size a)
instance k0_chk35.dec : ∀ (v607 : BitVec 32), Decidable (k0_chk35 v607) := fun v607 => decidable_of_iff' _ (Iff.of_eq (k0_chk35.eq_1 v607))
theorem k0_off35_inb : ∀ (v607 : BitVec 32) (k0_hw35 : k0_chk35 v607), ∀ a, (k0_off35 v607) a + S1x64.size a ≤ S100000x64.size a := fun v607 k0_hw35 => k0_hw35

def k0_off36 (v625 : BitVec 32) : Fin 2 → Nat :=
  let c0_i32_452 : BitVec 32 := 0#32
  ![v625.toNat, 0]

def k0_chk36 (v625 : BitVec 32) : Prop :=
  (∀ a, (k0_off36 v625) a + S1x64.size a ≤ S100000x64.size a)
instance k0_chk36.dec : ∀ (v625 : BitVec 32), Decidable (k0_chk36 v625) := fun v625 => decidable_of_iff' _ (Iff.of_eq (k0_chk36.eq_1 v625))
theorem k0_off36_inb : ∀ (v625 : BitVec 32) (k0_hw36 : k0_chk36 v625), ∀ a, (k0_off36 v625) a + S1x64.size a ≤ S100000x64.size a := fun v625 k0_hw36 => k0_hw36

def k0_off37 (v643 : BitVec 32) : Fin 2 → Nat :=
  let c0_i32_465 : BitVec 32 := 0#32
  ![v643.toNat, 0]

def k0_chk37 (v643 : BitVec 32) : Prop :=
  (∀ a, (k0_off37 v643) a + S1x64.size a ≤ S100000x64.size a)
instance k0_chk37.dec : ∀ (v643 : BitVec 32), Decidable (k0_chk37 v643) := fun v643 => decidable_of_iff' _ (Iff.of_eq (k0_chk37.eq_1 v643))
theorem k0_off37_inb : ∀ (v643 : BitVec 32) (k0_hw37 : k0_chk37 v643), ∀ a, (k0_off37 v643) a + S1x64.size a ≤ S100000x64.size a := fun v643 k0_hw37 => k0_hw37

def k0_off38 (v661 : BitVec 32) : Fin 2 → Nat :=
  let c0_i32_478 : BitVec 32 := 0#32
  ![v661.toNat, 0]

def k0_chk38 (v661 : BitVec 32) : Prop :=
  (∀ a, (k0_off38 v661) a + S1x64.size a ≤ S100000x64.size a)
instance k0_chk38.dec : ∀ (v661 : BitVec 32), Decidable (k0_chk38 v661) := fun v661 => decidable_of_iff' _ (Iff.of_eq (k0_chk38.eq_1 v661))
theorem k0_off38_inb : ∀ (v661 : BitVec 32) (k0_hw38 : k0_chk38 v661), ∀ a, (k0_off38 v661) a + S1x64.size a ≤ S100000x64.size a := fun v661 k0_hw38 => k0_hw38

def k0_off39 (v679 : BitVec 32) : Fin 2 → Nat :=
  let c0_i32_491 : BitVec 32 := 0#32
  ![v679.toNat, 0]

def k0_chk39 (v679 : BitVec 32) : Prop :=
  (∀ a, (k0_off39 v679) a + S1x64.size a ≤ S100000x64.size a)
instance k0_chk39.dec : ∀ (v679 : BitVec 32), Decidable (k0_chk39 v679) := fun v679 => decidable_of_iff' _ (Iff.of_eq (k0_chk39.eq_1 v679))
theorem k0_off39_inb : ∀ (v679 : BitVec 32) (k0_hw39 : k0_chk39 v679), ∀ a, (k0_off39 v679) a + S1x64.size a ≤ S100000x64.size a := fun v679 k0_hw39 => k0_hw39

def k0_off40 (v697 : BitVec 32) : Fin 2 → Nat :=
  let c0_i32_504 : BitVec 32 := 0#32
  ![v697.toNat, 0]

def k0_chk40 (v697 : BitVec 32) : Prop :=
  (∀ a, (k0_off40 v697) a + S1x64.size a ≤ S100000x64.size a)
instance k0_chk40.dec : ∀ (v697 : BitVec 32), Decidable (k0_chk40 v697) := fun v697 => decidable_of_iff' _ (Iff.of_eq (k0_chk40.eq_1 v697))
theorem k0_off40_inb : ∀ (v697 : BitVec 32) (k0_hw40 : k0_chk40 v697), ∀ a, (k0_off40 v697) a + S1x64.size a ≤ S100000x64.size a := fun v697 k0_hw40 => k0_hw40

def k0_off41 (v715 : BitVec 32) : Fin 2 → Nat :=
  let c0_i32_517 : BitVec 32 := 0#32
  ![v715.toNat, 0]

def k0_chk41 (v715 : BitVec 32) : Prop :=
  (∀ a, (k0_off41 v715) a + S1x64.size a ≤ S100000x64.size a)
instance k0_chk41.dec : ∀ (v715 : BitVec 32), Decidable (k0_chk41 v715) := fun v715 => decidable_of_iff' _ (Iff.of_eq (k0_chk41.eq_1 v715))
theorem k0_off41_inb : ∀ (v715 : BitVec 32) (k0_hw41 : k0_chk41 v715), ∀ a, (k0_off41 v715) a + S1x64.size a ≤ S100000x64.size a := fun v715 k0_hw41 => k0_hw41

def k0_off42 (v733 : BitVec 32) : Fin 2 → Nat :=
  let c0_i32_530 : BitVec 32 := 0#32
  ![v733.toNat, 0]

def k0_chk42 (v733 : BitVec 32) : Prop :=
  (∀ a, (k0_off42 v733) a + S1x64.size a ≤ S100000x64.size a)
instance k0_chk42.dec : ∀ (v733 : BitVec 32), Decidable (k0_chk42 v733) := fun v733 => decidable_of_iff' _ (Iff.of_eq (k0_chk42.eq_1 v733))
theorem k0_off42_inb : ∀ (v733 : BitVec 32) (k0_hw42 : k0_chk42 v733), ∀ a, (k0_off42 v733) a + S1x64.size a ≤ S100000x64.size a := fun v733 k0_hw42 => k0_hw42

def k0_off43 (v751 : BitVec 32) : Fin 2 → Nat :=
  let c0_i32_543 : BitVec 32 := 0#32
  ![v751.toNat, 0]

def k0_chk43 (v751 : BitVec 32) : Prop :=
  (∀ a, (k0_off43 v751) a + S1x64.size a ≤ S100000x64.size a)
instance k0_chk43.dec : ∀ (v751 : BitVec 32), Decidable (k0_chk43 v751) := fun v751 => decidable_of_iff' _ (Iff.of_eq (k0_chk43.eq_1 v751))
theorem k0_off43_inb : ∀ (v751 : BitVec 32) (k0_hw43 : k0_chk43 v751), ∀ a, (k0_off43 v751) a + S1x64.size a ≤ S100000x64.size a := fun v751 k0_hw43 => k0_hw43

def k0_off44 (v769 : BitVec 32) : Fin 2 → Nat :=
  let c0_i32_556 : BitVec 32 := 0#32
  ![v769.toNat, 0]

def k0_chk44 (v769 : BitVec 32) : Prop :=
  (∀ a, (k0_off44 v769) a + S1x64.size a ≤ S100000x64.size a)
instance k0_chk44.dec : ∀ (v769 : BitVec 32), Decidable (k0_chk44 v769) := fun v769 => decidable_of_iff' _ (Iff.of_eq (k0_chk44.eq_1 v769))
theorem k0_off44_inb : ∀ (v769 : BitVec 32) (k0_hw44 : k0_chk44 v769), ∀ a, (k0_off44 v769) a + S1x64.size a ≤ S100000x64.size a := fun v769 k0_hw44 => k0_hw44

def k0_off45 (v787 : BitVec 32) : Fin 2 → Nat :=
  let c0_i32_569 : BitVec 32 := 0#32
  ![v787.toNat, 0]

def k0_chk45 (v787 : BitVec 32) : Prop :=
  (∀ a, (k0_off45 v787) a + S1x64.size a ≤ S100000x64.size a)
instance k0_chk45.dec : ∀ (v787 : BitVec 32), Decidable (k0_chk45 v787) := fun v787 => decidable_of_iff' _ (Iff.of_eq (k0_chk45.eq_1 v787))
theorem k0_off45_inb : ∀ (v787 : BitVec 32) (k0_hw45 : k0_chk45 v787), ∀ a, (k0_off45 v787) a + S1x64.size a ≤ S100000x64.size a := fun v787 k0_hw45 => k0_hw45

def k0_off46 (v805 : BitVec 32) : Fin 2 → Nat :=
  let c0_i32_582 : BitVec 32 := 0#32
  ![v805.toNat, 0]

def k0_chk46 (v805 : BitVec 32) : Prop :=
  (∀ a, (k0_off46 v805) a + S1x64.size a ≤ S100000x64.size a)
instance k0_chk46.dec : ∀ (v805 : BitVec 32), Decidable (k0_chk46 v805) := fun v805 => decidable_of_iff' _ (Iff.of_eq (k0_chk46.eq_1 v805))
theorem k0_off46_inb : ∀ (v805 : BitVec 32) (k0_hw46 : k0_chk46 v805), ∀ a, (k0_off46 v805) a + S1x64.size a ≤ S100000x64.size a := fun v805 k0_hw46 => k0_hw46

def k0_off47 (v823 : BitVec 32) : Fin 2 → Nat :=
  let c0_i32_595 : BitVec 32 := 0#32
  ![v823.toNat, 0]

def k0_chk47 (v823 : BitVec 32) : Prop :=
  (∀ a, (k0_off47 v823) a + S1x64.size a ≤ S100000x64.size a)
instance k0_chk47.dec : ∀ (v823 : BitVec 32), Decidable (k0_chk47 v823) := fun v823 => decidable_of_iff' _ (Iff.of_eq (k0_chk47.eq_1 v823))
theorem k0_off47_inb : ∀ (v823 : BitVec 32) (k0_hw47 : k0_chk47 v823), ∀ a, (k0_off47 v823) a + S1x64.size a ≤ S100000x64.size a := fun v823 k0_hw47 => k0_hw47

def k0_off48 (v841 : BitVec 32) : Fin 2 → Nat :=
  let c0_i32_608 : BitVec 32 := 0#32
  ![v841.toNat, 0]

def k0_chk48 (v841 : BitVec 32) : Prop :=
  (∀ a, (k0_off48 v841) a + S1x64.size a ≤ S100000x64.size a)
instance k0_chk48.dec : ∀ (v841 : BitVec 32), Decidable (k0_chk48 v841) := fun v841 => decidable_of_iff' _ (Iff.of_eq (k0_chk48.eq_1 v841))
theorem k0_off48_inb : ∀ (v841 : BitVec 32) (k0_hw48 : k0_chk48 v841), ∀ a, (k0_off48 v841) a + S1x64.size a ≤ S100000x64.size a := fun v841 k0_hw48 => k0_hw48

def k0_off49 (v859 : BitVec 32) : Fin 2 → Nat :=
  let c0_i32_621 : BitVec 32 := 0#32
  ![v859.toNat, 0]

def k0_chk49 (v859 : BitVec 32) : Prop :=
  (∀ a, (k0_off49 v859) a + S1x64.size a ≤ S100000x64.size a)
instance k0_chk49.dec : ∀ (v859 : BitVec 32), Decidable (k0_chk49 v859) := fun v859 => decidable_of_iff' _ (Iff.of_eq (k0_chk49.eq_1 v859))
theorem k0_off49_inb : ∀ (v859 : BitVec 32) (k0_hw49 : k0_chk49 v859), ∀ a, (k0_off49 v859) a + S1x64.size a ≤ S100000x64.size a := fun v859 k0_hw49 => k0_hw49

def k0_off50 (v877 : BitVec 32) : Fin 2 → Nat :=
  let c0_i32_634 : BitVec 32 := 0#32
  ![v877.toNat, 0]

def k0_chk50 (v877 : BitVec 32) : Prop :=
  (∀ a, (k0_off50 v877) a + S1x64.size a ≤ S100000x64.size a)
instance k0_chk50.dec : ∀ (v877 : BitVec 32), Decidable (k0_chk50 v877) := fun v877 => decidable_of_iff' _ (Iff.of_eq (k0_chk50.eq_1 v877))
theorem k0_off50_inb : ∀ (v877 : BitVec 32) (k0_hw50 : k0_chk50 v877), ∀ a, (k0_off50 v877) a + S1x64.size a ≤ S100000x64.size a := fun v877 k0_hw50 => k0_hw50

def k0_off51 (v895 : BitVec 32) : Fin 2 → Nat :=
  let c0_i32_647 : BitVec 32 := 0#32
  ![v895.toNat, 0]

def k0_chk51 (v895 : BitVec 32) : Prop :=
  (∀ a, (k0_off51 v895) a + S1x64.size a ≤ S100000x64.size a)
instance k0_chk51.dec : ∀ (v895 : BitVec 32), Decidable (k0_chk51 v895) := fun v895 => decidable_of_iff' _ (Iff.of_eq (k0_chk51.eq_1 v895))
theorem k0_off51_inb : ∀ (v895 : BitVec 32) (k0_hw51 : k0_chk51 v895), ∀ a, (k0_off51 v895) a + S1x64.size a ≤ S100000x64.size a := fun v895 k0_hw51 => k0_hw51

def k0_off52 (v913 : BitVec 32) : Fin 2 → Nat :=
  let c0_i32_660 : BitVec 32 := 0#32
  ![v913.toNat, 0]

def k0_chk52 (v913 : BitVec 32) : Prop :=
  (∀ a, (k0_off52 v913) a + S1x64.size a ≤ S100000x64.size a)
instance k0_chk52.dec : ∀ (v913 : BitVec 32), Decidable (k0_chk52 v913) := fun v913 => decidable_of_iff' _ (Iff.of_eq (k0_chk52.eq_1 v913))
theorem k0_off52_inb : ∀ (v913 : BitVec 32) (k0_hw52 : k0_chk52 v913), ∀ a, (k0_off52 v913) a + S1x64.size a ≤ S100000x64.size a := fun v913 k0_hw52 => k0_hw52

def k0_off53 (v931 : BitVec 32) : Fin 2 → Nat :=
  let c0_i32_673 : BitVec 32 := 0#32
  ![v931.toNat, 0]

def k0_chk53 (v931 : BitVec 32) : Prop :=
  (∀ a, (k0_off53 v931) a + S1x64.size a ≤ S100000x64.size a)
instance k0_chk53.dec : ∀ (v931 : BitVec 32), Decidable (k0_chk53 v931) := fun v931 => decidable_of_iff' _ (Iff.of_eq (k0_chk53.eq_1 v931))
theorem k0_off53_inb : ∀ (v931 : BitVec 32) (k0_hw53 : k0_chk53 v931), ∀ a, (k0_off53 v931) a + S1x64.size a ≤ S100000x64.size a := fun v931 k0_hw53 => k0_hw53

def k0_off54 (v949 : BitVec 32) : Fin 2 → Nat :=
  let c0_i32_686 : BitVec 32 := 0#32
  ![v949.toNat, 0]

def k0_chk54 (v949 : BitVec 32) : Prop :=
  (∀ a, (k0_off54 v949) a + S1x64.size a ≤ S100000x64.size a)
instance k0_chk54.dec : ∀ (v949 : BitVec 32), Decidable (k0_chk54 v949) := fun v949 => decidable_of_iff' _ (Iff.of_eq (k0_chk54.eq_1 v949))
theorem k0_off54_inb : ∀ (v949 : BitVec 32) (k0_hw54 : k0_chk54 v949), ∀ a, (k0_off54 v949) a + S1x64.size a ≤ S100000x64.size a := fun v949 k0_hw54 => k0_hw54

def k0_off55 (v967 : BitVec 32) : Fin 2 → Nat :=
  let c0_i32_699 : BitVec 32 := 0#32
  ![v967.toNat, 0]

def k0_chk55 (v967 : BitVec 32) : Prop :=
  (∀ a, (k0_off55 v967) a + S1x64.size a ≤ S100000x64.size a)
instance k0_chk55.dec : ∀ (v967 : BitVec 32), Decidable (k0_chk55 v967) := fun v967 => decidable_of_iff' _ (Iff.of_eq (k0_chk55.eq_1 v967))
theorem k0_off55_inb : ∀ (v967 : BitVec 32) (k0_hw55 : k0_chk55 v967), ∀ a, (k0_off55 v967) a + S1x64.size a ≤ S100000x64.size a := fun v967 k0_hw55 => k0_hw55

def k0_off56 (v985 : BitVec 32) : Fin 2 → Nat :=
  let c0_i32_712 : BitVec 32 := 0#32
  ![v985.toNat, 0]

def k0_chk56 (v985 : BitVec 32) : Prop :=
  (∀ a, (k0_off56 v985) a + S1x64.size a ≤ S100000x64.size a)
instance k0_chk56.dec : ∀ (v985 : BitVec 32), Decidable (k0_chk56 v985) := fun v985 => decidable_of_iff' _ (Iff.of_eq (k0_chk56.eq_1 v985))
theorem k0_off56_inb : ∀ (v985 : BitVec 32) (k0_hw56 : k0_chk56 v985), ∀ a, (k0_off56 v985) a + S1x64.size a ≤ S100000x64.size a := fun v985 k0_hw56 => k0_hw56

def k0_off57 (v1003 : BitVec 32) : Fin 2 → Nat :=
  let c0_i32_725 : BitVec 32 := 0#32
  ![v1003.toNat, 0]

def k0_chk57 (v1003 : BitVec 32) : Prop :=
  (∀ a, (k0_off57 v1003) a + S1x64.size a ≤ S100000x64.size a)
instance k0_chk57.dec : ∀ (v1003 : BitVec 32), Decidable (k0_chk57 v1003) := fun v1003 => decidable_of_iff' _ (Iff.of_eq (k0_chk57.eq_1 v1003))
theorem k0_off57_inb : ∀ (v1003 : BitVec 32) (k0_hw57 : k0_chk57 v1003), ∀ a, (k0_off57 v1003) a + S1x64.size a ≤ S100000x64.size a := fun v1003 k0_hw57 => k0_hw57

def k0_off58 (v1021 : BitVec 32) : Fin 2 → Nat :=
  let c0_i32_738 : BitVec 32 := 0#32
  ![v1021.toNat, 0]

def k0_chk58 (v1021 : BitVec 32) : Prop :=
  (∀ a, (k0_off58 v1021) a + S1x64.size a ≤ S100000x64.size a)
instance k0_chk58.dec : ∀ (v1021 : BitVec 32), Decidable (k0_chk58 v1021) := fun v1021 => decidable_of_iff' _ (Iff.of_eq (k0_chk58.eq_1 v1021))
theorem k0_off58_inb : ∀ (v1021 : BitVec 32) (k0_hw58 : k0_chk58 v1021), ∀ a, (k0_off58 v1021) a + S1x64.size a ≤ S100000x64.size a := fun v1021 k0_hw58 => k0_hw58

def k0_off59 (v1039 : BitVec 32) : Fin 2 → Nat :=
  let c0_i32_751 : BitVec 32 := 0#32
  ![v1039.toNat, 0]

def k0_chk59 (v1039 : BitVec 32) : Prop :=
  (∀ a, (k0_off59 v1039) a + S1x64.size a ≤ S100000x64.size a)
instance k0_chk59.dec : ∀ (v1039 : BitVec 32), Decidable (k0_chk59 v1039) := fun v1039 => decidable_of_iff' _ (Iff.of_eq (k0_chk59.eq_1 v1039))
theorem k0_off59_inb : ∀ (v1039 : BitVec 32) (k0_hw59 : k0_chk59 v1039), ∀ a, (k0_off59 v1039) a + S1x64.size a ≤ S100000x64.size a := fun v1039 k0_hw59 => k0_hw59

def k0_off60 (v1057 : BitVec 32) : Fin 2 → Nat :=
  let c0_i32_764 : BitVec 32 := 0#32
  ![v1057.toNat, 0]

def k0_chk60 (v1057 : BitVec 32) : Prop :=
  (∀ a, (k0_off60 v1057) a + S1x64.size a ≤ S100000x64.size a)
instance k0_chk60.dec : ∀ (v1057 : BitVec 32), Decidable (k0_chk60 v1057) := fun v1057 => decidable_of_iff' _ (Iff.of_eq (k0_chk60.eq_1 v1057))
theorem k0_off60_inb : ∀ (v1057 : BitVec 32) (k0_hw60 : k0_chk60 v1057), ∀ a, (k0_off60 v1057) a + S1x64.size a ≤ S100000x64.size a := fun v1057 k0_hw60 => k0_hw60

def k0_off61 (v1075 : BitVec 32) : Fin 2 → Nat :=
  let c0_i32_777 : BitVec 32 := 0#32
  ![v1075.toNat, 0]

def k0_chk61 (v1075 : BitVec 32) : Prop :=
  (∀ a, (k0_off61 v1075) a + S1x64.size a ≤ S100000x64.size a)
instance k0_chk61.dec : ∀ (v1075 : BitVec 32), Decidable (k0_chk61 v1075) := fun v1075 => decidable_of_iff' _ (Iff.of_eq (k0_chk61.eq_1 v1075))
theorem k0_off61_inb : ∀ (v1075 : BitVec 32) (k0_hw61 : k0_chk61 v1075), ∀ a, (k0_off61 v1075) a + S1x64.size a ≤ S100000x64.size a := fun v1075 k0_hw61 => k0_hw61

def k0_off62 (v1093 : BitVec 32) : Fin 2 → Nat :=
  let c0_i32_790 : BitVec 32 := 0#32
  ![v1093.toNat, 0]

def k0_chk62 (v1093 : BitVec 32) : Prop :=
  (∀ a, (k0_off62 v1093) a + S1x64.size a ≤ S100000x64.size a)
instance k0_chk62.dec : ∀ (v1093 : BitVec 32), Decidable (k0_chk62 v1093) := fun v1093 => decidable_of_iff' _ (Iff.of_eq (k0_chk62.eq_1 v1093))
theorem k0_off62_inb : ∀ (v1093 : BitVec 32) (k0_hw62 : k0_chk62 v1093), ∀ a, (k0_off62 v1093) a + S1x64.size a ≤ S100000x64.size a := fun v1093 k0_hw62 => k0_hw62

def k0_off63 (v1111 : BitVec 32) : Fin 2 → Nat :=
  let c0_i32_803 : BitVec 32 := 0#32
  ![v1111.toNat, 0]

def k0_chk63 (v1111 : BitVec 32) : Prop :=
  (∀ a, (k0_off63 v1111) a + S1x64.size a ≤ S100000x64.size a)
instance k0_chk63.dec : ∀ (v1111 : BitVec 32), Decidable (k0_chk63 v1111) := fun v1111 => decidable_of_iff' _ (Iff.of_eq (k0_chk63.eq_1 v1111))
theorem k0_off63_inb : ∀ (v1111 : BitVec 32) (k0_hw63 : k0_chk63 v1111), ∀ a, (k0_off63 v1111) a + S1x64.size a ≤ S100000x64.size a := fun v1111 k0_hw63 => k0_hw63

def k0_off64 (v1129 : BitVec 32) : Fin 2 → Nat :=
  let c0_i32_816 : BitVec 32 := 0#32
  ![v1129.toNat, 0]

def k0_chk64 (v1129 : BitVec 32) : Prop :=
  (∀ a, (k0_off64 v1129) a + S1x64.size a ≤ S100000x64.size a)
instance k0_chk64.dec : ∀ (v1129 : BitVec 32), Decidable (k0_chk64 v1129) := fun v1129 => decidable_of_iff' _ (Iff.of_eq (k0_chk64.eq_1 v1129))
theorem k0_off64_inb : ∀ (v1129 : BitVec 32) (k0_hw64 : k0_chk64 v1129), ∀ a, (k0_off64 v1129) a + S1x64.size a ≤ S100000x64.size a := fun v1129 k0_hw64 => k0_hw64

def k0_off65 (v1147 : BitVec 32) : Fin 2 → Nat :=
  let c0_i32_829 : BitVec 32 := 0#32
  ![v1147.toNat, 0]

def k0_chk65 (v1147 : BitVec 32) : Prop :=
  (∀ a, (k0_off65 v1147) a + S1x64.size a ≤ S100000x64.size a)
instance k0_chk65.dec : ∀ (v1147 : BitVec 32), Decidable (k0_chk65 v1147) := fun v1147 => decidable_of_iff' _ (Iff.of_eq (k0_chk65.eq_1 v1147))
theorem k0_off65_inb : ∀ (v1147 : BitVec 32) (k0_hw65 : k0_chk65 v1147), ∀ a, (k0_off65 v1147) a + S1x64.size a ≤ S100000x64.size a := fun v1147 k0_hw65 => k0_hw65

def k0_off66 (v1165 : BitVec 32) : Fin 2 → Nat :=
  let c0_i32_842 : BitVec 32 := 0#32
  ![v1165.toNat, 0]

def k0_chk66 (v1165 : BitVec 32) : Prop :=
  (∀ a, (k0_off66 v1165) a + S1x64.size a ≤ S100000x64.size a)
instance k0_chk66.dec : ∀ (v1165 : BitVec 32), Decidable (k0_chk66 v1165) := fun v1165 => decidable_of_iff' _ (Iff.of_eq (k0_chk66.eq_1 v1165))
theorem k0_off66_inb : ∀ (v1165 : BitVec 32) (k0_hw66 : k0_chk66 v1165), ∀ a, (k0_off66 v1165) a + S1x64.size a ≤ S100000x64.size a := fun v1165 k0_hw66 => k0_hw66

def k0_off67 (v1183 : BitVec 32) : Fin 2 → Nat :=
  let c0_i32_855 : BitVec 32 := 0#32
  ![v1183.toNat, 0]

def k0_chk67 (v1183 : BitVec 32) : Prop :=
  (∀ a, (k0_off67 v1183) a + S1x64.size a ≤ S100000x64.size a)
instance k0_chk67.dec : ∀ (v1183 : BitVec 32), Decidable (k0_chk67 v1183) := fun v1183 => decidable_of_iff' _ (Iff.of_eq (k0_chk67.eq_1 v1183))
theorem k0_off67_inb : ∀ (v1183 : BitVec 32) (k0_hw67 : k0_chk67 v1183), ∀ a, (k0_off67 v1183) a + S1x64.size a ≤ S100000x64.size a := fun v1183 k0_hw67 => k0_hw67

def k0_off68 (v1201 : BitVec 32) : Fin 2 → Nat :=
  let c0_i32_868 : BitVec 32 := 0#32
  ![v1201.toNat, 0]

def k0_chk68 (v1201 : BitVec 32) : Prop :=
  (∀ a, (k0_off68 v1201) a + S1x64.size a ≤ S100000x64.size a)
instance k0_chk68.dec : ∀ (v1201 : BitVec 32), Decidable (k0_chk68 v1201) := fun v1201 => decidable_of_iff' _ (Iff.of_eq (k0_chk68.eq_1 v1201))
theorem k0_off68_inb : ∀ (v1201 : BitVec 32) (k0_hw68 : k0_chk68 v1201), ∀ a, (k0_off68 v1201) a + S1x64.size a ≤ S100000x64.size a := fun v1201 k0_hw68 => k0_hw68

def k0_off69 (v1219 : BitVec 32) : Fin 2 → Nat :=
  let c0_i32_881 : BitVec 32 := 0#32
  ![v1219.toNat, 0]

def k0_chk69 (v1219 : BitVec 32) : Prop :=
  (∀ a, (k0_off69 v1219) a + S1x64.size a ≤ S100000x64.size a)
instance k0_chk69.dec : ∀ (v1219 : BitVec 32), Decidable (k0_chk69 v1219) := fun v1219 => decidable_of_iff' _ (Iff.of_eq (k0_chk69.eq_1 v1219))
theorem k0_off69_inb : ∀ (v1219 : BitVec 32) (k0_hw69 : k0_chk69 v1219), ∀ a, (k0_off69 v1219) a + S1x64.size a ≤ S100000x64.size a := fun v1219 k0_hw69 => k0_hw69

def k0_off70 (v1237 : BitVec 32) : Fin 2 → Nat :=
  let c0_i32_894 : BitVec 32 := 0#32
  ![v1237.toNat, 0]

def k0_chk70 (v1237 : BitVec 32) : Prop :=
  (∀ a, (k0_off70 v1237) a + S1x64.size a ≤ S100000x64.size a)
instance k0_chk70.dec : ∀ (v1237 : BitVec 32), Decidable (k0_chk70 v1237) := fun v1237 => decidable_of_iff' _ (Iff.of_eq (k0_chk70.eq_1 v1237))
theorem k0_off70_inb : ∀ (v1237 : BitVec 32) (k0_hw70 : k0_chk70 v1237), ∀ a, (k0_off70 v1237) a + S1x64.size a ≤ S100000x64.size a := fun v1237 k0_hw70 => k0_hw70

def k0_off71 (v1255 : BitVec 32) : Fin 2 → Nat :=
  let c0_i32_907 : BitVec 32 := 0#32
  ![v1255.toNat, 0]

def k0_chk71 (v1255 : BitVec 32) : Prop :=
  (∀ a, (k0_off71 v1255) a + S1x64.size a ≤ S100000x64.size a)
instance k0_chk71.dec : ∀ (v1255 : BitVec 32), Decidable (k0_chk71 v1255) := fun v1255 => decidable_of_iff' _ (Iff.of_eq (k0_chk71.eq_1 v1255))
theorem k0_off71_inb : ∀ (v1255 : BitVec 32) (k0_hw71 : k0_chk71 v1255), ∀ a, (k0_off71 v1255) a + S1x64.size a ≤ S100000x64.size a := fun v1255 k0_hw71 => k0_hw71

def k0_off72 (v1273 : BitVec 32) : Fin 2 → Nat :=
  let c0_i32_920 : BitVec 32 := 0#32
  ![v1273.toNat, 0]

def k0_chk72 (v1273 : BitVec 32) : Prop :=
  (∀ a, (k0_off72 v1273) a + S1x64.size a ≤ S100000x64.size a)
instance k0_chk72.dec : ∀ (v1273 : BitVec 32), Decidable (k0_chk72 v1273) := fun v1273 => decidable_of_iff' _ (Iff.of_eq (k0_chk72.eq_1 v1273))
theorem k0_off72_inb : ∀ (v1273 : BitVec 32) (k0_hw72 : k0_chk72 v1273), ∀ a, (k0_off72 v1273) a + S1x64.size a ≤ S100000x64.size a := fun v1273 k0_hw72 => k0_hw72

def k0_off73 (v1291 : BitVec 32) : Fin 2 → Nat :=
  let c0_i32_933 : BitVec 32 := 0#32
  ![v1291.toNat, 0]

def k0_chk73 (v1291 : BitVec 32) : Prop :=
  (∀ a, (k0_off73 v1291) a + S1x64.size a ≤ S100000x64.size a)
instance k0_chk73.dec : ∀ (v1291 : BitVec 32), Decidable (k0_chk73 v1291) := fun v1291 => decidable_of_iff' _ (Iff.of_eq (k0_chk73.eq_1 v1291))
theorem k0_off73_inb : ∀ (v1291 : BitVec 32) (k0_hw73 : k0_chk73 v1291), ∀ a, (k0_off73 v1291) a + S1x64.size a ≤ S100000x64.size a := fun v1291 k0_hw73 => k0_hw73

def k0_off74 (v1309 : BitVec 32) : Fin 2 → Nat :=
  let c0_i32_946 : BitVec 32 := 0#32
  ![v1309.toNat, 0]

def k0_chk74 (v1309 : BitVec 32) : Prop :=
  (∀ a, (k0_off74 v1309) a + S1x64.size a ≤ S100000x64.size a)
instance k0_chk74.dec : ∀ (v1309 : BitVec 32), Decidable (k0_chk74 v1309) := fun v1309 => decidable_of_iff' _ (Iff.of_eq (k0_chk74.eq_1 v1309))
theorem k0_off74_inb : ∀ (v1309 : BitVec 32) (k0_hw74 : k0_chk74 v1309), ∀ a, (k0_off74 v1309) a + S1x64.size a ≤ S100000x64.size a := fun v1309 k0_hw74 => k0_hw74

def k0_off75 (v1327 : BitVec 32) : Fin 2 → Nat :=
  let c0_i32_959 : BitVec 32 := 0#32
  ![v1327.toNat, 0]

def k0_chk75 (v1327 : BitVec 32) : Prop :=
  (∀ a, (k0_off75 v1327) a + S1x64.size a ≤ S100000x64.size a)
instance k0_chk75.dec : ∀ (v1327 : BitVec 32), Decidable (k0_chk75 v1327) := fun v1327 => decidable_of_iff' _ (Iff.of_eq (k0_chk75.eq_1 v1327))
theorem k0_off75_inb : ∀ (v1327 : BitVec 32) (k0_hw75 : k0_chk75 v1327), ∀ a, (k0_off75 v1327) a + S1x64.size a ≤ S100000x64.size a := fun v1327 k0_hw75 => k0_hw75

def k0_off76 (v1345 : BitVec 32) : Fin 2 → Nat :=
  let c0_i32_972 : BitVec 32 := 0#32
  ![v1345.toNat, 0]

def k0_chk76 (v1345 : BitVec 32) : Prop :=
  (∀ a, (k0_off76 v1345) a + S1x64.size a ≤ S100000x64.size a)
instance k0_chk76.dec : ∀ (v1345 : BitVec 32), Decidable (k0_chk76 v1345) := fun v1345 => decidable_of_iff' _ (Iff.of_eq (k0_chk76.eq_1 v1345))
theorem k0_off76_inb : ∀ (v1345 : BitVec 32) (k0_hw76 : k0_chk76 v1345), ∀ a, (k0_off76 v1345) a + S1x64.size a ≤ S100000x64.size a := fun v1345 k0_hw76 => k0_hw76

def k0_off77 (v1363 : BitVec 32) : Fin 2 → Nat :=
  let c0_i32_985 : BitVec 32 := 0#32
  ![v1363.toNat, 0]

def k0_chk77 (v1363 : BitVec 32) : Prop :=
  (∀ a, (k0_off77 v1363) a + S1x64.size a ≤ S100000x64.size a)
instance k0_chk77.dec : ∀ (v1363 : BitVec 32), Decidable (k0_chk77 v1363) := fun v1363 => decidable_of_iff' _ (Iff.of_eq (k0_chk77.eq_1 v1363))
theorem k0_off77_inb : ∀ (v1363 : BitVec 32) (k0_hw77 : k0_chk77 v1363), ∀ a, (k0_off77 v1363) a + S1x64.size a ≤ S100000x64.size a := fun v1363 k0_hw77 => k0_hw77

def k0_off78 (v1381 : BitVec 32) : Fin 2 → Nat :=
  let c0_i32_998 : BitVec 32 := 0#32
  ![v1381.toNat, 0]

def k0_chk78 (v1381 : BitVec 32) : Prop :=
  (∀ a, (k0_off78 v1381) a + S1x64.size a ≤ S100000x64.size a)
instance k0_chk78.dec : ∀ (v1381 : BitVec 32), Decidable (k0_chk78 v1381) := fun v1381 => decidable_of_iff' _ (Iff.of_eq (k0_chk78.eq_1 v1381))
theorem k0_off78_inb : ∀ (v1381 : BitVec 32) (k0_hw78 : k0_chk78 v1381), ∀ a, (k0_off78 v1381) a + S1x64.size a ≤ S100000x64.size a := fun v1381 k0_hw78 => k0_hw78

def k0_off79 (v1399 : BitVec 32) : Fin 2 → Nat :=
  let c0_i32_1011 : BitVec 32 := 0#32
  ![v1399.toNat, 0]

def k0_chk79 (v1399 : BitVec 32) : Prop :=
  (∀ a, (k0_off79 v1399) a + S1x64.size a ≤ S100000x64.size a)
instance k0_chk79.dec : ∀ (v1399 : BitVec 32), Decidable (k0_chk79 v1399) := fun v1399 => decidable_of_iff' _ (Iff.of_eq (k0_chk79.eq_1 v1399))
theorem k0_off79_inb : ∀ (v1399 : BitVec 32) (k0_hw79 : k0_chk79 v1399), ∀ a, (k0_off79 v1399) a + S1x64.size a ≤ S100000x64.size a := fun v1399 k0_hw79 => k0_hw79

def k0_off80 (v1417 : BitVec 32) : Fin 2 → Nat :=
  let c0_i32_1024 : BitVec 32 := 0#32
  ![v1417.toNat, 0]

def k0_chk80 (v1417 : BitVec 32) : Prop :=
  (∀ a, (k0_off80 v1417) a + S1x64.size a ≤ S100000x64.size a)
instance k0_chk80.dec : ∀ (v1417 : BitVec 32), Decidable (k0_chk80 v1417) := fun v1417 => decidable_of_iff' _ (Iff.of_eq (k0_chk80.eq_1 v1417))
theorem k0_off80_inb : ∀ (v1417 : BitVec 32) (k0_hw80 : k0_chk80 v1417), ∀ a, (k0_off80 v1417) a + S1x64.size a ≤ S100000x64.size a := fun v1417 k0_hw80 => k0_hw80

def k0_off81 (v1435 : BitVec 32) : Fin 2 → Nat :=
  let c0_i32_1037 : BitVec 32 := 0#32
  ![v1435.toNat, 0]

def k0_chk81 (v1435 : BitVec 32) : Prop :=
  (∀ a, (k0_off81 v1435) a + S1x64.size a ≤ S100000x64.size a)
instance k0_chk81.dec : ∀ (v1435 : BitVec 32), Decidable (k0_chk81 v1435) := fun v1435 => decidable_of_iff' _ (Iff.of_eq (k0_chk81.eq_1 v1435))
theorem k0_off81_inb : ∀ (v1435 : BitVec 32) (k0_hw81 : k0_chk81 v1435), ∀ a, (k0_off81 v1435) a + S1x64.size a ≤ S100000x64.size a := fun v1435 k0_hw81 => k0_hw81

def k0_off82 (v1453 : BitVec 32) : Fin 2 → Nat :=
  let c0_i32_1050 : BitVec 32 := 0#32
  ![v1453.toNat, 0]

def k0_chk82 (v1453 : BitVec 32) : Prop :=
  (∀ a, (k0_off82 v1453) a + S1x64.size a ≤ S100000x64.size a)
instance k0_chk82.dec : ∀ (v1453 : BitVec 32), Decidable (k0_chk82 v1453) := fun v1453 => decidable_of_iff' _ (Iff.of_eq (k0_chk82.eq_1 v1453))
theorem k0_off82_inb : ∀ (v1453 : BitVec 32) (k0_hw82 : k0_chk82 v1453), ∀ a, (k0_off82 v1453) a + S1x64.size a ≤ S100000x64.size a := fun v1453 k0_hw82 => k0_hw82

def k0_off83 (v1471 : BitVec 32) : Fin 2 → Nat :=
  let c0_i32_1063 : BitVec 32 := 0#32
  ![v1471.toNat, 0]

def k0_chk83 (v1471 : BitVec 32) : Prop :=
  (∀ a, (k0_off83 v1471) a + S1x64.size a ≤ S100000x64.size a)
instance k0_chk83.dec : ∀ (v1471 : BitVec 32), Decidable (k0_chk83 v1471) := fun v1471 => decidable_of_iff' _ (Iff.of_eq (k0_chk83.eq_1 v1471))
theorem k0_off83_inb : ∀ (v1471 : BitVec 32) (k0_hw83 : k0_chk83 v1471), ∀ a, (k0_off83 v1471) a + S1x64.size a ≤ S100000x64.size a := fun v1471 k0_hw83 => k0_hw83

def k0_off84 (v1489 : BitVec 32) : Fin 2 → Nat :=
  let c0_i32_1076 : BitVec 32 := 0#32
  ![v1489.toNat, 0]

def k0_chk84 (v1489 : BitVec 32) : Prop :=
  (∀ a, (k0_off84 v1489) a + S1x64.size a ≤ S100000x64.size a)
instance k0_chk84.dec : ∀ (v1489 : BitVec 32), Decidable (k0_chk84 v1489) := fun v1489 => decidable_of_iff' _ (Iff.of_eq (k0_chk84.eq_1 v1489))
theorem k0_off84_inb : ∀ (v1489 : BitVec 32) (k0_hw84 : k0_chk84 v1489), ∀ a, (k0_off84 v1489) a + S1x64.size a ≤ S100000x64.size a := fun v1489 k0_hw84 => k0_hw84

def k0_off85 (v1507 : BitVec 32) : Fin 2 → Nat :=
  let c0_i32_1089 : BitVec 32 := 0#32
  ![v1507.toNat, 0]

def k0_chk85 (v1507 : BitVec 32) : Prop :=
  (∀ a, (k0_off85 v1507) a + S1x64.size a ≤ S100000x64.size a)
instance k0_chk85.dec : ∀ (v1507 : BitVec 32), Decidable (k0_chk85 v1507) := fun v1507 => decidable_of_iff' _ (Iff.of_eq (k0_chk85.eq_1 v1507))
theorem k0_off85_inb : ∀ (v1507 : BitVec 32) (k0_hw85 : k0_chk85 v1507), ∀ a, (k0_off85 v1507) a + S1x64.size a ≤ S100000x64.size a := fun v1507 k0_hw85 => k0_hw85

def k0_off86 (v1525 : BitVec 32) : Fin 2 → Nat :=
  let c0_i32_1102 : BitVec 32 := 0#32
  ![v1525.toNat, 0]

def k0_chk86 (v1525 : BitVec 32) : Prop :=
  (∀ a, (k0_off86 v1525) a + S1x64.size a ≤ S100000x64.size a)
instance k0_chk86.dec : ∀ (v1525 : BitVec 32), Decidable (k0_chk86 v1525) := fun v1525 => decidable_of_iff' _ (Iff.of_eq (k0_chk86.eq_1 v1525))
theorem k0_off86_inb : ∀ (v1525 : BitVec 32) (k0_hw86 : k0_chk86 v1525), ∀ a, (k0_off86 v1525) a + S1x64.size a ≤ S100000x64.size a := fun v1525 k0_hw86 => k0_hw86

def k0_off87 (v1543 : BitVec 32) : Fin 2 → Nat :=
  let c0_i32_1115 : BitVec 32 := 0#32
  ![v1543.toNat, 0]

def k0_chk87 (v1543 : BitVec 32) : Prop :=
  (∀ a, (k0_off87 v1543) a + S1x64.size a ≤ S100000x64.size a)
instance k0_chk87.dec : ∀ (v1543 : BitVec 32), Decidable (k0_chk87 v1543) := fun v1543 => decidable_of_iff' _ (Iff.of_eq (k0_chk87.eq_1 v1543))
theorem k0_off87_inb : ∀ (v1543 : BitVec 32) (k0_hw87 : k0_chk87 v1543), ∀ a, (k0_off87 v1543) a + S1x64.size a ≤ S100000x64.size a := fun v1543 k0_hw87 => k0_hw87

def k0_off88 (v1561 : BitVec 32) : Fin 2 → Nat :=
  let c0_i32_1128 : BitVec 32 := 0#32
  ![v1561.toNat, 0]

def k0_chk88 (v1561 : BitVec 32) : Prop :=
  (∀ a, (k0_off88 v1561) a + S1x64.size a ≤ S100000x64.size a)
instance k0_chk88.dec : ∀ (v1561 : BitVec 32), Decidable (k0_chk88 v1561) := fun v1561 => decidable_of_iff' _ (Iff.of_eq (k0_chk88.eq_1 v1561))
theorem k0_off88_inb : ∀ (v1561 : BitVec 32) (k0_hw88 : k0_chk88 v1561), ∀ a, (k0_off88 v1561) a + S1x64.size a ≤ S100000x64.size a := fun v1561 k0_hw88 => k0_hw88

def k0_off89 (v1579 : BitVec 32) : Fin 2 → Nat :=
  let c0_i32_1141 : BitVec 32 := 0#32
  ![v1579.toNat, 0]

def k0_chk89 (v1579 : BitVec 32) : Prop :=
  (∀ a, (k0_off89 v1579) a + S1x64.size a ≤ S100000x64.size a)
instance k0_chk89.dec : ∀ (v1579 : BitVec 32), Decidable (k0_chk89 v1579) := fun v1579 => decidable_of_iff' _ (Iff.of_eq (k0_chk89.eq_1 v1579))
theorem k0_off89_inb : ∀ (v1579 : BitVec 32) (k0_hw89 : k0_chk89 v1579), ∀ a, (k0_off89 v1579) a + S1x64.size a ≤ S100000x64.size a := fun v1579 k0_hw89 => k0_hw89

def k0_off90 (v1597 : BitVec 32) : Fin 2 → Nat :=
  let c0_i32_1154 : BitVec 32 := 0#32
  ![v1597.toNat, 0]

def k0_chk90 (v1597 : BitVec 32) : Prop :=
  (∀ a, (k0_off90 v1597) a + S1x64.size a ≤ S100000x64.size a)
instance k0_chk90.dec : ∀ (v1597 : BitVec 32), Decidable (k0_chk90 v1597) := fun v1597 => decidable_of_iff' _ (Iff.of_eq (k0_chk90.eq_1 v1597))
theorem k0_off90_inb : ∀ (v1597 : BitVec 32) (k0_hw90 : k0_chk90 v1597), ∀ a, (k0_off90 v1597) a + S1x64.size a ≤ S100000x64.size a := fun v1597 k0_hw90 => k0_hw90

def k0_off91 (v1615 : BitVec 32) : Fin 2 → Nat :=
  let c0_i32_1167 : BitVec 32 := 0#32
  ![v1615.toNat, 0]

def k0_chk91 (v1615 : BitVec 32) : Prop :=
  (∀ a, (k0_off91 v1615) a + S1x64.size a ≤ S100000x64.size a)
instance k0_chk91.dec : ∀ (v1615 : BitVec 32), Decidable (k0_chk91 v1615) := fun v1615 => decidable_of_iff' _ (Iff.of_eq (k0_chk91.eq_1 v1615))
theorem k0_off91_inb : ∀ (v1615 : BitVec 32) (k0_hw91 : k0_chk91 v1615), ∀ a, (k0_off91 v1615) a + S1x64.size a ≤ S100000x64.size a := fun v1615 k0_hw91 => k0_hw91

def k0_off92 (v1633 : BitVec 32) : Fin 2 → Nat :=
  let c0_i32_1180 : BitVec 32 := 0#32
  ![v1633.toNat, 0]

def k0_chk92 (v1633 : BitVec 32) : Prop :=
  (∀ a, (k0_off92 v1633) a + S1x64.size a ≤ S100000x64.size a)
instance k0_chk92.dec : ∀ (v1633 : BitVec 32), Decidable (k0_chk92 v1633) := fun v1633 => decidable_of_iff' _ (Iff.of_eq (k0_chk92.eq_1 v1633))
theorem k0_off92_inb : ∀ (v1633 : BitVec 32) (k0_hw92 : k0_chk92 v1633), ∀ a, (k0_off92 v1633) a + S1x64.size a ≤ S100000x64.size a := fun v1633 k0_hw92 => k0_hw92

def k0_off93 (v1651 : BitVec 32) : Fin 2 → Nat :=
  let c0_i32_1193 : BitVec 32 := 0#32
  ![v1651.toNat, 0]

def k0_chk93 (v1651 : BitVec 32) : Prop :=
  (∀ a, (k0_off93 v1651) a + S1x64.size a ≤ S100000x64.size a)
instance k0_chk93.dec : ∀ (v1651 : BitVec 32), Decidable (k0_chk93 v1651) := fun v1651 => decidable_of_iff' _ (Iff.of_eq (k0_chk93.eq_1 v1651))
theorem k0_off93_inb : ∀ (v1651 : BitVec 32) (k0_hw93 : k0_chk93 v1651), ∀ a, (k0_off93 v1651) a + S1x64.size a ≤ S100000x64.size a := fun v1651 k0_hw93 => k0_hw93

def k0_off94 (v1669 : BitVec 32) : Fin 2 → Nat :=
  let c0_i32_1206 : BitVec 32 := 0#32
  ![v1669.toNat, 0]

def k0_chk94 (v1669 : BitVec 32) : Prop :=
  (∀ a, (k0_off94 v1669) a + S1x64.size a ≤ S100000x64.size a)
instance k0_chk94.dec : ∀ (v1669 : BitVec 32), Decidable (k0_chk94 v1669) := fun v1669 => decidable_of_iff' _ (Iff.of_eq (k0_chk94.eq_1 v1669))
theorem k0_off94_inb : ∀ (v1669 : BitVec 32) (k0_hw94 : k0_chk94 v1669), ∀ a, (k0_off94 v1669) a + S1x64.size a ≤ S100000x64.size a := fun v1669 k0_hw94 => k0_hw94

def k0_off95 (v1687 : BitVec 32) : Fin 2 → Nat :=
  let c0_i32_1219 : BitVec 32 := 0#32
  ![v1687.toNat, 0]

def k0_chk95 (v1687 : BitVec 32) : Prop :=
  (∀ a, (k0_off95 v1687) a + S1x64.size a ≤ S100000x64.size a)
instance k0_chk95.dec : ∀ (v1687 : BitVec 32), Decidable (k0_chk95 v1687) := fun v1687 => decidable_of_iff' _ (Iff.of_eq (k0_chk95.eq_1 v1687))
theorem k0_off95_inb : ∀ (v1687 : BitVec 32) (k0_hw95 : k0_chk95 v1687), ∀ a, (k0_off95 v1687) a + S1x64.size a ≤ S100000x64.size a := fun v1687 k0_hw95 => k0_hw95

def k0_off96 (v1705 : BitVec 32) : Fin 2 → Nat :=
  let c0_i32_1232 : BitVec 32 := 0#32
  ![v1705.toNat, 0]

def k0_chk96 (v1705 : BitVec 32) : Prop :=
  (∀ a, (k0_off96 v1705) a + S1x64.size a ≤ S100000x64.size a)
instance k0_chk96.dec : ∀ (v1705 : BitVec 32), Decidable (k0_chk96 v1705) := fun v1705 => decidable_of_iff' _ (Iff.of_eq (k0_chk96.eq_1 v1705))
theorem k0_off96_inb : ∀ (v1705 : BitVec 32) (k0_hw96 : k0_chk96 v1705), ∀ a, (k0_off96 v1705) a + S1x64.size a ≤ S100000x64.size a := fun v1705 k0_hw96 => k0_hw96

def k0_off97 (v1723 : BitVec 32) : Fin 2 → Nat :=
  let c0_i32_1245 : BitVec 32 := 0#32
  ![v1723.toNat, 0]

def k0_chk97 (v1723 : BitVec 32) : Prop :=
  (∀ a, (k0_off97 v1723) a + S1x64.size a ≤ S100000x64.size a)
instance k0_chk97.dec : ∀ (v1723 : BitVec 32), Decidable (k0_chk97 v1723) := fun v1723 => decidable_of_iff' _ (Iff.of_eq (k0_chk97.eq_1 v1723))
theorem k0_off97_inb : ∀ (v1723 : BitVec 32) (k0_hw97 : k0_chk97 v1723), ∀ a, (k0_off97 v1723) a + S1x64.size a ≤ S100000x64.size a := fun v1723 k0_hw97 => k0_hw97

def k0_off98 (v1741 : BitVec 32) : Fin 2 → Nat :=
  let c0_i32_1258 : BitVec 32 := 0#32
  ![v1741.toNat, 0]

def k0_chk98 (v1741 : BitVec 32) : Prop :=
  (∀ a, (k0_off98 v1741) a + S1x64.size a ≤ S100000x64.size a)
instance k0_chk98.dec : ∀ (v1741 : BitVec 32), Decidable (k0_chk98 v1741) := fun v1741 => decidable_of_iff' _ (Iff.of_eq (k0_chk98.eq_1 v1741))
theorem k0_off98_inb : ∀ (v1741 : BitVec 32) (k0_hw98 : k0_chk98 v1741), ∀ a, (k0_off98 v1741) a + S1x64.size a ≤ S100000x64.size a := fun v1741 k0_hw98 => k0_hw98

def k0_off99 (v1759 : BitVec 32) : Fin 2 → Nat :=
  let c0_i32_1271 : BitVec 32 := 0#32
  ![v1759.toNat, 0]

def k0_chk99 (v1759 : BitVec 32) : Prop :=
  (∀ a, (k0_off99 v1759) a + S1x64.size a ≤ S100000x64.size a)
instance k0_chk99.dec : ∀ (v1759 : BitVec 32), Decidable (k0_chk99 v1759) := fun v1759 => decidable_of_iff' _ (Iff.of_eq (k0_chk99.eq_1 v1759))
theorem k0_off99_inb : ∀ (v1759 : BitVec 32) (k0_hw99 : k0_chk99 v1759), ∀ a, (k0_off99 v1759) a + S1x64.size a ≤ S100000x64.size a := fun v1759 k0_hw99 => k0_hw99

def k0_off100 (v1777 : BitVec 32) : Fin 2 → Nat :=
  let c0_i32_1284 : BitVec 32 := 0#32
  ![v1777.toNat, 0]

def k0_chk100 (v1777 : BitVec 32) : Prop :=
  (∀ a, (k0_off100 v1777) a + S1x64.size a ≤ S100000x64.size a)
instance k0_chk100.dec : ∀ (v1777 : BitVec 32), Decidable (k0_chk100 v1777) := fun v1777 => decidable_of_iff' _ (Iff.of_eq (k0_chk100.eq_1 v1777))
theorem k0_off100_inb : ∀ (v1777 : BitVec 32) (k0_hw100 : k0_chk100 v1777), ∀ a, (k0_off100 v1777) a + S1x64.size a ≤ S100000x64.size a := fun v1777 k0_hw100 => k0_hw100

def k0_off101 (v1795 : BitVec 32) : Fin 2 → Nat :=
  let c0_i32_1297 : BitVec 32 := 0#32
  ![v1795.toNat, 0]

def k0_chk101 (v1795 : BitVec 32) : Prop :=
  (∀ a, (k0_off101 v1795) a + S1x64.size a ≤ S100000x64.size a)
instance k0_chk101.dec : ∀ (v1795 : BitVec 32), Decidable (k0_chk101 v1795) := fun v1795 => decidable_of_iff' _ (Iff.of_eq (k0_chk101.eq_1 v1795))
theorem k0_off101_inb : ∀ (v1795 : BitVec 32) (k0_hw101 : k0_chk101 v1795), ∀ a, (k0_off101 v1795) a + S1x64.size a ≤ S100000x64.size a := fun v1795 k0_hw101 => k0_hw101

def k0_off102 (v1813 : BitVec 32) : Fin 2 → Nat :=
  let c0_i32_1310 : BitVec 32 := 0#32
  ![v1813.toNat, 0]

def k0_chk102 (v1813 : BitVec 32) : Prop :=
  (∀ a, (k0_off102 v1813) a + S1x64.size a ≤ S100000x64.size a)
instance k0_chk102.dec : ∀ (v1813 : BitVec 32), Decidable (k0_chk102 v1813) := fun v1813 => decidable_of_iff' _ (Iff.of_eq (k0_chk102.eq_1 v1813))
theorem k0_off102_inb : ∀ (v1813 : BitVec 32) (k0_hw102 : k0_chk102 v1813), ∀ a, (k0_off102 v1813) a + S1x64.size a ≤ S100000x64.size a := fun v1813 k0_hw102 => k0_hw102

def k0_off103 (v1831 : BitVec 32) : Fin 2 → Nat :=
  let c0_i32_1323 : BitVec 32 := 0#32
  ![v1831.toNat, 0]

def k0_chk103 (v1831 : BitVec 32) : Prop :=
  (∀ a, (k0_off103 v1831) a + S1x64.size a ≤ S100000x64.size a)
instance k0_chk103.dec : ∀ (v1831 : BitVec 32), Decidable (k0_chk103 v1831) := fun v1831 => decidable_of_iff' _ (Iff.of_eq (k0_chk103.eq_1 v1831))
theorem k0_off103_inb : ∀ (v1831 : BitVec 32) (k0_hw103 : k0_chk103 v1831), ∀ a, (k0_off103 v1831) a + S1x64.size a ≤ S100000x64.size a := fun v1831 k0_hw103 => k0_hw103

def k0_off104 (v1849 : BitVec 32) : Fin 2 → Nat :=
  let c0_i32_1336 : BitVec 32 := 0#32
  ![v1849.toNat, 0]

def k0_chk104 (v1849 : BitVec 32) : Prop :=
  (∀ a, (k0_off104 v1849) a + S1x64.size a ≤ S100000x64.size a)
instance k0_chk104.dec : ∀ (v1849 : BitVec 32), Decidable (k0_chk104 v1849) := fun v1849 => decidable_of_iff' _ (Iff.of_eq (k0_chk104.eq_1 v1849))
theorem k0_off104_inb : ∀ (v1849 : BitVec 32) (k0_hw104 : k0_chk104 v1849), ∀ a, (k0_off104 v1849) a + S1x64.size a ≤ S100000x64.size a := fun v1849 k0_hw104 => k0_hw104

def k0_off105 (v1867 : BitVec 32) : Fin 2 → Nat :=
  let c0_i32_1349 : BitVec 32 := 0#32
  ![v1867.toNat, 0]

def k0_chk105 (v1867 : BitVec 32) : Prop :=
  (∀ a, (k0_off105 v1867) a + S1x64.size a ≤ S100000x64.size a)
instance k0_chk105.dec : ∀ (v1867 : BitVec 32), Decidable (k0_chk105 v1867) := fun v1867 => decidable_of_iff' _ (Iff.of_eq (k0_chk105.eq_1 v1867))
theorem k0_off105_inb : ∀ (v1867 : BitVec 32) (k0_hw105 : k0_chk105 v1867), ∀ a, (k0_off105 v1867) a + S1x64.size a ≤ S100000x64.size a := fun v1867 k0_hw105 => k0_hw105

def k0_off106 (v1885 : BitVec 32) : Fin 2 → Nat :=
  let c0_i32_1362 : BitVec 32 := 0#32
  ![v1885.toNat, 0]

def k0_chk106 (v1885 : BitVec 32) : Prop :=
  (∀ a, (k0_off106 v1885) a + S1x64.size a ≤ S100000x64.size a)
instance k0_chk106.dec : ∀ (v1885 : BitVec 32), Decidable (k0_chk106 v1885) := fun v1885 => decidable_of_iff' _ (Iff.of_eq (k0_chk106.eq_1 v1885))
theorem k0_off106_inb : ∀ (v1885 : BitVec 32) (k0_hw106 : k0_chk106 v1885), ∀ a, (k0_off106 v1885) a + S1x64.size a ≤ S100000x64.size a := fun v1885 k0_hw106 => k0_hw106

def k0_off107 (v1903 : BitVec 32) : Fin 2 → Nat :=
  let c0_i32_1375 : BitVec 32 := 0#32
  ![v1903.toNat, 0]

def k0_chk107 (v1903 : BitVec 32) : Prop :=
  (∀ a, (k0_off107 v1903) a + S1x64.size a ≤ S100000x64.size a)
instance k0_chk107.dec : ∀ (v1903 : BitVec 32), Decidable (k0_chk107 v1903) := fun v1903 => decidable_of_iff' _ (Iff.of_eq (k0_chk107.eq_1 v1903))
theorem k0_off107_inb : ∀ (v1903 : BitVec 32) (k0_hw107 : k0_chk107 v1903), ∀ a, (k0_off107 v1903) a + S1x64.size a ≤ S100000x64.size a := fun v1903 k0_hw107 => k0_hw107

def k0_off108 (v1921 : BitVec 32) : Fin 2 → Nat :=
  let c0_i32_1388 : BitVec 32 := 0#32
  ![v1921.toNat, 0]

def k0_chk108 (v1921 : BitVec 32) : Prop :=
  (∀ a, (k0_off108 v1921) a + S1x64.size a ≤ S100000x64.size a)
instance k0_chk108.dec : ∀ (v1921 : BitVec 32), Decidable (k0_chk108 v1921) := fun v1921 => decidable_of_iff' _ (Iff.of_eq (k0_chk108.eq_1 v1921))
theorem k0_off108_inb : ∀ (v1921 : BitVec 32) (k0_hw108 : k0_chk108 v1921), ∀ a, (k0_off108 v1921) a + S1x64.size a ≤ S100000x64.size a := fun v1921 k0_hw108 => k0_hw108

def k0_off109 (v1939 : BitVec 32) : Fin 2 → Nat :=
  let c0_i32_1401 : BitVec 32 := 0#32
  ![v1939.toNat, 0]

def k0_chk109 (v1939 : BitVec 32) : Prop :=
  (∀ a, (k0_off109 v1939) a + S1x64.size a ≤ S100000x64.size a)
instance k0_chk109.dec : ∀ (v1939 : BitVec 32), Decidable (k0_chk109 v1939) := fun v1939 => decidable_of_iff' _ (Iff.of_eq (k0_chk109.eq_1 v1939))
theorem k0_off109_inb : ∀ (v1939 : BitVec 32) (k0_hw109 : k0_chk109 v1939), ∀ a, (k0_off109 v1939) a + S1x64.size a ≤ S100000x64.size a := fun v1939 k0_hw109 => k0_hw109

def k0_off110 (v1957 : BitVec 32) : Fin 2 → Nat :=
  let c0_i32_1414 : BitVec 32 := 0#32
  ![v1957.toNat, 0]

def k0_chk110 (v1957 : BitVec 32) : Prop :=
  (∀ a, (k0_off110 v1957) a + S1x64.size a ≤ S100000x64.size a)
instance k0_chk110.dec : ∀ (v1957 : BitVec 32), Decidable (k0_chk110 v1957) := fun v1957 => decidable_of_iff' _ (Iff.of_eq (k0_chk110.eq_1 v1957))
theorem k0_off110_inb : ∀ (v1957 : BitVec 32) (k0_hw110 : k0_chk110 v1957), ∀ a, (k0_off110 v1957) a + S1x64.size a ≤ S100000x64.size a := fun v1957 k0_hw110 => k0_hw110

def k0_off111 (v1975 : BitVec 32) : Fin 2 → Nat :=
  let c0_i32_1427 : BitVec 32 := 0#32
  ![v1975.toNat, 0]

def k0_chk111 (v1975 : BitVec 32) : Prop :=
  (∀ a, (k0_off111 v1975) a + S1x64.size a ≤ S100000x64.size a)
instance k0_chk111.dec : ∀ (v1975 : BitVec 32), Decidable (k0_chk111 v1975) := fun v1975 => decidable_of_iff' _ (Iff.of_eq (k0_chk111.eq_1 v1975))
theorem k0_off111_inb : ∀ (v1975 : BitVec 32) (k0_hw111 : k0_chk111 v1975), ∀ a, (k0_off111 v1975) a + S1x64.size a ≤ S100000x64.size a := fun v1975 k0_hw111 => k0_hw111

def k0_off112 (v1993 : BitVec 32) : Fin 2 → Nat :=
  let c0_i32_1440 : BitVec 32 := 0#32
  ![v1993.toNat, 0]

def k0_chk112 (v1993 : BitVec 32) : Prop :=
  (∀ a, (k0_off112 v1993) a + S1x64.size a ≤ S100000x64.size a)
instance k0_chk112.dec : ∀ (v1993 : BitVec 32), Decidable (k0_chk112 v1993) := fun v1993 => decidable_of_iff' _ (Iff.of_eq (k0_chk112.eq_1 v1993))
theorem k0_off112_inb : ∀ (v1993 : BitVec 32) (k0_hw112 : k0_chk112 v1993), ∀ a, (k0_off112 v1993) a + S1x64.size a ≤ S100000x64.size a := fun v1993 k0_hw112 => k0_hw112

def k0_off113 (v2011 : BitVec 32) : Fin 2 → Nat :=
  let c0_i32_1453 : BitVec 32 := 0#32
  ![v2011.toNat, 0]

def k0_chk113 (v2011 : BitVec 32) : Prop :=
  (∀ a, (k0_off113 v2011) a + S1x64.size a ≤ S100000x64.size a)
instance k0_chk113.dec : ∀ (v2011 : BitVec 32), Decidable (k0_chk113 v2011) := fun v2011 => decidable_of_iff' _ (Iff.of_eq (k0_chk113.eq_1 v2011))
theorem k0_off113_inb : ∀ (v2011 : BitVec 32) (k0_hw113 : k0_chk113 v2011), ∀ a, (k0_off113 v2011) a + S1x64.size a ≤ S100000x64.size a := fun v2011 k0_hw113 => k0_hw113

def k0_off114 (v2029 : BitVec 32) : Fin 2 → Nat :=
  let c0_i32_1466 : BitVec 32 := 0#32
  ![v2029.toNat, 0]

def k0_chk114 (v2029 : BitVec 32) : Prop :=
  (∀ a, (k0_off114 v2029) a + S1x64.size a ≤ S100000x64.size a)
instance k0_chk114.dec : ∀ (v2029 : BitVec 32), Decidable (k0_chk114 v2029) := fun v2029 => decidable_of_iff' _ (Iff.of_eq (k0_chk114.eq_1 v2029))
theorem k0_off114_inb : ∀ (v2029 : BitVec 32) (k0_hw114 : k0_chk114 v2029), ∀ a, (k0_off114 v2029) a + S1x64.size a ≤ S100000x64.size a := fun v2029 k0_hw114 => k0_hw114

def k0_off115 (v2047 : BitVec 32) : Fin 2 → Nat :=
  let c0_i32_1479 : BitVec 32 := 0#32
  ![v2047.toNat, 0]

def k0_chk115 (v2047 : BitVec 32) : Prop :=
  (∀ a, (k0_off115 v2047) a + S1x64.size a ≤ S100000x64.size a)
instance k0_chk115.dec : ∀ (v2047 : BitVec 32), Decidable (k0_chk115 v2047) := fun v2047 => decidable_of_iff' _ (Iff.of_eq (k0_chk115.eq_1 v2047))
theorem k0_off115_inb : ∀ (v2047 : BitVec 32) (k0_hw115 : k0_chk115 v2047), ∀ a, (k0_off115 v2047) a + S1x64.size a ≤ S100000x64.size a := fun v2047 k0_hw115 => k0_hw115

def k0_off116 (v2065 : BitVec 32) : Fin 2 → Nat :=
  let c0_i32_1492 : BitVec 32 := 0#32
  ![v2065.toNat, 0]

def k0_chk116 (v2065 : BitVec 32) : Prop :=
  (∀ a, (k0_off116 v2065) a + S1x64.size a ≤ S100000x64.size a)
instance k0_chk116.dec : ∀ (v2065 : BitVec 32), Decidable (k0_chk116 v2065) := fun v2065 => decidable_of_iff' _ (Iff.of_eq (k0_chk116.eq_1 v2065))
theorem k0_off116_inb : ∀ (v2065 : BitVec 32) (k0_hw116 : k0_chk116 v2065), ∀ a, (k0_off116 v2065) a + S1x64.size a ≤ S100000x64.size a := fun v2065 k0_hw116 => k0_hw116

def k0_off117 (v2083 : BitVec 32) : Fin 2 → Nat :=
  let c0_i32_1505 : BitVec 32 := 0#32
  ![v2083.toNat, 0]

def k0_chk117 (v2083 : BitVec 32) : Prop :=
  (∀ a, (k0_off117 v2083) a + S1x64.size a ≤ S100000x64.size a)
instance k0_chk117.dec : ∀ (v2083 : BitVec 32), Decidable (k0_chk117 v2083) := fun v2083 => decidable_of_iff' _ (Iff.of_eq (k0_chk117.eq_1 v2083))
theorem k0_off117_inb : ∀ (v2083 : BitVec 32) (k0_hw117 : k0_chk117 v2083), ∀ a, (k0_off117 v2083) a + S1x64.size a ≤ S100000x64.size a := fun v2083 k0_hw117 => k0_hw117

def k0_off118 (v2101 : BitVec 32) : Fin 2 → Nat :=
  let c0_i32_1518 : BitVec 32 := 0#32
  ![v2101.toNat, 0]

def k0_chk118 (v2101 : BitVec 32) : Prop :=
  (∀ a, (k0_off118 v2101) a + S1x64.size a ≤ S100000x64.size a)
instance k0_chk118.dec : ∀ (v2101 : BitVec 32), Decidable (k0_chk118 v2101) := fun v2101 => decidable_of_iff' _ (Iff.of_eq (k0_chk118.eq_1 v2101))
theorem k0_off118_inb : ∀ (v2101 : BitVec 32) (k0_hw118 : k0_chk118 v2101), ∀ a, (k0_off118 v2101) a + S1x64.size a ≤ S100000x64.size a := fun v2101 k0_hw118 => k0_hw118

def k0_off119 (v2119 : BitVec 32) : Fin 2 → Nat :=
  let c0_i32_1531 : BitVec 32 := 0#32
  ![v2119.toNat, 0]

def k0_chk119 (v2119 : BitVec 32) : Prop :=
  (∀ a, (k0_off119 v2119) a + S1x64.size a ≤ S100000x64.size a)
instance k0_chk119.dec : ∀ (v2119 : BitVec 32), Decidable (k0_chk119 v2119) := fun v2119 => decidable_of_iff' _ (Iff.of_eq (k0_chk119.eq_1 v2119))
theorem k0_off119_inb : ∀ (v2119 : BitVec 32) (k0_hw119 : k0_chk119 v2119), ∀ a, (k0_off119 v2119) a + S1x64.size a ≤ S100000x64.size a := fun v2119 k0_hw119 => k0_hw119

def k0_off120 (v2137 : BitVec 32) : Fin 2 → Nat :=
  let c0_i32_1544 : BitVec 32 := 0#32
  ![v2137.toNat, 0]

def k0_chk120 (v2137 : BitVec 32) : Prop :=
  (∀ a, (k0_off120 v2137) a + S1x64.size a ≤ S100000x64.size a)
instance k0_chk120.dec : ∀ (v2137 : BitVec 32), Decidable (k0_chk120 v2137) := fun v2137 => decidable_of_iff' _ (Iff.of_eq (k0_chk120.eq_1 v2137))
theorem k0_off120_inb : ∀ (v2137 : BitVec 32) (k0_hw120 : k0_chk120 v2137), ∀ a, (k0_off120 v2137) a + S1x64.size a ≤ S100000x64.size a := fun v2137 k0_hw120 => k0_hw120

def k0_off121 (v2155 : BitVec 32) : Fin 2 → Nat :=
  let c0_i32_1557 : BitVec 32 := 0#32
  ![v2155.toNat, 0]

def k0_chk121 (v2155 : BitVec 32) : Prop :=
  (∀ a, (k0_off121 v2155) a + S1x64.size a ≤ S100000x64.size a)
instance k0_chk121.dec : ∀ (v2155 : BitVec 32), Decidable (k0_chk121 v2155) := fun v2155 => decidable_of_iff' _ (Iff.of_eq (k0_chk121.eq_1 v2155))
theorem k0_off121_inb : ∀ (v2155 : BitVec 32) (k0_hw121 : k0_chk121 v2155), ∀ a, (k0_off121 v2155) a + S1x64.size a ≤ S100000x64.size a := fun v2155 k0_hw121 => k0_hw121

def k0_off122 (v2173 : BitVec 32) : Fin 2 → Nat :=
  let c0_i32_1570 : BitVec 32 := 0#32
  ![v2173.toNat, 0]

def k0_chk122 (v2173 : BitVec 32) : Prop :=
  (∀ a, (k0_off122 v2173) a + S1x64.size a ≤ S100000x64.size a)
instance k0_chk122.dec : ∀ (v2173 : BitVec 32), Decidable (k0_chk122 v2173) := fun v2173 => decidable_of_iff' _ (Iff.of_eq (k0_chk122.eq_1 v2173))
theorem k0_off122_inb : ∀ (v2173 : BitVec 32) (k0_hw122 : k0_chk122 v2173), ∀ a, (k0_off122 v2173) a + S1x64.size a ≤ S100000x64.size a := fun v2173 k0_hw122 => k0_hw122

def k0_off123 (v2191 : BitVec 32) : Fin 2 → Nat :=
  let c0_i32_1583 : BitVec 32 := 0#32
  ![v2191.toNat, 0]

def k0_chk123 (v2191 : BitVec 32) : Prop :=
  (∀ a, (k0_off123 v2191) a + S1x64.size a ≤ S100000x64.size a)
instance k0_chk123.dec : ∀ (v2191 : BitVec 32), Decidable (k0_chk123 v2191) := fun v2191 => decidable_of_iff' _ (Iff.of_eq (k0_chk123.eq_1 v2191))
theorem k0_off123_inb : ∀ (v2191 : BitVec 32) (k0_hw123 : k0_chk123 v2191), ∀ a, (k0_off123 v2191) a + S1x64.size a ≤ S100000x64.size a := fun v2191 k0_hw123 => k0_hw123

def k0_off124 (v2209 : BitVec 32) : Fin 2 → Nat :=
  let c0_i32_1596 : BitVec 32 := 0#32
  ![v2209.toNat, 0]

def k0_chk124 (v2209 : BitVec 32) : Prop :=
  (∀ a, (k0_off124 v2209) a + S1x64.size a ≤ S100000x64.size a)
instance k0_chk124.dec : ∀ (v2209 : BitVec 32), Decidable (k0_chk124 v2209) := fun v2209 => decidable_of_iff' _ (Iff.of_eq (k0_chk124.eq_1 v2209))
theorem k0_off124_inb : ∀ (v2209 : BitVec 32) (k0_hw124 : k0_chk124 v2209), ∀ a, (k0_off124 v2209) a + S1x64.size a ≤ S100000x64.size a := fun v2209 k0_hw124 => k0_hw124

def k0_off125 (v2227 : BitVec 32) : Fin 2 → Nat :=
  let c0_i32_1609 : BitVec 32 := 0#32
  ![v2227.toNat, 0]

def k0_chk125 (v2227 : BitVec 32) : Prop :=
  (∀ a, (k0_off125 v2227) a + S1x64.size a ≤ S100000x64.size a)
instance k0_chk125.dec : ∀ (v2227 : BitVec 32), Decidable (k0_chk125 v2227) := fun v2227 => decidable_of_iff' _ (Iff.of_eq (k0_chk125.eq_1 v2227))
theorem k0_off125_inb : ∀ (v2227 : BitVec 32) (k0_hw125 : k0_chk125 v2227), ∀ a, (k0_off125 v2227) a + S1x64.size a ≤ S100000x64.size a := fun v2227 k0_hw125 => k0_hw125

def k0_off126 (v2245 : BitVec 32) : Fin 2 → Nat :=
  let c0_i32_1622 : BitVec 32 := 0#32
  ![v2245.toNat, 0]

def k0_chk126 (v2245 : BitVec 32) : Prop :=
  (∀ a, (k0_off126 v2245) a + S1x64.size a ≤ S100000x64.size a)
instance k0_chk126.dec : ∀ (v2245 : BitVec 32), Decidable (k0_chk126 v2245) := fun v2245 => decidable_of_iff' _ (Iff.of_eq (k0_chk126.eq_1 v2245))
theorem k0_off126_inb : ∀ (v2245 : BitVec 32) (k0_hw126 : k0_chk126 v2245), ∀ a, (k0_off126 v2245) a + S1x64.size a ≤ S100000x64.size a := fun v2245 k0_hw126 => k0_hw126

def k0_off127 (v2263 : BitVec 32) : Fin 2 → Nat :=
  let c0_i32_1635 : BitVec 32 := 0#32
  ![v2263.toNat, 0]

def k0_chk127 (v2263 : BitVec 32) : Prop :=
  (∀ a, (k0_off127 v2263) a + S1x64.size a ≤ S100000x64.size a)
instance k0_chk127.dec : ∀ (v2263 : BitVec 32), Decidable (k0_chk127 v2263) := fun v2263 => decidable_of_iff' _ (Iff.of_eq (k0_chk127.eq_1 v2263))
theorem k0_off127_inb : ∀ (v2263 : BitVec 32) (k0_hw127 : k0_chk127 v2263), ∀ a, (k0_off127 v2263) a + S1x64.size a ≤ S100000x64.size a := fun v2263 k0_hw127 => k0_hw127

def k0_off128 (v2281 : BitVec 32) : Fin 2 → Nat :=
  let c0_i32_1648 : BitVec 32 := 0#32
  ![v2281.toNat, 0]

def k0_chk128 (v2281 : BitVec 32) : Prop :=
  (∀ a, (k0_off128 v2281) a + S1x64.size a ≤ S100000x64.size a)
instance k0_chk128.dec : ∀ (v2281 : BitVec 32), Decidable (k0_chk128 v2281) := fun v2281 => decidable_of_iff' _ (Iff.of_eq (k0_chk128.eq_1 v2281))
theorem k0_off128_inb : ∀ (v2281 : BitVec 32) (k0_hw128 : k0_chk128 v2281), ∀ a, (k0_off128 v2281) a + S1x64.size a ≤ S100000x64.size a := fun v2281 k0_hw128 => k0_hw128

def cc0_transform_0 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![12500], ![false]⟩

def k1_off1 (v0 : BitVec 32) : Fin 2 → Nat :=
  let c0_i32_2 : BitVec 32 := 0#32
  ![v0.toNat, 0]

def k1_chk1 (v0 : BitVec 32) : Prop :=
  (∀ a, (k1_off1 v0) a + S1x64.size a ≤ S100000x64.size a)
instance k1_chk1.dec : ∀ (v0 : BitVec 32), Decidable (k1_chk1 v0) := fun v0 => decidable_of_iff' _ (Iff.of_eq (k1_chk1.eq_1 v0))
theorem k1_off1_inb : ∀ (v0 : BitVec 32) (k1_hw1 : k1_chk1 v0), ∀ a, (k1_off1 v0) a + S1x64.size a ≤ S100000x64.size a := fun v0 k1_hw1 => k1_hw1

def k1_off2 (v13 : BitVec 32) : Fin 2 → Nat :=
  let c0_i32_10 : BitVec 32 := 0#32
  ![v13.toNat, 0]

def k1_chk2 (v13 : BitVec 32) : Prop :=
  (∀ a, (k1_off2 v13) a + S1x64.size a ≤ S100000x64.size a)
instance k1_chk2.dec : ∀ (v13 : BitVec 32), Decidable (k1_chk2 v13) := fun v13 => decidable_of_iff' _ (Iff.of_eq (k1_chk2.eq_1 v13))
theorem k1_off2_inb : ∀ (v13 : BitVec 32) (k1_hw2 : k1_chk2 v13), ∀ a, (k1_off2 v13) a + S1x64.size a ≤ S100000x64.size a := fun v13 k1_hw2 => k1_hw2

def k1_off3 (v31 : BitVec 32) : Fin 2 → Nat :=
  let c0_i32_23 : BitVec 32 := 0#32
  ![v31.toNat, 0]

def k1_chk3 (v31 : BitVec 32) : Prop :=
  (∀ a, (k1_off3 v31) a + S1x64.size a ≤ S100000x64.size a)
instance k1_chk3.dec : ∀ (v31 : BitVec 32), Decidable (k1_chk3 v31) := fun v31 => decidable_of_iff' _ (Iff.of_eq (k1_chk3.eq_1 v31))
theorem k1_off3_inb : ∀ (v31 : BitVec 32) (k1_hw3 : k1_chk3 v31), ∀ a, (k1_off3 v31) a + S1x64.size a ≤ S100000x64.size a := fun v31 k1_hw3 => k1_hw3

def k1_off4 (v49 : BitVec 32) : Fin 2 → Nat :=
  let c0_i32_36 : BitVec 32 := 0#32
  ![v49.toNat, 0]

def k1_chk4 (v49 : BitVec 32) : Prop :=
  (∀ a, (k1_off4 v49) a + S1x64.size a ≤ S100000x64.size a)
instance k1_chk4.dec : ∀ (v49 : BitVec 32), Decidable (k1_chk4 v49) := fun v49 => decidable_of_iff' _ (Iff.of_eq (k1_chk4.eq_1 v49))
theorem k1_off4_inb : ∀ (v49 : BitVec 32) (k1_hw4 : k1_chk4 v49), ∀ a, (k1_off4 v49) a + S1x64.size a ≤ S100000x64.size a := fun v49 k1_hw4 => k1_hw4

def k1_off5 (v67 : BitVec 32) : Fin 2 → Nat :=
  let c0_i32_49 : BitVec 32 := 0#32
  ![v67.toNat, 0]

def k1_chk5 (v67 : BitVec 32) : Prop :=
  (∀ a, (k1_off5 v67) a + S1x64.size a ≤ S100000x64.size a)
instance k1_chk5.dec : ∀ (v67 : BitVec 32), Decidable (k1_chk5 v67) := fun v67 => decidable_of_iff' _ (Iff.of_eq (k1_chk5.eq_1 v67))
theorem k1_off5_inb : ∀ (v67 : BitVec 32) (k1_hw5 : k1_chk5 v67), ∀ a, (k1_off5 v67) a + S1x64.size a ≤ S100000x64.size a := fun v67 k1_hw5 => k1_hw5

def k1_off6 (v85 : BitVec 32) : Fin 2 → Nat :=
  let c0_i32_62 : BitVec 32 := 0#32
  ![v85.toNat, 0]

def k1_chk6 (v85 : BitVec 32) : Prop :=
  (∀ a, (k1_off6 v85) a + S1x64.size a ≤ S100000x64.size a)
instance k1_chk6.dec : ∀ (v85 : BitVec 32), Decidable (k1_chk6 v85) := fun v85 => decidable_of_iff' _ (Iff.of_eq (k1_chk6.eq_1 v85))
theorem k1_off6_inb : ∀ (v85 : BitVec 32) (k1_hw6 : k1_chk6 v85), ∀ a, (k1_off6 v85) a + S1x64.size a ≤ S100000x64.size a := fun v85 k1_hw6 => k1_hw6

def k1_off7 (v103 : BitVec 32) : Fin 2 → Nat :=
  let c0_i32_75 : BitVec 32 := 0#32
  ![v103.toNat, 0]

def k1_chk7 (v103 : BitVec 32) : Prop :=
  (∀ a, (k1_off7 v103) a + S1x64.size a ≤ S100000x64.size a)
instance k1_chk7.dec : ∀ (v103 : BitVec 32), Decidable (k1_chk7 v103) := fun v103 => decidable_of_iff' _ (Iff.of_eq (k1_chk7.eq_1 v103))
theorem k1_off7_inb : ∀ (v103 : BitVec 32) (k1_hw7 : k1_chk7 v103), ∀ a, (k1_off7 v103) a + S1x64.size a ≤ S100000x64.size a := fun v103 k1_hw7 => k1_hw7

def k1_off8 (v121 : BitVec 32) : Fin 2 → Nat :=
  let c0_i32_88 : BitVec 32 := 0#32
  ![v121.toNat, 0]

def k1_chk8 (v121 : BitVec 32) : Prop :=
  (∀ a, (k1_off8 v121) a + S1x64.size a ≤ S100000x64.size a)
instance k1_chk8.dec : ∀ (v121 : BitVec 32), Decidable (k1_chk8 v121) := fun v121 => decidable_of_iff' _ (Iff.of_eq (k1_chk8.eq_1 v121))
theorem k1_off8_inb : ∀ (v121 : BitVec 32) (k1_hw8 : k1_chk8 v121), ∀ a, (k1_off8 v121) a + S1x64.size a ≤ S100000x64.size a := fun v121 k1_hw8 => k1_hw8

def k1_off9 (v139 : BitVec 32) : Fin 2 → Nat :=
  let c0_i32_101 : BitVec 32 := 0#32
  ![v139.toNat, 0]

def k1_chk9 (v139 : BitVec 32) : Prop :=
  (∀ a, (k1_off9 v139) a + S1x64.size a ≤ S100000x64.size a)
instance k1_chk9.dec : ∀ (v139 : BitVec 32), Decidable (k1_chk9 v139) := fun v139 => decidable_of_iff' _ (Iff.of_eq (k1_chk9.eq_1 v139))
theorem k1_off9_inb : ∀ (v139 : BitVec 32) (k1_hw9 : k1_chk9 v139), ∀ a, (k1_off9 v139) a + S1x64.size a ≤ S100000x64.size a := fun v139 k1_hw9 => k1_hw9

def k1_off10 (v157 : BitVec 32) : Fin 2 → Nat :=
  let c0_i32_114 : BitVec 32 := 0#32
  ![v157.toNat, 0]

def k1_chk10 (v157 : BitVec 32) : Prop :=
  (∀ a, (k1_off10 v157) a + S1x64.size a ≤ S100000x64.size a)
instance k1_chk10.dec : ∀ (v157 : BitVec 32), Decidable (k1_chk10 v157) := fun v157 => decidable_of_iff' _ (Iff.of_eq (k1_chk10.eq_1 v157))
theorem k1_off10_inb : ∀ (v157 : BitVec 32) (k1_hw10 : k1_chk10 v157), ∀ a, (k1_off10 v157) a + S1x64.size a ≤ S100000x64.size a := fun v157 k1_hw10 => k1_hw10

def k1_off11 (v175 : BitVec 32) : Fin 2 → Nat :=
  let c0_i32_127 : BitVec 32 := 0#32
  ![v175.toNat, 0]

def k1_chk11 (v175 : BitVec 32) : Prop :=
  (∀ a, (k1_off11 v175) a + S1x64.size a ≤ S100000x64.size a)
instance k1_chk11.dec : ∀ (v175 : BitVec 32), Decidable (k1_chk11 v175) := fun v175 => decidable_of_iff' _ (Iff.of_eq (k1_chk11.eq_1 v175))
theorem k1_off11_inb : ∀ (v175 : BitVec 32) (k1_hw11 : k1_chk11 v175), ∀ a, (k1_off11 v175) a + S1x64.size a ≤ S100000x64.size a := fun v175 k1_hw11 => k1_hw11

def k1_off12 (v193 : BitVec 32) : Fin 2 → Nat :=
  let c0_i32_140 : BitVec 32 := 0#32
  ![v193.toNat, 0]

def k1_chk12 (v193 : BitVec 32) : Prop :=
  (∀ a, (k1_off12 v193) a + S1x64.size a ≤ S100000x64.size a)
instance k1_chk12.dec : ∀ (v193 : BitVec 32), Decidable (k1_chk12 v193) := fun v193 => decidable_of_iff' _ (Iff.of_eq (k1_chk12.eq_1 v193))
theorem k1_off12_inb : ∀ (v193 : BitVec 32) (k1_hw12 : k1_chk12 v193), ∀ a, (k1_off12 v193) a + S1x64.size a ≤ S100000x64.size a := fun v193 k1_hw12 => k1_hw12

def k1_off13 (v211 : BitVec 32) : Fin 2 → Nat :=
  let c0_i32_153 : BitVec 32 := 0#32
  ![v211.toNat, 0]

def k1_chk13 (v211 : BitVec 32) : Prop :=
  (∀ a, (k1_off13 v211) a + S1x64.size a ≤ S100000x64.size a)
instance k1_chk13.dec : ∀ (v211 : BitVec 32), Decidable (k1_chk13 v211) := fun v211 => decidable_of_iff' _ (Iff.of_eq (k1_chk13.eq_1 v211))
theorem k1_off13_inb : ∀ (v211 : BitVec 32) (k1_hw13 : k1_chk13 v211), ∀ a, (k1_off13 v211) a + S1x64.size a ≤ S100000x64.size a := fun v211 k1_hw13 => k1_hw13

def k1_off14 (v229 : BitVec 32) : Fin 2 → Nat :=
  let c0_i32_166 : BitVec 32 := 0#32
  ![v229.toNat, 0]

def k1_chk14 (v229 : BitVec 32) : Prop :=
  (∀ a, (k1_off14 v229) a + S1x64.size a ≤ S100000x64.size a)
instance k1_chk14.dec : ∀ (v229 : BitVec 32), Decidable (k1_chk14 v229) := fun v229 => decidable_of_iff' _ (Iff.of_eq (k1_chk14.eq_1 v229))
theorem k1_off14_inb : ∀ (v229 : BitVec 32) (k1_hw14 : k1_chk14 v229), ∀ a, (k1_off14 v229) a + S1x64.size a ≤ S100000x64.size a := fun v229 k1_hw14 => k1_hw14

def k1_off15 (v247 : BitVec 32) : Fin 2 → Nat :=
  let c0_i32_179 : BitVec 32 := 0#32
  ![v247.toNat, 0]

def k1_chk15 (v247 : BitVec 32) : Prop :=
  (∀ a, (k1_off15 v247) a + S1x64.size a ≤ S100000x64.size a)
instance k1_chk15.dec : ∀ (v247 : BitVec 32), Decidable (k1_chk15 v247) := fun v247 => decidable_of_iff' _ (Iff.of_eq (k1_chk15.eq_1 v247))
theorem k1_off15_inb : ∀ (v247 : BitVec 32) (k1_hw15 : k1_chk15 v247), ∀ a, (k1_off15 v247) a + S1x64.size a ≤ S100000x64.size a := fun v247 k1_hw15 => k1_hw15

def k1_off16 (v265 : BitVec 32) : Fin 2 → Nat :=
  let c0_i32_192 : BitVec 32 := 0#32
  ![v265.toNat, 0]

def k1_chk16 (v265 : BitVec 32) : Prop :=
  (∀ a, (k1_off16 v265) a + S1x64.size a ≤ S100000x64.size a)
instance k1_chk16.dec : ∀ (v265 : BitVec 32), Decidable (k1_chk16 v265) := fun v265 => decidable_of_iff' _ (Iff.of_eq (k1_chk16.eq_1 v265))
theorem k1_off16_inb : ∀ (v265 : BitVec 32) (k1_hw16 : k1_chk16 v265), ∀ a, (k1_off16 v265) a + S1x64.size a ≤ S100000x64.size a := fun v265 k1_hw16 => k1_hw16

def k1_off17 (v283 : BitVec 32) : Fin 2 → Nat :=
  let c0_i32_205 : BitVec 32 := 0#32
  ![v283.toNat, 0]

def k1_chk17 (v283 : BitVec 32) : Prop :=
  (∀ a, (k1_off17 v283) a + S1x64.size a ≤ S100000x64.size a)
instance k1_chk17.dec : ∀ (v283 : BitVec 32), Decidable (k1_chk17 v283) := fun v283 => decidable_of_iff' _ (Iff.of_eq (k1_chk17.eq_1 v283))
theorem k1_off17_inb : ∀ (v283 : BitVec 32) (k1_hw17 : k1_chk17 v283), ∀ a, (k1_off17 v283) a + S1x64.size a ≤ S100000x64.size a := fun v283 k1_hw17 => k1_hw17

def k1_off18 (v301 : BitVec 32) : Fin 2 → Nat :=
  let c0_i32_218 : BitVec 32 := 0#32
  ![v301.toNat, 0]

def k1_chk18 (v301 : BitVec 32) : Prop :=
  (∀ a, (k1_off18 v301) a + S1x64.size a ≤ S100000x64.size a)
instance k1_chk18.dec : ∀ (v301 : BitVec 32), Decidable (k1_chk18 v301) := fun v301 => decidable_of_iff' _ (Iff.of_eq (k1_chk18.eq_1 v301))
theorem k1_off18_inb : ∀ (v301 : BitVec 32) (k1_hw18 : k1_chk18 v301), ∀ a, (k1_off18 v301) a + S1x64.size a ≤ S100000x64.size a := fun v301 k1_hw18 => k1_hw18

def k1_off19 (v319 : BitVec 32) : Fin 2 → Nat :=
  let c0_i32_231 : BitVec 32 := 0#32
  ![v319.toNat, 0]

def k1_chk19 (v319 : BitVec 32) : Prop :=
  (∀ a, (k1_off19 v319) a + S1x64.size a ≤ S100000x64.size a)
instance k1_chk19.dec : ∀ (v319 : BitVec 32), Decidable (k1_chk19 v319) := fun v319 => decidable_of_iff' _ (Iff.of_eq (k1_chk19.eq_1 v319))
theorem k1_off19_inb : ∀ (v319 : BitVec 32) (k1_hw19 : k1_chk19 v319), ∀ a, (k1_off19 v319) a + S1x64.size a ≤ S100000x64.size a := fun v319 k1_hw19 => k1_hw19

def k1_off20 (v337 : BitVec 32) : Fin 2 → Nat :=
  let c0_i32_244 : BitVec 32 := 0#32
  ![v337.toNat, 0]

def k1_chk20 (v337 : BitVec 32) : Prop :=
  (∀ a, (k1_off20 v337) a + S1x64.size a ≤ S100000x64.size a)
instance k1_chk20.dec : ∀ (v337 : BitVec 32), Decidable (k1_chk20 v337) := fun v337 => decidable_of_iff' _ (Iff.of_eq (k1_chk20.eq_1 v337))
theorem k1_off20_inb : ∀ (v337 : BitVec 32) (k1_hw20 : k1_chk20 v337), ∀ a, (k1_off20 v337) a + S1x64.size a ≤ S100000x64.size a := fun v337 k1_hw20 => k1_hw20

def k1_off21 (v355 : BitVec 32) : Fin 2 → Nat :=
  let c0_i32_257 : BitVec 32 := 0#32
  ![v355.toNat, 0]

def k1_chk21 (v355 : BitVec 32) : Prop :=
  (∀ a, (k1_off21 v355) a + S1x64.size a ≤ S100000x64.size a)
instance k1_chk21.dec : ∀ (v355 : BitVec 32), Decidable (k1_chk21 v355) := fun v355 => decidable_of_iff' _ (Iff.of_eq (k1_chk21.eq_1 v355))
theorem k1_off21_inb : ∀ (v355 : BitVec 32) (k1_hw21 : k1_chk21 v355), ∀ a, (k1_off21 v355) a + S1x64.size a ≤ S100000x64.size a := fun v355 k1_hw21 => k1_hw21

def k1_off22 (v373 : BitVec 32) : Fin 2 → Nat :=
  let c0_i32_270 : BitVec 32 := 0#32
  ![v373.toNat, 0]

def k1_chk22 (v373 : BitVec 32) : Prop :=
  (∀ a, (k1_off22 v373) a + S1x64.size a ≤ S100000x64.size a)
instance k1_chk22.dec : ∀ (v373 : BitVec 32), Decidable (k1_chk22 v373) := fun v373 => decidable_of_iff' _ (Iff.of_eq (k1_chk22.eq_1 v373))
theorem k1_off22_inb : ∀ (v373 : BitVec 32) (k1_hw22 : k1_chk22 v373), ∀ a, (k1_off22 v373) a + S1x64.size a ≤ S100000x64.size a := fun v373 k1_hw22 => k1_hw22

def k1_off23 (v391 : BitVec 32) : Fin 2 → Nat :=
  let c0_i32_283 : BitVec 32 := 0#32
  ![v391.toNat, 0]

def k1_chk23 (v391 : BitVec 32) : Prop :=
  (∀ a, (k1_off23 v391) a + S1x64.size a ≤ S100000x64.size a)
instance k1_chk23.dec : ∀ (v391 : BitVec 32), Decidable (k1_chk23 v391) := fun v391 => decidable_of_iff' _ (Iff.of_eq (k1_chk23.eq_1 v391))
theorem k1_off23_inb : ∀ (v391 : BitVec 32) (k1_hw23 : k1_chk23 v391), ∀ a, (k1_off23 v391) a + S1x64.size a ≤ S100000x64.size a := fun v391 k1_hw23 => k1_hw23

def k1_off24 (v409 : BitVec 32) : Fin 2 → Nat :=
  let c0_i32_296 : BitVec 32 := 0#32
  ![v409.toNat, 0]

def k1_chk24 (v409 : BitVec 32) : Prop :=
  (∀ a, (k1_off24 v409) a + S1x64.size a ≤ S100000x64.size a)
instance k1_chk24.dec : ∀ (v409 : BitVec 32), Decidable (k1_chk24 v409) := fun v409 => decidable_of_iff' _ (Iff.of_eq (k1_chk24.eq_1 v409))
theorem k1_off24_inb : ∀ (v409 : BitVec 32) (k1_hw24 : k1_chk24 v409), ∀ a, (k1_off24 v409) a + S1x64.size a ≤ S100000x64.size a := fun v409 k1_hw24 => k1_hw24

def k1_off25 (v427 : BitVec 32) : Fin 2 → Nat :=
  let c0_i32_309 : BitVec 32 := 0#32
  ![v427.toNat, 0]

def k1_chk25 (v427 : BitVec 32) : Prop :=
  (∀ a, (k1_off25 v427) a + S1x64.size a ≤ S100000x64.size a)
instance k1_chk25.dec : ∀ (v427 : BitVec 32), Decidable (k1_chk25 v427) := fun v427 => decidable_of_iff' _ (Iff.of_eq (k1_chk25.eq_1 v427))
theorem k1_off25_inb : ∀ (v427 : BitVec 32) (k1_hw25 : k1_chk25 v427), ∀ a, (k1_off25 v427) a + S1x64.size a ≤ S100000x64.size a := fun v427 k1_hw25 => k1_hw25

def k1_off26 (v445 : BitVec 32) : Fin 2 → Nat :=
  let c0_i32_322 : BitVec 32 := 0#32
  ![v445.toNat, 0]

def k1_chk26 (v445 : BitVec 32) : Prop :=
  (∀ a, (k1_off26 v445) a + S1x64.size a ≤ S100000x64.size a)
instance k1_chk26.dec : ∀ (v445 : BitVec 32), Decidable (k1_chk26 v445) := fun v445 => decidable_of_iff' _ (Iff.of_eq (k1_chk26.eq_1 v445))
theorem k1_off26_inb : ∀ (v445 : BitVec 32) (k1_hw26 : k1_chk26 v445), ∀ a, (k1_off26 v445) a + S1x64.size a ≤ S100000x64.size a := fun v445 k1_hw26 => k1_hw26

def k1_off27 (v463 : BitVec 32) : Fin 2 → Nat :=
  let c0_i32_335 : BitVec 32 := 0#32
  ![v463.toNat, 0]

def k1_chk27 (v463 : BitVec 32) : Prop :=
  (∀ a, (k1_off27 v463) a + S1x64.size a ≤ S100000x64.size a)
instance k1_chk27.dec : ∀ (v463 : BitVec 32), Decidable (k1_chk27 v463) := fun v463 => decidable_of_iff' _ (Iff.of_eq (k1_chk27.eq_1 v463))
theorem k1_off27_inb : ∀ (v463 : BitVec 32) (k1_hw27 : k1_chk27 v463), ∀ a, (k1_off27 v463) a + S1x64.size a ≤ S100000x64.size a := fun v463 k1_hw27 => k1_hw27

def k1_off28 (v481 : BitVec 32) : Fin 2 → Nat :=
  let c0_i32_348 : BitVec 32 := 0#32
  ![v481.toNat, 0]

def k1_chk28 (v481 : BitVec 32) : Prop :=
  (∀ a, (k1_off28 v481) a + S1x64.size a ≤ S100000x64.size a)
instance k1_chk28.dec : ∀ (v481 : BitVec 32), Decidable (k1_chk28 v481) := fun v481 => decidable_of_iff' _ (Iff.of_eq (k1_chk28.eq_1 v481))
theorem k1_off28_inb : ∀ (v481 : BitVec 32) (k1_hw28 : k1_chk28 v481), ∀ a, (k1_off28 v481) a + S1x64.size a ≤ S100000x64.size a := fun v481 k1_hw28 => k1_hw28

def k1_off29 (v499 : BitVec 32) : Fin 2 → Nat :=
  let c0_i32_361 : BitVec 32 := 0#32
  ![v499.toNat, 0]

def k1_chk29 (v499 : BitVec 32) : Prop :=
  (∀ a, (k1_off29 v499) a + S1x64.size a ≤ S100000x64.size a)
instance k1_chk29.dec : ∀ (v499 : BitVec 32), Decidable (k1_chk29 v499) := fun v499 => decidable_of_iff' _ (Iff.of_eq (k1_chk29.eq_1 v499))
theorem k1_off29_inb : ∀ (v499 : BitVec 32) (k1_hw29 : k1_chk29 v499), ∀ a, (k1_off29 v499) a + S1x64.size a ≤ S100000x64.size a := fun v499 k1_hw29 => k1_hw29

def k1_off30 (v517 : BitVec 32) : Fin 2 → Nat :=
  let c0_i32_374 : BitVec 32 := 0#32
  ![v517.toNat, 0]

def k1_chk30 (v517 : BitVec 32) : Prop :=
  (∀ a, (k1_off30 v517) a + S1x64.size a ≤ S100000x64.size a)
instance k1_chk30.dec : ∀ (v517 : BitVec 32), Decidable (k1_chk30 v517) := fun v517 => decidable_of_iff' _ (Iff.of_eq (k1_chk30.eq_1 v517))
theorem k1_off30_inb : ∀ (v517 : BitVec 32) (k1_hw30 : k1_chk30 v517), ∀ a, (k1_off30 v517) a + S1x64.size a ≤ S100000x64.size a := fun v517 k1_hw30 => k1_hw30

def k1_off31 (v535 : BitVec 32) : Fin 2 → Nat :=
  let c0_i32_387 : BitVec 32 := 0#32
  ![v535.toNat, 0]

def k1_chk31 (v535 : BitVec 32) : Prop :=
  (∀ a, (k1_off31 v535) a + S1x64.size a ≤ S100000x64.size a)
instance k1_chk31.dec : ∀ (v535 : BitVec 32), Decidable (k1_chk31 v535) := fun v535 => decidable_of_iff' _ (Iff.of_eq (k1_chk31.eq_1 v535))
theorem k1_off31_inb : ∀ (v535 : BitVec 32) (k1_hw31 : k1_chk31 v535), ∀ a, (k1_off31 v535) a + S1x64.size a ≤ S100000x64.size a := fun v535 k1_hw31 => k1_hw31

def k1_off32 (v553 : BitVec 32) : Fin 2 → Nat :=
  let c0_i32_400 : BitVec 32 := 0#32
  ![v553.toNat, 0]

def k1_chk32 (v553 : BitVec 32) : Prop :=
  (∀ a, (k1_off32 v553) a + S1x64.size a ≤ S100000x64.size a)
instance k1_chk32.dec : ∀ (v553 : BitVec 32), Decidable (k1_chk32 v553) := fun v553 => decidable_of_iff' _ (Iff.of_eq (k1_chk32.eq_1 v553))
theorem k1_off32_inb : ∀ (v553 : BitVec 32) (k1_hw32 : k1_chk32 v553), ∀ a, (k1_off32 v553) a + S1x64.size a ≤ S100000x64.size a := fun v553 k1_hw32 => k1_hw32

def k1_off33 (v571 : BitVec 32) : Fin 2 → Nat :=
  let c0_i32_413 : BitVec 32 := 0#32
  ![v571.toNat, 0]

def k1_chk33 (v571 : BitVec 32) : Prop :=
  (∀ a, (k1_off33 v571) a + S1x64.size a ≤ S100000x64.size a)
instance k1_chk33.dec : ∀ (v571 : BitVec 32), Decidable (k1_chk33 v571) := fun v571 => decidable_of_iff' _ (Iff.of_eq (k1_chk33.eq_1 v571))
theorem k1_off33_inb : ∀ (v571 : BitVec 32) (k1_hw33 : k1_chk33 v571), ∀ a, (k1_off33 v571) a + S1x64.size a ≤ S100000x64.size a := fun v571 k1_hw33 => k1_hw33

def k1_off34 (v589 : BitVec 32) : Fin 2 → Nat :=
  let c0_i32_426 : BitVec 32 := 0#32
  ![v589.toNat, 0]

def k1_chk34 (v589 : BitVec 32) : Prop :=
  (∀ a, (k1_off34 v589) a + S1x64.size a ≤ S100000x64.size a)
instance k1_chk34.dec : ∀ (v589 : BitVec 32), Decidable (k1_chk34 v589) := fun v589 => decidable_of_iff' _ (Iff.of_eq (k1_chk34.eq_1 v589))
theorem k1_off34_inb : ∀ (v589 : BitVec 32) (k1_hw34 : k1_chk34 v589), ∀ a, (k1_off34 v589) a + S1x64.size a ≤ S100000x64.size a := fun v589 k1_hw34 => k1_hw34

def k1_off35 (v607 : BitVec 32) : Fin 2 → Nat :=
  let c0_i32_439 : BitVec 32 := 0#32
  ![v607.toNat, 0]

def k1_chk35 (v607 : BitVec 32) : Prop :=
  (∀ a, (k1_off35 v607) a + S1x64.size a ≤ S100000x64.size a)
instance k1_chk35.dec : ∀ (v607 : BitVec 32), Decidable (k1_chk35 v607) := fun v607 => decidable_of_iff' _ (Iff.of_eq (k1_chk35.eq_1 v607))
theorem k1_off35_inb : ∀ (v607 : BitVec 32) (k1_hw35 : k1_chk35 v607), ∀ a, (k1_off35 v607) a + S1x64.size a ≤ S100000x64.size a := fun v607 k1_hw35 => k1_hw35

def k1_off36 (v625 : BitVec 32) : Fin 2 → Nat :=
  let c0_i32_452 : BitVec 32 := 0#32
  ![v625.toNat, 0]

def k1_chk36 (v625 : BitVec 32) : Prop :=
  (∀ a, (k1_off36 v625) a + S1x64.size a ≤ S100000x64.size a)
instance k1_chk36.dec : ∀ (v625 : BitVec 32), Decidable (k1_chk36 v625) := fun v625 => decidable_of_iff' _ (Iff.of_eq (k1_chk36.eq_1 v625))
theorem k1_off36_inb : ∀ (v625 : BitVec 32) (k1_hw36 : k1_chk36 v625), ∀ a, (k1_off36 v625) a + S1x64.size a ≤ S100000x64.size a := fun v625 k1_hw36 => k1_hw36

def k1_off37 (v643 : BitVec 32) : Fin 2 → Nat :=
  let c0_i32_465 : BitVec 32 := 0#32
  ![v643.toNat, 0]

def k1_chk37 (v643 : BitVec 32) : Prop :=
  (∀ a, (k1_off37 v643) a + S1x64.size a ≤ S100000x64.size a)
instance k1_chk37.dec : ∀ (v643 : BitVec 32), Decidable (k1_chk37 v643) := fun v643 => decidable_of_iff' _ (Iff.of_eq (k1_chk37.eq_1 v643))
theorem k1_off37_inb : ∀ (v643 : BitVec 32) (k1_hw37 : k1_chk37 v643), ∀ a, (k1_off37 v643) a + S1x64.size a ≤ S100000x64.size a := fun v643 k1_hw37 => k1_hw37

def k1_off38 (v661 : BitVec 32) : Fin 2 → Nat :=
  let c0_i32_478 : BitVec 32 := 0#32
  ![v661.toNat, 0]

def k1_chk38 (v661 : BitVec 32) : Prop :=
  (∀ a, (k1_off38 v661) a + S1x64.size a ≤ S100000x64.size a)
instance k1_chk38.dec : ∀ (v661 : BitVec 32), Decidable (k1_chk38 v661) := fun v661 => decidable_of_iff' _ (Iff.of_eq (k1_chk38.eq_1 v661))
theorem k1_off38_inb : ∀ (v661 : BitVec 32) (k1_hw38 : k1_chk38 v661), ∀ a, (k1_off38 v661) a + S1x64.size a ≤ S100000x64.size a := fun v661 k1_hw38 => k1_hw38

def k1_off39 (v679 : BitVec 32) : Fin 2 → Nat :=
  let c0_i32_491 : BitVec 32 := 0#32
  ![v679.toNat, 0]

def k1_chk39 (v679 : BitVec 32) : Prop :=
  (∀ a, (k1_off39 v679) a + S1x64.size a ≤ S100000x64.size a)
instance k1_chk39.dec : ∀ (v679 : BitVec 32), Decidable (k1_chk39 v679) := fun v679 => decidable_of_iff' _ (Iff.of_eq (k1_chk39.eq_1 v679))
theorem k1_off39_inb : ∀ (v679 : BitVec 32) (k1_hw39 : k1_chk39 v679), ∀ a, (k1_off39 v679) a + S1x64.size a ≤ S100000x64.size a := fun v679 k1_hw39 => k1_hw39

def k1_off40 (v697 : BitVec 32) : Fin 2 → Nat :=
  let c0_i32_504 : BitVec 32 := 0#32
  ![v697.toNat, 0]

def k1_chk40 (v697 : BitVec 32) : Prop :=
  (∀ a, (k1_off40 v697) a + S1x64.size a ≤ S100000x64.size a)
instance k1_chk40.dec : ∀ (v697 : BitVec 32), Decidable (k1_chk40 v697) := fun v697 => decidable_of_iff' _ (Iff.of_eq (k1_chk40.eq_1 v697))
theorem k1_off40_inb : ∀ (v697 : BitVec 32) (k1_hw40 : k1_chk40 v697), ∀ a, (k1_off40 v697) a + S1x64.size a ≤ S100000x64.size a := fun v697 k1_hw40 => k1_hw40

def k1_off41 (v715 : BitVec 32) : Fin 2 → Nat :=
  let c0_i32_517 : BitVec 32 := 0#32
  ![v715.toNat, 0]

def k1_chk41 (v715 : BitVec 32) : Prop :=
  (∀ a, (k1_off41 v715) a + S1x64.size a ≤ S100000x64.size a)
instance k1_chk41.dec : ∀ (v715 : BitVec 32), Decidable (k1_chk41 v715) := fun v715 => decidable_of_iff' _ (Iff.of_eq (k1_chk41.eq_1 v715))
theorem k1_off41_inb : ∀ (v715 : BitVec 32) (k1_hw41 : k1_chk41 v715), ∀ a, (k1_off41 v715) a + S1x64.size a ≤ S100000x64.size a := fun v715 k1_hw41 => k1_hw41

def k1_off42 (v733 : BitVec 32) : Fin 2 → Nat :=
  let c0_i32_530 : BitVec 32 := 0#32
  ![v733.toNat, 0]

def k1_chk42 (v733 : BitVec 32) : Prop :=
  (∀ a, (k1_off42 v733) a + S1x64.size a ≤ S100000x64.size a)
instance k1_chk42.dec : ∀ (v733 : BitVec 32), Decidable (k1_chk42 v733) := fun v733 => decidable_of_iff' _ (Iff.of_eq (k1_chk42.eq_1 v733))
theorem k1_off42_inb : ∀ (v733 : BitVec 32) (k1_hw42 : k1_chk42 v733), ∀ a, (k1_off42 v733) a + S1x64.size a ≤ S100000x64.size a := fun v733 k1_hw42 => k1_hw42

def k1_off43 (v751 : BitVec 32) : Fin 2 → Nat :=
  let c0_i32_543 : BitVec 32 := 0#32
  ![v751.toNat, 0]

def k1_chk43 (v751 : BitVec 32) : Prop :=
  (∀ a, (k1_off43 v751) a + S1x64.size a ≤ S100000x64.size a)
instance k1_chk43.dec : ∀ (v751 : BitVec 32), Decidable (k1_chk43 v751) := fun v751 => decidable_of_iff' _ (Iff.of_eq (k1_chk43.eq_1 v751))
theorem k1_off43_inb : ∀ (v751 : BitVec 32) (k1_hw43 : k1_chk43 v751), ∀ a, (k1_off43 v751) a + S1x64.size a ≤ S100000x64.size a := fun v751 k1_hw43 => k1_hw43

def k1_off44 (v769 : BitVec 32) : Fin 2 → Nat :=
  let c0_i32_556 : BitVec 32 := 0#32
  ![v769.toNat, 0]

def k1_chk44 (v769 : BitVec 32) : Prop :=
  (∀ a, (k1_off44 v769) a + S1x64.size a ≤ S100000x64.size a)
instance k1_chk44.dec : ∀ (v769 : BitVec 32), Decidable (k1_chk44 v769) := fun v769 => decidable_of_iff' _ (Iff.of_eq (k1_chk44.eq_1 v769))
theorem k1_off44_inb : ∀ (v769 : BitVec 32) (k1_hw44 : k1_chk44 v769), ∀ a, (k1_off44 v769) a + S1x64.size a ≤ S100000x64.size a := fun v769 k1_hw44 => k1_hw44

def k1_off45 (v787 : BitVec 32) : Fin 2 → Nat :=
  let c0_i32_569 : BitVec 32 := 0#32
  ![v787.toNat, 0]

def k1_chk45 (v787 : BitVec 32) : Prop :=
  (∀ a, (k1_off45 v787) a + S1x64.size a ≤ S100000x64.size a)
instance k1_chk45.dec : ∀ (v787 : BitVec 32), Decidable (k1_chk45 v787) := fun v787 => decidable_of_iff' _ (Iff.of_eq (k1_chk45.eq_1 v787))
theorem k1_off45_inb : ∀ (v787 : BitVec 32) (k1_hw45 : k1_chk45 v787), ∀ a, (k1_off45 v787) a + S1x64.size a ≤ S100000x64.size a := fun v787 k1_hw45 => k1_hw45

def k1_off46 (v805 : BitVec 32) : Fin 2 → Nat :=
  let c0_i32_582 : BitVec 32 := 0#32
  ![v805.toNat, 0]

def k1_chk46 (v805 : BitVec 32) : Prop :=
  (∀ a, (k1_off46 v805) a + S1x64.size a ≤ S100000x64.size a)
instance k1_chk46.dec : ∀ (v805 : BitVec 32), Decidable (k1_chk46 v805) := fun v805 => decidable_of_iff' _ (Iff.of_eq (k1_chk46.eq_1 v805))
theorem k1_off46_inb : ∀ (v805 : BitVec 32) (k1_hw46 : k1_chk46 v805), ∀ a, (k1_off46 v805) a + S1x64.size a ≤ S100000x64.size a := fun v805 k1_hw46 => k1_hw46

def k1_off47 (v823 : BitVec 32) : Fin 2 → Nat :=
  let c0_i32_595 : BitVec 32 := 0#32
  ![v823.toNat, 0]

def k1_chk47 (v823 : BitVec 32) : Prop :=
  (∀ a, (k1_off47 v823) a + S1x64.size a ≤ S100000x64.size a)
instance k1_chk47.dec : ∀ (v823 : BitVec 32), Decidable (k1_chk47 v823) := fun v823 => decidable_of_iff' _ (Iff.of_eq (k1_chk47.eq_1 v823))
theorem k1_off47_inb : ∀ (v823 : BitVec 32) (k1_hw47 : k1_chk47 v823), ∀ a, (k1_off47 v823) a + S1x64.size a ≤ S100000x64.size a := fun v823 k1_hw47 => k1_hw47

def k1_off48 (v841 : BitVec 32) : Fin 2 → Nat :=
  let c0_i32_608 : BitVec 32 := 0#32
  ![v841.toNat, 0]

def k1_chk48 (v841 : BitVec 32) : Prop :=
  (∀ a, (k1_off48 v841) a + S1x64.size a ≤ S100000x64.size a)
instance k1_chk48.dec : ∀ (v841 : BitVec 32), Decidable (k1_chk48 v841) := fun v841 => decidable_of_iff' _ (Iff.of_eq (k1_chk48.eq_1 v841))
theorem k1_off48_inb : ∀ (v841 : BitVec 32) (k1_hw48 : k1_chk48 v841), ∀ a, (k1_off48 v841) a + S1x64.size a ≤ S100000x64.size a := fun v841 k1_hw48 => k1_hw48

def k1_off49 (v859 : BitVec 32) : Fin 2 → Nat :=
  let c0_i32_621 : BitVec 32 := 0#32
  ![v859.toNat, 0]

def k1_chk49 (v859 : BitVec 32) : Prop :=
  (∀ a, (k1_off49 v859) a + S1x64.size a ≤ S100000x64.size a)
instance k1_chk49.dec : ∀ (v859 : BitVec 32), Decidable (k1_chk49 v859) := fun v859 => decidable_of_iff' _ (Iff.of_eq (k1_chk49.eq_1 v859))
theorem k1_off49_inb : ∀ (v859 : BitVec 32) (k1_hw49 : k1_chk49 v859), ∀ a, (k1_off49 v859) a + S1x64.size a ≤ S100000x64.size a := fun v859 k1_hw49 => k1_hw49

def k1_off50 (v877 : BitVec 32) : Fin 2 → Nat :=
  let c0_i32_634 : BitVec 32 := 0#32
  ![v877.toNat, 0]

def k1_chk50 (v877 : BitVec 32) : Prop :=
  (∀ a, (k1_off50 v877) a + S1x64.size a ≤ S100000x64.size a)
instance k1_chk50.dec : ∀ (v877 : BitVec 32), Decidable (k1_chk50 v877) := fun v877 => decidable_of_iff' _ (Iff.of_eq (k1_chk50.eq_1 v877))
theorem k1_off50_inb : ∀ (v877 : BitVec 32) (k1_hw50 : k1_chk50 v877), ∀ a, (k1_off50 v877) a + S1x64.size a ≤ S100000x64.size a := fun v877 k1_hw50 => k1_hw50

def k1_off51 (v895 : BitVec 32) : Fin 2 → Nat :=
  let c0_i32_647 : BitVec 32 := 0#32
  ![v895.toNat, 0]

def k1_chk51 (v895 : BitVec 32) : Prop :=
  (∀ a, (k1_off51 v895) a + S1x64.size a ≤ S100000x64.size a)
instance k1_chk51.dec : ∀ (v895 : BitVec 32), Decidable (k1_chk51 v895) := fun v895 => decidable_of_iff' _ (Iff.of_eq (k1_chk51.eq_1 v895))
theorem k1_off51_inb : ∀ (v895 : BitVec 32) (k1_hw51 : k1_chk51 v895), ∀ a, (k1_off51 v895) a + S1x64.size a ≤ S100000x64.size a := fun v895 k1_hw51 => k1_hw51

def k1_off52 (v913 : BitVec 32) : Fin 2 → Nat :=
  let c0_i32_660 : BitVec 32 := 0#32
  ![v913.toNat, 0]

def k1_chk52 (v913 : BitVec 32) : Prop :=
  (∀ a, (k1_off52 v913) a + S1x64.size a ≤ S100000x64.size a)
instance k1_chk52.dec : ∀ (v913 : BitVec 32), Decidable (k1_chk52 v913) := fun v913 => decidable_of_iff' _ (Iff.of_eq (k1_chk52.eq_1 v913))
theorem k1_off52_inb : ∀ (v913 : BitVec 32) (k1_hw52 : k1_chk52 v913), ∀ a, (k1_off52 v913) a + S1x64.size a ≤ S100000x64.size a := fun v913 k1_hw52 => k1_hw52

def k1_off53 (v931 : BitVec 32) : Fin 2 → Nat :=
  let c0_i32_673 : BitVec 32 := 0#32
  ![v931.toNat, 0]

def k1_chk53 (v931 : BitVec 32) : Prop :=
  (∀ a, (k1_off53 v931) a + S1x64.size a ≤ S100000x64.size a)
instance k1_chk53.dec : ∀ (v931 : BitVec 32), Decidable (k1_chk53 v931) := fun v931 => decidable_of_iff' _ (Iff.of_eq (k1_chk53.eq_1 v931))
theorem k1_off53_inb : ∀ (v931 : BitVec 32) (k1_hw53 : k1_chk53 v931), ∀ a, (k1_off53 v931) a + S1x64.size a ≤ S100000x64.size a := fun v931 k1_hw53 => k1_hw53

def k1_off54 (v949 : BitVec 32) : Fin 2 → Nat :=
  let c0_i32_686 : BitVec 32 := 0#32
  ![v949.toNat, 0]

def k1_chk54 (v949 : BitVec 32) : Prop :=
  (∀ a, (k1_off54 v949) a + S1x64.size a ≤ S100000x64.size a)
instance k1_chk54.dec : ∀ (v949 : BitVec 32), Decidable (k1_chk54 v949) := fun v949 => decidable_of_iff' _ (Iff.of_eq (k1_chk54.eq_1 v949))
theorem k1_off54_inb : ∀ (v949 : BitVec 32) (k1_hw54 : k1_chk54 v949), ∀ a, (k1_off54 v949) a + S1x64.size a ≤ S100000x64.size a := fun v949 k1_hw54 => k1_hw54

def k1_off55 (v967 : BitVec 32) : Fin 2 → Nat :=
  let c0_i32_699 : BitVec 32 := 0#32
  ![v967.toNat, 0]

def k1_chk55 (v967 : BitVec 32) : Prop :=
  (∀ a, (k1_off55 v967) a + S1x64.size a ≤ S100000x64.size a)
instance k1_chk55.dec : ∀ (v967 : BitVec 32), Decidable (k1_chk55 v967) := fun v967 => decidable_of_iff' _ (Iff.of_eq (k1_chk55.eq_1 v967))
theorem k1_off55_inb : ∀ (v967 : BitVec 32) (k1_hw55 : k1_chk55 v967), ∀ a, (k1_off55 v967) a + S1x64.size a ≤ S100000x64.size a := fun v967 k1_hw55 => k1_hw55

def k1_off56 (v985 : BitVec 32) : Fin 2 → Nat :=
  let c0_i32_712 : BitVec 32 := 0#32
  ![v985.toNat, 0]

def k1_chk56 (v985 : BitVec 32) : Prop :=
  (∀ a, (k1_off56 v985) a + S1x64.size a ≤ S100000x64.size a)
instance k1_chk56.dec : ∀ (v985 : BitVec 32), Decidable (k1_chk56 v985) := fun v985 => decidable_of_iff' _ (Iff.of_eq (k1_chk56.eq_1 v985))
theorem k1_off56_inb : ∀ (v985 : BitVec 32) (k1_hw56 : k1_chk56 v985), ∀ a, (k1_off56 v985) a + S1x64.size a ≤ S100000x64.size a := fun v985 k1_hw56 => k1_hw56

def k1_off57 (v1003 : BitVec 32) : Fin 2 → Nat :=
  let c0_i32_725 : BitVec 32 := 0#32
  ![v1003.toNat, 0]

def k1_chk57 (v1003 : BitVec 32) : Prop :=
  (∀ a, (k1_off57 v1003) a + S1x64.size a ≤ S100000x64.size a)
instance k1_chk57.dec : ∀ (v1003 : BitVec 32), Decidable (k1_chk57 v1003) := fun v1003 => decidable_of_iff' _ (Iff.of_eq (k1_chk57.eq_1 v1003))
theorem k1_off57_inb : ∀ (v1003 : BitVec 32) (k1_hw57 : k1_chk57 v1003), ∀ a, (k1_off57 v1003) a + S1x64.size a ≤ S100000x64.size a := fun v1003 k1_hw57 => k1_hw57

def k1_off58 (v1021 : BitVec 32) : Fin 2 → Nat :=
  let c0_i32_738 : BitVec 32 := 0#32
  ![v1021.toNat, 0]

def k1_chk58 (v1021 : BitVec 32) : Prop :=
  (∀ a, (k1_off58 v1021) a + S1x64.size a ≤ S100000x64.size a)
instance k1_chk58.dec : ∀ (v1021 : BitVec 32), Decidable (k1_chk58 v1021) := fun v1021 => decidable_of_iff' _ (Iff.of_eq (k1_chk58.eq_1 v1021))
theorem k1_off58_inb : ∀ (v1021 : BitVec 32) (k1_hw58 : k1_chk58 v1021), ∀ a, (k1_off58 v1021) a + S1x64.size a ≤ S100000x64.size a := fun v1021 k1_hw58 => k1_hw58

def k1_off59 (v1039 : BitVec 32) : Fin 2 → Nat :=
  let c0_i32_751 : BitVec 32 := 0#32
  ![v1039.toNat, 0]

def k1_chk59 (v1039 : BitVec 32) : Prop :=
  (∀ a, (k1_off59 v1039) a + S1x64.size a ≤ S100000x64.size a)
instance k1_chk59.dec : ∀ (v1039 : BitVec 32), Decidable (k1_chk59 v1039) := fun v1039 => decidable_of_iff' _ (Iff.of_eq (k1_chk59.eq_1 v1039))
theorem k1_off59_inb : ∀ (v1039 : BitVec 32) (k1_hw59 : k1_chk59 v1039), ∀ a, (k1_off59 v1039) a + S1x64.size a ≤ S100000x64.size a := fun v1039 k1_hw59 => k1_hw59

def k1_off60 (v1057 : BitVec 32) : Fin 2 → Nat :=
  let c0_i32_764 : BitVec 32 := 0#32
  ![v1057.toNat, 0]

def k1_chk60 (v1057 : BitVec 32) : Prop :=
  (∀ a, (k1_off60 v1057) a + S1x64.size a ≤ S100000x64.size a)
instance k1_chk60.dec : ∀ (v1057 : BitVec 32), Decidable (k1_chk60 v1057) := fun v1057 => decidable_of_iff' _ (Iff.of_eq (k1_chk60.eq_1 v1057))
theorem k1_off60_inb : ∀ (v1057 : BitVec 32) (k1_hw60 : k1_chk60 v1057), ∀ a, (k1_off60 v1057) a + S1x64.size a ≤ S100000x64.size a := fun v1057 k1_hw60 => k1_hw60

def k1_off61 (v1075 : BitVec 32) : Fin 2 → Nat :=
  let c0_i32_777 : BitVec 32 := 0#32
  ![v1075.toNat, 0]

def k1_chk61 (v1075 : BitVec 32) : Prop :=
  (∀ a, (k1_off61 v1075) a + S1x64.size a ≤ S100000x64.size a)
instance k1_chk61.dec : ∀ (v1075 : BitVec 32), Decidable (k1_chk61 v1075) := fun v1075 => decidable_of_iff' _ (Iff.of_eq (k1_chk61.eq_1 v1075))
theorem k1_off61_inb : ∀ (v1075 : BitVec 32) (k1_hw61 : k1_chk61 v1075), ∀ a, (k1_off61 v1075) a + S1x64.size a ≤ S100000x64.size a := fun v1075 k1_hw61 => k1_hw61

def k1_off62 (v1093 : BitVec 32) : Fin 2 → Nat :=
  let c0_i32_790 : BitVec 32 := 0#32
  ![v1093.toNat, 0]

def k1_chk62 (v1093 : BitVec 32) : Prop :=
  (∀ a, (k1_off62 v1093) a + S1x64.size a ≤ S100000x64.size a)
instance k1_chk62.dec : ∀ (v1093 : BitVec 32), Decidable (k1_chk62 v1093) := fun v1093 => decidable_of_iff' _ (Iff.of_eq (k1_chk62.eq_1 v1093))
theorem k1_off62_inb : ∀ (v1093 : BitVec 32) (k1_hw62 : k1_chk62 v1093), ∀ a, (k1_off62 v1093) a + S1x64.size a ≤ S100000x64.size a := fun v1093 k1_hw62 => k1_hw62

def k1_off63 (v1111 : BitVec 32) : Fin 2 → Nat :=
  let c0_i32_803 : BitVec 32 := 0#32
  ![v1111.toNat, 0]

def k1_chk63 (v1111 : BitVec 32) : Prop :=
  (∀ a, (k1_off63 v1111) a + S1x64.size a ≤ S100000x64.size a)
instance k1_chk63.dec : ∀ (v1111 : BitVec 32), Decidable (k1_chk63 v1111) := fun v1111 => decidable_of_iff' _ (Iff.of_eq (k1_chk63.eq_1 v1111))
theorem k1_off63_inb : ∀ (v1111 : BitVec 32) (k1_hw63 : k1_chk63 v1111), ∀ a, (k1_off63 v1111) a + S1x64.size a ≤ S100000x64.size a := fun v1111 k1_hw63 => k1_hw63

def k1_off64 (v1129 : BitVec 32) : Fin 2 → Nat :=
  let c0_i32_816 : BitVec 32 := 0#32
  ![v1129.toNat, 0]

def k1_chk64 (v1129 : BitVec 32) : Prop :=
  (∀ a, (k1_off64 v1129) a + S1x64.size a ≤ S100000x64.size a)
instance k1_chk64.dec : ∀ (v1129 : BitVec 32), Decidable (k1_chk64 v1129) := fun v1129 => decidable_of_iff' _ (Iff.of_eq (k1_chk64.eq_1 v1129))
theorem k1_off64_inb : ∀ (v1129 : BitVec 32) (k1_hw64 : k1_chk64 v1129), ∀ a, (k1_off64 v1129) a + S1x64.size a ≤ S100000x64.size a := fun v1129 k1_hw64 => k1_hw64

def k1_off65 (v1147 : BitVec 32) : Fin 2 → Nat :=
  let c0_i32_829 : BitVec 32 := 0#32
  ![v1147.toNat, 0]

def k1_chk65 (v1147 : BitVec 32) : Prop :=
  (∀ a, (k1_off65 v1147) a + S1x64.size a ≤ S100000x64.size a)
instance k1_chk65.dec : ∀ (v1147 : BitVec 32), Decidable (k1_chk65 v1147) := fun v1147 => decidable_of_iff' _ (Iff.of_eq (k1_chk65.eq_1 v1147))
theorem k1_off65_inb : ∀ (v1147 : BitVec 32) (k1_hw65 : k1_chk65 v1147), ∀ a, (k1_off65 v1147) a + S1x64.size a ≤ S100000x64.size a := fun v1147 k1_hw65 => k1_hw65

def k1_off66 (v1165 : BitVec 32) : Fin 2 → Nat :=
  let c0_i32_842 : BitVec 32 := 0#32
  ![v1165.toNat, 0]

def k1_chk66 (v1165 : BitVec 32) : Prop :=
  (∀ a, (k1_off66 v1165) a + S1x64.size a ≤ S100000x64.size a)
instance k1_chk66.dec : ∀ (v1165 : BitVec 32), Decidable (k1_chk66 v1165) := fun v1165 => decidable_of_iff' _ (Iff.of_eq (k1_chk66.eq_1 v1165))
theorem k1_off66_inb : ∀ (v1165 : BitVec 32) (k1_hw66 : k1_chk66 v1165), ∀ a, (k1_off66 v1165) a + S1x64.size a ≤ S100000x64.size a := fun v1165 k1_hw66 => k1_hw66

def k1_off67 (v1183 : BitVec 32) : Fin 2 → Nat :=
  let c0_i32_855 : BitVec 32 := 0#32
  ![v1183.toNat, 0]

def k1_chk67 (v1183 : BitVec 32) : Prop :=
  (∀ a, (k1_off67 v1183) a + S1x64.size a ≤ S100000x64.size a)
instance k1_chk67.dec : ∀ (v1183 : BitVec 32), Decidable (k1_chk67 v1183) := fun v1183 => decidable_of_iff' _ (Iff.of_eq (k1_chk67.eq_1 v1183))
theorem k1_off67_inb : ∀ (v1183 : BitVec 32) (k1_hw67 : k1_chk67 v1183), ∀ a, (k1_off67 v1183) a + S1x64.size a ≤ S100000x64.size a := fun v1183 k1_hw67 => k1_hw67

def k1_off68 (v1201 : BitVec 32) : Fin 2 → Nat :=
  let c0_i32_868 : BitVec 32 := 0#32
  ![v1201.toNat, 0]

def k1_chk68 (v1201 : BitVec 32) : Prop :=
  (∀ a, (k1_off68 v1201) a + S1x64.size a ≤ S100000x64.size a)
instance k1_chk68.dec : ∀ (v1201 : BitVec 32), Decidable (k1_chk68 v1201) := fun v1201 => decidable_of_iff' _ (Iff.of_eq (k1_chk68.eq_1 v1201))
theorem k1_off68_inb : ∀ (v1201 : BitVec 32) (k1_hw68 : k1_chk68 v1201), ∀ a, (k1_off68 v1201) a + S1x64.size a ≤ S100000x64.size a := fun v1201 k1_hw68 => k1_hw68

def k1_off69 (v1219 : BitVec 32) : Fin 2 → Nat :=
  let c0_i32_881 : BitVec 32 := 0#32
  ![v1219.toNat, 0]

def k1_chk69 (v1219 : BitVec 32) : Prop :=
  (∀ a, (k1_off69 v1219) a + S1x64.size a ≤ S100000x64.size a)
instance k1_chk69.dec : ∀ (v1219 : BitVec 32), Decidable (k1_chk69 v1219) := fun v1219 => decidable_of_iff' _ (Iff.of_eq (k1_chk69.eq_1 v1219))
theorem k1_off69_inb : ∀ (v1219 : BitVec 32) (k1_hw69 : k1_chk69 v1219), ∀ a, (k1_off69 v1219) a + S1x64.size a ≤ S100000x64.size a := fun v1219 k1_hw69 => k1_hw69

def k1_off70 (v1237 : BitVec 32) : Fin 2 → Nat :=
  let c0_i32_894 : BitVec 32 := 0#32
  ![v1237.toNat, 0]

def k1_chk70 (v1237 : BitVec 32) : Prop :=
  (∀ a, (k1_off70 v1237) a + S1x64.size a ≤ S100000x64.size a)
instance k1_chk70.dec : ∀ (v1237 : BitVec 32), Decidable (k1_chk70 v1237) := fun v1237 => decidable_of_iff' _ (Iff.of_eq (k1_chk70.eq_1 v1237))
theorem k1_off70_inb : ∀ (v1237 : BitVec 32) (k1_hw70 : k1_chk70 v1237), ∀ a, (k1_off70 v1237) a + S1x64.size a ≤ S100000x64.size a := fun v1237 k1_hw70 => k1_hw70

def k1_off71 (v1255 : BitVec 32) : Fin 2 → Nat :=
  let c0_i32_907 : BitVec 32 := 0#32
  ![v1255.toNat, 0]

def k1_chk71 (v1255 : BitVec 32) : Prop :=
  (∀ a, (k1_off71 v1255) a + S1x64.size a ≤ S100000x64.size a)
instance k1_chk71.dec : ∀ (v1255 : BitVec 32), Decidable (k1_chk71 v1255) := fun v1255 => decidable_of_iff' _ (Iff.of_eq (k1_chk71.eq_1 v1255))
theorem k1_off71_inb : ∀ (v1255 : BitVec 32) (k1_hw71 : k1_chk71 v1255), ∀ a, (k1_off71 v1255) a + S1x64.size a ≤ S100000x64.size a := fun v1255 k1_hw71 => k1_hw71

def k1_off72 (v1273 : BitVec 32) : Fin 2 → Nat :=
  let c0_i32_920 : BitVec 32 := 0#32
  ![v1273.toNat, 0]

def k1_chk72 (v1273 : BitVec 32) : Prop :=
  (∀ a, (k1_off72 v1273) a + S1x64.size a ≤ S100000x64.size a)
instance k1_chk72.dec : ∀ (v1273 : BitVec 32), Decidable (k1_chk72 v1273) := fun v1273 => decidable_of_iff' _ (Iff.of_eq (k1_chk72.eq_1 v1273))
theorem k1_off72_inb : ∀ (v1273 : BitVec 32) (k1_hw72 : k1_chk72 v1273), ∀ a, (k1_off72 v1273) a + S1x64.size a ≤ S100000x64.size a := fun v1273 k1_hw72 => k1_hw72

def k1_off73 (v1291 : BitVec 32) : Fin 2 → Nat :=
  let c0_i32_933 : BitVec 32 := 0#32
  ![v1291.toNat, 0]

def k1_chk73 (v1291 : BitVec 32) : Prop :=
  (∀ a, (k1_off73 v1291) a + S1x64.size a ≤ S100000x64.size a)
instance k1_chk73.dec : ∀ (v1291 : BitVec 32), Decidable (k1_chk73 v1291) := fun v1291 => decidable_of_iff' _ (Iff.of_eq (k1_chk73.eq_1 v1291))
theorem k1_off73_inb : ∀ (v1291 : BitVec 32) (k1_hw73 : k1_chk73 v1291), ∀ a, (k1_off73 v1291) a + S1x64.size a ≤ S100000x64.size a := fun v1291 k1_hw73 => k1_hw73

def k1_off74 (v1309 : BitVec 32) : Fin 2 → Nat :=
  let c0_i32_946 : BitVec 32 := 0#32
  ![v1309.toNat, 0]

def k1_chk74 (v1309 : BitVec 32) : Prop :=
  (∀ a, (k1_off74 v1309) a + S1x64.size a ≤ S100000x64.size a)
instance k1_chk74.dec : ∀ (v1309 : BitVec 32), Decidable (k1_chk74 v1309) := fun v1309 => decidable_of_iff' _ (Iff.of_eq (k1_chk74.eq_1 v1309))
theorem k1_off74_inb : ∀ (v1309 : BitVec 32) (k1_hw74 : k1_chk74 v1309), ∀ a, (k1_off74 v1309) a + S1x64.size a ≤ S100000x64.size a := fun v1309 k1_hw74 => k1_hw74

def k1_off75 (v1327 : BitVec 32) : Fin 2 → Nat :=
  let c0_i32_959 : BitVec 32 := 0#32
  ![v1327.toNat, 0]

def k1_chk75 (v1327 : BitVec 32) : Prop :=
  (∀ a, (k1_off75 v1327) a + S1x64.size a ≤ S100000x64.size a)
instance k1_chk75.dec : ∀ (v1327 : BitVec 32), Decidable (k1_chk75 v1327) := fun v1327 => decidable_of_iff' _ (Iff.of_eq (k1_chk75.eq_1 v1327))
theorem k1_off75_inb : ∀ (v1327 : BitVec 32) (k1_hw75 : k1_chk75 v1327), ∀ a, (k1_off75 v1327) a + S1x64.size a ≤ S100000x64.size a := fun v1327 k1_hw75 => k1_hw75

def k1_off76 (v1345 : BitVec 32) : Fin 2 → Nat :=
  let c0_i32_972 : BitVec 32 := 0#32
  ![v1345.toNat, 0]

def k1_chk76 (v1345 : BitVec 32) : Prop :=
  (∀ a, (k1_off76 v1345) a + S1x64.size a ≤ S100000x64.size a)
instance k1_chk76.dec : ∀ (v1345 : BitVec 32), Decidable (k1_chk76 v1345) := fun v1345 => decidable_of_iff' _ (Iff.of_eq (k1_chk76.eq_1 v1345))
theorem k1_off76_inb : ∀ (v1345 : BitVec 32) (k1_hw76 : k1_chk76 v1345), ∀ a, (k1_off76 v1345) a + S1x64.size a ≤ S100000x64.size a := fun v1345 k1_hw76 => k1_hw76

def k1_off77 (v1363 : BitVec 32) : Fin 2 → Nat :=
  let c0_i32_985 : BitVec 32 := 0#32
  ![v1363.toNat, 0]

def k1_chk77 (v1363 : BitVec 32) : Prop :=
  (∀ a, (k1_off77 v1363) a + S1x64.size a ≤ S100000x64.size a)
instance k1_chk77.dec : ∀ (v1363 : BitVec 32), Decidable (k1_chk77 v1363) := fun v1363 => decidable_of_iff' _ (Iff.of_eq (k1_chk77.eq_1 v1363))
theorem k1_off77_inb : ∀ (v1363 : BitVec 32) (k1_hw77 : k1_chk77 v1363), ∀ a, (k1_off77 v1363) a + S1x64.size a ≤ S100000x64.size a := fun v1363 k1_hw77 => k1_hw77

def k1_off78 (v1381 : BitVec 32) : Fin 2 → Nat :=
  let c0_i32_998 : BitVec 32 := 0#32
  ![v1381.toNat, 0]

def k1_chk78 (v1381 : BitVec 32) : Prop :=
  (∀ a, (k1_off78 v1381) a + S1x64.size a ≤ S100000x64.size a)
instance k1_chk78.dec : ∀ (v1381 : BitVec 32), Decidable (k1_chk78 v1381) := fun v1381 => decidable_of_iff' _ (Iff.of_eq (k1_chk78.eq_1 v1381))
theorem k1_off78_inb : ∀ (v1381 : BitVec 32) (k1_hw78 : k1_chk78 v1381), ∀ a, (k1_off78 v1381) a + S1x64.size a ≤ S100000x64.size a := fun v1381 k1_hw78 => k1_hw78

def k1_off79 (v1399 : BitVec 32) : Fin 2 → Nat :=
  let c0_i32_1011 : BitVec 32 := 0#32
  ![v1399.toNat, 0]

def k1_chk79 (v1399 : BitVec 32) : Prop :=
  (∀ a, (k1_off79 v1399) a + S1x64.size a ≤ S100000x64.size a)
instance k1_chk79.dec : ∀ (v1399 : BitVec 32), Decidable (k1_chk79 v1399) := fun v1399 => decidable_of_iff' _ (Iff.of_eq (k1_chk79.eq_1 v1399))
theorem k1_off79_inb : ∀ (v1399 : BitVec 32) (k1_hw79 : k1_chk79 v1399), ∀ a, (k1_off79 v1399) a + S1x64.size a ≤ S100000x64.size a := fun v1399 k1_hw79 => k1_hw79

def k1_off80 (v1417 : BitVec 32) : Fin 2 → Nat :=
  let c0_i32_1024 : BitVec 32 := 0#32
  ![v1417.toNat, 0]

def k1_chk80 (v1417 : BitVec 32) : Prop :=
  (∀ a, (k1_off80 v1417) a + S1x64.size a ≤ S100000x64.size a)
instance k1_chk80.dec : ∀ (v1417 : BitVec 32), Decidable (k1_chk80 v1417) := fun v1417 => decidable_of_iff' _ (Iff.of_eq (k1_chk80.eq_1 v1417))
theorem k1_off80_inb : ∀ (v1417 : BitVec 32) (k1_hw80 : k1_chk80 v1417), ∀ a, (k1_off80 v1417) a + S1x64.size a ≤ S100000x64.size a := fun v1417 k1_hw80 => k1_hw80

def k1_off81 (v1435 : BitVec 32) : Fin 2 → Nat :=
  let c0_i32_1037 : BitVec 32 := 0#32
  ![v1435.toNat, 0]

def k1_chk81 (v1435 : BitVec 32) : Prop :=
  (∀ a, (k1_off81 v1435) a + S1x64.size a ≤ S100000x64.size a)
instance k1_chk81.dec : ∀ (v1435 : BitVec 32), Decidable (k1_chk81 v1435) := fun v1435 => decidable_of_iff' _ (Iff.of_eq (k1_chk81.eq_1 v1435))
theorem k1_off81_inb : ∀ (v1435 : BitVec 32) (k1_hw81 : k1_chk81 v1435), ∀ a, (k1_off81 v1435) a + S1x64.size a ≤ S100000x64.size a := fun v1435 k1_hw81 => k1_hw81

def k1_off82 (v1453 : BitVec 32) : Fin 2 → Nat :=
  let c0_i32_1050 : BitVec 32 := 0#32
  ![v1453.toNat, 0]

def k1_chk82 (v1453 : BitVec 32) : Prop :=
  (∀ a, (k1_off82 v1453) a + S1x64.size a ≤ S100000x64.size a)
instance k1_chk82.dec : ∀ (v1453 : BitVec 32), Decidable (k1_chk82 v1453) := fun v1453 => decidable_of_iff' _ (Iff.of_eq (k1_chk82.eq_1 v1453))
theorem k1_off82_inb : ∀ (v1453 : BitVec 32) (k1_hw82 : k1_chk82 v1453), ∀ a, (k1_off82 v1453) a + S1x64.size a ≤ S100000x64.size a := fun v1453 k1_hw82 => k1_hw82

def k1_off83 (v1471 : BitVec 32) : Fin 2 → Nat :=
  let c0_i32_1063 : BitVec 32 := 0#32
  ![v1471.toNat, 0]

def k1_chk83 (v1471 : BitVec 32) : Prop :=
  (∀ a, (k1_off83 v1471) a + S1x64.size a ≤ S100000x64.size a)
instance k1_chk83.dec : ∀ (v1471 : BitVec 32), Decidable (k1_chk83 v1471) := fun v1471 => decidable_of_iff' _ (Iff.of_eq (k1_chk83.eq_1 v1471))
theorem k1_off83_inb : ∀ (v1471 : BitVec 32) (k1_hw83 : k1_chk83 v1471), ∀ a, (k1_off83 v1471) a + S1x64.size a ≤ S100000x64.size a := fun v1471 k1_hw83 => k1_hw83

def k1_off84 (v1489 : BitVec 32) : Fin 2 → Nat :=
  let c0_i32_1076 : BitVec 32 := 0#32
  ![v1489.toNat, 0]

def k1_chk84 (v1489 : BitVec 32) : Prop :=
  (∀ a, (k1_off84 v1489) a + S1x64.size a ≤ S100000x64.size a)
instance k1_chk84.dec : ∀ (v1489 : BitVec 32), Decidable (k1_chk84 v1489) := fun v1489 => decidable_of_iff' _ (Iff.of_eq (k1_chk84.eq_1 v1489))
theorem k1_off84_inb : ∀ (v1489 : BitVec 32) (k1_hw84 : k1_chk84 v1489), ∀ a, (k1_off84 v1489) a + S1x64.size a ≤ S100000x64.size a := fun v1489 k1_hw84 => k1_hw84

def k1_off85 (v1507 : BitVec 32) : Fin 2 → Nat :=
  let c0_i32_1089 : BitVec 32 := 0#32
  ![v1507.toNat, 0]

def k1_chk85 (v1507 : BitVec 32) : Prop :=
  (∀ a, (k1_off85 v1507) a + S1x64.size a ≤ S100000x64.size a)
instance k1_chk85.dec : ∀ (v1507 : BitVec 32), Decidable (k1_chk85 v1507) := fun v1507 => decidable_of_iff' _ (Iff.of_eq (k1_chk85.eq_1 v1507))
theorem k1_off85_inb : ∀ (v1507 : BitVec 32) (k1_hw85 : k1_chk85 v1507), ∀ a, (k1_off85 v1507) a + S1x64.size a ≤ S100000x64.size a := fun v1507 k1_hw85 => k1_hw85

def k1_off86 (v1525 : BitVec 32) : Fin 2 → Nat :=
  let c0_i32_1102 : BitVec 32 := 0#32
  ![v1525.toNat, 0]

def k1_chk86 (v1525 : BitVec 32) : Prop :=
  (∀ a, (k1_off86 v1525) a + S1x64.size a ≤ S100000x64.size a)
instance k1_chk86.dec : ∀ (v1525 : BitVec 32), Decidable (k1_chk86 v1525) := fun v1525 => decidable_of_iff' _ (Iff.of_eq (k1_chk86.eq_1 v1525))
theorem k1_off86_inb : ∀ (v1525 : BitVec 32) (k1_hw86 : k1_chk86 v1525), ∀ a, (k1_off86 v1525) a + S1x64.size a ≤ S100000x64.size a := fun v1525 k1_hw86 => k1_hw86

def k1_off87 (v1543 : BitVec 32) : Fin 2 → Nat :=
  let c0_i32_1115 : BitVec 32 := 0#32
  ![v1543.toNat, 0]

def k1_chk87 (v1543 : BitVec 32) : Prop :=
  (∀ a, (k1_off87 v1543) a + S1x64.size a ≤ S100000x64.size a)
instance k1_chk87.dec : ∀ (v1543 : BitVec 32), Decidable (k1_chk87 v1543) := fun v1543 => decidable_of_iff' _ (Iff.of_eq (k1_chk87.eq_1 v1543))
theorem k1_off87_inb : ∀ (v1543 : BitVec 32) (k1_hw87 : k1_chk87 v1543), ∀ a, (k1_off87 v1543) a + S1x64.size a ≤ S100000x64.size a := fun v1543 k1_hw87 => k1_hw87

def k1_off88 (v1561 : BitVec 32) : Fin 2 → Nat :=
  let c0_i32_1128 : BitVec 32 := 0#32
  ![v1561.toNat, 0]

def k1_chk88 (v1561 : BitVec 32) : Prop :=
  (∀ a, (k1_off88 v1561) a + S1x64.size a ≤ S100000x64.size a)
instance k1_chk88.dec : ∀ (v1561 : BitVec 32), Decidable (k1_chk88 v1561) := fun v1561 => decidable_of_iff' _ (Iff.of_eq (k1_chk88.eq_1 v1561))
theorem k1_off88_inb : ∀ (v1561 : BitVec 32) (k1_hw88 : k1_chk88 v1561), ∀ a, (k1_off88 v1561) a + S1x64.size a ≤ S100000x64.size a := fun v1561 k1_hw88 => k1_hw88

def k1_off89 (v1579 : BitVec 32) : Fin 2 → Nat :=
  let c0_i32_1141 : BitVec 32 := 0#32
  ![v1579.toNat, 0]

def k1_chk89 (v1579 : BitVec 32) : Prop :=
  (∀ a, (k1_off89 v1579) a + S1x64.size a ≤ S100000x64.size a)
instance k1_chk89.dec : ∀ (v1579 : BitVec 32), Decidable (k1_chk89 v1579) := fun v1579 => decidable_of_iff' _ (Iff.of_eq (k1_chk89.eq_1 v1579))
theorem k1_off89_inb : ∀ (v1579 : BitVec 32) (k1_hw89 : k1_chk89 v1579), ∀ a, (k1_off89 v1579) a + S1x64.size a ≤ S100000x64.size a := fun v1579 k1_hw89 => k1_hw89

def k1_off90 (v1597 : BitVec 32) : Fin 2 → Nat :=
  let c0_i32_1154 : BitVec 32 := 0#32
  ![v1597.toNat, 0]

def k1_chk90 (v1597 : BitVec 32) : Prop :=
  (∀ a, (k1_off90 v1597) a + S1x64.size a ≤ S100000x64.size a)
instance k1_chk90.dec : ∀ (v1597 : BitVec 32), Decidable (k1_chk90 v1597) := fun v1597 => decidable_of_iff' _ (Iff.of_eq (k1_chk90.eq_1 v1597))
theorem k1_off90_inb : ∀ (v1597 : BitVec 32) (k1_hw90 : k1_chk90 v1597), ∀ a, (k1_off90 v1597) a + S1x64.size a ≤ S100000x64.size a := fun v1597 k1_hw90 => k1_hw90

def k1_off91 (v1615 : BitVec 32) : Fin 2 → Nat :=
  let c0_i32_1167 : BitVec 32 := 0#32
  ![v1615.toNat, 0]

def k1_chk91 (v1615 : BitVec 32) : Prop :=
  (∀ a, (k1_off91 v1615) a + S1x64.size a ≤ S100000x64.size a)
instance k1_chk91.dec : ∀ (v1615 : BitVec 32), Decidable (k1_chk91 v1615) := fun v1615 => decidable_of_iff' _ (Iff.of_eq (k1_chk91.eq_1 v1615))
theorem k1_off91_inb : ∀ (v1615 : BitVec 32) (k1_hw91 : k1_chk91 v1615), ∀ a, (k1_off91 v1615) a + S1x64.size a ≤ S100000x64.size a := fun v1615 k1_hw91 => k1_hw91

def k1_off92 (v1633 : BitVec 32) : Fin 2 → Nat :=
  let c0_i32_1180 : BitVec 32 := 0#32
  ![v1633.toNat, 0]

def k1_chk92 (v1633 : BitVec 32) : Prop :=
  (∀ a, (k1_off92 v1633) a + S1x64.size a ≤ S100000x64.size a)
instance k1_chk92.dec : ∀ (v1633 : BitVec 32), Decidable (k1_chk92 v1633) := fun v1633 => decidable_of_iff' _ (Iff.of_eq (k1_chk92.eq_1 v1633))
theorem k1_off92_inb : ∀ (v1633 : BitVec 32) (k1_hw92 : k1_chk92 v1633), ∀ a, (k1_off92 v1633) a + S1x64.size a ≤ S100000x64.size a := fun v1633 k1_hw92 => k1_hw92

def k1_off93 (v1651 : BitVec 32) : Fin 2 → Nat :=
  let c0_i32_1193 : BitVec 32 := 0#32
  ![v1651.toNat, 0]

def k1_chk93 (v1651 : BitVec 32) : Prop :=
  (∀ a, (k1_off93 v1651) a + S1x64.size a ≤ S100000x64.size a)
instance k1_chk93.dec : ∀ (v1651 : BitVec 32), Decidable (k1_chk93 v1651) := fun v1651 => decidable_of_iff' _ (Iff.of_eq (k1_chk93.eq_1 v1651))
theorem k1_off93_inb : ∀ (v1651 : BitVec 32) (k1_hw93 : k1_chk93 v1651), ∀ a, (k1_off93 v1651) a + S1x64.size a ≤ S100000x64.size a := fun v1651 k1_hw93 => k1_hw93

def k1_off94 (v1669 : BitVec 32) : Fin 2 → Nat :=
  let c0_i32_1206 : BitVec 32 := 0#32
  ![v1669.toNat, 0]

def k1_chk94 (v1669 : BitVec 32) : Prop :=
  (∀ a, (k1_off94 v1669) a + S1x64.size a ≤ S100000x64.size a)
instance k1_chk94.dec : ∀ (v1669 : BitVec 32), Decidable (k1_chk94 v1669) := fun v1669 => decidable_of_iff' _ (Iff.of_eq (k1_chk94.eq_1 v1669))
theorem k1_off94_inb : ∀ (v1669 : BitVec 32) (k1_hw94 : k1_chk94 v1669), ∀ a, (k1_off94 v1669) a + S1x64.size a ≤ S100000x64.size a := fun v1669 k1_hw94 => k1_hw94

def k1_off95 (v1687 : BitVec 32) : Fin 2 → Nat :=
  let c0_i32_1219 : BitVec 32 := 0#32
  ![v1687.toNat, 0]

def k1_chk95 (v1687 : BitVec 32) : Prop :=
  (∀ a, (k1_off95 v1687) a + S1x64.size a ≤ S100000x64.size a)
instance k1_chk95.dec : ∀ (v1687 : BitVec 32), Decidable (k1_chk95 v1687) := fun v1687 => decidable_of_iff' _ (Iff.of_eq (k1_chk95.eq_1 v1687))
theorem k1_off95_inb : ∀ (v1687 : BitVec 32) (k1_hw95 : k1_chk95 v1687), ∀ a, (k1_off95 v1687) a + S1x64.size a ≤ S100000x64.size a := fun v1687 k1_hw95 => k1_hw95

def k1_off96 (v1705 : BitVec 32) : Fin 2 → Nat :=
  let c0_i32_1232 : BitVec 32 := 0#32
  ![v1705.toNat, 0]

def k1_chk96 (v1705 : BitVec 32) : Prop :=
  (∀ a, (k1_off96 v1705) a + S1x64.size a ≤ S100000x64.size a)
instance k1_chk96.dec : ∀ (v1705 : BitVec 32), Decidable (k1_chk96 v1705) := fun v1705 => decidable_of_iff' _ (Iff.of_eq (k1_chk96.eq_1 v1705))
theorem k1_off96_inb : ∀ (v1705 : BitVec 32) (k1_hw96 : k1_chk96 v1705), ∀ a, (k1_off96 v1705) a + S1x64.size a ≤ S100000x64.size a := fun v1705 k1_hw96 => k1_hw96

def k1_off97 (v1723 : BitVec 32) : Fin 2 → Nat :=
  let c0_i32_1245 : BitVec 32 := 0#32
  ![v1723.toNat, 0]

def k1_chk97 (v1723 : BitVec 32) : Prop :=
  (∀ a, (k1_off97 v1723) a + S1x64.size a ≤ S100000x64.size a)
instance k1_chk97.dec : ∀ (v1723 : BitVec 32), Decidable (k1_chk97 v1723) := fun v1723 => decidable_of_iff' _ (Iff.of_eq (k1_chk97.eq_1 v1723))
theorem k1_off97_inb : ∀ (v1723 : BitVec 32) (k1_hw97 : k1_chk97 v1723), ∀ a, (k1_off97 v1723) a + S1x64.size a ≤ S100000x64.size a := fun v1723 k1_hw97 => k1_hw97

def k1_off98 (v1741 : BitVec 32) : Fin 2 → Nat :=
  let c0_i32_1258 : BitVec 32 := 0#32
  ![v1741.toNat, 0]

def k1_chk98 (v1741 : BitVec 32) : Prop :=
  (∀ a, (k1_off98 v1741) a + S1x64.size a ≤ S100000x64.size a)
instance k1_chk98.dec : ∀ (v1741 : BitVec 32), Decidable (k1_chk98 v1741) := fun v1741 => decidable_of_iff' _ (Iff.of_eq (k1_chk98.eq_1 v1741))
theorem k1_off98_inb : ∀ (v1741 : BitVec 32) (k1_hw98 : k1_chk98 v1741), ∀ a, (k1_off98 v1741) a + S1x64.size a ≤ S100000x64.size a := fun v1741 k1_hw98 => k1_hw98

def k1_off99 (v1759 : BitVec 32) : Fin 2 → Nat :=
  let c0_i32_1271 : BitVec 32 := 0#32
  ![v1759.toNat, 0]

def k1_chk99 (v1759 : BitVec 32) : Prop :=
  (∀ a, (k1_off99 v1759) a + S1x64.size a ≤ S100000x64.size a)
instance k1_chk99.dec : ∀ (v1759 : BitVec 32), Decidable (k1_chk99 v1759) := fun v1759 => decidable_of_iff' _ (Iff.of_eq (k1_chk99.eq_1 v1759))
theorem k1_off99_inb : ∀ (v1759 : BitVec 32) (k1_hw99 : k1_chk99 v1759), ∀ a, (k1_off99 v1759) a + S1x64.size a ≤ S100000x64.size a := fun v1759 k1_hw99 => k1_hw99

def k1_off100 (v1777 : BitVec 32) : Fin 2 → Nat :=
  let c0_i32_1284 : BitVec 32 := 0#32
  ![v1777.toNat, 0]

def k1_chk100 (v1777 : BitVec 32) : Prop :=
  (∀ a, (k1_off100 v1777) a + S1x64.size a ≤ S100000x64.size a)
instance k1_chk100.dec : ∀ (v1777 : BitVec 32), Decidable (k1_chk100 v1777) := fun v1777 => decidable_of_iff' _ (Iff.of_eq (k1_chk100.eq_1 v1777))
theorem k1_off100_inb : ∀ (v1777 : BitVec 32) (k1_hw100 : k1_chk100 v1777), ∀ a, (k1_off100 v1777) a + S1x64.size a ≤ S100000x64.size a := fun v1777 k1_hw100 => k1_hw100

def k1_off101 (v1795 : BitVec 32) : Fin 2 → Nat :=
  let c0_i32_1297 : BitVec 32 := 0#32
  ![v1795.toNat, 0]

def k1_chk101 (v1795 : BitVec 32) : Prop :=
  (∀ a, (k1_off101 v1795) a + S1x64.size a ≤ S100000x64.size a)
instance k1_chk101.dec : ∀ (v1795 : BitVec 32), Decidable (k1_chk101 v1795) := fun v1795 => decidable_of_iff' _ (Iff.of_eq (k1_chk101.eq_1 v1795))
theorem k1_off101_inb : ∀ (v1795 : BitVec 32) (k1_hw101 : k1_chk101 v1795), ∀ a, (k1_off101 v1795) a + S1x64.size a ≤ S100000x64.size a := fun v1795 k1_hw101 => k1_hw101

def k1_off102 (v1813 : BitVec 32) : Fin 2 → Nat :=
  let c0_i32_1310 : BitVec 32 := 0#32
  ![v1813.toNat, 0]

def k1_chk102 (v1813 : BitVec 32) : Prop :=
  (∀ a, (k1_off102 v1813) a + S1x64.size a ≤ S100000x64.size a)
instance k1_chk102.dec : ∀ (v1813 : BitVec 32), Decidable (k1_chk102 v1813) := fun v1813 => decidable_of_iff' _ (Iff.of_eq (k1_chk102.eq_1 v1813))
theorem k1_off102_inb : ∀ (v1813 : BitVec 32) (k1_hw102 : k1_chk102 v1813), ∀ a, (k1_off102 v1813) a + S1x64.size a ≤ S100000x64.size a := fun v1813 k1_hw102 => k1_hw102

def k1_off103 (v1831 : BitVec 32) : Fin 2 → Nat :=
  let c0_i32_1323 : BitVec 32 := 0#32
  ![v1831.toNat, 0]

def k1_chk103 (v1831 : BitVec 32) : Prop :=
  (∀ a, (k1_off103 v1831) a + S1x64.size a ≤ S100000x64.size a)
instance k1_chk103.dec : ∀ (v1831 : BitVec 32), Decidable (k1_chk103 v1831) := fun v1831 => decidable_of_iff' _ (Iff.of_eq (k1_chk103.eq_1 v1831))
theorem k1_off103_inb : ∀ (v1831 : BitVec 32) (k1_hw103 : k1_chk103 v1831), ∀ a, (k1_off103 v1831) a + S1x64.size a ≤ S100000x64.size a := fun v1831 k1_hw103 => k1_hw103

def k1_off104 (v1849 : BitVec 32) : Fin 2 → Nat :=
  let c0_i32_1336 : BitVec 32 := 0#32
  ![v1849.toNat, 0]

def k1_chk104 (v1849 : BitVec 32) : Prop :=
  (∀ a, (k1_off104 v1849) a + S1x64.size a ≤ S100000x64.size a)
instance k1_chk104.dec : ∀ (v1849 : BitVec 32), Decidable (k1_chk104 v1849) := fun v1849 => decidable_of_iff' _ (Iff.of_eq (k1_chk104.eq_1 v1849))
theorem k1_off104_inb : ∀ (v1849 : BitVec 32) (k1_hw104 : k1_chk104 v1849), ∀ a, (k1_off104 v1849) a + S1x64.size a ≤ S100000x64.size a := fun v1849 k1_hw104 => k1_hw104

def k1_off105 (v1867 : BitVec 32) : Fin 2 → Nat :=
  let c0_i32_1349 : BitVec 32 := 0#32
  ![v1867.toNat, 0]

def k1_chk105 (v1867 : BitVec 32) : Prop :=
  (∀ a, (k1_off105 v1867) a + S1x64.size a ≤ S100000x64.size a)
instance k1_chk105.dec : ∀ (v1867 : BitVec 32), Decidable (k1_chk105 v1867) := fun v1867 => decidable_of_iff' _ (Iff.of_eq (k1_chk105.eq_1 v1867))
theorem k1_off105_inb : ∀ (v1867 : BitVec 32) (k1_hw105 : k1_chk105 v1867), ∀ a, (k1_off105 v1867) a + S1x64.size a ≤ S100000x64.size a := fun v1867 k1_hw105 => k1_hw105

def k1_off106 (v1885 : BitVec 32) : Fin 2 → Nat :=
  let c0_i32_1362 : BitVec 32 := 0#32
  ![v1885.toNat, 0]

def k1_chk106 (v1885 : BitVec 32) : Prop :=
  (∀ a, (k1_off106 v1885) a + S1x64.size a ≤ S100000x64.size a)
instance k1_chk106.dec : ∀ (v1885 : BitVec 32), Decidable (k1_chk106 v1885) := fun v1885 => decidable_of_iff' _ (Iff.of_eq (k1_chk106.eq_1 v1885))
theorem k1_off106_inb : ∀ (v1885 : BitVec 32) (k1_hw106 : k1_chk106 v1885), ∀ a, (k1_off106 v1885) a + S1x64.size a ≤ S100000x64.size a := fun v1885 k1_hw106 => k1_hw106

def k1_off107 (v1903 : BitVec 32) : Fin 2 → Nat :=
  let c0_i32_1375 : BitVec 32 := 0#32
  ![v1903.toNat, 0]

def k1_chk107 (v1903 : BitVec 32) : Prop :=
  (∀ a, (k1_off107 v1903) a + S1x64.size a ≤ S100000x64.size a)
instance k1_chk107.dec : ∀ (v1903 : BitVec 32), Decidable (k1_chk107 v1903) := fun v1903 => decidable_of_iff' _ (Iff.of_eq (k1_chk107.eq_1 v1903))
theorem k1_off107_inb : ∀ (v1903 : BitVec 32) (k1_hw107 : k1_chk107 v1903), ∀ a, (k1_off107 v1903) a + S1x64.size a ≤ S100000x64.size a := fun v1903 k1_hw107 => k1_hw107

def k1_off108 (v1921 : BitVec 32) : Fin 2 → Nat :=
  let c0_i32_1388 : BitVec 32 := 0#32
  ![v1921.toNat, 0]

def k1_chk108 (v1921 : BitVec 32) : Prop :=
  (∀ a, (k1_off108 v1921) a + S1x64.size a ≤ S100000x64.size a)
instance k1_chk108.dec : ∀ (v1921 : BitVec 32), Decidable (k1_chk108 v1921) := fun v1921 => decidable_of_iff' _ (Iff.of_eq (k1_chk108.eq_1 v1921))
theorem k1_off108_inb : ∀ (v1921 : BitVec 32) (k1_hw108 : k1_chk108 v1921), ∀ a, (k1_off108 v1921) a + S1x64.size a ≤ S100000x64.size a := fun v1921 k1_hw108 => k1_hw108

def k1_off109 (v1939 : BitVec 32) : Fin 2 → Nat :=
  let c0_i32_1401 : BitVec 32 := 0#32
  ![v1939.toNat, 0]

def k1_chk109 (v1939 : BitVec 32) : Prop :=
  (∀ a, (k1_off109 v1939) a + S1x64.size a ≤ S100000x64.size a)
instance k1_chk109.dec : ∀ (v1939 : BitVec 32), Decidable (k1_chk109 v1939) := fun v1939 => decidable_of_iff' _ (Iff.of_eq (k1_chk109.eq_1 v1939))
theorem k1_off109_inb : ∀ (v1939 : BitVec 32) (k1_hw109 : k1_chk109 v1939), ∀ a, (k1_off109 v1939) a + S1x64.size a ≤ S100000x64.size a := fun v1939 k1_hw109 => k1_hw109

def k1_off110 (v1957 : BitVec 32) : Fin 2 → Nat :=
  let c0_i32_1414 : BitVec 32 := 0#32
  ![v1957.toNat, 0]

def k1_chk110 (v1957 : BitVec 32) : Prop :=
  (∀ a, (k1_off110 v1957) a + S1x64.size a ≤ S100000x64.size a)
instance k1_chk110.dec : ∀ (v1957 : BitVec 32), Decidable (k1_chk110 v1957) := fun v1957 => decidable_of_iff' _ (Iff.of_eq (k1_chk110.eq_1 v1957))
theorem k1_off110_inb : ∀ (v1957 : BitVec 32) (k1_hw110 : k1_chk110 v1957), ∀ a, (k1_off110 v1957) a + S1x64.size a ≤ S100000x64.size a := fun v1957 k1_hw110 => k1_hw110

def k1_off111 (v1975 : BitVec 32) : Fin 2 → Nat :=
  let c0_i32_1427 : BitVec 32 := 0#32
  ![v1975.toNat, 0]

def k1_chk111 (v1975 : BitVec 32) : Prop :=
  (∀ a, (k1_off111 v1975) a + S1x64.size a ≤ S100000x64.size a)
instance k1_chk111.dec : ∀ (v1975 : BitVec 32), Decidable (k1_chk111 v1975) := fun v1975 => decidable_of_iff' _ (Iff.of_eq (k1_chk111.eq_1 v1975))
theorem k1_off111_inb : ∀ (v1975 : BitVec 32) (k1_hw111 : k1_chk111 v1975), ∀ a, (k1_off111 v1975) a + S1x64.size a ≤ S100000x64.size a := fun v1975 k1_hw111 => k1_hw111

def k1_off112 (v1993 : BitVec 32) : Fin 2 → Nat :=
  let c0_i32_1440 : BitVec 32 := 0#32
  ![v1993.toNat, 0]

def k1_chk112 (v1993 : BitVec 32) : Prop :=
  (∀ a, (k1_off112 v1993) a + S1x64.size a ≤ S100000x64.size a)
instance k1_chk112.dec : ∀ (v1993 : BitVec 32), Decidable (k1_chk112 v1993) := fun v1993 => decidable_of_iff' _ (Iff.of_eq (k1_chk112.eq_1 v1993))
theorem k1_off112_inb : ∀ (v1993 : BitVec 32) (k1_hw112 : k1_chk112 v1993), ∀ a, (k1_off112 v1993) a + S1x64.size a ≤ S100000x64.size a := fun v1993 k1_hw112 => k1_hw112

def k1_off113 (v2011 : BitVec 32) : Fin 2 → Nat :=
  let c0_i32_1453 : BitVec 32 := 0#32
  ![v2011.toNat, 0]

def k1_chk113 (v2011 : BitVec 32) : Prop :=
  (∀ a, (k1_off113 v2011) a + S1x64.size a ≤ S100000x64.size a)
instance k1_chk113.dec : ∀ (v2011 : BitVec 32), Decidable (k1_chk113 v2011) := fun v2011 => decidable_of_iff' _ (Iff.of_eq (k1_chk113.eq_1 v2011))
theorem k1_off113_inb : ∀ (v2011 : BitVec 32) (k1_hw113 : k1_chk113 v2011), ∀ a, (k1_off113 v2011) a + S1x64.size a ≤ S100000x64.size a := fun v2011 k1_hw113 => k1_hw113

def k1_off114 (v2029 : BitVec 32) : Fin 2 → Nat :=
  let c0_i32_1466 : BitVec 32 := 0#32
  ![v2029.toNat, 0]

def k1_chk114 (v2029 : BitVec 32) : Prop :=
  (∀ a, (k1_off114 v2029) a + S1x64.size a ≤ S100000x64.size a)
instance k1_chk114.dec : ∀ (v2029 : BitVec 32), Decidable (k1_chk114 v2029) := fun v2029 => decidable_of_iff' _ (Iff.of_eq (k1_chk114.eq_1 v2029))
theorem k1_off114_inb : ∀ (v2029 : BitVec 32) (k1_hw114 : k1_chk114 v2029), ∀ a, (k1_off114 v2029) a + S1x64.size a ≤ S100000x64.size a := fun v2029 k1_hw114 => k1_hw114

def k1_off115 (v2047 : BitVec 32) : Fin 2 → Nat :=
  let c0_i32_1479 : BitVec 32 := 0#32
  ![v2047.toNat, 0]

def k1_chk115 (v2047 : BitVec 32) : Prop :=
  (∀ a, (k1_off115 v2047) a + S1x64.size a ≤ S100000x64.size a)
instance k1_chk115.dec : ∀ (v2047 : BitVec 32), Decidable (k1_chk115 v2047) := fun v2047 => decidable_of_iff' _ (Iff.of_eq (k1_chk115.eq_1 v2047))
theorem k1_off115_inb : ∀ (v2047 : BitVec 32) (k1_hw115 : k1_chk115 v2047), ∀ a, (k1_off115 v2047) a + S1x64.size a ≤ S100000x64.size a := fun v2047 k1_hw115 => k1_hw115

def k1_off116 (v2065 : BitVec 32) : Fin 2 → Nat :=
  let c0_i32_1492 : BitVec 32 := 0#32
  ![v2065.toNat, 0]

def k1_chk116 (v2065 : BitVec 32) : Prop :=
  (∀ a, (k1_off116 v2065) a + S1x64.size a ≤ S100000x64.size a)
instance k1_chk116.dec : ∀ (v2065 : BitVec 32), Decidable (k1_chk116 v2065) := fun v2065 => decidable_of_iff' _ (Iff.of_eq (k1_chk116.eq_1 v2065))
theorem k1_off116_inb : ∀ (v2065 : BitVec 32) (k1_hw116 : k1_chk116 v2065), ∀ a, (k1_off116 v2065) a + S1x64.size a ≤ S100000x64.size a := fun v2065 k1_hw116 => k1_hw116

def k1_off117 (v2083 : BitVec 32) : Fin 2 → Nat :=
  let c0_i32_1505 : BitVec 32 := 0#32
  ![v2083.toNat, 0]

def k1_chk117 (v2083 : BitVec 32) : Prop :=
  (∀ a, (k1_off117 v2083) a + S1x64.size a ≤ S100000x64.size a)
instance k1_chk117.dec : ∀ (v2083 : BitVec 32), Decidable (k1_chk117 v2083) := fun v2083 => decidable_of_iff' _ (Iff.of_eq (k1_chk117.eq_1 v2083))
theorem k1_off117_inb : ∀ (v2083 : BitVec 32) (k1_hw117 : k1_chk117 v2083), ∀ a, (k1_off117 v2083) a + S1x64.size a ≤ S100000x64.size a := fun v2083 k1_hw117 => k1_hw117

def k1_off118 (v2101 : BitVec 32) : Fin 2 → Nat :=
  let c0_i32_1518 : BitVec 32 := 0#32
  ![v2101.toNat, 0]

def k1_chk118 (v2101 : BitVec 32) : Prop :=
  (∀ a, (k1_off118 v2101) a + S1x64.size a ≤ S100000x64.size a)
instance k1_chk118.dec : ∀ (v2101 : BitVec 32), Decidable (k1_chk118 v2101) := fun v2101 => decidable_of_iff' _ (Iff.of_eq (k1_chk118.eq_1 v2101))
theorem k1_off118_inb : ∀ (v2101 : BitVec 32) (k1_hw118 : k1_chk118 v2101), ∀ a, (k1_off118 v2101) a + S1x64.size a ≤ S100000x64.size a := fun v2101 k1_hw118 => k1_hw118

def k1_off119 (v2119 : BitVec 32) : Fin 2 → Nat :=
  let c0_i32_1531 : BitVec 32 := 0#32
  ![v2119.toNat, 0]

def k1_chk119 (v2119 : BitVec 32) : Prop :=
  (∀ a, (k1_off119 v2119) a + S1x64.size a ≤ S100000x64.size a)
instance k1_chk119.dec : ∀ (v2119 : BitVec 32), Decidable (k1_chk119 v2119) := fun v2119 => decidable_of_iff' _ (Iff.of_eq (k1_chk119.eq_1 v2119))
theorem k1_off119_inb : ∀ (v2119 : BitVec 32) (k1_hw119 : k1_chk119 v2119), ∀ a, (k1_off119 v2119) a + S1x64.size a ≤ S100000x64.size a := fun v2119 k1_hw119 => k1_hw119

def k1_off120 (v2137 : BitVec 32) : Fin 2 → Nat :=
  let c0_i32_1544 : BitVec 32 := 0#32
  ![v2137.toNat, 0]

def k1_chk120 (v2137 : BitVec 32) : Prop :=
  (∀ a, (k1_off120 v2137) a + S1x64.size a ≤ S100000x64.size a)
instance k1_chk120.dec : ∀ (v2137 : BitVec 32), Decidable (k1_chk120 v2137) := fun v2137 => decidable_of_iff' _ (Iff.of_eq (k1_chk120.eq_1 v2137))
theorem k1_off120_inb : ∀ (v2137 : BitVec 32) (k1_hw120 : k1_chk120 v2137), ∀ a, (k1_off120 v2137) a + S1x64.size a ≤ S100000x64.size a := fun v2137 k1_hw120 => k1_hw120

def k1_off121 (v2155 : BitVec 32) : Fin 2 → Nat :=
  let c0_i32_1557 : BitVec 32 := 0#32
  ![v2155.toNat, 0]

def k1_chk121 (v2155 : BitVec 32) : Prop :=
  (∀ a, (k1_off121 v2155) a + S1x64.size a ≤ S100000x64.size a)
instance k1_chk121.dec : ∀ (v2155 : BitVec 32), Decidable (k1_chk121 v2155) := fun v2155 => decidable_of_iff' _ (Iff.of_eq (k1_chk121.eq_1 v2155))
theorem k1_off121_inb : ∀ (v2155 : BitVec 32) (k1_hw121 : k1_chk121 v2155), ∀ a, (k1_off121 v2155) a + S1x64.size a ≤ S100000x64.size a := fun v2155 k1_hw121 => k1_hw121

def k1_off122 (v2173 : BitVec 32) : Fin 2 → Nat :=
  let c0_i32_1570 : BitVec 32 := 0#32
  ![v2173.toNat, 0]

def k1_chk122 (v2173 : BitVec 32) : Prop :=
  (∀ a, (k1_off122 v2173) a + S1x64.size a ≤ S100000x64.size a)
instance k1_chk122.dec : ∀ (v2173 : BitVec 32), Decidable (k1_chk122 v2173) := fun v2173 => decidable_of_iff' _ (Iff.of_eq (k1_chk122.eq_1 v2173))
theorem k1_off122_inb : ∀ (v2173 : BitVec 32) (k1_hw122 : k1_chk122 v2173), ∀ a, (k1_off122 v2173) a + S1x64.size a ≤ S100000x64.size a := fun v2173 k1_hw122 => k1_hw122

def k1_off123 (v2191 : BitVec 32) : Fin 2 → Nat :=
  let c0_i32_1583 : BitVec 32 := 0#32
  ![v2191.toNat, 0]

def k1_chk123 (v2191 : BitVec 32) : Prop :=
  (∀ a, (k1_off123 v2191) a + S1x64.size a ≤ S100000x64.size a)
instance k1_chk123.dec : ∀ (v2191 : BitVec 32), Decidable (k1_chk123 v2191) := fun v2191 => decidable_of_iff' _ (Iff.of_eq (k1_chk123.eq_1 v2191))
theorem k1_off123_inb : ∀ (v2191 : BitVec 32) (k1_hw123 : k1_chk123 v2191), ∀ a, (k1_off123 v2191) a + S1x64.size a ≤ S100000x64.size a := fun v2191 k1_hw123 => k1_hw123

def k1_off124 (v2209 : BitVec 32) : Fin 2 → Nat :=
  let c0_i32_1596 : BitVec 32 := 0#32
  ![v2209.toNat, 0]

def k1_chk124 (v2209 : BitVec 32) : Prop :=
  (∀ a, (k1_off124 v2209) a + S1x64.size a ≤ S100000x64.size a)
instance k1_chk124.dec : ∀ (v2209 : BitVec 32), Decidable (k1_chk124 v2209) := fun v2209 => decidable_of_iff' _ (Iff.of_eq (k1_chk124.eq_1 v2209))
theorem k1_off124_inb : ∀ (v2209 : BitVec 32) (k1_hw124 : k1_chk124 v2209), ∀ a, (k1_off124 v2209) a + S1x64.size a ≤ S100000x64.size a := fun v2209 k1_hw124 => k1_hw124

def k1_off125 (v2227 : BitVec 32) : Fin 2 → Nat :=
  let c0_i32_1609 : BitVec 32 := 0#32
  ![v2227.toNat, 0]

def k1_chk125 (v2227 : BitVec 32) : Prop :=
  (∀ a, (k1_off125 v2227) a + S1x64.size a ≤ S100000x64.size a)
instance k1_chk125.dec : ∀ (v2227 : BitVec 32), Decidable (k1_chk125 v2227) := fun v2227 => decidable_of_iff' _ (Iff.of_eq (k1_chk125.eq_1 v2227))
theorem k1_off125_inb : ∀ (v2227 : BitVec 32) (k1_hw125 : k1_chk125 v2227), ∀ a, (k1_off125 v2227) a + S1x64.size a ≤ S100000x64.size a := fun v2227 k1_hw125 => k1_hw125

def k1_off126 (v2245 : BitVec 32) : Fin 2 → Nat :=
  let c0_i32_1622 : BitVec 32 := 0#32
  ![v2245.toNat, 0]

def k1_chk126 (v2245 : BitVec 32) : Prop :=
  (∀ a, (k1_off126 v2245) a + S1x64.size a ≤ S100000x64.size a)
instance k1_chk126.dec : ∀ (v2245 : BitVec 32), Decidable (k1_chk126 v2245) := fun v2245 => decidable_of_iff' _ (Iff.of_eq (k1_chk126.eq_1 v2245))
theorem k1_off126_inb : ∀ (v2245 : BitVec 32) (k1_hw126 : k1_chk126 v2245), ∀ a, (k1_off126 v2245) a + S1x64.size a ≤ S100000x64.size a := fun v2245 k1_hw126 => k1_hw126

def k1_off127 (v2263 : BitVec 32) : Fin 2 → Nat :=
  let c0_i32_1635 : BitVec 32 := 0#32
  ![v2263.toNat, 0]

def k1_chk127 (v2263 : BitVec 32) : Prop :=
  (∀ a, (k1_off127 v2263) a + S1x64.size a ≤ S100000x64.size a)
instance k1_chk127.dec : ∀ (v2263 : BitVec 32), Decidable (k1_chk127 v2263) := fun v2263 => decidable_of_iff' _ (Iff.of_eq (k1_chk127.eq_1 v2263))
theorem k1_off127_inb : ∀ (v2263 : BitVec 32) (k1_hw127 : k1_chk127 v2263), ∀ a, (k1_off127 v2263) a + S1x64.size a ≤ S100000x64.size a := fun v2263 k1_hw127 => k1_hw127

def k1_off128 (v2281 : BitVec 32) : Fin 2 → Nat :=
  let c0_i32_1648 : BitVec 32 := 0#32
  ![v2281.toNat, 0]

def k1_chk128 (v2281 : BitVec 32) : Prop :=
  (∀ a, (k1_off128 v2281) a + S1x64.size a ≤ S100000x64.size a)
instance k1_chk128.dec : ∀ (v2281 : BitVec 32), Decidable (k1_chk128 v2281) := fun v2281 => decidable_of_iff' _ (Iff.of_eq (k1_chk128.eq_1 v2281))
theorem k1_off128_inb : ∀ (v2281 : BitVec 32) (k1_hw128 : k1_chk128 v2281), ∀ a, (k1_off128 v2281) a + S1x64.size a ≤ S100000x64.size a := fun v2281 k1_hw128 => k1_hw128

def cc1_transform_0 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .smem S128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S128_S1_0 : ∀ a, (![0] : Fin 1 → Nat) a + S1.size a ≤ S128.size a
  numel1_S1 : S1.numel = 1
  inb_S2_S1_0 : ∀ a, (![0] : Fin 1 → Nat) a + S1.size a ≤ S2.size a
  squeezes_S1_S_ : S1.Squeezes S_
  inb_S2x64_S1x64_0_0 : ∀ a, (![0, 0] : Fin 2 → Nat) a + S1x64.size a ≤ S2x64.size a
  squeezes_S1x64_S64 : S1x64.Squeezes S64
  inb_S100000x64_S1x64_0_0 : ∀ a, (![0, 0] : Fin 2 → Nat) a + S1x64.size a ≤ S100000x64.size a
  inb_S128_S1_1 : ∀ a, (![1] : Fin 1 → Nat) a + S1.size a ≤ S128.size a
  inb_S2_S1_1 : ∀ a, (![1] : Fin 1 → Nat) a + S1.size a ≤ S2.size a
  inb_S2x64_S1x64_1_0 : ∀ a, (![1, 0] : Fin 2 → Nat) a + S1x64.size a ≤ S2x64.size a
  h_S1x64 : 0 < S1x64.numel
  shapeCasts_S1x64_S64 : S1x64.ShapeCasts S64
  inb_S128x64_S1x64_0_0 : ∀ a, (![0, 0] : Fin 2 → Nat) a + S1x64.size a ≤ S128x64.size a
  shapeCasts_S64_S1x64 : S64.ShapeCasts S1x64
  inb_S128_S1_2 : ∀ a, (![2] : Fin 1 → Nat) a + S1.size a ≤ S128.size a
  inb_S128x64_S1x64_1_0 : ∀ a, (![1, 0] : Fin 2 → Nat) a + S1x64.size a ≤ S128x64.size a
  inb_S128_S1_3 : ∀ a, (![3] : Fin 1 → Nat) a + S1.size a ≤ S128.size a
  inb_S128x64_S1x64_2_0 : ∀ a, (![2, 0] : Fin 2 → Nat) a + S1x64.size a ≤ S128x64.size a
  inb_S128_S1_4 : ∀ a, (![4] : Fin 1 → Nat) a + S1.size a ≤ S128.size a
  inb_S128x64_S1x64_3_0 : ∀ a, (![3, 0] : Fin 2 → Nat) a + S1x64.size a ≤ S128x64.size a
  inb_S128_S1_5 : ∀ a, (![5] : Fin 1 → Nat) a + S1.size a ≤ S128.size a
  inb_S128x64_S1x64_4_0 : ∀ a, (![4, 0] : Fin 2 → Nat) a + S1x64.size a ≤ S128x64.size a
  inb_S128_S1_6 : ∀ a, (![6] : Fin 1 → Nat) a + S1.size a ≤ S128.size a
  inb_S128x64_S1x64_5_0 : ∀ a, (![5, 0] : Fin 2 → Nat) a + S1x64.size a ≤ S128x64.size a
  inb_S128_S1_7 : ∀ a, (![7] : Fin 1 → Nat) a + S1.size a ≤ S128.size a
  inb_S128x64_S1x64_6_0 : ∀ a, (![6, 0] : Fin 2 → Nat) a + S1x64.size a ≤ S128x64.size a
  inb_S128_S1_8 : ∀ a, (![8] : Fin 1 → Nat) a + S1.size a ≤ S128.size a
  inb_S128x64_S1x64_7_0 : ∀ a, (![7, 0] : Fin 2 → Nat) a + S1x64.size a ≤ S128x64.size a
  inb_S128_S1_9 : ∀ a, (![9] : Fin 1 → Nat) a + S1.size a ≤ S128.size a
  inb_S128x64_S1x64_8_0 : ∀ a, (![8, 0] : Fin 2 → Nat) a + S1x64.size a ≤ S128x64.size a
  inb_S128_S1_10 : ∀ a, (![10] : Fin 1 → Nat) a + S1.size a ≤ S128.size a
  inb_S128x64_S1x64_9_0 : ∀ a, (![9, 0] : Fin 2 → Nat) a + S1x64.size a ≤ S128x64.size a
  inb_S128_S1_11 : ∀ a, (![11] : Fin 1 → Nat) a + S1.size a ≤ S128.size a
  inb_S128x64_S1x64_10_0 : ∀ a, (![10, 0] : Fin 2 → Nat) a + S1x64.size a ≤ S128x64.size a
  inb_S128_S1_12 : ∀ a, (![12] : Fin 1 → Nat) a + S1.size a ≤ S128.size a
  inb_S128x64_S1x64_11_0 : ∀ a, (![11, 0] : Fin 2 → Nat) a + S1x64.size a ≤ S128x64.size a
  inb_S128_S1_13 : ∀ a, (![13] : Fin 1 → Nat) a + S1.size a ≤ S128.size a
  inb_S128x64_S1x64_12_0 : ∀ a, (![12, 0] : Fin 2 → Nat) a + S1x64.size a ≤ S128x64.size a
  inb_S128_S1_14 : ∀ a, (![14] : Fin 1 → Nat) a + S1.size a ≤ S128.size a
  inb_S128x64_S1x64_13_0 : ∀ a, (![13, 0] : Fin 2 → Nat) a + S1x64.size a ≤ S128x64.size a
  inb_S128_S1_15 : ∀ a, (![15] : Fin 1 → Nat) a + S1.size a ≤ S128.size a
  inb_S128x64_S1x64_14_0 : ∀ a, (![14, 0] : Fin 2 → Nat) a + S1x64.size a ≤ S128x64.size a
  inb_S128_S1_16 : ∀ a, (![16] : Fin 1 → Nat) a + S1.size a ≤ S128.size a
  inb_S128x64_S1x64_15_0 : ∀ a, (![15, 0] : Fin 2 → Nat) a + S1x64.size a ≤ S128x64.size a
  inb_S128_S1_17 : ∀ a, (![17] : Fin 1 → Nat) a + S1.size a ≤ S128.size a
  inb_S128x64_S1x64_16_0 : ∀ a, (![16, 0] : Fin 2 → Nat) a + S1x64.size a ≤ S128x64.size a
  inb_S128_S1_18 : ∀ a, (![18] : Fin 1 → Nat) a + S1.size a ≤ S128.size a
  inb_S128x64_S1x64_17_0 : ∀ a, (![17, 0] : Fin 2 → Nat) a + S1x64.size a ≤ S128x64.size a
  inb_S128_S1_19 : ∀ a, (![19] : Fin 1 → Nat) a + S1.size a ≤ S128.size a
  inb_S128x64_S1x64_18_0 : ∀ a, (![18, 0] : Fin 2 → Nat) a + S1x64.size a ≤ S128x64.size a
  inb_S128_S1_20 : ∀ a, (![20] : Fin 1 → Nat) a + S1.size a ≤ S128.size a
  inb_S128x64_S1x64_19_0 : ∀ a, (![19, 0] : Fin 2 → Nat) a + S1x64.size a ≤ S128x64.size a
  inb_S128_S1_21 : ∀ a, (![21] : Fin 1 → Nat) a + S1.size a ≤ S128.size a
  inb_S128x64_S1x64_20_0 : ∀ a, (![20, 0] : Fin 2 → Nat) a + S1x64.size a ≤ S128x64.size a
  inb_S128_S1_22 : ∀ a, (![22] : Fin 1 → Nat) a + S1.size a ≤ S128.size a
  inb_S128x64_S1x64_21_0 : ∀ a, (![21, 0] : Fin 2 → Nat) a + S1x64.size a ≤ S128x64.size a
  inb_S128_S1_23 : ∀ a, (![23] : Fin 1 → Nat) a + S1.size a ≤ S128.size a
  inb_S128x64_S1x64_22_0 : ∀ a, (![22, 0] : Fin 2 → Nat) a + S1x64.size a ≤ S128x64.size a
  inb_S128_S1_24 : ∀ a, (![24] : Fin 1 → Nat) a + S1.size a ≤ S128.size a
  inb_S128x64_S1x64_23_0 : ∀ a, (![23, 0] : Fin 2 → Nat) a + S1x64.size a ≤ S128x64.size a
  inb_S128_S1_25 : ∀ a, (![25] : Fin 1 → Nat) a + S1.size a ≤ S128.size a
  inb_S128x64_S1x64_24_0 : ∀ a, (![24, 0] : Fin 2 → Nat) a + S1x64.size a ≤ S128x64.size a
  inb_S128_S1_26 : ∀ a, (![26] : Fin 1 → Nat) a + S1.size a ≤ S128.size a
  inb_S128x64_S1x64_25_0 : ∀ a, (![25, 0] : Fin 2 → Nat) a + S1x64.size a ≤ S128x64.size a
  inb_S128_S1_27 : ∀ a, (![27] : Fin 1 → Nat) a + S1.size a ≤ S128.size a
  inb_S128x64_S1x64_26_0 : ∀ a, (![26, 0] : Fin 2 → Nat) a + S1x64.size a ≤ S128x64.size a
  inb_S128_S1_28 : ∀ a, (![28] : Fin 1 → Nat) a + S1.size a ≤ S128.size a
  inb_S128x64_S1x64_27_0 : ∀ a, (![27, 0] : Fin 2 → Nat) a + S1x64.size a ≤ S128x64.size a
  inb_S128_S1_29 : ∀ a, (![29] : Fin 1 → Nat) a + S1.size a ≤ S128.size a
  inb_S128x64_S1x64_28_0 : ∀ a, (![28, 0] : Fin 2 → Nat) a + S1x64.size a ≤ S128x64.size a
  inb_S128_S1_30 : ∀ a, (![30] : Fin 1 → Nat) a + S1.size a ≤ S128.size a
  inb_S128x64_S1x64_29_0 : ∀ a, (![29, 0] : Fin 2 → Nat) a + S1x64.size a ≤ S128x64.size a
  inb_S128_S1_31 : ∀ a, (![31] : Fin 1 → Nat) a + S1.size a ≤ S128.size a
  inb_S128x64_S1x64_30_0 : ∀ a, (![30, 0] : Fin 2 → Nat) a + S1x64.size a ≤ S128x64.size a
  inb_S128_S1_32 : ∀ a, (![32] : Fin 1 → Nat) a + S1.size a ≤ S128.size a
  inb_S128x64_S1x64_31_0 : ∀ a, (![31, 0] : Fin 2 → Nat) a + S1x64.size a ≤ S128x64.size a
  inb_S128_S1_33 : ∀ a, (![33] : Fin 1 → Nat) a + S1.size a ≤ S128.size a
  inb_S128x64_S1x64_32_0 : ∀ a, (![32, 0] : Fin 2 → Nat) a + S1x64.size a ≤ S128x64.size a
  inb_S128_S1_34 : ∀ a, (![34] : Fin 1 → Nat) a + S1.size a ≤ S128.size a
  inb_S128x64_S1x64_33_0 : ∀ a, (![33, 0] : Fin 2 → Nat) a + S1x64.size a ≤ S128x64.size a
  inb_S128_S1_35 : ∀ a, (![35] : Fin 1 → Nat) a + S1.size a ≤ S128.size a
  inb_S128x64_S1x64_34_0 : ∀ a, (![34, 0] : Fin 2 → Nat) a + S1x64.size a ≤ S128x64.size a
  inb_S128_S1_36 : ∀ a, (![36] : Fin 1 → Nat) a + S1.size a ≤ S128.size a
  inb_S128x64_S1x64_35_0 : ∀ a, (![35, 0] : Fin 2 → Nat) a + S1x64.size a ≤ S128x64.size a
  inb_S128_S1_37 : ∀ a, (![37] : Fin 1 → Nat) a + S1.size a ≤ S128.size a
  inb_S128x64_S1x64_36_0 : ∀ a, (![36, 0] : Fin 2 → Nat) a + S1x64.size a ≤ S128x64.size a
  inb_S128_S1_38 : ∀ a, (![38] : Fin 1 → Nat) a + S1.size a ≤ S128.size a
  inb_S128x64_S1x64_37_0 : ∀ a, (![37, 0] : Fin 2 → Nat) a + S1x64.size a ≤ S128x64.size a
  inb_S128_S1_39 : ∀ a, (![39] : Fin 1 → Nat) a + S1.size a ≤ S128.size a
  inb_S128x64_S1x64_38_0 : ∀ a, (![38, 0] : Fin 2 → Nat) a + S1x64.size a ≤ S128x64.size a
  inb_S128_S1_40 : ∀ a, (![40] : Fin 1 → Nat) a + S1.size a ≤ S128.size a
  inb_S128x64_S1x64_39_0 : ∀ a, (![39, 0] : Fin 2 → Nat) a + S1x64.size a ≤ S128x64.size a
  inb_S128_S1_41 : ∀ a, (![41] : Fin 1 → Nat) a + S1.size a ≤ S128.size a
  inb_S128x64_S1x64_40_0 : ∀ a, (![40, 0] : Fin 2 → Nat) a + S1x64.size a ≤ S128x64.size a
  inb_S128_S1_42 : ∀ a, (![42] : Fin 1 → Nat) a + S1.size a ≤ S128.size a
  inb_S128x64_S1x64_41_0 : ∀ a, (![41, 0] : Fin 2 → Nat) a + S1x64.size a ≤ S128x64.size a
  inb_S128_S1_43 : ∀ a, (![43] : Fin 1 → Nat) a + S1.size a ≤ S128.size a
  inb_S128x64_S1x64_42_0 : ∀ a, (![42, 0] : Fin 2 → Nat) a + S1x64.size a ≤ S128x64.size a
  inb_S128_S1_44 : ∀ a, (![44] : Fin 1 → Nat) a + S1.size a ≤ S128.size a
  inb_S128x64_S1x64_43_0 : ∀ a, (![43, 0] : Fin 2 → Nat) a + S1x64.size a ≤ S128x64.size a
  inb_S128_S1_45 : ∀ a, (![45] : Fin 1 → Nat) a + S1.size a ≤ S128.size a
  inb_S128x64_S1x64_44_0 : ∀ a, (![44, 0] : Fin 2 → Nat) a + S1x64.size a ≤ S128x64.size a
  inb_S128_S1_46 : ∀ a, (![46] : Fin 1 → Nat) a + S1.size a ≤ S128.size a
  inb_S128x64_S1x64_45_0 : ∀ a, (![45, 0] : Fin 2 → Nat) a + S1x64.size a ≤ S128x64.size a
  inb_S128_S1_47 : ∀ a, (![47] : Fin 1 → Nat) a + S1.size a ≤ S128.size a
  inb_S128x64_S1x64_46_0 : ∀ a, (![46, 0] : Fin 2 → Nat) a + S1x64.size a ≤ S128x64.size a
  inb_S128_S1_48 : ∀ a, (![48] : Fin 1 → Nat) a + S1.size a ≤ S128.size a
  inb_S128x64_S1x64_47_0 : ∀ a, (![47, 0] : Fin 2 → Nat) a + S1x64.size a ≤ S128x64.size a
  inb_S128_S1_49 : ∀ a, (![49] : Fin 1 → Nat) a + S1.size a ≤ S128.size a
  inb_S128x64_S1x64_48_0 : ∀ a, (![48, 0] : Fin 2 → Nat) a + S1x64.size a ≤ S128x64.size a
  inb_S128_S1_50 : ∀ a, (![50] : Fin 1 → Nat) a + S1.size a ≤ S128.size a
  inb_S128x64_S1x64_49_0 : ∀ a, (![49, 0] : Fin 2 → Nat) a + S1x64.size a ≤ S128x64.size a
  inb_S128_S1_51 : ∀ a, (![51] : Fin 1 → Nat) a + S1.size a ≤ S128.size a
  inb_S128x64_S1x64_50_0 : ∀ a, (![50, 0] : Fin 2 → Nat) a + S1x64.size a ≤ S128x64.size a
  inb_S128_S1_52 : ∀ a, (![52] : Fin 1 → Nat) a + S1.size a ≤ S128.size a
  inb_S128x64_S1x64_51_0 : ∀ a, (![51, 0] : Fin 2 → Nat) a + S1x64.size a ≤ S128x64.size a
  inb_S128_S1_53 : ∀ a, (![53] : Fin 1 → Nat) a + S1.size a ≤ S128.size a
  inb_S128x64_S1x64_52_0 : ∀ a, (![52, 0] : Fin 2 → Nat) a + S1x64.size a ≤ S128x64.size a
  inb_S128_S1_54 : ∀ a, (![54] : Fin 1 → Nat) a + S1.size a ≤ S128.size a
  inb_S128x64_S1x64_53_0 : ∀ a, (![53, 0] : Fin 2 → Nat) a + S1x64.size a ≤ S128x64.size a
  inb_S128_S1_55 : ∀ a, (![55] : Fin 1 → Nat) a + S1.size a ≤ S128.size a
  inb_S128x64_S1x64_54_0 : ∀ a, (![54, 0] : Fin 2 → Nat) a + S1x64.size a ≤ S128x64.size a
  inb_S128_S1_56 : ∀ a, (![56] : Fin 1 → Nat) a + S1.size a ≤ S128.size a
  inb_S128x64_S1x64_55_0 : ∀ a, (![55, 0] : Fin 2 → Nat) a + S1x64.size a ≤ S128x64.size a
  inb_S128_S1_57 : ∀ a, (![57] : Fin 1 → Nat) a + S1.size a ≤ S128.size a
  inb_S128x64_S1x64_56_0 : ∀ a, (![56, 0] : Fin 2 → Nat) a + S1x64.size a ≤ S128x64.size a
  inb_S128_S1_58 : ∀ a, (![58] : Fin 1 → Nat) a + S1.size a ≤ S128.size a
  inb_S128x64_S1x64_57_0 : ∀ a, (![57, 0] : Fin 2 → Nat) a + S1x64.size a ≤ S128x64.size a
  inb_S128_S1_59 : ∀ a, (![59] : Fin 1 → Nat) a + S1.size a ≤ S128.size a
  inb_S128x64_S1x64_58_0 : ∀ a, (![58, 0] : Fin 2 → Nat) a + S1x64.size a ≤ S128x64.size a
  inb_S128_S1_60 : ∀ a, (![60] : Fin 1 → Nat) a + S1.size a ≤ S128.size a
  inb_S128x64_S1x64_59_0 : ∀ a, (![59, 0] : Fin 2 → Nat) a + S1x64.size a ≤ S128x64.size a
  inb_S128_S1_61 : ∀ a, (![61] : Fin 1 → Nat) a + S1.size a ≤ S128.size a
  inb_S128x64_S1x64_60_0 : ∀ a, (![60, 0] : Fin 2 → Nat) a + S1x64.size a ≤ S128x64.size a
  inb_S128_S1_62 : ∀ a, (![62] : Fin 1 → Nat) a + S1.size a ≤ S128.size a
  inb_S128x64_S1x64_61_0 : ∀ a, (![61, 0] : Fin 2 → Nat) a + S1x64.size a ≤ S128x64.size a
  inb_S128_S1_63 : ∀ a, (![63] : Fin 1 → Nat) a + S1.size a ≤ S128.size a
  inb_S128x64_S1x64_62_0 : ∀ a, (![62, 0] : Fin 2 → Nat) a + S1x64.size a ≤ S128x64.size a
  inb_S128_S1_64 : ∀ a, (![64] : Fin 1 → Nat) a + S1.size a ≤ S128.size a
  inb_S128x64_S1x64_63_0 : ∀ a, (![63, 0] : Fin 2 → Nat) a + S1x64.size a ≤ S128x64.size a
  inb_S128_S1_65 : ∀ a, (![65] : Fin 1 → Nat) a + S1.size a ≤ S128.size a
  inb_S128x64_S1x64_64_0 : ∀ a, (![64, 0] : Fin 2 → Nat) a + S1x64.size a ≤ S128x64.size a
  inb_S128_S1_66 : ∀ a, (![66] : Fin 1 → Nat) a + S1.size a ≤ S128.size a
  inb_S128x64_S1x64_65_0 : ∀ a, (![65, 0] : Fin 2 → Nat) a + S1x64.size a ≤ S128x64.size a
  inb_S128_S1_67 : ∀ a, (![67] : Fin 1 → Nat) a + S1.size a ≤ S128.size a
  inb_S128x64_S1x64_66_0 : ∀ a, (![66, 0] : Fin 2 → Nat) a + S1x64.size a ≤ S128x64.size a
  inb_S128_S1_68 : ∀ a, (![68] : Fin 1 → Nat) a + S1.size a ≤ S128.size a
  inb_S128x64_S1x64_67_0 : ∀ a, (![67, 0] : Fin 2 → Nat) a + S1x64.size a ≤ S128x64.size a
  inb_S128_S1_69 : ∀ a, (![69] : Fin 1 → Nat) a + S1.size a ≤ S128.size a
  inb_S128x64_S1x64_68_0 : ∀ a, (![68, 0] : Fin 2 → Nat) a + S1x64.size a ≤ S128x64.size a
  inb_S128_S1_70 : ∀ a, (![70] : Fin 1 → Nat) a + S1.size a ≤ S128.size a
  inb_S128x64_S1x64_69_0 : ∀ a, (![69, 0] : Fin 2 → Nat) a + S1x64.size a ≤ S128x64.size a
  inb_S128_S1_71 : ∀ a, (![71] : Fin 1 → Nat) a + S1.size a ≤ S128.size a
  inb_S128x64_S1x64_70_0 : ∀ a, (![70, 0] : Fin 2 → Nat) a + S1x64.size a ≤ S128x64.size a
  inb_S128_S1_72 : ∀ a, (![72] : Fin 1 → Nat) a + S1.size a ≤ S128.size a
  inb_S128x64_S1x64_71_0 : ∀ a, (![71, 0] : Fin 2 → Nat) a + S1x64.size a ≤ S128x64.size a
  inb_S128_S1_73 : ∀ a, (![73] : Fin 1 → Nat) a + S1.size a ≤ S128.size a
  inb_S128x64_S1x64_72_0 : ∀ a, (![72, 0] : Fin 2 → Nat) a + S1x64.size a ≤ S128x64.size a
  inb_S128_S1_74 : ∀ a, (![74] : Fin 1 → Nat) a + S1.size a ≤ S128.size a
  inb_S128x64_S1x64_73_0 : ∀ a, (![73, 0] : Fin 2 → Nat) a + S1x64.size a ≤ S128x64.size a
  inb_S128_S1_75 : ∀ a, (![75] : Fin 1 → Nat) a + S1.size a ≤ S128.size a
  inb_S128x64_S1x64_74_0 : ∀ a, (![74, 0] : Fin 2 → Nat) a + S1x64.size a ≤ S128x64.size a
  inb_S128_S1_76 : ∀ a, (![76] : Fin 1 → Nat) a + S1.size a ≤ S128.size a
  inb_S128x64_S1x64_75_0 : ∀ a, (![75, 0] : Fin 2 → Nat) a + S1x64.size a ≤ S128x64.size a
  inb_S128_S1_77 : ∀ a, (![77] : Fin 1 → Nat) a + S1.size a ≤ S128.size a
  inb_S128x64_S1x64_76_0 : ∀ a, (![76, 0] : Fin 2 → Nat) a + S1x64.size a ≤ S128x64.size a
  inb_S128_S1_78 : ∀ a, (![78] : Fin 1 → Nat) a + S1.size a ≤ S128.size a
  inb_S128x64_S1x64_77_0 : ∀ a, (![77, 0] : Fin 2 → Nat) a + S1x64.size a ≤ S128x64.size a
  inb_S128_S1_79 : ∀ a, (![79] : Fin 1 → Nat) a + S1.size a ≤ S128.size a
  inb_S128x64_S1x64_78_0 : ∀ a, (![78, 0] : Fin 2 → Nat) a + S1x64.size a ≤ S128x64.size a
  inb_S128_S1_80 : ∀ a, (![80] : Fin 1 → Nat) a + S1.size a ≤ S128.size a
  inb_S128x64_S1x64_79_0 : ∀ a, (![79, 0] : Fin 2 → Nat) a + S1x64.size a ≤ S128x64.size a
  inb_S128_S1_81 : ∀ a, (![81] : Fin 1 → Nat) a + S1.size a ≤ S128.size a
  inb_S128x64_S1x64_80_0 : ∀ a, (![80, 0] : Fin 2 → Nat) a + S1x64.size a ≤ S128x64.size a
  inb_S128_S1_82 : ∀ a, (![82] : Fin 1 → Nat) a + S1.size a ≤ S128.size a
  inb_S128x64_S1x64_81_0 : ∀ a, (![81, 0] : Fin 2 → Nat) a + S1x64.size a ≤ S128x64.size a
  inb_S128_S1_83 : ∀ a, (![83] : Fin 1 → Nat) a + S1.size a ≤ S128.size a
  inb_S128x64_S1x64_82_0 : ∀ a, (![82, 0] : Fin 2 → Nat) a + S1x64.size a ≤ S128x64.size a
  inb_S128_S1_84 : ∀ a, (![84] : Fin 1 → Nat) a + S1.size a ≤ S128.size a
  inb_S128x64_S1x64_83_0 : ∀ a, (![83, 0] : Fin 2 → Nat) a + S1x64.size a ≤ S128x64.size a
  inb_S128_S1_85 : ∀ a, (![85] : Fin 1 → Nat) a + S1.size a ≤ S128.size a
  inb_S128x64_S1x64_84_0 : ∀ a, (![84, 0] : Fin 2 → Nat) a + S1x64.size a ≤ S128x64.size a
  inb_S128_S1_86 : ∀ a, (![86] : Fin 1 → Nat) a + S1.size a ≤ S128.size a
  inb_S128x64_S1x64_85_0 : ∀ a, (![85, 0] : Fin 2 → Nat) a + S1x64.size a ≤ S128x64.size a
  inb_S128_S1_87 : ∀ a, (![87] : Fin 1 → Nat) a + S1.size a ≤ S128.size a
  inb_S128x64_S1x64_86_0 : ∀ a, (![86, 0] : Fin 2 → Nat) a + S1x64.size a ≤ S128x64.size a
  inb_S128_S1_88 : ∀ a, (![88] : Fin 1 → Nat) a + S1.size a ≤ S128.size a
  inb_S128x64_S1x64_87_0 : ∀ a, (![87, 0] : Fin 2 → Nat) a + S1x64.size a ≤ S128x64.size a
  inb_S128_S1_89 : ∀ a, (![89] : Fin 1 → Nat) a + S1.size a ≤ S128.size a
  inb_S128x64_S1x64_88_0 : ∀ a, (![88, 0] : Fin 2 → Nat) a + S1x64.size a ≤ S128x64.size a
  inb_S128_S1_90 : ∀ a, (![90] : Fin 1 → Nat) a + S1.size a ≤ S128.size a
  inb_S128x64_S1x64_89_0 : ∀ a, (![89, 0] : Fin 2 → Nat) a + S1x64.size a ≤ S128x64.size a
  inb_S128_S1_91 : ∀ a, (![91] : Fin 1 → Nat) a + S1.size a ≤ S128.size a
  inb_S128x64_S1x64_90_0 : ∀ a, (![90, 0] : Fin 2 → Nat) a + S1x64.size a ≤ S128x64.size a
  inb_S128_S1_92 : ∀ a, (![92] : Fin 1 → Nat) a + S1.size a ≤ S128.size a
  inb_S128x64_S1x64_91_0 : ∀ a, (![91, 0] : Fin 2 → Nat) a + S1x64.size a ≤ S128x64.size a
  inb_S128_S1_93 : ∀ a, (![93] : Fin 1 → Nat) a + S1.size a ≤ S128.size a
  inb_S128x64_S1x64_92_0 : ∀ a, (![92, 0] : Fin 2 → Nat) a + S1x64.size a ≤ S128x64.size a
  inb_S128_S1_94 : ∀ a, (![94] : Fin 1 → Nat) a + S1.size a ≤ S128.size a
  inb_S128x64_S1x64_93_0 : ∀ a, (![93, 0] : Fin 2 → Nat) a + S1x64.size a ≤ S128x64.size a
  inb_S128_S1_95 : ∀ a, (![95] : Fin 1 → Nat) a + S1.size a ≤ S128.size a
  inb_S128x64_S1x64_94_0 : ∀ a, (![94, 0] : Fin 2 → Nat) a + S1x64.size a ≤ S128x64.size a
  inb_S128_S1_96 : ∀ a, (![96] : Fin 1 → Nat) a + S1.size a ≤ S128.size a
  inb_S128x64_S1x64_95_0 : ∀ a, (![95, 0] : Fin 2 → Nat) a + S1x64.size a ≤ S128x64.size a
  inb_S128_S1_97 : ∀ a, (![97] : Fin 1 → Nat) a + S1.size a ≤ S128.size a
  inb_S128x64_S1x64_96_0 : ∀ a, (![96, 0] : Fin 2 → Nat) a + S1x64.size a ≤ S128x64.size a
  inb_S128_S1_98 : ∀ a, (![98] : Fin 1 → Nat) a + S1.size a ≤ S128.size a
  inb_S128x64_S1x64_97_0 : ∀ a, (![97, 0] : Fin 2 → Nat) a + S1x64.size a ≤ S128x64.size a
  inb_S128_S1_99 : ∀ a, (![99] : Fin 1 → Nat) a + S1.size a ≤ S128.size a
  inb_S128x64_S1x64_98_0 : ∀ a, (![98, 0] : Fin 2 → Nat) a + S1x64.size a ≤ S128x64.size a
  inb_S128_S1_100 : ∀ a, (![100] : Fin 1 → Nat) a + S1.size a ≤ S128.size a
  inb_S128x64_S1x64_99_0 : ∀ a, (![99, 0] : Fin 2 → Nat) a + S1x64.size a ≤ S128x64.size a
  inb_S128_S1_101 : ∀ a, (![101] : Fin 1 → Nat) a + S1.size a ≤ S128.size a
  inb_S128x64_S1x64_100_0 : ∀ a, (![100, 0] : Fin 2 → Nat) a + S1x64.size a ≤ S128x64.size a
  inb_S128_S1_102 : ∀ a, (![102] : Fin 1 → Nat) a + S1.size a ≤ S128.size a
  inb_S128x64_S1x64_101_0 : ∀ a, (![101, 0] : Fin 2 → Nat) a + S1x64.size a ≤ S128x64.size a
  inb_S128_S1_103 : ∀ a, (![103] : Fin 1 → Nat) a + S1.size a ≤ S128.size a
  inb_S128x64_S1x64_102_0 : ∀ a, (![102, 0] : Fin 2 → Nat) a + S1x64.size a ≤ S128x64.size a
  inb_S128_S1_104 : ∀ a, (![104] : Fin 1 → Nat) a + S1.size a ≤ S128.size a
  inb_S128x64_S1x64_103_0 : ∀ a, (![103, 0] : Fin 2 → Nat) a + S1x64.size a ≤ S128x64.size a
  inb_S128_S1_105 : ∀ a, (![105] : Fin 1 → Nat) a + S1.size a ≤ S128.size a
  inb_S128x64_S1x64_104_0 : ∀ a, (![104, 0] : Fin 2 → Nat) a + S1x64.size a ≤ S128x64.size a
  inb_S128_S1_106 : ∀ a, (![106] : Fin 1 → Nat) a + S1.size a ≤ S128.size a
  inb_S128x64_S1x64_105_0 : ∀ a, (![105, 0] : Fin 2 → Nat) a + S1x64.size a ≤ S128x64.size a
  inb_S128_S1_107 : ∀ a, (![107] : Fin 1 → Nat) a + S1.size a ≤ S128.size a
  inb_S128x64_S1x64_106_0 : ∀ a, (![106, 0] : Fin 2 → Nat) a + S1x64.size a ≤ S128x64.size a
  inb_S128_S1_108 : ∀ a, (![108] : Fin 1 → Nat) a + S1.size a ≤ S128.size a
  inb_S128x64_S1x64_107_0 : ∀ a, (![107, 0] : Fin 2 → Nat) a + S1x64.size a ≤ S128x64.size a
  inb_S128_S1_109 : ∀ a, (![109] : Fin 1 → Nat) a + S1.size a ≤ S128.size a
  inb_S128x64_S1x64_108_0 : ∀ a, (![108, 0] : Fin 2 → Nat) a + S1x64.size a ≤ S128x64.size a
  inb_S128_S1_110 : ∀ a, (![110] : Fin 1 → Nat) a + S1.size a ≤ S128.size a
  inb_S128x64_S1x64_109_0 : ∀ a, (![109, 0] : Fin 2 → Nat) a + S1x64.size a ≤ S128x64.size a
  inb_S128_S1_111 : ∀ a, (![111] : Fin 1 → Nat) a + S1.size a ≤ S128.size a
  inb_S128x64_S1x64_110_0 : ∀ a, (![110, 0] : Fin 2 → Nat) a + S1x64.size a ≤ S128x64.size a
  inb_S128_S1_112 : ∀ a, (![112] : Fin 1 → Nat) a + S1.size a ≤ S128.size a
  inb_S128x64_S1x64_111_0 : ∀ a, (![111, 0] : Fin 2 → Nat) a + S1x64.size a ≤ S128x64.size a
  inb_S128_S1_113 : ∀ a, (![113] : Fin 1 → Nat) a + S1.size a ≤ S128.size a
  inb_S128x64_S1x64_112_0 : ∀ a, (![112, 0] : Fin 2 → Nat) a + S1x64.size a ≤ S128x64.size a
  inb_S128_S1_114 : ∀ a, (![114] : Fin 1 → Nat) a + S1.size a ≤ S128.size a
  inb_S128x64_S1x64_113_0 : ∀ a, (![113, 0] : Fin 2 → Nat) a + S1x64.size a ≤ S128x64.size a
  inb_S128_S1_115 : ∀ a, (![115] : Fin 1 → Nat) a + S1.size a ≤ S128.size a
  inb_S128x64_S1x64_114_0 : ∀ a, (![114, 0] : Fin 2 → Nat) a + S1x64.size a ≤ S128x64.size a
  inb_S128_S1_116 : ∀ a, (![116] : Fin 1 → Nat) a + S1.size a ≤ S128.size a
  inb_S128x64_S1x64_115_0 : ∀ a, (![115, 0] : Fin 2 → Nat) a + S1x64.size a ≤ S128x64.size a
  inb_S128_S1_117 : ∀ a, (![117] : Fin 1 → Nat) a + S1.size a ≤ S128.size a
  inb_S128x64_S1x64_116_0 : ∀ a, (![116, 0] : Fin 2 → Nat) a + S1x64.size a ≤ S128x64.size a
  inb_S128_S1_118 : ∀ a, (![118] : Fin 1 → Nat) a + S1.size a ≤ S128.size a
  inb_S128x64_S1x64_117_0 : ∀ a, (![117, 0] : Fin 2 → Nat) a + S1x64.size a ≤ S128x64.size a
  inb_S128_S1_119 : ∀ a, (![119] : Fin 1 → Nat) a + S1.size a ≤ S128.size a
  inb_S128x64_S1x64_118_0 : ∀ a, (![118, 0] : Fin 2 → Nat) a + S1x64.size a ≤ S128x64.size a
  inb_S128_S1_120 : ∀ a, (![120] : Fin 1 → Nat) a + S1.size a ≤ S128.size a
  inb_S128x64_S1x64_119_0 : ∀ a, (![119, 0] : Fin 2 → Nat) a + S1x64.size a ≤ S128x64.size a
  inb_S128_S1_121 : ∀ a, (![121] : Fin 1 → Nat) a + S1.size a ≤ S128.size a
  inb_S128x64_S1x64_120_0 : ∀ a, (![120, 0] : Fin 2 → Nat) a + S1x64.size a ≤ S128x64.size a
  inb_S128_S1_122 : ∀ a, (![122] : Fin 1 → Nat) a + S1.size a ≤ S128.size a
  inb_S128x64_S1x64_121_0 : ∀ a, (![121, 0] : Fin 2 → Nat) a + S1x64.size a ≤ S128x64.size a
  inb_S128_S1_123 : ∀ a, (![123] : Fin 1 → Nat) a + S1.size a ≤ S128.size a
  inb_S128x64_S1x64_122_0 : ∀ a, (![122, 0] : Fin 2 → Nat) a + S1x64.size a ≤ S128x64.size a
  inb_S128_S1_124 : ∀ a, (![124] : Fin 1 → Nat) a + S1.size a ≤ S128.size a
  inb_S128x64_S1x64_123_0 : ∀ a, (![123, 0] : Fin 2 → Nat) a + S1x64.size a ≤ S128x64.size a
  inb_S128_S1_125 : ∀ a, (![125] : Fin 1 → Nat) a + S1.size a ≤ S128.size a
  inb_S128x64_S1x64_124_0 : ∀ a, (![124, 0] : Fin 2 → Nat) a + S1x64.size a ≤ S128x64.size a
  inb_S128_S1_126 : ∀ a, (![126] : Fin 1 → Nat) a + S1.size a ≤ S128.size a
  inb_S128x64_S1x64_125_0 : ∀ a, (![125, 0] : Fin 2 → Nat) a + S1x64.size a ≤ S128x64.size a
  inb_S128_S1_127 : ∀ a, (![127] : Fin 1 → Nat) a + S1.size a ≤ S128.size a
  inb_S128x64_S1x64_126_0 : ∀ a, (![126, 0] : Fin 2 → Nat) a + S1x64.size a ≤ S128x64.size a
  inb_S128x64_S1x64_127_0 : ∀ a, (![127, 0] : Fin 2 → Nat) a + S1x64.size a ≤ S128x64.size a
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  scatter_S100000x64_S1600000x1_S1600000x64_1_0_0_1_wf : ScatterDims.WF S100000x64 S1600000x1 S1600000x64 [1] [0] [0] 1
  hcc0_scratch1 : 4 + S2.numel ≤ 12
  hcc1_scratch1 : 10 + S2.numel ≤ 12
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128.size a ≤ S1600000.size a
  hwx0_0 : ∀ i : grid0.Coords, EltTy.bits .i32 = 32 ∨ (Rect.block (s := S1600000) S128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S128x64.size a ≤ S1600000x64.size a
  hwx0_1 : ∀ i : grid0.Coords, EltTy.bits .f32 = 32 ∨ (Rect.block (s := S1600000x64) S128x64.size (cc0_transform_2 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128.size a ≤ S1600000.size a
  hwx1_0 : ∀ i : grid1.Coords, EltTy.bits .i32 = 32 ∨ (Rect.block (s := S1600000) S128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S128x64.size a ≤ S1600000x64.size a
  hwx1_1 : ∀ i : grid1.Coords, EltTy.bits .f32 = 32 ∨ (Rect.block (s := S1600000x64) S128x64.size (cc1_transform_2 i) (hinb1_1 i)).WholeWords (EltTy.packing .f32)

variable [Facts₀]

abbrev cc0_scratch1 : DmaSems sig S2 := SemArray.consecutive 4 S2 hcc0_scratch1
abbrev cc1_scratch1 : DmaSems sig S2 := SemArray.consecutive 10 S2 hcc1_scratch1
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg1) S128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x64.size cc0_transform_2 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S128x64.size cc1_transform_2 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i1⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000x1, .i32⟩
  | .hbm, ⟨11, _⟩ => ⟨S1600000x64, .f32⟩
  | .hbm, ⟨12, _⟩ => ⟨S_, .f32⟩
  | .hbm, ⟨13, _⟩ => ⟨S100000x64, .f32⟩
  | .hbm, ⟨14, _⟩ => ⟨S1600000x1, .i32⟩
  | .hbm, ⟨15, _⟩ => ⟨S100000x64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S_, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S1600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.SrcRange.lean ====
/-
  What the precondition says of the source ids: it holds exactly when every feature is finite and every source id lies in
  [0, 100000); read as an unsigned word such an id is below 100000.
-/
import proofs.«407166_j13718125543734_1_alg».proof.Pre_finite_inputs
import Idealize.ShloMosaic.Lib.StableHlo.Predicate
import Idealize.ShloMosaic.Lib.ReduceAll
import Idealize.ShloMosaic.Lib.ValueIdx

noncomputable section

namespace Cert.SrcRange

open Idealize.ShloMosaic Cert.Pre_finite_inputs

/-- The scalar shape has exactly one index: there is no axis to give a coordinate for. -/
instance : Subsingleton S_.Idx := ⟨fun _ _ => funext fun d => d.elim0⟩

/-- A 32-bit word whose signed value lies in [0, 100000) has that same value unsigned: a non-negative signed value means
    the top bit is clear, so the two readings agree. -/
theorem toNat_lt_of_signed_range (a : BitVec 32) (h0 : (0#32).toInt ≤ a.toInt) (h1 : a.toInt < (100000#32).toInt) :
    a.toNat < 100000 := by
  have hz : (0#32).toInt = 0 := by decide
  have hc : (100000#32).toInt = 100000 := by decide
  have hlt := a.isLt
  rw [hz] at h0
  rw [hc] at h1
  rw [BitVec.toInt_eq_toNat_cond] at h0 h1
  split at h0 <;> omega

variable {F : FTy → Type} [FloatOps F] [Cert.Pre_finite_inputs.Facts]

/-- Under the precondition every source id, read as an unsigned word, is below the table's height. -/
theorem src_lt (x0 : FVec F S100000x64 .f32) (x1 x2 : IVec S1600000 32)
    (h : Cert.Pre_finite_inputs.fn (F := F) x0 x1 x2 = fun _ => 1#1) (e : S1600000.Idx) :
    (x1 e).toNat < 100000 := by
  -- The predicate is a scalar; read it at its one index and unfold it to the conjunction of the two "all" reductions.
  have h0 := congrFun h ValueIdx.ix0
  dsimp only [Cert.Pre_finite_inputs.fn] at h0
  -- The second conjunct: the and-reduction of the range test over all ids is 1.
  have h9 := (IntOp.andi_eq_one.1 h0).2
  -- Hence the range test is 1 at every id, in particular at e.
  have h8 := Host.reduce_andi_all _ _ _ _ _ h9 e
  -- The range test at e is the conjunction of 0 ≤ id and id < 100000, both signed, against broadcast scalars.
  obtain ⟨h5, h7⟩ := IntOp.andi_eq_one.1 h8
  have h5' := IntOp.cmpi_sge.1 h5
  have h7' := IntOp.cmpi_slt.1 h7
  exact toNat_lt_of_signed_range (x1 e) h5' h7'

end Cert.SrcRange

end
-- ==== Proof.KI.Rows.lean ====
/-
  The gather kernel's body, run symbolically, for both calls of the program: 128 one-row copies out of a table left in HBM,
  each waited for before its row is stored into the output block. What is proved here is that the body runs, given that
  every node id of the block is below the table's height, and which 128 row stores it leaves.
-/
import proofs.«407166_j13718125543734_1_alg».proof.Proof.Gen.KernelIdeal.Launch
import proofs.«407166_j13718125543734_1_alg».proof.Proof.Gen.KernelIdeal.Skeleton
import proofs.«407166_j13718125543734_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- A node id below the table's height names a row of the table: the one-row slice at that id lies inside it. -/
theorem row_inside (v : BitVec 32) (h : v.toNat < 100000) :
    ∀ a, (![v.toNat, 0] : Fin 2 → Nat) a + S1x64.size a ≤ S100000x64.size a := by
  intro a
  match a with
  | ⟨0, _⟩ => show v.toNat + 1 ≤ 100000; omega
  | ⟨1, _⟩ => show 0 + 64 ≤ 64; omega

/-- A scratch row held by its own elements, at contents `f`. -/
abbrev RowBuf (c : Dev nD) (M : Memref sig .tc .vmem S64 .f32) : Type := Buf (Elt F) (M.view.loc (c : Thread nD τ))
abbrev rowPt (c : Dev nD) (M : Memref sig .tc .vmem S64 .f32) (f : RowBuf (F := F) c M) : sProp 𝕄 :=
  M.view.loc (c : Thread nD τ) ↦[M.view.set]{fullShare} f

/-! ## Call 0: the body's run

The body copies, for each of the block's 128 node ids in turn, that id's row of the table (left in HBM) into one row of a
two-row scratch, alternating rows, waits for the copy, starts the next id's copy into the other row, and stores the landed
row as row `k` of the output block. Only one copy is ever in flight, and it never targets the row being read. -/

/-- The table this call gathers from, whole in HBM. -/
abbrev tableM0 : Memref sig .tc .hbm S100000x64 .f32 := Memref.whole main_arg0
abbrev TableBuf0 (c : Dev nD) : Type := Buf (Elt F) (tableM0.view.loc (c : Thread nD τ))
abbrev tablePt0 (c : Dev nD) (f : TableBuf0 (F := F) c) : sProp 𝕄 :=
  tableM0.view.loc (c : Thread nD τ) ↦{fullShare} f

/-- The two-row scratch, whole, and each of its rows as a memref of its own, spelt as the copies spell their target. -/
abbrev scr0 : Memref sig .tc .vmem S2x64 .f32 := Memref.whole cc0_scratch0
abbrev rowA0 : Memref sig .tc .vmem S64 .f32 :=
  (scr0.slice (Rect.unit (s := S2x64) ![0, 0] S1x64.size inb_S2x64_S1x64_0_0) (fun _ => rfl)).squeeze S64 squeezes_S1x64_S64
abbrev rowB0 : Memref sig .tc .vmem S64 .f32 :=
  (scr0.slice (Rect.unit (s := S2x64) ![1, 0] S1x64.size inb_S2x64_S1x64_1_0) (fun _ => rfl)).squeeze S64 squeezes_S1x64_S64

set_option maxHeartbeats 0 in
/-- The rows the body's 128 stores leave in the output block's buffer (last first), with the proof that the body runs: from
    the id block held at `ids` (every id a row of the table: `hids`), the output buffer and the two scratch rows at
    anything, the two copy semaphores at zero and the table whole at `tbl`, to the same with the output buffer written. -/
noncomputable def rowCopyRun0 (c : Dev nD) (i : grid0.Coords) (arg1 : Memref sig .tc .smem S128 .i32) (harg1 : arg1.IsWhole)
    (arg3 : Memref sig .tc .vmem S128x64 .f32) (harg3 : arg3.IsWhole)
    (ids : Vec F S128 .i32) (tbl : TableBuf0 (F := F) c)
    (hids : ∀ (B : LoadRect S128) (x : B.shape.Idx), BitVec.toNat (arg1.view.readAt (Elt F) B (harg1.unread ids) x : BitVec 32) < 100000) :
    { rows : List (View.Piece (Elt F) S128x64 .f32) //
      ∀ (W : Waits sig Unit) (K : PUnit → sProp 𝕄),
        iprop(owns (c : Thread nD τ) arg1 fullShare ids ∗ (∃ d, owns (c : Thread nD τ) arg3 fullShare d) ∗ (∃ f, rowPt c rowA0 f) ∗ (∃ f, rowPt c rowB0 f)
            ∗ semVal ((c : Thread nD τ), SemLoc.dma 4) 0 ∗ semVal ((c : Thread nD τ), SemLoc.dma 5) 0 ∗ tablePt0 c tbl ∗ owes (c : Thread nD τ) 0 W
            ∗ (iprop(owns (c : Thread nD τ) arg1 fullShare ids ∗ (∃ f, arg3.view.loc (c : Thread nD τ) ↦[arg3.view.set]{fullShare} arg3.view.writes (Elt F) f rows) ∗ (∃ f, rowPt c rowA0 f) ∗ (∃ f, rowPt c rowB0 f)
                ∗ semVal ((c : Thread nD τ), SemLoc.dma 4) 0 ∗ semVal ((c : Thread nD τ), SemLoc.dma 5) 0 ∗ tablePt0 c tbl ∗ (∃ W', owes (c : Thread nD τ) 0 W')) -∗ K ⟨⟩))
          ⊢ wp frame (wpE (defs₀ (F := F)) Variants.none c none) Set.univ (cc0__gather_kernel i arg1 harg1 (Memref.whole main_arg0) (Memref.isWhole_whole _) arg3 harg3 scr0 (Memref.isWhole_whole _) cc0_scratch1) K } := by
  refine ⟨?_, fun W K => ?run⟩
  case run =>
    simp only [cc0__gather_kernel_eq_skeleton]; unfold cc0__gather_kernel_skel
    unfold owns
    iintro ⟨⟨%f0, %hf0, H0⟩, ⟨%d1, %f1, -, H1⟩, ⟨%fa, HA⟩, ⟨%fb, HB⟩, Hq0, Hq1, Hh0, HW, Hk⟩
    obtain rfl := harg1.eq_unread hf0
    sl_exec (disch := first | exact row_inside _ (hids _ _))
    sl_step
    iapply Hk
    isplitl [H0]
    · iexists _; isplitr; · ipureintro; exact harg1.read_unread _
      iexact H0
    isplitl [H1]; · iexists _; iexact H1
    isplitl [HA]; · iexists _; iexact HA
    isplitl [HB]; · iexists _; iexact HB
    isplitl [Hq0]; · iexact Hq0
    isplitl [Hq1]; · iexact Hq1
    isplitl [Hh0]; · iexact Hh0
    iexists _; iexact HW

set_option maxHeartbeats 0 in
/-- The 128 stored rows tile the 128 × 64 block row by row, so every entry of the block is in one of them. -/
theorem rows_cover0 (c : Dev nD) (i : grid0.Coords) (arg1 : Memref sig .tc .smem S128 .i32) (harg1 : arg1.IsWhole)
    (arg3 : Memref sig .tc .vmem S128x64 .f32) (harg3 : arg3.IsWhole)
    (ids : Vec F S128 .i32) (tbl : TableBuf0 (F := F) c)
    (hids : ∀ (B : LoadRect S128) (x : B.shape.Idx), BitVec.toNat (arg1.view.readAt (Elt F) B (harg1.unread ids) x : BitVec 32) < 100000) (y : S128x64.Idx) :
    ∃ pc ∈ (rowCopyRun0 c i arg1 harg1 arg3 harg3 ids tbl hids).1, y ∈ pc.1.set :=
  View.cover_of_tiledL (rowCopyRun0 c i arg1 harg1 arg3 harg3 ids tbl hids).1 S1x64.size (by sl_kernel_rfl) y

/-! ## Call 1: the body's run

The body copies, for each of the block's 128 node ids in turn, that id's row of the table (left in HBM) into one row of a
two-row scratch, alternating rows, waits for the copy, starts the next id's copy into the other row, and stores the landed
row as row `k` of the output block. Only one copy is ever in flight, and it never targets the row being read. -/

/-- The table this call gathers from, whole in HBM. -/
abbrev tableM1 : Memref sig .tc .hbm S100000x64 .f32 := Memref.whole main_v14
abbrev TableBuf1 (c : Dev nD) : Type := Buf (Elt F) (tableM1.view.loc (c : Thread nD τ))
abbrev tablePt1 (c : Dev nD) (f : TableBuf1 (F := F) c) : sProp 𝕄 :=
  tableM1.view.loc (c : Thread nD τ) ↦{fullShare} f

/-- The two-row scratch, whole, and each of its rows as a memref of its own, spelt as the copies spell their target. -/
abbrev scr1 : Memref sig .tc .vmem S2x64 .f32 := Memref.whole cc1_scratch0
abbrev rowA1 : Memref sig .tc .vmem S64 .f32 :=
  (scr1.slice (Rect.unit (s := S2x64) ![0, 0] S1x64.size inb_S2x64_S1x64_0_0) (fun _ => rfl)).squeeze S64 squeezes_S1x64_S64
abbrev rowB1 : Memref sig .tc .vmem S64 .f32 :=
  (scr1.slice (Rect.unit (s := S2x64) ![1, 0] S1x64.size inb_S2x64_S1x64_1_0) (fun _ => rfl)).squeeze S64 squeezes_S1x64_S64

set_option maxHeartbeats 0 in
/-- The rows the body's 128 stores leave in the output block's buffer (last first), with the proof that the body runs: from
    the id block held at `ids` (every id a row of the table: `hids`), the output buffer and the two scratch rows at
    anything, the two copy semaphores at zero and the table whole at `tbl`, to the same with the output buffer written. -/
noncomputable def rowCopyRun1 (c : Dev nD) (i : grid1.Coords) (arg1 : Memref sig .tc .smem S128 .i32) (harg1 : arg1.IsWhole)
    (arg3 : Memref sig .tc .vmem S128x64 .f32) (harg3 : arg3.IsWhole)
    (ids : Vec F S128 .i32) (tbl : TableBuf1 (F := F) c)
    (hids : ∀ (B : LoadRect S128) (x : B.shape.Idx), BitVec.toNat (arg1.view.readAt (Elt F) B (harg1.unread ids) x : BitVec 32) < 100000) :
    { rows : List (View.Piece (Elt F) S128x64 .f32) //
      ∀ (W : Waits sig Unit) (K : PUnit → sProp 𝕄),
        iprop(owns (c : Thread nD τ) arg1 fullShare ids ∗ (∃ d, owns (c : Thread nD τ) arg3 fullShare d) ∗ (∃ f, rowPt c rowA1 f) ∗ (∃ f, rowPt c rowB1 f)
            ∗ semVal ((c : Thread nD τ), SemLoc.dma 10) 0 ∗ semVal ((c : Thread nD τ), SemLoc.dma 11) 0 ∗ tablePt1 c tbl ∗ owes (c : Thread nD τ) 0 W
            ∗ (iprop(owns (c : Thread nD τ) arg1 fullShare ids ∗ (∃ f, arg3.view.loc (c : Thread nD τ) ↦[arg3.view.set]{fullShare} arg3.view.writes (Elt F) f rows) ∗ (∃ f, rowPt c rowA1 f) ∗ (∃ f, rowPt c rowB1 f)
                ∗ semVal ((c : Thread nD τ), SemLoc.dma 10) 0 ∗ semVal ((c : Thread nD τ), SemLoc.dma 11) 0 ∗ tablePt1 c tbl ∗ (∃ W', owes (c : Thread nD τ) 0 W')) -∗ K ⟨⟩))
          ⊢ wp frame (wpE (defs₀ (F := F)) Variants.none c none) Set.univ (cc1__gather_kernel i arg1 harg1 (Memref.whole main_v14) (Memref.isWhole_whole _) arg3 harg3 scr1 (Memref.isWhole_whole _) cc1_scratch1) K } := by
  refine ⟨?_, fun W K => ?run⟩
  case run =>
    simp only [cc1__gather_kernel_eq_skeleton]; unfold cc1__gather_kernel_skel
    unfold owns
    iintro ⟨⟨%f0, %hf0, H0⟩, ⟨%d1, %f1, -, H1⟩, ⟨%fa, HA⟩, ⟨%fb, HB⟩, Hq0, Hq1, Hh0, HW, Hk⟩
    obtain rfl := harg1.eq_unread hf0
    sl_exec (disch := first | exact row_inside _ (hids _ _))
    sl_step
    iapply Hk
    isplitl [H0]
    · iexists _; isplitr; · ipureintro; exact harg1.read_unread _
      iexact H0
    isplitl [H1]; · iexists _; iexact H1
    isplitl [HA]; · iexists _; iexact HA
    isplitl [HB]; · iexists _; iexact HB
    isplitl [Hq0]; · iexact Hq0
    isplitl [Hq1]; · iexact Hq1
    isplitl [Hh0]; · iexact Hh0
    iexists _; iexact HW

set_option maxHeartbeats 0 in
/-- The 128 stored rows tile the 128 × 64 block row by row, so every entry of the block is in one of them. -/
theorem rows_cover1 (c : Dev nD) (i : grid1.Coords) (arg1 : Memref sig .tc .smem S128 .i32) (harg1 : arg1.IsWhole)
    (arg3 : Memref sig .tc .vmem S128x64 .f32) (harg3 : arg3.IsWhole)
    (ids : Vec F S128 .i32) (tbl : TableBuf1 (F := F) c)
    (hids : ∀ (B : LoadRect S128) (x : B.shape.Idx), BitVec.toNat (arg1.view.readAt (Elt F) B (harg1.unread ids) x : BitVec 32) < 100000) (y : S128x64.Idx) :
    ∃ pc ∈ (rowCopyRun1 c i arg1 harg1 arg3 harg3 ids tbl hids).1, y ∈ pc.1.set :=
  View.cover_of_tiledL (rowCopyRun1 c i arg1 harg1 arg3 harg3 ids tbl hids).1 S1x64.size (by sl_kernel_rfl) y

end Cert.KernelIdeal.Hand

end
-- ==== Proof.Spec.lean ====
/-
  What the gather computes, stated once for both programs and for any number of ids: entry (e, j) of the gathered array is
  the table's entry (row, j), where row is id e read as a signed number and clamped into the table's 100000 rows. For an
  id that is a row number (0 ≤ id < 100000) the clamp does nothing and row = id.
-/
import Idealize.ShloMosaic.PureOps.Ideal
import Idealize.ShloMosaic.Lib.ValueIdx

noncomputable section

namespace Cert.Spec

open Idealize.ShloMosaic Idealize.ShloMosaic.ValueIdx

/-- The table row a node id reads: the id as a signed number, clamped into `[0, 99999]`. -/
def rowOf (v : BitVec 32) : Fin 100000 := ⟨min v.toInt.toNat 99999, by omega⟩

/-- An id below the table's height (as an unsigned word) is its own row. -/
theorem rowOf_val {v : BitVec 32} (h : v.toNat < 100000) : (rowOf v).val = v.toNat := by
  have hi : v.toInt = (v.toNat : Int) := BitVec.toInt_eq_toNat_of_lt (by omega)
  show min v.toInt.toNat 99999 = v.toNat
  rw [hi, Int.toNat_natCast]; omega

/-- The rows gathered: entry `(e, j)` is the table at `(rowOf (ids e), j)`. -/
def gatherRows {α : Type} {E : Nat} (T : (⟨2, ![100000, 64]⟩ : Shape).Idx → α) (ids : (⟨1, ![E]⟩ : Shape).Idx → BitVec 32) :
    (⟨2, ![E, 64]⟩ : Shape).Idx → α :=
  fun y => T (ix2 (rowOf (ids (ix1 ⟨(y 0).val, idx2_lt0 y⟩))) ⟨(y 1).val, idx2_lt1 y⟩)

theorem gatherRows_apply {α : Type} {E : Nat} (T : (⟨2, ![100000, 64]⟩ : Shape).Idx → α) (ids : (⟨1, ![E]⟩ : Shape).Idx → BitVec 32)
    (y : (⟨2, ![E, 64]⟩ : Shape).Idx) :
    gatherRows T ids y = T (ix2 (rowOf (ids (ix1 ⟨(y 0).val, idx2_lt0 y⟩))) ⟨(y 1).val, idx2_lt1 y⟩) := rfl

end Cert.Spec

end
-- ==== Proof.KI.RowsValue.lean ====
/-
  What the 128 row stores of the gather body amount to: the output block is, entry by entry, the table's rows that the
  block's ids name. Each stored row was read from one scratch row right after a whole-row copy landed in it, so it is the
  table's row at that id; the 128 one-row stores tile the block.
-/
import proofs.«407166_j13718125543734_1_alg».proof.Proof.Gen.KernelIdeal.Launch
import proofs.«407166_j13718125543734_1_alg».proof.Proof.Gen.KernelIdeal.Skeleton
import proofs.«407166_j13718125543734_1_alg».proof.Proof.Gen.KernelIdeal.Points
import proofs.«407166_j13718125543734_1_alg».proof.Proof.KI.Rows
import proofs.«407166_j13718125543734_1_alg».proof.Proof.Spec
import Idealize.ShloMosaic.Lib.Pipeline.Value
import Idealize.ShloMosaic.Lib.ValueLayout
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Cert.Spec Idealize.ShloMosaic.ValueIdx

/-- Ids below the table's height stay so when read through the id buffer's own view. -/
theorem hids_of_lt (arg1 : Memref sig .tc .smem S128 .i32) (harg1 : arg1.IsWhole) (ids : Vec F S128 .i32)
    (hlt : ∀ j : S128.Idx, BitVec.toNat (ids j : BitVec 32) < 100000) :
    ∀ (B : LoadRect S128) (x : B.shape.Idx), BitVec.toNat (arg1.view.readAt (Elt F) B (harg1.unread ids) x : BitVec 32) < 100000 := by
  intro B x; rw [harg1.readAt_unread]; exact hlt _

section General

variable {Val : EltTy → Type}

/-- A whole-row copy landed last is what the row reads, whatever older copies lie beneath it. -/
theorem read_writes_whole_cons {κ : Kind} {sp : Space} {s : Shape} {e : EltTy} (v : View sig κ sp s e)
    (g : v.ty.Contents Val) (w : s.Idx → Val e) (L : List (View.Piece Val s e)) :
    v.read Val (v.writes Val g (⟨Rect.whole s, w⟩ :: L)) = w := by
  funext y
  have h := View.read_writes_cons_emb v g (Rect.whole s) w L y
  rwa [Rect.emb_whole_apply] at h

/-- Entry `j` of row `r` of a two-axis array, read through the one-row slice at `r` with its unit axis dropped, is the
    array's entry `(r, j)`. -/
theorem read_row_slice {κ : Kind} {sp : Space} {n : Nat} {e : EltTy} (tab : Memref sig κ sp ⟨2, ![n, 64]⟩ e)
    (r : Nat) (hr : r < n) (inb : ∀ a, (![r, 0] : Fin 2 → Nat) a + S1x64.size a ≤ (⟨2, ![n, 64]⟩ : Shape).size a)
    (hs : ∀ a, (Rect.unit (s := ⟨2, ![n, 64]⟩) ![r, 0] S1x64.size inb).stride a = 1)
    (hq : (Rect.unit (s := ⟨2, ![n, 64]⟩) ![r, 0] S1x64.size inb).shape.Squeezes S64)
    (tbl : tab.view.ty.Contents Val) (j : Fin 64) :
    ((tab.slice (Rect.unit (s := ⟨2, ![n, 64]⟩) ![r, 0] S1x64.size inb) hs).squeeze S64 hq).view.read Val tbl (ix1 j)
      = tab.view.read Val tbl (ix2 ⟨r, hr⟩ j) := by
  rw [Memref.read_squeeze_slice tab _ hs hq shapeCasts_S1x64_S64 tbl]
  have e1 := shapeCast_1a_a_apply (a := 64) (tab.view.readAt Val (Rect.unit (s := ⟨2, ![n, 64]⟩) ![r, 0] S1x64.size inb).toLoadRect tbl) shapeCasts_S1x64_S64 j
  refine e1.trans ?_
  rw [View.readAt_apply]
  congr 1
  refine Shape.idx_ext₂ ?_ ?_
  · show r + 1 * 0 = r; omega
  · show 0 + 1 * j.val = j.val; omega

end General

section Stored

variable {Val : EltTy → Type}

/-- One stored row of the gather, entry by entry. The row was loaded from row `s` of the two-row scratch, through the whole
    scratch, right after a whole-row copy of row `r` of the table landed in that scratch row (through the row's own view, over
    whatever older copies `L` lay there); its two shape casts, dropping the unit axis and putting it back, cancel. So its
    entry `(0, j)` is the table's entry `(r, j)`. -/
theorem stored_row_apply {sp sp' : Space}
    (scr : Memref sig .tc sp S2x64 .f32) (s : Nat)
    (inbS : ∀ a, (![s, 0] : Fin 2 → Nat) a + S1x64.size a ≤ S2x64.size a)
    (hsS : ∀ a, (Rect.unit (s := S2x64) ![s, 0] S1x64.size inbS).stride a = 1)
    (hqS : (Rect.unit (s := S2x64) ![s, 0] S1x64.size inbS).shape.Squeezes S64)
    (g : ((scr.slice (Rect.unit (s := S2x64) ![s, 0] S1x64.size inbS) hsS).squeeze S64 hqS).view.ty.Contents Val)
    (tab : Memref sig .tc sp' S100000x64 .f32) (r : Nat) (hr : r < 100000)
    (inbT : ∀ a, (![r, 0] : Fin 2 → Nat) a + S1x64.size a ≤ S100000x64.size a)
    (hsT : ∀ a, (Rect.unit (s := S100000x64) ![r, 0] S1x64.size inbT).stride a = 1)
    (hqT : (Rect.unit (s := S100000x64) ![r, 0] S1x64.size inbT).shape.Squeezes S64)
    (tbl : tab.view.ty.Contents Val) (L : List (View.Piece Val S64 .f32))
    (hc1 : S1x64.ShapeCasts S64) (hc2 : S64.ShapeCasts S1x64) (x : S1x64.Idx) :
    shapeCast S1x64 (shapeCast S64 (scr.view.readAt Val (Rect.unit (s := S2x64) ![s, 0] S1x64.size inbS).toLoadRect
        (((scr.slice (Rect.unit (s := S2x64) ![s, 0] S1x64.size inbS) hsS).squeeze S64 hqS).view.writes Val g
          (⟨Rect.whole S64, ReadAs.same.apply (View.read Val ((tab.slice (Rect.unit (s := S100000x64) ![r, 0] S1x64.size inbT) hsT).squeeze S64 hqT).view tbl)⟩ :: L))) hc1) hc2 x
      = tab.view.read Val tbl (ix2 ⟨r, hr⟩ ⟨(x 1).val, idx2_lt1 x⟩) := by
  obtain ⟨u, j, rfl⟩ : ∃ (u : Fin 1) (j : Fin 64), x = ix2 u j := ⟨x 0, x 1, eq_ix2 x⟩
  refine (shapeCast_a_1a_apply _ hc2 u j).trans ?_
  have hA := (Memref.read_squeeze_slice scr (Rect.unit (s := S2x64) ![s, 0] S1x64.size inbS) hsS hqS hc1
      (((scr.slice (Rect.unit (s := S2x64) ![s, 0] S1x64.size inbS) hsS).squeeze S64 hqS).view.writes Val g
          (⟨Rect.whole S64, ReadAs.same.apply (View.read Val ((tab.slice (Rect.unit (s := S100000x64) ![r, 0] S1x64.size inbT) hsT).squeeze S64 hqT).view tbl)⟩ :: L))).symm.trans
    (read_writes_whole_cons _ g _ L)
  refine (congrFun hA (ix1 j)).trans ?_
  exact read_row_slice tab r hr inbT hsT hqT tbl j

end Stored

/-- The id the body reads for output row `k`, through the id buffer's own view, is the block's `k`-th id. -/
theorem id_word (arg1 : Memref sig .tc .smem S128 .i32) (harg1 : arg1.IsWhole) (ids : Vec F S128 .i32)
    (k : Nat) (hk : k < 128) (inbI : ∀ a, (![k] : Fin 1 → Nat) a + S1.size a ≤ S128.size a)
    (hf : 0 < (Rect.unit (s := S128) ![k] S1.size inbI).toLoadRect.shape.numel) :
    arg1.view.readAt (Elt F) (Rect.unit (s := S128) ![k] S1.size inbI).toLoadRect (harg1.unread ids) (Shape.Idx.first hf)
      = ids (ix1 ⟨k, hk⟩) := by
  rw [harg1.readAt_unread]
  congr 1
  funext a
  match a with
  | ⟨0, _⟩ => exact Fin.ext (show k + 1 * 0 = k by omega)

/-- Output row `k` as stored agrees with the gathered block on its whole rectangle: the stored row is the table's row at the
    `k`-th id (`stored_row_apply`), and an id below the table's height is its own row. -/
theorem stored_piece_agrees {sp sp' : Space} (arg1 : Memref sig .tc .smem S128 .i32) (harg1 : arg1.IsWhole) (ids : Vec F S128 .i32)
    (hlt : ∀ j : S128.Idx, BitVec.toNat (ids j : BitVec 32) < 100000)
    (k : Nat)
    (inbK : ∀ a, (![k, 0] : Fin 2 → Nat) a + (![1, 64] : Fin 2 → Nat) a ≤ S128x64.size a)
    (inbI : ∀ a, (![k] : Fin 1 → Nat) a + S1.size a ≤ S128.size a)
    (hf : 0 < (Rect.unit (s := S128) ![k] S1.size inbI).toLoadRect.shape.numel)
    (scr : Memref sig .tc sp S2x64 .f32) (s : Nat)
    (inbS : ∀ a, (![s, 0] : Fin 2 → Nat) a + S1x64.size a ≤ S2x64.size a)
    (hsS : ∀ a, (Rect.unit (s := S2x64) ![s, 0] S1x64.size inbS).stride a = 1)
    (hqS : (Rect.unit (s := S2x64) ![s, 0] S1x64.size inbS).shape.Squeezes S64)
    (g : ((scr.slice (Rect.unit (s := S2x64) ![s, 0] S1x64.size inbS) hsS).squeeze S64 hqS).view.ty.Contents (Elt F))
    (tab : Memref sig .tc sp' S100000x64 .f32)
    (inbT : ∀ a, (![BitVec.toNat (arg1.view.readAt (Elt F) (Rect.unit (s := S128) ![k] S1.size inbI).toLoadRect (harg1.unread ids) (Shape.Idx.first hf) : BitVec 32), 0] : Fin 2 → Nat) a + S1x64.size a ≤ S100000x64.size a)
    (hsT : ∀ a, (Rect.unit (s := S100000x64) ![BitVec.toNat (arg1.view.readAt (Elt F) (Rect.unit (s := S128) ![k] S1.size inbI).toLoadRect (harg1.unread ids) (Shape.Idx.first hf) : BitVec 32), 0] S1x64.size inbT).stride a = 1)
    (hqT : (Rect.unit (s := S100000x64) ![BitVec.toNat (arg1.view.readAt (Elt F) (Rect.unit (s := S128) ![k] S1.size inbI).toLoadRect (harg1.unread ids) (Shape.Idx.first hf) : BitVec 32), 0] S1x64.size inbT).shape.Squeezes S64)
    (tbl : tab.view.ty.Contents (Elt F)) (L : List (View.Piece (Elt F) S64 .f32))
    (hc1 : S1x64.ShapeCasts S64) (hc2 : S64.ShapeCasts S1x64) :
    ∀ x : (Rect.unit (s := S128x64) ![k, 0] ![1, 64] inbK).shape.Idx,
      shapeCast S1x64 (shapeCast S64 (scr.view.readAt (Elt F) (Rect.unit (s := S2x64) ![s, 0] S1x64.size inbS).toLoadRect
        (((scr.slice (Rect.unit (s := S2x64) ![s, 0] S1x64.size inbS) hsS).squeeze S64 hqS).view.writes (Elt F) g
          (⟨Rect.whole S64, ReadAs.same.apply (View.read (Elt F) ((tab.slice (Rect.unit (s := S100000x64) ![BitVec.toNat (arg1.view.readAt (Elt F) (Rect.unit (s := S128) ![k] S1.size inbI).toLoadRect (harg1.unread ids) (Shape.Idx.first hf) : BitVec 32), 0] S1x64.size inbT) hsT).squeeze S64 hqT).view tbl)⟩ :: L))) hc1) hc2 x
      = (gatherRows (tab.view.read (Elt F) tbl) ids : Vec F S128x64 .f32) ((Rect.unit (s := S128x64) ![k, 0] ![1, 64] inbK).emb x) := by
  intro x
  have hk : k < 128 := by have h := inbK 0; change k + 1 ≤ 128 at h; omega
  have hw := id_word arg1 harg1 ids k hk inbI hf
  have hr : BitVec.toNat (arg1.view.readAt (Elt F) (Rect.unit (s := S128) ![k] S1.size inbI).toLoadRect (harg1.unread ids) (Shape.Idx.first hf) : BitVec 32) < 100000 := by
    rw [hw]; exact hlt _
  refine (stored_row_apply scr s inbS hsS hqS g tab _ hr inbT hsT hqT tbl L hc1 hc2 x).trans ?_
  rw [gatherRows_apply]
  congr 1
  have h0 : (x 0).val = 0 := by have := (x 0).isLt; change (x 0).val < 1 at this; omega
  have hi : (ix1 ⟨(((Rect.unit (s := S128x64) ![k, 0] ![1, 64] inbK).emb x) 0).val, idx2_lt0 _⟩ : S128.Idx) = ix1 ⟨k, hk⟩ := by
    congr 1; exact Fin.ext (show k + 1 * (x 0).val = k by omega)
  refine Shape.idx_ext₂ ?_ ?_
  · show BitVec.toNat _ = (rowOf _).val
    rw [hi, rowOf_val (hlt _), hw]
  · show (x 1).val = 0 + 1 * (x 1).val; omega

set_option maxHeartbeats 0 in
/-- The canon of call 0's 128 stored rows is the gathered block: row `k` of the output block is row `ids k` of the table. -/
theorem rows_canon0 (c : Dev nD) (i : grid0.Coords) (arg1 : Memref sig .tc .smem S128 .i32) (harg1 : arg1.IsWhole)
    (arg3 : Memref sig .tc .vmem S128x64 .f32) (harg3 : arg3.IsWhole)
    (ids : Vec F S128 .i32) (tbl : TableBuf0 (F := F) c)
    (hlt : ∀ j : S128.Idx, BitVec.toNat (ids j : BitVec 32) < 100000) :
    View.canon (rowCopyRun0 c i arg1 harg1 arg3 harg3 ids tbl (hids_of_lt arg1 harg1 ids hlt)).1
      = (gatherRows (tableM0.view.read (Elt F) tbl) ids : Vec F S128x64 .f32) := by
  funext y
  refine View.canon_apply_of_pieces (gatherRows (tableM0.view.read (Elt F) tbl) ids : Vec F S128x64 .f32) _ ?_ y
    (rows_cover0 c i arg1 harg1 arg3 harg3 ids tbl (hids_of_lt arg1 harg1 ids hlt) y)
  unfold rowCopyRun0
  dsimp only
  sl_unfold_words
  repeat' (first | exact List.forall_mem_nil _ | refine List.forall_mem_cons.2 ⟨?_, ?_⟩)
  all_goals exact stored_piece_agrees arg1 harg1 ids hlt _ (by decide) _ _ scr0 _ _ _ _ _ tableM0 _ _ _ tbl _ _ _

set_option maxHeartbeats 0 in
/-- The canon of call 1's 128 stored rows is the gathered block: row `k` of the output block is row `ids k` of the table. -/
theorem rows_canon1 (c : Dev nD) (i : grid1.Coords) (arg1 : Memref sig .tc .smem S128 .i32) (harg1 : arg1.IsWhole)
    (arg3 : Memref sig .tc .vmem S128x64 .f32) (harg3 : arg3.IsWhole)
    (ids : Vec F S128 .i32) (tbl : TableBuf1 (F := F) c)
    (hlt : ∀ j : S128.Idx, BitVec.toNat (ids j : BitVec 32) < 100000) :
    View.canon (rowCopyRun1 c i arg1 harg1 arg3 harg3 ids tbl (hids_of_lt arg1 harg1 ids hlt)).1
      = (gatherRows (tableM1.view.read (Elt F) tbl) ids : Vec F S128x64 .f32) := by
  funext y
  refine View.canon_apply_of_pieces (gatherRows (tableM1.view.read (Elt F) tbl) ids : Vec F S128x64 .f32) _ ?_ y
    (rows_cover1 c i arg1 harg1 arg3 harg3 ids tbl (hids_of_lt arg1 harg1 ids hlt) y)
  unfold rowCopyRun1
  dsimp only
  sl_unfold_words
  repeat' (first | exact List.forall_mem_nil _ | refine List.forall_mem_cons.2 ⟨?_, ?_⟩)
  all_goals exact stored_piece_agrees arg1 harg1 ids hlt _ (by decide) _ _ scr1 _ _ _ _ _ tableM1 _ _ _ tbl _ _ _

end Cert.KernelIdeal.Hand

end
-- ==== Proof.KI.Region.lean ====
/-
  Each call of the gather kernel as a pipeline region: what its windows' buffers hold after the body at each grid point
  (the id block unchanged; the output block = the table's rows those ids name), the invariant the body keeps (its scratch,
  its two copy semaphores at zero, the table unchanged), and that the body meets this at every point, because every id of
  the point's block is below the table's height.
-/
import proofs.«407166_j13718125543734_1_alg».proof.Proof.Gen.KernelIdeal.Launch
import proofs.«407166_j13718125543734_1_alg».proof.Proof.Gen.KernelIdeal.Skeleton
import proofs.«407166_j13718125543734_1_alg».proof.Proof.Gen.KernelIdeal.Points
import proofs.«407166_j13718125543734_1_alg».proof.Proof.KI.Rows
import proofs.«407166_j13718125543734_1_alg».proof.Proof.KI.RowsValue
import proofs.«407166_j13718125543734_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Cert.Spec

/-! ## The two-row scratch as its rows -/

theorem inb_row (s : Fin 2) : ∀ a, (![s.val, 0] : Fin 2 → Nat) a + S1x64.size a ≤ S2x64.size a := by
  have := s.isLt; intro a; fin_cases a <;> simp <;> omega
/-- Row `s` of a 2 × 64 buffer. -/
abbrev rowSet (s : Fin 2) : Finset S2x64.Idx := (Rect.unit (s := S2x64) ![s.val, 0] S1x64.size (inb_row s)).set
/-- The two rows are disjoint and make up the buffer. -/
theorem rows_disjoint (s s' : Fin 2) (h : s ≠ s') : Disjoint (rowSet s) (rowSet s') :=
  Ring.lead_disjoint (s := S2x64) (0 : Fin 2) 1 (fun s : Fin 2 => (![s.val, 0] : Fin 2 → Nat)) S1x64.size inb_row (fun s => by simp) rfl s s' h
theorem rows_union : Finset.univ.biUnion rowSet = Finset.univ :=
  Ring.lead_cover (s := S2x64) (0 : Fin 2) 1 (fun s : Fin 2 => (![s.val, 0] : Fin 2 → Nat)) S1x64.size inb_row (fun s => by simp)
    (fun s a ha => by fin_cases a <;> first | exact absurd rfl ha | rfl) rfl (fun a ha => by fin_cases a <;> first | exact absurd rfl ha | rfl) rfl

/-- Row `s` of call 0's scratch as a set of its elements, and the row memrefs' element sets. -/
theorem rowA0_set : (rowA0 : Memref sig .tc .vmem S64 .f32).view.set = rowSet 0 := by
  simp only [Memref.view_squeeze, View.set_reshape]; exact View.set_slice_whole _ _
theorem rowB0_set : (rowB0 : Memref sig .tc .vmem S64 .f32).view.set = rowSet 1 := by
  simp only [Memref.view_squeeze, View.set_reshape]; exact View.set_slice_whole _ _
theorem rowPtA0_eq (c : Dev nD) (f) : rowPt (F := F) c rowA0 f = (((c : Thread nD τ).loc cc0_scratch0) ↦[rowSet 0]{fullShare} f : sProp 𝕄) := by
  unfold rowPt; rw [rowA0_set]
theorem rowPtB0_eq (c : Dev nD) (f) : rowPt (F := F) c rowB0 f = (((c : Thread nD τ).loc cc0_scratch0) ↦[rowSet 1]{fullShare} f : sProp 𝕄) := by
  unfold rowPt; rw [rowB0_set]
/-- The scratch whole at some contents is its two rows at some contents each, and back. -/
theorem scr_split0 (c : Dev nD) :
    iprop(∃ f : Buf (Elt F) ((c : Thread nD τ).loc cc0_scratch0), ((c : Thread nD τ).loc cc0_scratch0) ↦{fullShare} f)
      ⊢ (iprop((∃ f, rowPt (F := F) c rowA0 f) ∗ ∃ f, rowPt (F := F) c rowB0 f) : sProp 𝕄) :=
  Ring.slots2_split (U := Pipeline.UD sig nD τ) (ℓ := (c : Thread nD τ).loc cc0_scratch0) (q := fullShare) rowSet rows_disjoint rows_union
    (rowPt c rowA0) (rowPt c rowB0) (rowPtA0_eq c) (rowPtB0_eq c)
theorem scr_join0 (c : Dev nD) :
    (iprop((∃ f, rowPt (F := F) c rowA0 f) ∗ ∃ f, rowPt (F := F) c rowB0 f) : sProp 𝕄)
      ⊢ iprop(∃ f : Buf (Elt F) ((c : Thread nD τ).loc cc0_scratch0), ((c : Thread nD τ).loc cc0_scratch0) ↦{fullShare} f) :=
  Ring.slots2_join (U := Pipeline.UD sig nD τ) (ℓ := (c : Thread nD τ).loc cc0_scratch0) (q := fullShare) rowSet rows_disjoint rows_union
    (rowPt c rowA0) (rowPt c rowB0) (rowPtA0_eq c) (rowPtB0_eq c)

/-- Row `s` of call 1's scratch as a set of its elements, and the row memrefs' element sets. -/
theorem rowA1_set : (rowA1 : Memref sig .tc .vmem S64 .f32).view.set = rowSet 0 := by
  simp only [Memref.view_squeeze, View.set_reshape]; exact View.set_slice_whole _ _
theorem rowB1_set : (rowB1 : Memref sig .tc .vmem S64 .f32).view.set = rowSet 1 := by
  simp only [Memref.view_squeeze, View.set_reshape]; exact View.set_slice_whole _ _
theorem rowPtA1_eq (c : Dev nD) (f) : rowPt (F := F) c rowA1 f = (((c : Thread nD τ).loc cc1_scratch0) ↦[rowSet 0]{fullShare} f : sProp 𝕄) := by
  unfold rowPt; rw [rowA1_set]
theorem rowPtB1_eq (c : Dev nD) (f) : rowPt (F := F) c rowB1 f = (((c : Thread nD τ).loc cc1_scratch0) ↦[rowSet 1]{fullShare} f : sProp 𝕄) := by
  unfold rowPt; rw [rowB1_set]
/-- The scratch whole at some contents is its two rows at some contents each, and back. -/
theorem scr_split1 (c : Dev nD) :
    iprop(∃ f : Buf (Elt F) ((c : Thread nD τ).loc cc1_scratch0), ((c : Thread nD τ).loc cc1_scratch0) ↦{fullShare} f)
      ⊢ (iprop((∃ f, rowPt (F := F) c rowA1 f) ∗ ∃ f, rowPt (F := F) c rowB1 f) : sProp 𝕄) :=
  Ring.slots2_split (U := Pipeline.UD sig nD τ) (ℓ := (c : Thread nD τ).loc cc1_scratch0) (q := fullShare) rowSet rows_disjoint rows_union
    (rowPt c rowA1) (rowPt c rowB1) (rowPtA1_eq c) (rowPtB1_eq c)
theorem scr_join1 (c : Dev nD) :
    (iprop((∃ f, rowPt (F := F) c rowA1 f) ∗ ∃ f, rowPt (F := F) c rowB1 f) : sProp 𝕄)
      ⊢ iprop(∃ f : Buf (Elt F) ((c : Thread nD τ).loc cc1_scratch0), ((c : Thread nD τ).loc cc1_scratch0) ↦{fullShare} f) :=
  Ring.slots2_join (U := Pipeline.UD sig nD τ) (ℓ := (c : Thread nD τ).loc cc1_scratch0) (q := fullShare) rowSet rows_disjoint rows_union
    (rowPt c rowA1) (rowPt c rowB1) (rowPtA1_eq c) (rowPtB1_eq c)

section Regions
variable (V : (c : Dev nD) → (b : Ref sig .tc) → Buf (Elt F) ((c : Thread nD τ).loc b))

/-! # Call 0 (pipeline 0): proof data and body obligation, at the contents `V` the call is entered from -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 128 node ids of point `t`: block `t` of the id array. -/
abbrev idsAt0 (c : Dev nD) (t : Fin cfg0.N) : Vec F S128 .i32 := iblk0 V c 0 t

/-- The table call 0 gathers from, as the call finds it. -/
abbrev tableAt0 (c : Dev nD) : FVec F S100000x64 .f32 := V c main_arg0

/-- The body's own two copy semaphores, by their numbers in the pool; none is a window's. -/
abbrev osem0 : Fin 2 → SemLoc sig := fun j => (![SemLoc.dma 4, SemLoc.dma 5] : Fin 2 → SemLoc sig) j
theorem ownSemFacts0 : Pipeline.OwnSemFacts spec0 osem0 := by decide
/-- The one buffer left in HBM that the body copies from: unscoped, no window's array. -/
def H0 : Finset (Ref sig .tc) := {main_arg0}
theorem H0_sub : H0 ⊆ Pipeline.restRefs sig spec0 := by decide

/-- The proof data of pipeline 0 on core `c`: the arrays as the call finds them; after the body at point `t` the id
    window's buffer still holds its block and the output window's buffer holds the rows of the table those ids name; the
    invariant keeps the scratch, the generator register, the two copy semaphores at zero and the table at its entry
    contents; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (gatherRows (tableAt0 V c) (idsAt0 V c t) : Vec F S128x64 .f32)
  Φ _ := Pipeline.ΦD osem0 spec0 H0 V c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) :
    (dat0 V c).after 1 t = (gatherRows (tableAt0 V c) (idsAt0 V c t) : Vec F S128x64 .f32) := by dsimp only [dat0]

/-- The id window's buffer holds block `t` of the id array when the body starts at point `t`: the window is fetched at
    every point and the body leaves it as it found it. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Every id of point `t`'s block is an entry of the id array, hence below the table's height. -/
theorem ids_lt0 (hV : ∀ (c : Dev nD) (e : S1600000.Idx), BitVec.toNat (V c main_arg1 e : BitVec 32) < 100000) (c : Dev nD)
    (t : Fin cfg0.N) (j : S128.Idx) : BitVec.toNat (idsAt0 V c t j : BitVec 32) < 100000 := by
  show BitVec.toNat (((cfg0.win 0).blk t).view.read (Elt F) (V c (Pipeline.arrRef spec0 0)) j : BitVec 32) < 100000
  rw [View.read_apply]
  exact hV c _

/-- The copy semaphores at zero, one by one. -/
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The table's points-to at the call's entry contents. -/
theorem tablePts0_eq (c : Dev nD) :
    (bigSep H0 (fun b => ((c : Thread nD τ).loc b) ↦{fullShare} V c b) : sProp 𝕄) = iprop(tablePt0 c (V c main_arg0)) := by
  rw [BI.bigSep_eq_bigSepL_of_eq [main_arg0] (by decide) (by decide)]; rfl

/-- The invariant, conjunct by conjunct: every scoped buffer no window of this call stages (the call's scratch among them)
    whole at some contents, the generator register, the two copy semaphores at zero, the table at its entry contents. -/
theorem inv0_eq (c : Dev nD) :
    (Pipeline.ΦD osem0 spec0 H0 V c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)) ∗ (∃ r, prngReg c r)
          ∗ iprop(semVal ((c : Thread nD τ), SemLoc.dma 4) 0 ∗ semVal ((c : Thread nD τ), SemLoc.dma 5) 0) ∗ iprop(tablePt0 c (V c main_arg0))) := by
  rw [Pipeline.ΦD_eq, scopedRest0_eq, ownSems0_eq, tablePts0_eq]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 4000000 in
/-- The body at any point: the invariant hands it its scratch (as two rows), the copy semaphores at zero and the table; the
    id window's buffer holds the point's ids, all below the table's height, so the run applies; what it leaves in the output
    window's buffer is, read back, the gathered block; the scratch rows rejoin and everything else returns as it was. -/
theorem sound_body0 (hV : ∀ (c : Dev nD) (e : S1600000.Idx), BitVec.toNat (V c main_arg1 e : BitVec 32) < 100000) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl, after0_0, after0_1]
  rw [show (dat0 V c).Φ t.castSucc = Pipeline.ΦD osem0 spec0 H0 V c from rfl, inv0_eq]
  unfold Dat.owesAt Pipeline.owesWithin
  rw [show (dat0 V c).owed t.castSucc = 0 from rfl, show (dat0 V c).owed t.succ = 0 from rfl]
  iintro ⟨⟨⟨HS, HR1, HR2, HR3, HR4, HR5⟩, Hg, ⟨Hq0, Hq1⟩, Hh0⟩, ⟨%W, -, HW⟩, ⟨%d0, H0⟩, ⟨%d1, H1⟩⟩
  ihave Hrows := (scr_split0 (F := F) c) $$ HS
  icases Hrows with ⟨HA, HB⟩
  iapply ((rowCopyRun0 c (grid0.coords t) _ _ _ _ (idsAt0 V c t) (V c main_arg0)
    (hids_of_lt _ _ (idsAt0 V c t) (ids_lt0 V hV c t))).2 W _)
  isplitl [H0]; · iexact H0
  isplitl [H1]; · iexists _; iexact H1
  isplitl [HA]; · iexact HA
  isplitl [HB]; · iexact HB
  isplitl [Hq0]; · iexact Hq0
  isplitl [Hq1]; · iexact Hq1
  isplitl [Hh0]; · iexact Hh0
  isplitl [HW]; · iexact HW
  iintro ⟨H0, ⟨%e1, H1⟩, HA, HB, Hq0, Hq1, Hh0, ⟨%W', HW'⟩⟩
  isplitl [HR1 HR2 HR3 HR4 HR5 HA HB Hg Hq0 Hq1 Hh0]
  · isplitl [HR1 HR2 HR3 HR4 HR5 HA HB]
    ·
      isplitl [HA HB]; · iapply (scr_join0 c); isplitl [HA] <;> iassumption
      isplitl [HR1]; · iexact HR1
      isplitl [HR2]; · iexact HR2
      isplitl [HR3]; · iexact HR3
      isplitl [HR4]; · iexact HR4
      iexact HR5
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  unfold owns; iexists _; isplitr
  swap; · iexact H1
  ipureintro
  rw [View.read_writes_eq_canon _ _ _ (rows_cover0 c _ _ _ _ _ _ _ _)]
  exact rows_canon0 c _ _ _ _ _ (idsAt0 V c t) (V c main_arg0) (ids_lt0 V hV c t)

set_option maxRecDepth 400000 in
/-- The body obligation of call 0 at every point, given that every id of the id array is below the table's height. -/
theorem body_obligation0 (hV : ∀ (c : Dev nD) (e : S1600000.Idx), BitVec.toNat (V c main_arg1 e : BitVec 32) < 100000) (c : Dev nD) :
    BodyObligation (dat0 (F := F) V c) (defs₀ (F := F)) Variants.none () Set.univ := fun t => by
  rw [bigSep_W0, bigSep_W0]
  exact sound_body0 V hV c t

/-! # Call 1 (pipeline 1): proof data and body obligation, at the contents `V` the call is entered from -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 128 node ids of point `t`: block `t` of the id array. -/
abbrev idsAt1 (c : Dev nD) (t : Fin cfg1.N) : Vec F S128 .i32 := iblk1 V c 0 t

/-- The table call 1 gathers from, as the call finds it. -/
abbrev tableAt1 (c : Dev nD) : FVec F S100000x64 .f32 := V c main_v14

/-- The body's own two copy semaphores, by their numbers in the pool; none is a window's. -/
abbrev osem1 : Fin 2 → SemLoc sig := fun j => (![SemLoc.dma 10, SemLoc.dma 11] : Fin 2 → SemLoc sig) j
theorem ownSemFacts1 : Pipeline.OwnSemFacts spec1 osem1 := by decide
/-- The one buffer left in HBM that the body copies from: unscoped, no window's array. -/
def H1 : Finset (Ref sig .tc) := {main_v14}
theorem H1_sub : H1 ⊆ Pipeline.restRefs sig spec1 := by decide

/-- The proof data of pipeline 1 on core `c`: the arrays as the call finds them; after the body at point `t` the id
    window's buffer still holds its block and the output window's buffer holds the rows of the table those ids name; the
    invariant keeps the scratch, the generator register, the two copy semaphores at zero and the table at its entry
    contents; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => (gatherRows (tableAt1 V c) (idsAt1 V c t) : Vec F S128x64 .f32)
  Φ _ := Pipeline.ΦD osem1 spec1 H1 V c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) :
    (dat1 V c).after 1 t = (gatherRows (tableAt1 V c) (idsAt1 V c t) : Vec F S128x64 .f32) := by dsimp only [dat1]

/-- The id window's buffer holds block `t` of the id array when the body starts at point `t`: the window is fetched at
    every point and the body leaves it as it found it. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Every id of point `t`'s block is an entry of the id array, hence below the table's height. -/
theorem ids_lt1 (hV : ∀ (c : Dev nD) (e : S1600000.Idx), BitVec.toNat (V c main_arg1 e : BitVec 32) < 100000) (c : Dev nD)
    (t : Fin cfg1.N) (j : S128.Idx) : BitVec.toNat (idsAt1 V c t j : BitVec 32) < 100000 := by
  show BitVec.toNat (((cfg1.win 0).blk t).view.read (Elt F) (V c (Pipeline.arrRef spec1 0)) j : BitVec 32) < 100000
  rw [View.read_apply]
  exact hV c _

/-- The copy semaphores at zero, one by one. -/
theorem ownSems1_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 10) 0 ∗ semVal ((c : Thread nD τ), SemLoc.dma 11) 0) := by
  rw [Pipeline.ownSems0_eq_of_list c osem1 [0, 1] (by decide) (by decide)]; rfl
/-- The table's points-to at the call's entry contents. -/
theorem tablePts1_eq (c : Dev nD) :
    (bigSep H1 (fun b => ((c : Thread nD τ).loc b) ↦{fullShare} V c b) : sProp 𝕄) = iprop(tablePt1 c (V c main_v14)) := by
  rw [BI.bigSep_eq_bigSepL_of_eq [main_v14] (by decide) (by decide)]; rfl

/-- The invariant, conjunct by conjunct: every scoped buffer no window of this call stages (the call's scratch among them)
    whole at some contents, the generator register, the two copy semaphores at zero, the table at its entry contents. -/
theorem inv1_eq (c : Dev nD) :
    (Pipeline.ΦD osem1 spec1 H1 V c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)) ∗ (∃ r, prngReg c r)
          ∗ iprop(semVal ((c : Thread nD τ), SemLoc.dma 10) 0 ∗ semVal ((c : Thread nD τ), SemLoc.dma 11) 0) ∗ iprop(tablePt1 c (V c main_v14))) := by
  rw [Pipeline.ΦD_eq, scopedRest1_eq, ownSems1_eq, tablePts1_eq]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

set_option maxHeartbeats 4000000 in
/-- The body at any point: the invariant hands it its scratch (as two rows), the copy semaphores at zero and the table; the
    id window's buffer holds the point's ids, all below the table's height, so the run applies; what it leaves in the output
    window's buffer is, read back, the gathered block; the scratch rows rejoin and everything else returns as it was. -/
theorem sound_body1 (hV : ∀ (c : Dev nD) (e : S1600000.Idx), BitVec.toNat (V c main_arg1 e : BitVec 32) < 100000) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl, after1_0, after1_1]
  rw [show (dat1 V c).Φ t.castSucc = Pipeline.ΦD osem1 spec1 H1 V c from rfl, inv1_eq]
  unfold Dat.owesAt Pipeline.owesWithin
  rw [show (dat1 V c).owed t.castSucc = 0 from rfl, show (dat1 V c).owed t.succ = 0 from rfl]
  iintro ⟨⟨⟨HR0, HR1, HR2, HS, HR4, HR5⟩, Hg, ⟨Hq0, Hq1⟩, Hh0⟩, ⟨%W, -, HW⟩, ⟨%d0, H0⟩, ⟨%d1, H1⟩⟩
  ihave Hrows := (scr_split1 (F := F) c) $$ HS
  icases Hrows with ⟨HA, HB⟩
  iapply ((rowCopyRun1 c (grid1.coords t) _ _ _ _ (idsAt1 V c t) (V c main_v14)
    (hids_of_lt _ _ (idsAt1 V c t) (ids_lt1 V hV c t))).2 W _)
  isplitl [H0]; · iexact H0
  isplitl [H1]; · iexists _; iexact H1
  isplitl [HA]; · iexact HA
  isplitl [HB]; · iexact HB
  isplitl [Hq0]; · iexact Hq0
  isplitl [Hq1]; · iexact Hq1
  isplitl [Hh0]; · iexact Hh0
  isplitl [HW]; · iexact HW
  iintro ⟨H0, ⟨%e1, H1⟩, HA, HB, Hq0, Hq1, Hh0, ⟨%W', HW'⟩⟩
  isplitl [HR0 HR1 HR2 HR4 HR5 HA HB Hg Hq0 Hq1 Hh0]
  · isplitl [HR0 HR1 HR2 HR4 HR5 HA HB]
    ·
      isplitl [HR0]; · iexact HR0
      isplitl [HR1]; · iexact HR1
      isplitl [HR2]; · iexact HR2
      isplitl [HA HB]; · iapply (scr_join1 c); isplitl [HA] <;> iassumption
      isplitl [HR4]; · iexact HR4
      iexact HR5
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  unfold owns; iexists _; isplitr
  swap; · iexact H1
  ipureintro
  rw [View.read_writes_eq_canon _ _ _ (rows_cover1 c _ _ _ _ _ _ _ _)]
  exact rows_canon1 c _ _ _ _ _ (idsAt1 V c t) (V c main_v14) (ids_lt1 V hV c t)

set_option maxRecDepth 400000 in
/-- The body obligation of call 1 at every point, given that every id of the id array is below the table's height. -/
theorem body_obligation1 (hV : ∀ (c : Dev nD) (e : S1600000.Idx), BitVec.toNat (V c main_arg1 e : BitVec 32) < 100000) (c : Dev nD) :
    BodyObligation (dat1 (F := F) V c) (defs₀ (F := F)) Variants.none () Set.univ := fun t => by
  rw [bigSep_W1, bigSep_W1]
  exact sound_body1 V hV c t

end Regions

end Cert.KernelIdeal.Hand

end
-- ==== Proof.KI.Fold.lean ====
/-
  The TensorCore's buffer contents at each boundary between the items of the kernel program's @main, folded from the
  launch memory: a stretch of host operations applies them; a call leaves its arrays at what its write-backs leave and
  every other buffer as it was.
-/
import proofs.«407166_j13718125543734_1_alg».proof.Proof.Gen.KernelIdeal.Launch
import proofs.«407166_j13718125543734_1_alg».proof.Proof.Gen.KernelIdeal.Skeleton
import proofs.«407166_j13718125543734_1_alg».proof.Proof.Gen.KernelIdeal.Points
import proofs.«407166_j13718125543734_1_alg».proof.Proof.KI.Region
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Fold
variable (m : (ℓ : Loc nD τ sig) → Buf (Elt F) ℓ)

/-- Core `c`'s buffers at launch. -/
abbrev W0 (c : Dev nD) : Valuation τ sig (Elt F) := fun b => m (c, b)
/-- After the first stretch of host operations (the degree count and its inverse). -/
def W1 (c : Dev nD) : Valuation τ sig (Elt F) := StableHlo.after hostOps0 (W0 m c)
/-- The same read at the TensorCore's references: what call 0 is entered from. -/
abbrev V1 : (c : Dev nD) → (b : Ref sig .tc) → Buf (Elt F) ((c : Thread nD τ).loc b) := fun c b => W1 m c b
/-- After call 0: its arrays at what the pipeline leaves, every other buffer as entered. -/
def W2 (c : Dev nD) : Valuation τ sig (Elt F) :=
  Pipeline.withArrays spec0 c (W1 m c) fun w => (dat0 (V1 m) c).arrAt w cfg0.N
/-- After the second stretch (the first layer's scatter-add and scaling). -/
def W3 (c : Dev nD) : Valuation τ sig (Elt F) := StableHlo.after hostOps1 (W2 m c)
/-- What call 1 is entered from. -/
abbrev V3 : (c : Dev nD) → (b : Ref sig .tc) → Buf (Elt F) ((c : Thread nD τ).loc b) := fun c b => W3 m c b
/-- After call 1. -/
def W4 (c : Dev nD) : Valuation τ sig (Elt F) :=
  Pipeline.withArrays spec1 c (W3 m c) fun w => (dat1 (V3 m) c).arrAt w cfg1.N
/-- After the last stretch (the second layer's scatter-add and scaling, and the average): the contents at the return. -/
def W5 (c : Dev nD) : Valuation τ sig (Elt F) := StableHlo.after hostOps2 (W4 m c)

end Fold

end Cert.KernelIdeal.Hand

end
-- ==== Proof.KI.MainRun.lean ====
/-
  The kernel program runs: @main is three stretches of host operations around two calls of the gather kernel; each call is
  a pipeline region entered from, and left at, the buffer contents of Fold.lean, its body meeting its obligation because the
  source ids are rows of the table. Every weakly fair execution therefore terminates without a fault, and the final
  memory holds every unscoped buffer at the last valuation.
-/
import proofs.«407166_j13718125543734_1_alg».proof.Proof.Gen.KernelIdeal.Launch
import proofs.«407166_j13718125543734_1_alg».proof.Proof.Gen.KernelIdeal.Skeleton
import proofs.«407166_j13718125543734_1_alg».proof.Proof.Gen.KernelIdeal.Points
import proofs.«407166_j13718125543734_1_alg».proof.Proof.KI.Fold
import proofs.«407166_j13718125543734_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Run
variable (m : (ℓ : Loc nD τ sig) → Buf (Elt F) ℓ) (ρ : Dev nD → PrngReg)

/-! # What each call leaves in the unscoped buffers -/

/-- The contents call 0 leaves, read at the TensorCore's references. -/
abbrev V2 : (c : Dev nD) → (b : Ref sig .tc) → Buf (Elt F) ((c : Thread nD τ).loc b) := fun c b => W2 m c b
/-- The contents call 1 leaves, read at the TensorCore's references. -/
abbrev V4 : (c : Dev nD) → (b : Ref sig .tc) → Buf (Elt F) ((c : Thread nD τ).loc b) := fun c b => W4 m c b

/-- After call 0 each of its two arrays holds what the pipeline's write-backs leave there, -/
theorem V2_array (c : Dev nD) (w : Fin cfg0.W) : (dat0 (V1 m) c).arrAt w cfg0.N = V2 m c (Pipeline.arrRef spec0 w) := by
  unfold V2 W2; exact (Pipeline.withArrays_arr spec0 launch0.win.arr_inj c (W1 m c) (fun w => (dat0 (V1 m) c).arrAt w cfg0.N) w).symm
/-- and a buffer that is neither of them holds what it held when the call was entered. -/
theorem V2_other (c : Dev nD) (b : Ref sig .tc) (hb : ∀ w, Pipeline.arrRef spec0 w ≠ b) : V2 m c b = V1 m c b := by
  unfold V2 V1 W2; exact Pipeline.withArrays_of_ne spec0 c _ _ b hb
/-- The same two facts for call 1. -/
theorem V4_array (c : Dev nD) (w : Fin cfg1.W) : (dat1 (V3 m) c).arrAt w cfg1.N = V4 m c (Pipeline.arrRef spec1 w) := by
  unfold V4 W4; exact (Pipeline.withArrays_arr spec1 launch1.win.arr_inj c (W3 m c) (fun w => (dat1 (V3 m) c).arrAt w cfg1.N) w).symm
theorem V4_other (c : Dev nD) (b : Ref sig .tc) (hb : ∀ w, Pipeline.arrRef spec1 w ≠ b) : V4 m c b = V3 m c b := by
  unfold V4 V3 W4; exact Pipeline.withArrays_of_ne spec1 c _ _ b hb

/-! # The id array is never written: both calls find it as launched -/

/-- The first stretch writes no argument: call 0 finds the ids as launched. -/
theorem ids_at1 (c : Dev nD) : V1 m c main_arg1 = m ((c : Thread nD τ).loc main_arg1) := by
  unfold V1 W1; exact StableHlo.after_of_writes_sub hostOps0 _ hostOps0_writes (by decide)
/-- Call 0 reads the ids through an input window, which it hands back as entered, and the second stretch writes no
    argument: call 1 finds the ids as launched. -/
theorem ids_at3 (c : Dev nD) : V3 m c main_arg1 = m ((c : Thread nD τ).loc main_arg1) :=
  calc V3 m c main_arg1
    _ = V2 m c main_arg1 := by unfold V3 V2 W3; exact StableHlo.after_of_writes_sub hostOps1 _ hostOps1_writes (by decide)
    _ = (dat0 (V1 m) c).arrAt 0 cfg0.N := (V2_array m c 0).symm
    _ = V1 m c main_arg1 := ((dat0 (V1 m) c).arrAt_in 0 rfl _).trans (A_eq0 (V1 m) c 0)
    _ = m ((c : Thread nD τ).loc main_arg1) := ids_at1 m c

/-! # The proof data of both calls, and what rides beside the buffers -/

/-- Each call's proof data at the contents that call is entered from: call 0 from `V1`, call 1 from `V3`. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
/-- Nothing here is case-split, and no core owes another anything: no semaphore carries a level. -/
abbrev oneCase : Variants := Variants.none
abbrev noLev : GSem nD τ sig → Finset Unit := fun _ => ∅
abbrev lev0 : GSem nD τ sig → Unit → ℕ := fun _ _ => 0
/-- Beside the buffers a core carries, through every item, its generator register at some state and its dues, which
    are none. -/
abbrev Rest (c : Dev nD) : sProp 𝕄 := iprop((∃ r, prngReg c r) ∗ ∃ W, owes (c : Thread nD τ) (0 : CellTallies nD τ sig Unit) W)
/-- A core between two items: every unscoped buffer at the boundary's contents, and the rest. -/
abbrev At (W : Dev nD → Valuation τ sig (Elt F)) (c : Dev nD) : sProp 𝕄 :=
  iprop(StableHlo.held (c : Thread nD τ) (Pipeline.ucRefs τ sig) (W c) ∗ Rest c)

/-- A stretch of host operations, run over the unscoped buffers from the contents `W`: it leaves them at the
    operations' fold of `W`, the rest untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ oneCase noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-! # The two calls as regions -/

/-- The ids are rows of the table wherever a call reads them. -/
theorem ids_rows1 (hsrc : ∀ (c : Dev nD) (e : S1600000.Idx), BitVec.toNat (m ((c : Thread nD τ).loc main_arg1) e : BitVec 32) < 100000)
    (c : Dev nD) (e : S1600000.Idx) : BitVec.toNat (V1 m c main_arg1 e : BitVec 32) < 100000 := by
  rw [ids_at1 m c]; exact hsrc c e
theorem ids_rows3 (hsrc : ∀ (c : Dev nD) (e : S1600000.Idx), BitVec.toNat (m ((c : Thread nD τ).loc main_arg1) e : BitVec 32) < 100000)
    (c : Dev nD) (e : S1600000.Idx) : BitVec.toNat (V3 m c main_arg1 e : BitVec 32) < 100000 := by
  rw [ids_at3 m c]; exact hsrc c e

section Calls
variable (hsrc : ∀ (c : Dev nD) (e : S1600000.Idx), BitVec.toNat (m ((c : Thread nD τ).loc main_arg1) e : BitVec 32) < 100000)

set_option backward.isDefEq.respectTransparency.types false in
/-- Call 0, entered from `W1` and left at `W2`. -/
def call0 : Pipeline.RegionSeg (pcfgs (F := F)) adm (pdats m) () defs₀ oneCase noLev lev0 0 where
  win := launch0.win.to₀
  block_pos := launch0.block_pos
  stage_whole := launch0.stage_whole
  K := Fin 2
  osem := osem0
  ho := ownSemFacts0
  hbody c := (body_obligation0 (V1 m) (ids_rows1 m hsrc) c).loose
  hwaits := Pipeline.hwaits_of_owed_zero _ _ _ _ noLev lev0 0 fun _ _ => rfl
  pre := At (W1 m)
  post := At (W2 m)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} V1 m c b))
  Y c := iprop((∃ r, prngReg c r) ∗ (bigSep H0 fun b => (((c : Thread nD τ)).loc b) ↦{fullShare} V1 m c b))
  Z c := bigSep (Pipeline.restRefs sig spec0 \ H0) fun b => (((c : Thread nD τ)).loc b) ↦{fullShare} V1 m c b
  hentry c := by
    -- the unscoped buffers the call is entered from are its two arrays, the table it gathers from, and the others
    have harr := Pipeline.arrays_of_unscopedBufs (p := 0) (pcfgs (F := F)) adm (pdats m) launch0.win launch0.arr_whole c
      ((pdats m 0 c).share_full fun _ => rfl) (V1 m c) fun _ => rfl
    rw [Pipeline.unscopedBufs_held] at harr
    have htab := Pipeline.unscopedRest_sdiff (Val := Elt F) spec0 H0 H0_sub c (V1 m c)
    iintro ⟨⟨Hbufs, Hreg, Hdue⟩, Hsems, -⟩
    ihave Hsplit := harr $$ Hbufs
    icases Hsplit with ⟨Harr, Hrest⟩
    ihave Hsplit := (Entails.of_eq htab) $$ Hrest
    icases Hsplit with ⟨Htab, Hoth⟩
    imodintro
    isplitl [Harr]; · iexact Harr
    isplitr
    · -- no table is prefetched
      unfold Pipeline.prefHeld; rw [show (Finset.univ : Finset (Fin 0)) = ∅ from rfl, BI.bigSep_empty]; iempintro
    isplitl [Hdue]
    · -- the dues are none, and so within any bound
      unfold Pipeline.Dat.owesAt Pipeline.owesWithin
      icases Hdue with ⟨%W, Hdue⟩
      iexists W
      isplitr; · ipureintro; exact fun _ _ => Or.inl trivial
      iexact Hdue
    isplitr [Hoth]
    · isplitl [Hreg]; · iexact Hreg
      isplitl [Hsems]; · iexact Hsems
      iexact Htab
    iexact Hoth
  hin c := by
    rw [show (pdats m 0 c).Φ 0 = Pipeline.ΦD osem0 spec0 H0 (V1 m) c from rfl, Pipeline.ΦD_eq]
    iintro ⟨⟨Hreg, Hsems, Htab⟩, -, Hscr⟩
    isplitl [Hscr]; · iexact Hscr
    isplitl [Hreg]; · iexact Hreg
    isplitl [Hsems]; · iexact Hsems
    iexact Htab
  hout c := by
    rw [show (pdats m 0 c).Φ (Fin.last _) = Pipeline.ΦD osem0 spec0 H0 (V1 m) c from rfl, Pipeline.ΦD_eq]
    iintro ⟨Hscr, Hreg, Hsems, Htab⟩
    isplitl [Hreg Htab]
    · isplitl [Hreg]; · iexact Hreg
      iexact Htab
    isplitl [Hsems]; · iexact Hsems
    iexact Hscr
  hexit c := by
    -- the two arrays at what the call leaves, the table and the others as entered: every unscoped buffer at the exit contents
    have hback := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (V2_array m c)
      (fun b hb => V2_other m c b fun w e => hb (Finset.mem_image.mpr ⟨w, Finset.mem_univ _, e⟩))
    rw [Pipeline.unscopedBufs_held] at hback
    have htab := Pipeline.unscopedRest_sdiff (Val := Elt F) spec0 H0 H0_sub c (V1 m c)
    iintro ⟨Harr, Hdue, ⟨Hreg, Htab⟩, Hoth⟩
    ihave Hrest := (Entails.of_eq htab.symm) $$ [Htab Hoth]
    · isplitl [Htab]; · iexact Htab
      iexact Hoth
    imodintro
    isplitl [Harr Hrest]
    · iapply hback
      isplitl [Harr]; · iexact Harr
      iexact Hrest
    isplitl [Hreg]; · iexact Hreg
    unfold Pipeline.Dat.owesAt Pipeline.owesWithin
    icases Hdue with ⟨%W, -, Hdue⟩
    iexists W; iexact Hdue

set_option backward.isDefEq.respectTransparency.types false in
/-- Call 1, entered from `W3` and left at `W4`. -/
def call1 : Pipeline.RegionSeg (pcfgs (F := F)) adm (pdats m) () defs₀ oneCase noLev lev0 1 where
  win := launch1.win.to₀
  block_pos := launch1.block_pos
  stage_whole := launch1.stage_whole
  K := Fin 2
  osem := osem1
  ho := ownSemFacts1
  hbody c := (body_obligation1 (V3 m) (ids_rows3 m hsrc) c).loose
  hwaits := Pipeline.hwaits_of_owed_zero _ _ _ _ noLev lev0 1 fun _ _ => rfl
  pre := At (W3 m)
  post := At (W4 m)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V3 m c b))
  Y c := iprop((∃ r, prngReg c r) ∗ (bigSep H1 fun b => (((c : Thread nD τ)).loc b) ↦{fullShare} V3 m c b))
  Z c := bigSep (Pipeline.restRefs sig spec1 \ H1) fun b => (((c : Thread nD τ)).loc b) ↦{fullShare} V3 m c b
  hentry c := by
    -- the unscoped buffers the call is entered from are its two arrays, the table it gathers from, and the others
    have harr := Pipeline.arrays_of_unscopedBufs (p := 1) (pcfgs (F := F)) adm (pdats m) launch1.win launch1.arr_whole c
      ((pdats m 1 c).share_full fun _ => rfl) (V3 m c) fun _ => rfl
    rw [Pipeline.unscopedBufs_held] at harr
    have htab := Pipeline.unscopedRest_sdiff (Val := Elt F) spec1 H1 H1_sub c (V3 m c)
    iintro ⟨⟨Hbufs, Hreg, Hdue⟩, Hsems, -⟩
    ihave Hsplit := harr $$ Hbufs
    icases Hsplit with ⟨Harr, Hrest⟩
    ihave Hsplit := (Entails.of_eq htab) $$ Hrest
    icases Hsplit with ⟨Htab, Hoth⟩
    imodintro
    isplitl [Harr]; · iexact Harr
    isplitr
    · -- no table is prefetched
      unfold Pipeline.prefHeld; rw [show (Finset.univ : Finset (Fin 0)) = ∅ from rfl, BI.bigSep_empty]; iempintro
    isplitl [Hdue]
    · -- the dues are none, and so within any bound
      unfold Pipeline.Dat.owesAt Pipeline.owesWithin
      icases Hdue with ⟨%W, Hdue⟩
      iexists W
      isplitr; · ipureintro; exact fun _ _ => Or.inl trivial
      iexact Hdue
    isplitr [Hoth]
    · isplitl [Hreg]; · iexact Hreg
      isplitl [Hsems]; · iexact Hsems
      iexact Htab
    iexact Hoth
  hin c := by
    rw [show (pdats m 1 c).Φ 0 = Pipeline.ΦD osem1 spec1 H1 (V3 m) c from rfl, Pipeline.ΦD_eq]
    iintro ⟨⟨Hreg, Hsems, Htab⟩, -, Hscr⟩
    isplitl [Hscr]; · iexact Hscr
    isplitl [Hreg]; · iexact Hreg
    isplitl [Hsems]; · iexact Hsems
    iexact Htab
  hout c := by
    rw [show (pdats m 1 c).Φ (Fin.last _) = Pipeline.ΦD osem1 spec1 H1 (V3 m) c from rfl, Pipeline.ΦD_eq]
    iintro ⟨Hscr, Hreg, Hsems, Htab⟩
    isplitl [Hreg Htab]
    · isplitl [Hreg]; · iexact Hreg
      iexact Htab
    isplitl [Hsems]; · iexact Hsems
    iexact Hscr
  hexit c := by
    -- the two arrays at what the call leaves, the table and the others as entered: every unscoped buffer at the exit contents
    have hback := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (V4_array m c)
      (fun b hb => V4_other m c b fun w e => hb (Finset.mem_image.mpr ⟨w, Finset.mem_univ _, e⟩))
    rw [Pipeline.unscopedBufs_held] at hback
    have htab := Pipeline.unscopedRest_sdiff (Val := Elt F) spec1 H1 H1_sub c (V3 m c)
    iintro ⟨Harr, Hdue, ⟨Hreg, Htab⟩, Hoth⟩
    ihave Hrest := (Entails.of_eq htab.symm) $$ [Htab Hoth]
    · isplitl [Htab]; · iexact Htab
      iexact Hoth
    imodintro
    isplitl [Harr Hrest]
    · iapply hback
      isplitl [Harr]; · iexact Harr
      iexact Hrest
    isplitl [Hreg]; · iexact Hreg
    unfold Pipeline.Dat.owesAt Pipeline.owesWithin
    icases Hdue with ⟨%W, -, Hdue⟩
    iexists W; iexact Hdue

/-! # @main as its five items -/

/-- The three stretches and the two calls, in @main's order, each entered from what the one before it leaves. -/
abbrev items : List (Pipeline.Seg (pcfgs (F := F)) adm (pdats m) () defs₀ oneCase noLev lev0) :=
  [ .host (stretch hostOps0 hostOps0_sub hostOps0_fresh (W0 m)),
    .region (call0 m hsrc),
    .host (stretch hostOps1 hostOps1_sub hostOps1_fresh (W2 m)),
    .region (call1 m hsrc),
    .host (stretch hostOps2 hostOps2_sub hostOps2_fresh (W4 m)) ]

/-- @main is the run of those items. -/
theorem main_items (c : Dev nD) : main (F := F) c = Pipeline.Seg.run (items m hsrc) := (main_chain c).trans (by chain_rfl)

end Calls

set_option backward.isDefEq.respectTransparency.types false in
/-- From any memory whose source ids are below the table's height, with zero counters: every weakly fair execution of
    @main terminates, nothing faulting, and every unscoped buffer of every core ends at `W5`. -/
theorem run_all (hsrc : ∀ (c : Dev nD) (e : S1600000.Idx), BitVec.toNat (m ((c : Thread nD τ).loc main_arg1) e : BitVec 32) < 100000) :
    θ_run defs (onTc (τ := τ) (main (F := F))) ⟨m, fun _ => 0, ρ⟩
      (fun r => ∀ c : Dev nD, ∀ b ∈ Pipeline.ucRefs τ sig, r.2.mem (((c : Thread nD τ)).1, b) = W5 m c b) := by
  refine Pipeline.θ_run_regions_kit (pcfgs (F := F)) adm (pdats m) () cellOf_inj embL defs₀ oneCase noLev lev0 m ρ main (items m hsrc)
    (fun c Q => by rw [main_items m hsrc c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := ?launch)
    (T₀ := At (W0 m))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => ?last⟩)
    (hinit := ?first)
    (QY := fun c s => ∀ b ∈ Pipeline.ucRefs τ sig, s.mem (((c : Thread nD τ)).1, b) = W5 m c b)
    (hfin := fun c s' => ?read) (hQ := fun _ h => h)
  case launch =>
    -- the launch element is a pair: its first half is the staging cells' initial element, its second half is not used
    iintro Hu
    icases (ownU_pair _ _) $$ Hu with ⟨HP, -⟩
    imodintro
    isplitl [HP]; · iexact HP
    have hemp : (BI.emp : sProp 𝕄) ⊢ bigSep Finset.univ (fun _ : Dev nD => (BI.emp : sProp 𝕄)) := by rw [BI.bigSep_emp_const]
    iapply hemp; iempintro
  case last =>
    -- the last stretch leaves the buffers at its fold of W4, which is W5; the dues move out of the rest
    show iprop(StableHlo.held (c : Thread nD τ) (Pipeline.ucRefs τ sig) (W5 m c) ∗ Rest c) ⊢ _
    iintro ⟨Hh, Hp, HO⟩
    isplitr [HO]
    · isplitl [Hh]; · iexact Hh
      iexact Hp
    iexact HO
  case first =>
    -- at launch every core holds its unscoped buffers at the launch memory, its register and no dues
    refine Pipeline.initEach noLev lev0 fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  case read =>
    -- holding every unscoped buffer at W5 against the final state: the state has them at W5
    iintro ⟨⟨Hh, -⟩, HSI⟩
    unfold StableHlo.held
    imodintro
    iapply (pointsTo_read_all (Pipeline.ucRefs τ sig) (fun b => (((c : Thread nD τ)).1, b)) (W5 m c) s')
    isplitl [Hh] <;> iassumption

end Run

end Cert.KernelIdeal.Hand

end
-- ==== Proof.KI.Kept.lean ====
/-
  What no item of @main changes: the three arguments at the return, and the id array as each call finds it, are the
  launch's. No host operation writes them and a call changes only its output array.
-/
import proofs.«407166_j13718125543734_1_alg».proof.Proof.Gen.KernelIdeal.Launch
import proofs.«407166_j13718125543734_1_alg».proof.Proof.Gen.KernelIdeal.Skeleton
import proofs.«407166_j13718125543734_1_alg».proof.Proof.Gen.KernelIdeal.Points
import proofs.«407166_j13718125543734_1_alg».proof.Proof.KI.Fold
import proofs.«407166_j13718125543734_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Kept
variable (m : (ℓ : Loc nD τ sig) → Buf (Elt F) ℓ)

/-! ## One step of the walk back through the fold -/

/-- A host stretch leaves a buffer it does not write as it was. -/
theorem W1_of (c : Dev nD) (r : Ref sig .tc) (h : r ∉ hostOps0_W) :
    W1 m c (Proc.devRef .tc r) = m ((c : Thread nD τ).loc r) := by
  unfold W1; exact (StableHlo.after_of_writes_sub hostOps0 _ Gen.hostOps0_writes h).trans rfl
theorem W3_of (c : Dev nD) (r : Ref sig .tc) (h : r ∉ hostOps1_W) :
    W3 m c (Proc.devRef .tc r) = W2 m c (Proc.devRef .tc r) := by
  unfold W3; exact StableHlo.after_of_writes_sub hostOps1 _ Gen.hostOps1_writes h
theorem W5_of (c : Dev nD) (r : Ref sig .tc) (h : r ∉ hostOps2_W) :
    W5 m c (Proc.devRef .tc r) = W4 m c (Proc.devRef .tc r) := by
  unfold W5; exact StableHlo.after_of_writes_sub hostOps2 _ Gen.hostOps2_writes h

/-- A call leaves its arrays at what its write-backs leave, and every other buffer as entered. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-! ## The id array: an input window's array, which no write-back touches -/

/-- The id array as each call finds it is the launch's. -/
theorem V1_src (c : Dev nD) : V1 m c main_arg1 = m ((c : Thread nD τ).loc main_arg1) :=
  W1_of m c main_arg1 (by decide)
theorem W2_arg1 (c : Dev nD) : W2 m c (Proc.devRef .tc main_arg1) = m ((c : Thread nD τ).loc main_arg1) :=
  (W2_arr m c 0).trans <| ((dat0 (V1 m) c).arrAt_in 0 rfl _).trans <| (A_eq0 (V1 m) c 0).trans (V1_src m c)
theorem V3_src (c : Dev nD) : V3 m c main_arg1 = m ((c : Thread nD τ).loc main_arg1) :=
  (W3_of m c main_arg1 (by decide)).trans (W2_arg1 m c)

/-! ## The arguments -/

/-- No item of @main writes an argument. -/
theorem W5_arg0 (c : Dev nD) : W5 m c (Proc.devRef .tc main_arg0) = m ((c : Thread nD τ).loc main_arg0) :=
  (W5_of m c main_arg0 (by decide)).trans <| (W4_of_ne m c main_arg0 (by decide)).trans <|
    (W3_of m c main_arg0 (by decide)).trans <| (W2_of_ne m c main_arg0 (by decide)).trans <| W1_of m c main_arg0 (by decide)
theorem W5_arg1 (c : Dev nD) : W5 m c (Proc.devRef .tc main_arg1) = m ((c : Thread nD τ).loc main_arg1) :=
  (W5_of m c main_arg1 (by decide)).trans <| (W4_arr m c 0).trans <|
    ((dat1 (V3 m) c).arrAt_in 0 rfl _).trans <| (A_eq1 (V3 m) c 0).trans (V3_src m c)
theorem W3_arg2 (c : Dev nD) : W3 m c (Proc.devRef .tc main_arg2) = m ((c : Thread nD τ).loc main_arg2) :=
  (W3_of m c main_arg2 (by decide)).trans <| (W2_of_ne m c main_arg2 (by decide)).trans <| W1_of m c main_arg2 (by decide)
theorem W5_arg2 (c : Dev nD) : W5 m c (Proc.devRef .tc main_arg2) = m ((c : Thread nD τ).loc main_arg2) :=
  (W5_of m c main_arg2 (by decide)).trans <| (W4_of_ne m c main_arg2 (by decide)).trans <| W3_arg2 m c

end Kept

end Cert.KernelIdeal.Hand

end
-- ==== Proof.KI.Arrays.lean ====
/-
  From blocks to arrays. Grid point `t` of a call writes back the output block `t`: rows 128·t … 128·t + 127 of the
  gathered array, computed from ids 128·t … 128·t + 127. The 12500 blocks tile the 1600000 rows, and each is the
  restriction of ONE function of the array index, `gatherRows` of the table and the whole id array; so after the last
  point the output array is that function.
-/
import proofs.«407166_j13718125543734_1_alg».proof.Proof.Gen.KernelIdeal.Launch
import proofs.«407166_j13718125543734_1_alg».proof.Proof.Gen.KernelIdeal.Skeleton
import proofs.«407166_j13718125543734_1_alg».proof.Proof.Gen.KernelIdeal.Points
import proofs.«407166_j13718125543734_1_alg».proof.Proof.KI.Region
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Cert.Spec Idealize.ShloMosaic.ValueIdx

section Arrays
variable (V : (c : Dev nD) → (b : Ref sig .tc) → Buf (Elt F) ((c : Thread nD τ).loc b))

/-- Gathering with a block of the ids is the block of the gather: if `B k = A (128·p + k)` for every `k < 128`, then row `k`
    gathered with `B` is row `128·p + k` gathered with `A`. -/
theorem gatherRows_block {α : Type} (T : S100000x64.Idx → α) (A : S1600000.Idx → BitVec 32) (B : S128.Idx → BitVec 32)
    (p : ℕ) (hB : ∀ (k : ℕ) (hk : k < 128) (h : 128 * p + k < 1600000), B (ix1 ⟨k, hk⟩) = A (ix1 ⟨128 * p + k, h⟩))
    (y : S128x64.Idx) (i : S1600000x64.Idx) (h0 : (i 0).val = 128 * p + (y 0).val) (h1 : (i 1).val = (y 1).val) :
    gatherRows T B y = gatherRows T A i := by
  rw [gatherRows_apply, gatherRows_apply]
  have hk : 128 * p + (y 0).val < 1600000 := h0 ▸ idx2_lt0 i
  have e0 : (⟨128 * p + (y 0).val, hk⟩ : Fin 1600000) = ⟨(i 0).val, idx2_lt0 i⟩ := Fin.ext h0.symm
  have e1 : (⟨(y 1).val, idx2_lt1 y⟩ : Fin 64) = ⟨(i 1).val, idx2_lt1 i⟩ := Fin.ext h1.symm
  rw [hB (y 0).val (idx2_lt0 y) hk, e0, e1]

/-! # Call 0 -/

/-- The printed index maps, decided over the grid: point `t` takes block `t` of the ids and block `(t, 0)` of the output. -/
theorem index_facts0 : ∀ t : Fin cfg0.N, win0_0.index t (0 : Fin 1) = t.val ∧ win0_1.index t (0 : Fin 2) = t.val ∧ win0_1.index t (1 : Fin 2) = 0 :=
  (by decide +kernel : ∀ t : Fin grid0.N, _)

/-- The ids of point `t` are block `t` of the id array: id `k` of the point is id `128·t + k` of the array. -/
theorem idsAt0_apply (c : Dev nD) (t : Fin cfg0.N) (k : ℕ) (hk : k < 128) (h : 128 * t.val + k < 1600000) :
    idsAt0 V c t (ix1 ⟨k, hk⟩) = V c main_arg1 (ix1 ⟨128 * t.val + k, h⟩) := by
  obtain ⟨e0, e1, e2⟩ := index_facts0 t
  show V c main_arg1 (((cfg0.win 0).blk t).view.emb (ix1 ⟨k, hk⟩)) = _
  congr 1
  funext a; apply Fin.ext
  match a with
  | ⟨0, _⟩ => show win0_0.index t (0 : Fin 1) * 128 + 1 * k = 128 * t.val + k; omega

/-- What point `t` writes back is block `t` of the gather of the whole id array. -/
theorem flushed0_eq (c : Dev nD) (t : Fin cfg0.N) :
    (dat0 V c).flushed 1 t
      = ((cfg0.win 1).blk t).view.read (Elt F) (gatherRows (tableAt0 V c) (V c main_arg1 : IVec S1600000 32) : FVec F S1600000x64 .f32) := by
  show (cfg0.win 1).cut (grid0.coords t) ((dat0 V c).after 1 t) = _
  rw [after0_1]
  obtain ⟨e0, e1, e2⟩ := index_facts0 t
  funext y
  refine gatherRows_block (tableAt0 V c) (V c main_arg1) (idsAt0 V c t) t.val (idsAt0_apply V c t)
    ((cfg0.win 1).xinj (grid0.coords t) y) (((cfg0.win 1).blk t).view.emb y) ?_ ?_
  · show win0_1.index t (0 : Fin 2) * 128 + 1 * (y 0).val = 128 * t.val + (y 0).val; omega
  · show win0_1.index t (1 : Fin 2) * 64 + 1 * (y 1).val = (y 1).val; omega

/-- An index of the output array is in point `t`'s block iff each coordinate is in the block's range on its axis. -/
theorem mem_blk0 (t : Fin cfg0.N) (i : S1600000x64.Idx) :
    i ∈ ((cfg0.win 1).blk t).view.set ↔ ∀ a : Fin 2, win0_1.index t a * S128x64.size a ≤ (i a).val ∧ (i a).val < win0_1.index t a * S128x64.size a + S128x64.size a := by
  show i ∈ ((View.whole main_v9).slice (win0_1.rect t)).set ↔ _
  rw [View.set_slice_whole, Rect.mem_set_unit]
  exact Iff.rfl

/-- The blocks tile the array: row `r` is in the block of point `r / 128` (1600000 = 128 · 12500). -/
theorem cover0 (i : S1600000x64.Idx) : ∃ t : Fin cfg0.N, (cfg0.win 1).flush t = true ∧ i ∈ ((cfg0.win 1).blk t).view.set := by
  have hi0 : (i 0).val < 1600000 := idx2_lt0 i
  have hi1 : (i 1).val < 64 := idx2_lt1 i
  obtain ⟨t, ht⟩ : ∃ t : Fin cfg0.N, t.val = (i 0).val / 128 := ⟨⟨(i 0).val / 128, by rw [show cfg0.N = 12500 from N_0]; omega⟩, rfl⟩
  obtain ⟨e0, e1, e2⟩ := index_facts0 t
  refine ⟨t, flush0_1 t, ?_⟩
  rw [mem_blk0]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 64 ≤ (i 1).val ∧ (i 1).val < win0_1.index t (1 : Fin 2) * 64 + 64; omega

/-- The id array passes through call 0 unchanged. -/
theorem ids_array0 (c : Dev nD) : ((dat0 V c).arrAt 0 cfg0.N) = V c main_arg1 :=
  (dat0 V c).arrAt_in 0 rfl cfg0.N

/-- After call 0 its output array holds the gathered rows: entry `(e, j)` is the table at `(rowOf (src e), j)`. -/
theorem out_array0 (hV : ∀ (c : Dev nD) (e : S1600000.Idx), BitVec.toNat (V c main_arg1 e : BitVec 32) < 100000) (c : Dev nD) :
    ((dat0 V c).arrAt 1 cfg0.N : FVec F S1600000x64 .f32)
      = (gatherRows (tableAt0 V c) (V c main_arg1 : IVec S1600000 32) : FVec F S1600000x64 .f32) :=
  (dat0 V c).arrAt_eq_of_cover 1 (gatherRows (tableAt0 V c) (V c main_arg1 : IVec S1600000 32) : FVec F S1600000x64 .f32)
    (fun t _ => flushed0_eq V c t) cover0

/-! # Call 1 -/

/-- The printed index maps, decided over the grid: point `t` takes block `t` of the ids and block `(t, 0)` of the output. -/
theorem index_facts1 : ∀ t : Fin cfg1.N, win1_0.index t (0 : Fin 1) = t.val ∧ win1_1.index t (0 : Fin 2) = t.val ∧ win1_1.index t (1 : Fin 2) = 0 :=
  (by decide +kernel : ∀ t : Fin grid1.N, _)

/-- The ids of point `t` are block `t` of the id array: id `k` of the point is id `128·t + k` of the array. -/
theorem idsAt1_apply (c : Dev nD) (t : Fin cfg1.N) (k : ℕ) (hk : k < 128) (h : 128 * t.val + k < 1600000) :
    idsAt1 V c t (ix1 ⟨k, hk⟩) = V c main_arg1 (ix1 ⟨128 * t.val + k, h⟩) := by
  obtain ⟨e0, e1, e2⟩ := index_facts1 t
  show V c main_arg1 (((cfg1.win 0).blk t).view.emb (ix1 ⟨k, hk⟩)) = _
  congr 1
  funext a; apply Fin.ext
  match a with
  | ⟨0, _⟩ => show win1_0.index t (0 : Fin 1) * 128 + 1 * k = 128 * t.val + k; omega

/-- What point `t` writes back is block `t` of the gather of the whole id array. -/
theorem flushed1_eq (c : Dev nD) (t : Fin cfg1.N) :
    (dat1 V c).flushed 1 t
      = ((cfg1.win 1).blk t).view.read (Elt F) (gatherRows (tableAt1 V c) (V c main_arg1 : IVec S1600000 32) : FVec F S1600000x64 .f32) := by
  show (cfg1.win 1).cut (grid1.coords t) ((dat1 V c).after 1 t) = _
  rw [after1_1]
  obtain ⟨e0, e1, e2⟩ := index_facts1 t
  funext y
  refine gatherRows_block (tableAt1 V c) (V c main_arg1) (idsAt1 V c t) t.val (idsAt1_apply V c t)
    ((cfg1.win 1).xinj (grid1.coords t) y) (((cfg1.win 1).blk t).view.emb y) ?_ ?_
  · show win1_1.index t (0 : Fin 2) * 128 + 1 * (y 0).val = 128 * t.val + (y 0).val; omega
  · show win1_1.index t (1 : Fin 2) * 64 + 1 * (y 1).val = (y 1).val; omega

/-- An index of the output array is in point `t`'s block iff each coordinate is in the block's range on its axis. -/
theorem mem_blk1 (t : Fin cfg1.N) (i : S1600000x64.Idx) :
    i ∈ ((cfg1.win 1).blk t).view.set ↔ ∀ a : Fin 2, win1_1.index t a * S128x64.size a ≤ (i a).val ∧ (i a).val < win1_1.index t a * S128x64.size a + S128x64.size a := by
  show i ∈ ((View.whole main_v15).slice (win1_1.rect t)).set ↔ _
  rw [View.set_slice_whole, Rect.mem_set_unit]
  exact Iff.rfl

/-- The blocks tile the array: row `r` is in the block of point `r / 128` (1600000 = 128 · 12500). -/
theorem cover1 (i : S1600000x64.Idx) : ∃ t : Fin cfg1.N, (cfg1.win 1).flush t = true ∧ i ∈ ((cfg1.win 1).blk t).view.set := by
  have hi0 : (i 0).val < 1600000 := idx2_lt0 i
  have hi1 : (i 1).val < 64 := idx2_lt1 i
  obtain ⟨t, ht⟩ : ∃ t : Fin cfg1.N, t.val = (i 0).val / 128 := ⟨⟨(i 0).val / 128, by rw [show cfg1.N = 12500 from N_1]; omega⟩, rfl⟩
  obtain ⟨e0, e1, e2⟩ := index_facts1 t
  refine ⟨t, flush1_1 t, ?_⟩
  rw [mem_blk1]
  intro a
  match a with
  | ⟨0, _⟩ => show win1_1.index t (0 : Fin 2) * 128 ≤ (i 0).val ∧ (i 0).val < win1_1.index t (0 : Fin 2) * 128 + 128; omega
  | ⟨1, _⟩ => show win1_1.index t (1 : Fin 2) * 64 ≤ (i 1).val ∧ (i 1).val < win1_1.index t (1 : Fin 2) * 64 + 64; omega

/-- The id array passes through call 1 unchanged. -/
theorem ids_array1 (c : Dev nD) : ((dat1 V c).arrAt 0 cfg1.N) = V c main_arg1 :=
  (dat1 V c).arrAt_in 0 rfl cfg1.N

/-- After call 1 its output array holds the gathered rows: entry `(e, j)` is the table at `(rowOf (src e), j)`. -/
theorem out_array1 (hV : ∀ (c : Dev nD) (e : S1600000.Idx), BitVec.toNat (V c main_arg1 e : BitVec 32) < 100000) (c : Dev nD) :
    ((dat1 V c).arrAt 1 cfg1.N : FVec F S1600000x64 .f32)
      = (gatherRows (tableAt1 V c) (V c main_arg1 : IVec S1600000 32) : FVec F S1600000x64 .f32) :=
  (dat1 V c).arrAt_eq_of_cover 1 (gatherRows (tableAt1 V c) (V c main_arg1 : IVec S1600000 32) : FVec F S1600000x64 .f32)
    (fun t _ => flushed1_eq V c t) cover1

end Arrays

end Cert.KernelIdeal.Hand

end
-- ==== Proof.KI.Terms.lean ====
/-
  The kernel program's result as one term of its inputs. A layer scatter-adds the gathered rows into their destination
  nodes and multiplies each node's sum by 1 / max(degree, 1); the program applies the layer to the features, then to
  the first layer's output, and returns the average of the two.
-/
import proofs.«407166_j13718125543734_1_alg».proof.KernelIdeal
import proofs.«407166_j13718125543734_1_alg».proof.Proof.Spec

noncomputable section

namespace Cert.KernelIdeal.Hand

open Idealize.ShloMosaic Cert.KernelIdeal Cert.Spec

variable {F : FTy → Type} [FloatOps F] [Facts]
open Facts₀ Facts

/-- `1 / max(deg, 1)` per node, as a column: `deg` counts the edges that end at the node. -/
def invDeg (dst : IVec S1600000 32) : FVec F S100000x1 .f32 :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

/-- One layer over per-edge messages `G`: their sum per destination node, times the node's inverse degree. -/
def layer (G : FVec F S1600000x64 .f32) (dst : IVec S1600000 32) : FVec F S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst) G)
    (broadcastInDim S100000x64 ![0, 1] bcast_S100000x1_S100000x64_0_1 (invDeg (F := F) dst))

/-- The first layer's output: the messages are the source nodes' feature rows. -/
def hidden (T : FVec F S100000x64 .f32) (src dst : IVec S1600000 32) : FVec F S100000x64 .f32 :=
  layer (gatherRows T src) dst

/-- The program's result: the average of the two layers' outputs. -/
def result (T : FVec F S100000x64 .f32) (src dst : IVec S1600000 32) : FVec F S100000x64 .f32 :=
  mulf (addf (hidden T src dst) (layer (gatherRows (hidden T src dst) src) dst))
    (broadcastInDim S100000x64 ![] bcast_S_S100000x64 (constant S_ .f32 0x3F000000#32))

end Cert.KernelIdeal.Hand

end
-- ==== Proof.KI.Result.lean ====
/-
  What the last valuation holds: the three arguments as launched, and in the result buffer the program's `result` of them.
  The host stretches are read back operation by operation; the two calls' output arrays are the gathered rows.
-/
import proofs.«407166_j13718125543734_1_alg».proof.Proof.Gen.KernelIdeal.Launch
import proofs.«407166_j13718125543734_1_alg».proof.Proof.Gen.KernelIdeal.Skeleton
import proofs.«407166_j13718125543734_1_alg».proof.Proof.Gen.KernelIdeal.Points
import proofs.«407166_j13718125543734_1_alg».proof.Proof.KI.Fold
import proofs.«407166_j13718125543734_1_alg».proof.Proof.KI.Kept
import proofs.«407166_j13718125543734_1_alg».proof.Proof.KI.Arrays
import proofs.«407166_j13718125543734_1_alg».proof.Proof.KI.Terms
import proofs.«407166_j13718125543734_1_alg».proof.Proof.Gen.KernelIdeal.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Cert.Spec

/-! ## The host stretches, read back operation by operation over any entry contents -/

section Host
variable (V : Valuation τ sig (Elt F))

/-- A layer over messages `G` with the inverse degrees given as a column: `layer G dst` is this at `invDeg dst`. -/
def layerWith (G : FVec F S1600000x64 .f32) (dst : IVec S1600000 32) (inv : FVec F S100000x1 .f32) : FVec F S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst) G)
    (broadcastInDim S100000x64 ![0, 1] bcast_S100000x1_S100000x64_0_1 inv)

/-- The first stretch leaves the inverse degrees of the destination ids. -/
theorem host0_v8 : StableHlo.after hostOps0 V (Proc.devRef .tc main_v8)
    = invDeg (F := F) (V (Proc.devRef .tc main_arg2)) := by
  after_results; rfl

/-- The second stretch leaves one layer over the first call's output array. -/
theorem host1_v14 : StableHlo.after hostOps1 V (Proc.devRef .tc main_v14)
    = layerWith (F := F) (V (Proc.devRef .tc main_v9)) (V (Proc.devRef .tc main_arg2)) (V (Proc.devRef .tc main_v8)) := by
  after_results; rfl

/-- The last stretch leaves the average of the first layer's output and one layer over the second call's output array. -/
theorem host2_v23 : StableHlo.after hostOps2 V (Proc.devRef .tc main_v23)
    = mulf (addf (V (Proc.devRef .tc main_v14) : FVec F S100000x64 .f32)
        (layerWith (F := F) (V (Proc.devRef .tc main_v15)) (V (Proc.devRef .tc main_arg2)) (V (Proc.devRef .tc main_v8))))
      (broadcastInDim S100000x64 ![] bcast_S_S100000x64 (constant S_ .f32 0x3F000000#32)) := by
  after_results; rfl

end Host

section Result
variable (m : (ℓ : Loc nD τ sig) → Buf (Elt F) ℓ)

/-! ## The buffers the host stretches read, at each boundary -/

/-- After the first stretch the inverse-degree buffer holds `invDeg` of the destination ids. -/
theorem W1_v8 (c : Dev nD) : W1 m c (Proc.devRef .tc main_v8) = invDeg (F := F) (m ((c : Thread nD τ).loc main_arg2)) := by
  unfold W1; exact (host0_v8 _).trans rfl
theorem W2_v8 (c : Dev nD) : W2 m c (Proc.devRef .tc main_v8) = invDeg (F := F) (m ((c : Thread nD τ).loc main_arg2)) :=
  (W2_of_ne m c main_v8 (by decide)).trans (W1_v8 m c)
theorem W2_arg2 (c : Dev nD) : W2 m c (Proc.devRef .tc main_arg2) = m ((c : Thread nD τ).loc main_arg2) :=
  (W2_of_ne m c main_arg2 (by decide)).trans <| W1_of m c main_arg2 (by decide)
theorem W4_v8 (c : Dev nD) : W4 m c (Proc.devRef .tc main_v8) = invDeg (F := F) (m ((c : Thread nD τ).loc main_arg2)) :=
  (W4_of_ne m c main_v8 (by decide)).trans <| (W3_of m c main_v8 (by decide)).trans (W2_v8 m c)
theorem W4_arg2 (c : Dev nD) : W4 m c (Proc.devRef .tc main_arg2) = m ((c : Thread nD τ).loc main_arg2) :=
  (W4_of_ne m c main_arg2 (by decide)).trans (W3_arg2 m c)

section Ranged
variable (hsrc : ∀ (c : Dev nD) (e : S1600000.Idx), BitVec.toNat (m ((c : Thread nD τ).loc main_arg1) e : BitVec 32) < 100000)
include hsrc

/-- Call 0's output array holds the features' rows gathered at the source ids. -/
theorem W2_v9 (c : Dev nD) : W2 m c (Proc.devRef .tc main_v9)
    = (gatherRows (m ((c : Thread nD τ).loc main_arg0)) (m ((c : Thread nD τ).loc main_arg1)) : FVec F S1600000x64 .f32) := by
  have hV : ∀ (c : Dev nD) (e : S1600000.Idx), BitVec.toNat (V1 m c main_arg1 e : BitVec 32) < 100000 := fun c e => by
    rw [V1_src m c]; exact hsrc c e
  refine (W2_arr m c 1).trans ((out_array0 (V1 m) hV c).trans ?_)
  rw [V1_src m c]
  show gatherRows (W1 m c (Proc.devRef .tc main_arg0)) _ = _
  rw [W1_of m c main_arg0 (by decide)]

/-- The first layer's output. -/
theorem W3_v14 (c : Dev nD) : W3 m c (Proc.devRef .tc main_v14)
    = hidden (F := F) (m ((c : Thread nD τ).loc main_arg0)) (m ((c : Thread nD τ).loc main_arg1)) (m ((c : Thread nD τ).loc main_arg2)) := by
  unfold W3
  refine (host1_v14 _).trans ?_
  rw [W2_v9 m hsrc c, W2_arg2 m c, W2_v8 m c]
  rfl
theorem W4_v14 (c : Dev nD) : W4 m c (Proc.devRef .tc main_v14)
    = hidden (F := F) (m ((c : Thread nD τ).loc main_arg0)) (m ((c : Thread nD τ).loc main_arg1)) (m ((c : Thread nD τ).loc main_arg2)) :=
  (W4_of_ne m c main_v14 (by decide)).trans (W3_v14 m hsrc c)

/-- Call 1's output array holds the first layer's rows gathered at the source ids. -/
theorem W4_v15 (c : Dev nD) : W4 m c (Proc.devRef .tc main_v15)
    = (gatherRows (hidden (F := F) (m ((c : Thread nD τ).loc main_arg0)) (m ((c : Thread nD τ).loc main_arg1)) (m ((c : Thread nD τ).loc main_arg2)))
        (m ((c : Thread nD τ).loc main_arg1)) : FVec F S1600000x64 .f32) := by
  have hV : ∀ (c : Dev nD) (e : S1600000.Idx), BitVec.toNat (V3 m c main_arg1 e : BitVec 32) < 100000 := fun c e => by
    rw [V3_src m c]; exact hsrc c e
  refine (W4_arr m c 1).trans ((out_array1 (V3 m) hV c).trans ?_)
  rw [V3_src m c]
  show gatherRows (W3 m c (Proc.devRef .tc main_v14)) _ = _
  rw [W3_v14 m hsrc c]

end Ranged

/-- The result buffer at the return holds `result` of the launch's features, source ids and destination ids. -/
theorem W5_result (hsrc : ∀ (c : Dev nD) (e : S1600000.Idx), BitVec.toNat (m ((c : Thread nD τ).loc main_arg1) e : BitVec 32) < 100000) (c : Dev nD) :
    W5 m c (Proc.devRef .tc main_v23)
      = result (F := F) (m ((c : Thread nD τ).loc main_arg0)) (m ((c : Thread nD τ).loc main_arg1)) (m ((c : Thread nD τ).loc main_arg2)) := by
  unfold W5
  refine (host2_v23 _).trans ?_
  rw [W4_v14 m hsrc c, W4_v15 m hsrc c, W4_arg2 m c, W4_v8 m c]
  rfl

end Result

end Cert.KernelIdeal.Hand

end
-- ==== Proof.GatherRead.lean ====
/-
  The reference's gather read at an index. The reference takes row `src'[e]` of the table for every edge `e`, where
  `src'` is `src` with negative ids wrapped by the table's height; the host gather clamps its start index into the
  table. For ids in [0, 100000) neither the wrap nor the clamp does anything, and the gathered array is `gatherRows`.
-/
import proofs.«407166_j13718125543734_1_alg».proof.ReferenceIdeal
import proofs.«407166_j13718125543734_1_alg».proof.Proof.Gen.ReferenceIdeal
import proofs.«407166_j13718125543734_1_alg».proof.Proof.Spec
import Idealize.ShloMosaic.Lib.ValueIdx
import Idealize.ShloMosaic.Lib.Pipeline.Value

noncomputable section

namespace Cert.ReferenceIdeal.RefGather

open Idealize.ShloMosaic Idealize.ShloMosaic.ValueIdx Cert.ReferenceIdeal Cert.Spec

variable {F : FTy → Type} [FloatOps F] [Cert.ReferenceIdeal.Facts]
open Facts₀ Facts

/-- The host gather of whole rows, read at `(e, j)`: the table at the start index `idx[e, 0]` read signed and clamped
    into the table's rows, column `j`. -/
theorem gather_rows_apply {α : Type} (T : S100000x64.Idx → α) (idx : IVec S1600000x1 32) (y : S1600000x64.Idx) :
    Host.gather gather_S100000x64_S1600000x1_S1600000x64_1_0_n_n_0_1_164 T idx y
      = T (ix2 (rowOf (idx (ix2 ⟨(y 0).val, idx2_lt0 y⟩ (0 : Fin 1)))) ⟨(y 1).val, idx2_lt1 y⟩) := by
  unfold Host.gather
  congr 1
  funext a
  refine Fin.ext ?_
  match a with
  | ⟨0, _⟩ =>
    -- The row axis is collapsed and is the one axis the start index names: the coordinate is the clamped start index.
    show gather_S100000x64_S1600000x1_S1600000x64_1_0_n_n_0_1_164.start y idx 0
        + gather_S100000x64_S1600000x1_S1600000x64_1_0_n_n_0_1_164.batchCoord y 0
        + gather_S100000x64_S1600000x1_S1600000x64_1_0_n_n_0_1_164.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S1600000x1_S1600000x64_1_0_n_n_0_1_164.startIndexMap from
      List.mem_singleton.mpr rfl)]
    -- The start index of result row e is read at (e, 0): e on the batch axis, component 0 on the index vector's axis.
    have hsi : gather_S100000x64_S1600000x1_S1600000x64_1_0_n_n_0_1_164.siIdx y
        ⟨List.idxOf (0 : Fin 2) gather_S100000x64_S1600000x1_S1600000x64_1_0_n_n_0_1_164.startIndexMap,
          List.idxOf_lt_length_iff.2 (List.mem_singleton.mpr rfl)⟩
        = ix2 ⟨(y 0).val, idx2_lt0 y⟩ (0 : Fin 1) := by
      funext b; refine Fin.ext ?_
      match b with
      | ⟨0, _⟩ => rfl
      | ⟨1, _⟩ => rfl
    rw [hsi]
    -- The clamp's upper end is height − slice height = 100000 − 1.
    rfl
  | ⟨1, _⟩ =>
    -- The column axis is an offset axis the start index does not name: start 0, offset the result's column.
    show gather_S100000x64_S1600000x1_S1600000x64_1_0_n_n_0_1_164.start y idx 1
        + gather_S100000x64_S1600000x1_S1600000x64_1_0_n_n_0_1_164.batchCoord y 1
        + gather_S100000x64_S1600000x1_S1600000x64_1_0_n_n_0_1_164.offCoord y 1 = _
    rw [GatherDims.batchCoord_eq_zero _ _ _ List.not_mem_nil]
    have hstart : gather_S100000x64_S1600000x1_S1600000x64_1_0_n_n_0_1_164.start y idx 1 = 0 := by
      unfold GatherDims.start
      rw [dif_neg (show (1 : Fin 2) ∉ gather_S100000x64_S1600000x1_S1600000x64_1_0_n_n_0_1_164.startIndexMap from by
        intro h; exact absurd (List.mem_singleton.mp h) (by decide))]
    have hk : (1 : Fin 2) ∈ gather_S100000x64_S1600000x1_S1600000x64_1_0_n_n_0_1_164.sKept :=
      (GatherDims.mem_sKept _ _).mpr ⟨fun h => absurd (List.mem_singleton.mp h) (by decide), List.not_mem_nil⟩
    have hoff : gather_S100000x64_S1600000x1_S1600000x64_1_0_n_n_0_1_164.offCoord y 1 = (y 1).val := by
      unfold GatherDims.offCoord
      rw [dif_pos hk]
      rfl
    rw [hstart, hoff]
    simp only [Nat.add_zero, Nat.zero_add]

/-- A wrapped id: an id below the table's height is non-negative as a signed number, so the wrap (add the height to a
    negative id) leaves it alone. -/
theorem wrap_id (v : BitVec 32) (hv : v.toNat < 100000) :
    Scalar.select (IntOp.cmpi .slt v 0#32) (IntOp.addi v 100000#32) v = v := by
  have hc : IntOp.cmpi .slt v 0#32 = 0#1 := by
    apply eq_zero_of_ne_one
    intro h
    have h' := IntOp.cmpi_slt.1 h
    have hi : v.toInt = (v.toNat : Int) := BitVec.toInt_eq_toNat_of_lt (by omega)
    have hz : (0#32).toInt = 0 := by decide
    rw [hi, hz] at h'
    omega
  rw [hc, select_zero]

/-- With every id in [0, 100000) the wrapped ids are the ids, and the reference's gather is `gatherRows`. -/
theorem gather_wrapped (T : FVec F S100000x64 .f32) (src : IVec S1600000 32) (hsrc : ∀ e : S1600000.Idx, (src e).toNat < 100000) :
    Host.gather gather_S100000x64_S1600000x1_S1600000x64_1_0_n_n_0_1_164 T
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))
      = (gatherRows T src : FVec F S1600000x64 .f32) := by
  funext y
  rw [gather_rows_apply, gatherRows_apply]
  -- The index array at (e, 0) is the wrapped id of edge e: the column of ids broadcast along a new unit axis.
  rw [broadcastInDim_apply (![0] : Fin 1 → Fin S1600000x1.rank) bcast_S1600000_S1600000x1_0 _
    (ix2 ⟨(y 0).val, idx2_lt0 y⟩ (0 : Fin 1)) (ix1 ⟨(y 0).val, idx2_lt0 y⟩)
    (fun a => by match a with | ⟨0, _⟩ => rfl)]
  -- The wrapped id of edge e is its id.
  have hw : select (cmpi .slt src (broadcastInDim S1600000 ![] bcast_S_S1600000 (constantI S_ 32 0#32)))
      (addi src (broadcastInDim S1600000 ![] bcast_S_S1600000 (constantI S_ 32 100000#32))) src
      (ix1 ⟨(y 0).val, idx2_lt0 y⟩) = src (ix1 ⟨(y 0).val, idx2_lt0 y⟩) :=
    wrap_id (src (ix1 ⟨(y 0).val, idx2_lt0 y⟩)) (hsrc _)
  rw [hw]

end Cert.ReferenceIdeal.RefGather

end
-- ==== Proof.RefSide.lean ====
/-
  The reference computes the kernel program's `result`. Layer by layer both are: gather the source rows, sum them per
  destination node, and scale by the node's degree — the reference divides the sum by max(deg, 1), the kernel multiplies
  it by 1 / max(deg, 1). On the extended reals x / d = x · d⁻¹ = x · (1 / d) for every x as soon as d ≠ 0, and
  max(deg, 1) ≥ 1 is never 0; so the two layers agree entry by entry, and then so do the averages.
-/
import proofs.«407166_j13718125543734_1_alg».proof.Proof.Gen.ReferenceIdeal.Read
import proofs.«407166_j13718125543734_1_alg».proof.Proof.GatherRead
import proofs.«407166_j13718125543734_1_alg».proof.Proof.KI.Terms
import Idealize.ShloMosaic.PureOps.Ideal
import Idealize.ShloMosaic.Lib.ValueIdx
import Idealize.ShloMosaic.Lib.IdealHost

noncomputable section

namespace Cert.ReferenceIdeal.RefResult

open Idealize.ShloMosaic Idealize.ShloMosaic.ValueIdx Cert.Spec

variable [Cert.ReferenceIdeal.Facts] [Cert.KernelIdeal.Facts]

/-! ## The two programs' shape records are the same records -/

/-- The rows' scatter record of the reference is the kernel program's: the same lists, and a proof field. -/
theorem scatterRows_eq : Cert.ReferenceIdeal.scatter_S100000x64_S1600000x1_S1600000x64_1_0_0_1
    = Cert.KernelIdeal.scatter_S100000x64_S1600000x1_S1600000x64_1_0_0_1 := rfl

/-- The degree count's scatter record of the reference is the kernel program's. -/
theorem scatterDeg_eq : Cert.ReferenceIdeal.scatter_S100000_S1600000x1_S1600000_n_0_0_1
    = Cert.KernelIdeal.scatter_S100000_S1600000x1_S1600000_n_0_0_1 := rfl

/-! ## The scalar law -/

/-- `x · (1 / max(a, 1)) = x / max(a, 1)` for every extended real `x` and `a`: the divisor is at least 1, so it is
    not 0, and both sides are `x · max(a, 1)⁻¹`. -/
theorem mul_inv_max (x a : EReal) : x * Ideal.div 1 (max a 1) = Ideal.div x (max a 1) :=
  Ideal.mul_one_div (ne_of_gt (lt_of_lt_of_le zero_lt_one (le_max_right a 1)))

/-! ## The array law -/

/-- Multiplying every row `n` of `S` by `1 / max(A n, 1)` is dividing it by `max(A n, 1)`. Both sides read the
    per-node scalar through the same two broadcasts, so at an entry the claim is the scalar law. -/
theorem scale_eq (S : FVec Ideal S100000x64 .f32) (A : FVec Ideal S100000 .f32)
    (h0 : S_.BroadcastsInDim S100000 (![] : Fin 0 → Fin S100000.rank))
    (h1 : S100000.BroadcastsInDim S100000x1 (![0] : Fin 1 → Fin S100000x1.rank))
    (h2 : S100000x1.BroadcastsInDim S100000x64 (![0, 1] : Fin 2 → Fin S100000x64.rank)) :
    mulf S (broadcastInDim S100000x64 ![0, 1] h2 (broadcastInDim S100000x1 ![0] h1
        (Host.divf (broadcastInDim S100000 ![] h0 (constant S_ .f32 0x3F800000#32))
          (maximumf A (broadcastInDim S100000 ![] h0 (constant S_ .f32 0x3F800000#32))))))
      = Host.divf S (broadcastInDim S100000x64 ![0, 1] h2 (broadcastInDim S100000x1 ![0] h1
          (maximumf A (broadcastInDim S100000 ![] h0 (constant S_ .f32 0x3F800000#32))))) := by
  funext i
  simp only [mulf, Host.divf, maximumf, broadcastInDim, constant, Ideal.mulf_def, Ideal.hostDivf_def,
    Ideal.maximumf_def, Ideal.ofBits_def, Ideal.ofBits_one_f32]
  exact mul_inv_max _ _

/-! ## One layer -/

/-- The reference's layer over per-edge messages `G` — their sum per destination node divided by max(deg, 1) — is the
    kernel program's `layer` of `G`. -/
theorem layer_eq (G : FVec Ideal S1600000x64 .f32) (dst : IVec S1600000 32) :
    Host.divf
        (Host.scatterAdd Cert.ReferenceIdeal.scatter_S100000x64_S1600000x1_S1600000x64_1_0_0_1
          (broadcastInDim S100000x64 ![] Cert.ReferenceIdeal.Facts₀.bcast_S_S100000x64 (constant S_ .f32 0x00000000#32))
          (broadcastInDim S1600000x1 ![0] Cert.ReferenceIdeal.Facts₀.bcast_S1600000_S1600000x1_0 dst) G)
        (broadcastInDim S100000x64 ![0, 1] Cert.ReferenceIdeal.Facts₀.bcast_S100000x1_S100000x64_0_1
          (broadcastInDim S100000x1 ![0] Cert.ReferenceIdeal.Facts₀.bcast_S100000_S100000x1_0
            (maximumf
              (Host.scatterAdd Cert.ReferenceIdeal.scatter_S100000_S1600000x1_S1600000_n_0_0_1
                (broadcastInDim S100000 ![] Cert.ReferenceIdeal.Facts₀.bcast_S_S100000 (constant S_ .f32 0x00000000#32))
                (broadcastInDim S1600000x1 ![0] Cert.ReferenceIdeal.Facts₀.bcast_S1600000_S1600000x1_0 dst)
                (broadcastInDim S1600000 ![] Cert.ReferenceIdeal.Facts₀.bcast_S_S1600000 (constant S_ .f32 0x3F800000#32)))
              (broadcastInDim S100000 ![] Cert.ReferenceIdeal.Facts₀.bcast_S_S100000 (constant S_ .f32 0x3F800000#32)))))
      = Cert.KernelIdeal.Hand.layer (F := Ideal) G dst := by
  rw [scatterRows_eq, scatterDeg_eq]
  unfold Cert.KernelIdeal.Hand.layer Cert.KernelIdeal.Hand.invDeg
  exact (scale_eq _ _ _ _ _).symm

/-! ## The reference, layer by layer -/

open Cert.ReferenceIdeal.Read in
/-- The reference's first gather, for source ids in [0, 100000), reads the source nodes' rows. -/
theorem gather1_eq (T : FVec Ideal S100000x64 .f32) (src : IVec S1600000 32)
    (hsrc : ∀ e : S1600000.Idx, (src e).toNat < 100000) :
    val_main_v6 (F := Ideal) T src = (gatherRows T src : FVec Ideal S1600000x64 .f32) := by
  unfold val_main_v6 val_main_v5 val_main_v4 val_main_v3 val_main_v2 val_main_v1 val_main_v0 val_main_c val_main_c_0
  exact Cert.ReferenceIdeal.RefGather.gather_wrapped T src hsrc

open Cert.ReferenceIdeal.Read in
/-- The reference's first layer is the kernel program's `hidden`. -/
theorem hidden_eq (T : FVec Ideal S100000x64 .f32) (src dst : IVec S1600000 32)
    (hsrc : ∀ e : S1600000.Idx, (src e).toNat < 100000) :
    val_main_v18 (F := Ideal) T src dst = Cert.KernelIdeal.Hand.hidden (F := Ideal) T src dst := by
  unfold val_main_v18 val_main_v9
  rw [gather1_eq T src hsrc]
  unfold val_main_v17 val_main_v16 val_main_v15 val_main_v14 val_main_v13 val_main_v12 val_main_v11 val_main_v10
    val_main_v8 val_main_v7 val_main_cst val_main_cst_1 val_main_cst_2 val_main_cst_3 Cert.KernelIdeal.Hand.hidden
  exact layer_eq _ dst

open Cert.ReferenceIdeal.Read in
/-- The reference's second gather, for source ids in [0, 100000), reads the source nodes' rows of its table. -/
theorem gather2_eq (X : FVec Ideal S100000x64 .f32) (src : IVec S1600000 32)
    (hsrc : ∀ e : S1600000.Idx, (src e).toNat < 100000) :
    Host.gather Cert.ReferenceIdeal.gather_S100000x64_S1600000x1_S1600000x64_1_0_n_n_0_1_164 X (val_main_v24 (F := Ideal) src)
      = (gatherRows X src : FVec Ideal S1600000x64 .f32) := by
  unfold val_main_v24 val_main_v23 val_main_v22 val_main_v21 val_main_v20 val_main_v19 val_main_c_4 val_main_c_5
  exact Cert.ReferenceIdeal.RefGather.gather_wrapped X src hsrc

open Cert.ReferenceIdeal.Read in
/-- The reference's second layer is the kernel program's `layer` over the rows gathered from `hidden`. -/
theorem second_eq (T : FVec Ideal S100000x64 .f32) (src dst : IVec S1600000 32)
    (hsrc : ∀ e : S1600000.Idx, (src e).toNat < 100000) :
    val_main_v37 (F := Ideal) T src dst
      = Cert.KernelIdeal.Hand.layer (F := Ideal) (gatherRows (Cert.KernelIdeal.Hand.hidden (F := Ideal) T src dst) src) dst := by
  unfold val_main_v37 val_main_v28 val_main_v25
  rw [hidden_eq T src dst hsrc, gather2_eq _ src hsrc]
  unfold val_main_v36 val_main_v35 val_main_v34 val_main_v33 val_main_v32 val_main_v31 val_main_v30 val_main_v29
    val_main_v27 val_main_v26 val_main_cst_6 val_main_cst_7 val_main_cst_8 val_main_cst_9
  exact layer_eq _ dst

/-- At Ideal, for source ids in [0, 100000), the reference's result is the kernel program's `result` of the same inputs. -/
theorem ref_eq_result (T : FVec Ideal Cert.ReferenceIdeal.S100000x64 .f32) (src dst : IVec Cert.ReferenceIdeal.S1600000 32)
    (hsrc : ∀ e : Cert.ReferenceIdeal.S1600000.Idx, (src e).toNat < 100000) :
    Cert.ReferenceIdeal.Read.val_main_v40 (F := Ideal) T src dst = Cert.KernelIdeal.Hand.result (F := Ideal) T src dst := by
  unfold Cert.ReferenceIdeal.Read.val_main_v40 Cert.ReferenceIdeal.Read.val_main_v38 Cert.ReferenceIdeal.Read.val_main_v39
    Cert.ReferenceIdeal.Read.val_main_cst_10 Cert.KernelIdeal.Hand.result
  rw [hidden_eq T src dst hsrc, second_eq T src dst hsrc]

end Cert.ReferenceIdeal.RefResult

end
-- ==== Proof.Claims.lean ====
/-
  Three of the certificate's claims, assembled from the runs of the two idealized programs.
  The precondition puts every source id in [0, 100000). Under it the kernel program runs and ends with every buffer at the
  last valuation of its fold, whose argument buffers are the launch's and whose result buffer holds `result` of the three
  arguments. The reference runs unconditionally and ends with its result buffer at its own composed term, which for source
  ids in [0, 100000) is the same `result`. So both frames hold, and from memories that agree on the arguments the two
  results are equal: the witness is `result` of the kernel's arguments.
-/
import proofs.«407166_j13718125543734_1_alg».proof.Defs
import proofs.«407166_j13718125543734_1_alg».proof.Proof.Gen.Kernel
import proofs.«407166_j13718125543734_1_alg».proof.Proof.Gen.KernelIdeal
import proofs.«407166_j13718125543734_1_alg».proof.Proof.Gen.ReferenceIdeal
import proofs.«407166_j13718125543734_1_alg».proof.Proof.Gen.Pre_finite_inputs
import proofs.«407166_j13718125543734_1_alg».proof.Proof.SrcRange
import proofs.«407166_j13718125543734_1_alg».proof.Proof.KI.MainRun
import proofs.«407166_j13718125543734_1_alg».proof.Proof.KI.Result
import proofs.«407166_j13718125543734_1_alg».proof.Proof.Gen.ReferenceIdeal.Run
import proofs.«407166_j13718125543734_1_alg».proof.Proof.Gen.ReferenceIdeal.Read
import proofs.«407166_j13718125543734_1_alg».proof.Proof.RefSide

noncomputable section

open Idealize.ShloMosaic Idealize.ShloMosaic.TcCoe Idealize.SL.Sem

namespace Cert.Proof.Claims

/-! ## The source ids are rows of the table -/

/-- Under the idealized kernel program's precondition every source id of every core is below the table's height. -/
theorem hsrc_of_pre (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.KernelIdeal.S1600000.Idx) :
    BitVec.toNat (m ((c : Thread Cert.KernelIdeal.nD Cert.KernelIdeal.τ).loc Cert.KernelIdeal.main_arg1) e : BitVec 32) < 100000 :=
  Cert.SrcRange.src_lt (F := Ideal) _ _ _ (hpre c) e

/-- The same under the kernel program's precondition as printed: the range test reads the ids only, whatever the floats are. -/
theorem hsrc_of_pre_bits (m : (ℓ : Loc Cert.Kernel.nD Cert.Kernel.τ Cert.Kernel.sig) → Buf (Elt Bits) ℓ)
    (hpre : Cert.Pre_Kernel m) (c : Dev Cert.Kernel.nD) (e : Cert.Kernel.S1600000.Idx) :
    BitVec.toNat (m ((c : Thread Cert.Kernel.nD Cert.Kernel.τ).loc Cert.Kernel.main_arg1) e : BitVec 32) < 100000 :=
  Cert.SrcRange.src_lt (F := Bits) _ _ _ (hpre c) e

/-! ## The frames -/

/-- The idealized kernel program runs, and its arguments end as launched: the last valuation holds them unchanged. -/
theorem frame_ki : Cert.frame_KernelIdeal := fun m ρ hpre =>
  (θ_run Cert.KernelIdeal.defs _ _).mono
    (fun r h c =>
      ⟨(h c (Proc.devRef .tc Cert.KernelIdeal.main_arg0)
          (Finset.mem_filter.mpr ⟨StableHlo.devRef_mem_tcRefs Cert.KernelIdeal.main_arg0, by decide⟩)).trans
          (Cert.KernelIdeal.Hand.W5_arg0 m c),
        (h c (Proc.devRef .tc Cert.KernelIdeal.main_arg1)
          (Finset.mem_filter.mpr ⟨StableHlo.devRef_mem_tcRefs Cert.KernelIdeal.main_arg1, by decide⟩)).trans
          (Cert.KernelIdeal.Hand.W5_arg1 m c),
        (h c (Proc.devRef .tc Cert.KernelIdeal.main_arg2)
          (Finset.mem_filter.mpr ⟨StableHlo.devRef_mem_tcRefs Cert.KernelIdeal.main_arg2, by decide⟩)).trans
          (Cert.KernelIdeal.Hand.W5_arg2 m c)⟩)
    (Cert.KernelIdeal.Hand.run_all (F := Ideal) m ρ (hsrc_of_pre m hpre))

/-- The idealized reference runs from any memory, and its arguments end as launched. -/
theorem frame_ri : Cert.frame_ReferenceIdeal := fun m ρ _ =>
  (θ_run Cert.ReferenceIdeal.defs _ _).mono (fun _ h c => (h c).2) (Cert.ReferenceIdeal.Value.run (F := Ideal) m ρ)

/-! ## Equal results -/

/-- From memories that agree on the arguments both programs run, leave their arguments unchanged, and end with the same
    result array on every core: `result` of the kernel's arguments. The kernel's last valuation holds it in the result
    buffer; the reference's composed term is it because the source ids are rows of the table. -/
theorem algebraic : Cert.algebraic_KernelIdeal_ReferenceIdeal := by
  intro m ρ m' ρ' hpre hagree
  have hsrc := hsrc_of_pre m hpre
  refine ⟨fun c => Cert.KernelIdeal.Hand.result (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · exact (θ_run Cert.KernelIdeal.defs _ _).mono
      (fun r h c =>
        ⟨(h c (Proc.devRef .tc Cert.KernelIdeal.main_v23)
            (Finset.mem_filter.mpr ⟨StableHlo.devRef_mem_tcRefs Cert.KernelIdeal.main_v23, by decide⟩)).trans
            (Cert.KernelIdeal.Hand.W5_result m hsrc c),
          (h c (Proc.devRef .tc Cert.KernelIdeal.main_arg0)
            (Finset.mem_filter.mpr ⟨StableHlo.devRef_mem_tcRefs Cert.KernelIdeal.main_arg0, by decide⟩)).trans
            (Cert.KernelIdeal.Hand.W5_arg0 m c),
          (h c (Proc.devRef .tc Cert.KernelIdeal.main_arg1)
            (Finset.mem_filter.mpr ⟨StableHlo.devRef_mem_tcRefs Cert.KernelIdeal.main_arg1, by decide⟩)).trans
            (Cert.KernelIdeal.Hand.W5_arg1 m c),
          (h c (Proc.devRef .tc Cert.KernelIdeal.main_arg2)
            (Finset.mem_filter.mpr ⟨StableHlo.devRef_mem_tcRefs Cert.KernelIdeal.main_arg2, by decide⟩)).trans
            (Cert.KernelIdeal.Hand.W5_arg2 m c)⟩)
      (Cert.KernelIdeal.Hand.run_all (F := Ideal) m ρ hsrc)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v40_eq (F := Ideal) _ _ _).trans ?_
    rw [(hagree c).1, (hagree c).2.1, (hagree c).2.2]
    exact Cert.ReferenceIdeal.RefResult.ref_eq_result _ _ _ (hsrc c)

end Cert.Proof.Claims

end
-- ==== Proof.KB.Rows.lean ====
/-
  The gather kernel's body, run symbolically, for both calls of the program: 128 one-row copies out of a table left in HBM,
  each waited for before its row is stored into the output block. What is proved here is that the body runs, given that
  every node id of the block is below the table's height, and which 128 row stores it leaves.
-/
import proofs.«407166_j13718125543734_1_alg».proof.Proof.Gen.Kernel.Launch
import proofs.«407166_j13718125543734_1_alg».proof.Proof.Gen.Kernel.Skeleton
import proofs.«407166_j13718125543734_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- A node id below the table's height names a row of the table: the one-row slice at that id lies inside it. -/
theorem row_inside (v : BitVec 32) (h : v.toNat < 100000) :
    ∀ a, (![v.toNat, 0] : Fin 2 → Nat) a + S1x64.size a ≤ S100000x64.size a := by
  intro a
  match a with
  | ⟨0, _⟩ => show v.toNat + 1 ≤ 100000; omega
  | ⟨1, _⟩ => show 0 + 64 ≤ 64; omega

/-- A scratch row held by its own elements, at contents `f`. -/
abbrev RowBuf (c : Dev nD) (M : Memref sig .tc .vmem S64 .f32) : Type := Buf (Elt F) (M.view.loc (c : Thread nD τ))
abbrev rowPt (c : Dev nD) (M : Memref sig .tc .vmem S64 .f32) (f : RowBuf (F := F) c M) : sProp 𝕄 :=
  M.view.loc (c : Thread nD τ) ↦[M.view.set]{fullShare} f

/-! ## Call 0: the body's run

The body copies, for each of the block's 128 node ids in turn, that id's row of the table (left in HBM) into one row of a
two-row scratch, alternating rows, waits for the copy, starts the next id's copy into the other row, and stores the landed
row as row `k` of the output block. Only one copy is ever in flight, and it never targets the row being read. -/

/-- The table this call gathers from, whole in HBM. -/
abbrev tableM0 : Memref sig .tc .hbm S100000x64 .f32 := Memref.whole main_arg0
abbrev TableBuf0 (c : Dev nD) : Type := Buf (Elt F) (tableM0.view.loc (c : Thread nD τ))
abbrev tablePt0 (c : Dev nD) (f : TableBuf0 (F := F) c) : sProp 𝕄 :=
  tableM0.view.loc (c : Thread nD τ) ↦{fullShare} f

/-- The two-row scratch, whole, and each of its rows as a memref of its own, spelt as the copies spell their target. -/
abbrev scr0 : Memref sig .tc .vmem S2x64 .f32 := Memref.whole cc0_scratch0
abbrev rowA0 : Memref sig .tc .vmem S64 .f32 :=
  (scr0.slice (Rect.unit (s := S2x64) ![0, 0] S1x64.size inb_S2x64_S1x64_0_0) (fun _ => rfl)).squeeze S64 squeezes_S1x64_S64
abbrev rowB0 : Memref sig .tc .vmem S64 .f32 :=
  (scr0.slice (Rect.unit (s := S2x64) ![1, 0] S1x64.size inb_S2x64_S1x64_1_0) (fun _ => rfl)).squeeze S64 squeezes_S1x64_S64

set_option maxHeartbeats 0 in
/-- The rows the body's 128 stores leave in the output block's buffer (last first), with the proof that the body runs: from
    the id block held at `ids` (every id a row of the table: `hids`), the output buffer and the two scratch rows at
    anything, the two copy semaphores at zero and the table whole at `tbl`, to the same with the output buffer written. -/
noncomputable def rowCopyRun0 (c : Dev nD) (i : grid0.Coords) (arg1 : Memref sig .tc .smem S128 .i32) (harg1 : arg1.IsWhole)
    (arg3 : Memref sig .tc .vmem S128x64 .f32) (harg3 : arg3.IsWhole)
    (ids : Vec F S128 .i32) (tbl : TableBuf0 (F := F) c)
    (hids : ∀ (B : LoadRect S128) (x : B.shape.Idx), BitVec.toNat (arg1.view.readAt (Elt F) B (harg1.unread ids) x : BitVec 32) < 100000) :
    { rows : List (View.Piece (Elt F) S128x64 .f32) //
      ∀ (W : Waits sig Unit) (K : PUnit → sProp 𝕄),
        iprop(owns (c : Thread nD τ) arg1 fullShare ids ∗ (∃ d, owns (c : Thread nD τ) arg3 fullShare d) ∗ (∃ f, rowPt c rowA0 f) ∗ (∃ f, rowPt c rowB0 f)
            ∗ semVal ((c : Thread nD τ), SemLoc.dma 4) 0 ∗ semVal ((c : Thread nD τ), SemLoc.dma 5) 0 ∗ tablePt0 c tbl ∗ owes (c : Thread nD τ) 0 W
            ∗ (iprop(owns (c : Thread nD τ) arg1 fullShare ids ∗ (∃ f, arg3.view.loc (c : Thread nD τ) ↦[arg3.view.set]{fullShare} arg3.view.writes (Elt F) f rows) ∗ (∃ f, rowPt c rowA0 f) ∗ (∃ f, rowPt c rowB0 f)
                ∗ semVal ((c : Thread nD τ), SemLoc.dma 4) 0 ∗ semVal ((c : Thread nD τ), SemLoc.dma 5) 0 ∗ tablePt0 c tbl ∗ (∃ W', owes (c : Thread nD τ) 0 W')) -∗ K ⟨⟩))
          ⊢ wp frame (wpE (defs₀ (F := F)) Variants.none c none) Set.univ (cc0__gather_kernel i arg1 harg1 (Memref.whole main_arg0) (Memref.isWhole_whole _) arg3 harg3 scr0 (Memref.isWhole_whole _) cc0_scratch1) K } := by
  refine ⟨?_, fun W K => ?run⟩
  case run =>
    simp only [cc0__gather_kernel_eq_skeleton]; unfold cc0__gather_kernel_skel
    unfold owns
    iintro ⟨⟨%f0, %hf0, H0⟩, ⟨%d1, %f1, -, H1⟩, ⟨%fa, HA⟩, ⟨%fb, HB⟩, Hq0, Hq1, Hh0, HW, Hk⟩
    obtain rfl := harg1.eq_unread hf0
    sl_exec (disch := first | exact row_inside _ (hids _ _))
    sl_step
    iapply Hk
    isplitl [H0]
    · iexists _; isplitr; · ipureintro; exact harg1.read_unread _
      iexact H0
    isplitl [H1]; · iexists _; iexact H1
    isplitl [HA]; · iexists _; iexact HA
    isplitl [HB]; · iexists _; iexact HB
    isplitl [Hq0]; · iexact Hq0
    isplitl [Hq1]; · iexact Hq1
    isplitl [Hh0]; · iexact Hh0
    iexists _; iexact HW

set_option maxHeartbeats 0 in
/-- The 128 stored rows tile the 128 × 64 block row by row, so every entry of the block is in one of them. -/
theorem rows_cover0 (c : Dev nD) (i : grid0.Coords) (arg1 : Memref sig .tc .smem S128 .i32) (harg1 : arg1.IsWhole)
    (arg3 : Memref sig .tc .vmem S128x64 .f32) (harg3 : arg3.IsWhole)
    (ids : Vec F S128 .i32) (tbl : TableBuf0 (F := F) c)
    (hids : ∀ (B : LoadRect S128) (x : B.shape.Idx), BitVec.toNat (arg1.view.readAt (Elt F) B (harg1.unread ids) x : BitVec 32) < 100000) (y : S128x64.Idx) :
    ∃ pc ∈ (rowCopyRun0 c i arg1 harg1 arg3 harg3 ids tbl hids).1, y ∈ pc.1.set :=
  View.cover_of_tiledL (rowCopyRun0 c i arg1 harg1 arg3 harg3 ids tbl hids).1 S1x64.size (by sl_kernel_rfl) y

/-! ## Call 1: the body's run

The body copies, for each of the block's 128 node ids in turn, that id's row of the table (left in HBM) into one row of a
two-row scratch, alternating rows, waits for the copy, starts the next id's copy into the other row, and stores the landed
row as row `k` of the output block. Only one copy is ever in flight, and it never targets the row being read. -/

/-- The table this call gathers from, whole in HBM. -/
abbrev tableM1 : Memref sig .tc .hbm S100000x64 .f32 := Memref.whole main_v14
abbrev TableBuf1 (c : Dev nD) : Type := Buf (Elt F) (tableM1.view.loc (c : Thread nD τ))
abbrev tablePt1 (c : Dev nD) (f : TableBuf1 (F := F) c) : sProp 𝕄 :=
  tableM1.view.loc (c : Thread nD τ) ↦{fullShare} f

/-- The two-row scratch, whole, and each of its rows as a memref of its own, spelt as the copies spell their target. -/
abbrev scr1 : Memref sig .tc .vmem S2x64 .f32 := Memref.whole cc1_scratch0
abbrev rowA1 : Memref sig .tc .vmem S64 .f32 :=
  (scr1.slice (Rect.unit (s := S2x64) ![0, 0] S1x64.size inb_S2x64_S1x64_0_0) (fun _ => rfl)).squeeze S64 squeezes_S1x64_S64
abbrev rowB1 : Memref sig .tc .vmem S64 .f32 :=
  (scr1.slice (Rect.unit (s := S2x64) ![1, 0] S1x64.size inb_S2x64_S1x64_1_0) (fun _ => rfl)).squeeze S64 squeezes_S1x64_S64

set_option maxHeartbeats 0 in
/-- The rows the body's 128 stores leave in the output block's buffer (last first), with the proof that the body runs: from
    the id block held at `ids` (every id a row of the table: `hids`), the output buffer and the two scratch rows at
    anything, the two copy semaphores at zero and the table whole at `tbl`, to the same with the output buffer written. -/
noncomputable def rowCopyRun1 (c : Dev nD) (i : grid1.Coords) (arg1 : Memref sig .tc .smem S128 .i32) (harg1 : arg1.IsWhole)
    (arg3 : Memref sig .tc .vmem S128x64 .f32) (harg3 : arg3.IsWhole)
    (ids : Vec F S128 .i32) (tbl : TableBuf1 (F := F) c)
    (hids : ∀ (B : LoadRect S128) (x : B.shape.Idx), BitVec.toNat (arg1.view.readAt (Elt F) B (harg1.unread ids) x : BitVec 32) < 100000) :
    { rows : List (View.Piece (Elt F) S128x64 .f32) //
      ∀ (W : Waits sig Unit) (K : PUnit → sProp 𝕄),
        iprop(owns (c : Thread nD τ) arg1 fullShare ids ∗ (∃ d, owns (c : Thread nD τ) arg3 fullShare d) ∗ (∃ f, rowPt c rowA1 f) ∗ (∃ f, rowPt c rowB1 f)
            ∗ semVal ((c : Thread nD τ), SemLoc.dma 10) 0 ∗ semVal ((c : Thread nD τ), SemLoc.dma 11) 0 ∗ tablePt1 c tbl ∗ owes (c : Thread nD τ) 0 W
            ∗ (iprop(owns (c : Thread nD τ) arg1 fullShare ids ∗ (∃ f, arg3.view.loc (c : Thread nD τ) ↦[arg3.view.set]{fullShare} arg3.view.writes (Elt F) f rows) ∗ (∃ f, rowPt c rowA1 f) ∗ (∃ f, rowPt c rowB1 f)
                ∗ semVal ((c : Thread nD τ), SemLoc.dma 10) 0 ∗ semVal ((c : Thread nD τ), SemLoc.dma 11) 0 ∗ tablePt1 c tbl ∗ (∃ W', owes (c : Thread nD τ) 0 W')) -∗ K ⟨⟩))
          ⊢ wp frame (wpE (defs₀ (F := F)) Variants.none c none) Set.univ (cc1__gather_kernel i arg1 harg1 (Memref.whole main_v14) (Memref.isWhole_whole _) arg3 harg3 scr1 (Memref.isWhole_whole _) cc1_scratch1) K } := by
  refine ⟨?_, fun W K => ?run⟩
  case run =>
    simp only [cc1__gather_kernel_eq_skeleton]; unfold cc1__gather_kernel_skel
    unfold owns
    iintro ⟨⟨%f0, %hf0, H0⟩, ⟨%d1, %f1, -, H1⟩, ⟨%fa, HA⟩, ⟨%fb, HB⟩, Hq0, Hq1, Hh0, HW, Hk⟩
    obtain rfl := harg1.eq_unread hf0
    sl_exec (disch := first | exact row_inside _ (hids _ _))
    sl_step
    iapply Hk
    isplitl [H0]
    · iexists _; isplitr; · ipureintro; exact harg1.read_unread _
      iexact H0
    isplitl [H1]; · iexists _; iexact H1
    isplitl [HA]; · iexists _; iexact HA
    isplitl [HB]; · iexists _; iexact HB
    isplitl [Hq0]; · iexact Hq0
    isplitl [Hq1]; · iexact Hq1
    isplitl [Hh0]; · iexact Hh0
    iexists _; iexact HW

set_option maxHeartbeats 0 in
/-- The 128 stored rows tile the 128 × 64 block row by row, so every entry of the block is in one of them. -/
theorem rows_cover1 (c : Dev nD) (i : grid1.Coords) (arg1 : Memref sig .tc .smem S128 .i32) (harg1 : arg1.IsWhole)
    (arg3 : Memref sig .tc .vmem S128x64 .f32) (harg3 : arg3.IsWhole)
    (ids : Vec F S128 .i32) (tbl : TableBuf1 (F := F) c)
    (hids : ∀ (B : LoadRect S128) (x : B.shape.Idx), BitVec.toNat (arg1.view.readAt (Elt F) B (harg1.unread ids) x : BitVec 32) < 100000) (y : S128x64.Idx) :
    ∃ pc ∈ (rowCopyRun1 c i arg1 harg1 arg3 harg3 ids tbl hids).1, y ∈ pc.1.set :=
  View.cover_of_tiledL (rowCopyRun1 c i arg1 harg1 arg3 harg3 ids tbl hids).1 S1x64.size (by sl_kernel_rfl) y

end Cert.Kernel.Hand

end
-- ==== Proof.KB.RowsValue.lean ====
/-
  What the 128 row stores of the gather body amount to: the output block is, entry by entry, the table's rows that the
  block's ids name. Each stored row was read from one scratch row right after a whole-row copy landed in it, so it is the
  table's row at that id; the 128 one-row stores tile the block.
-/
import proofs.«407166_j13718125543734_1_alg».proof.Proof.Gen.Kernel.Launch
import proofs.«407166_j13718125543734_1_alg».proof.Proof.Gen.Kernel.Skeleton
import proofs.«407166_j13718125543734_1_alg».proof.Proof.Gen.Kernel.Points
import proofs.«407166_j13718125543734_1_alg».proof.Proof.KB.Rows
import proofs.«407166_j13718125543734_1_alg».proof.Proof.Spec
import Idealize.ShloMosaic.Lib.Pipeline.Value
import Idealize.ShloMosaic.Lib.ValueLayout
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

open Cert.Spec Idealize.ShloMosaic.ValueIdx

/-- Ids below the table's height stay so when read through the id buffer's own view. -/
theorem hids_of_lt (arg1 : Memref sig .tc .smem S128 .i32) (harg1 : arg1.IsWhole) (ids : Vec F S128 .i32)
    (hlt : ∀ j : S128.Idx, BitVec.toNat (ids j : BitVec 32) < 100000) :
    ∀ (B : LoadRect S128) (x : B.shape.Idx), BitVec.toNat (arg1.view.readAt (Elt F) B (harg1.unread ids) x : BitVec 32) < 100000 := by
  intro B x; rw [harg1.readAt_unread]; exact hlt _

section General

variable {Val : EltTy → Type}

/-- A whole-row copy landed last is what the row reads, whatever older copies lie beneath it. -/
theorem read_writes_whole_cons {κ : Kind} {sp : Space} {s : Shape} {e : EltTy} (v : View sig κ sp s e)
    (g : v.ty.Contents Val) (w : s.Idx → Val e) (L : List (View.Piece Val s e)) :
    v.read Val (v.writes Val g (⟨Rect.whole s, w⟩ :: L)) = w := by
  funext y
  have h := View.read_writes_cons_emb v g (Rect.whole s) w L y
  rwa [Rect.emb_whole_apply] at h

/-- Entry `j` of row `r` of a two-axis array, read through the one-row slice at `r` with its unit axis dropped, is the
    array's entry `(r, j)`. -/
theorem read_row_slice {κ : Kind} {sp : Space} {n : Nat} {e : EltTy} (tab : Memref sig κ sp ⟨2, ![n, 64]⟩ e)
    (r : Nat) (hr : r < n) (inb : ∀ a, (![r, 0] : Fin 2 → Nat) a + S1x64.size a ≤ (⟨2, ![n, 64]⟩ : Shape).size a)
    (hs : ∀ a, (Rect.unit (s := ⟨2, ![n, 64]⟩) ![r, 0] S1x64.size inb).stride a = 1)
    (hq : (Rect.unit (s := ⟨2, ![n, 64]⟩) ![r, 0] S1x64.size inb).shape.Squeezes S64)
    (tbl : tab.view.ty.Contents Val) (j : Fin 64) :
    ((tab.slice (Rect.unit (s := ⟨2, ![n, 64]⟩) ![r, 0] S1x64.size inb) hs).squeeze S64 hq).view.read Val tbl (ix1 j)
      = tab.view.read Val tbl (ix2 ⟨r, hr⟩ j) := by
  rw [Memref.read_squeeze_slice tab _ hs hq shapeCasts_S1x64_S64 tbl]
  have e1 := shapeCast_1a_a_apply (a := 64) (tab.view.readAt Val (Rect.unit (s := ⟨2, ![n, 64]⟩) ![r, 0] S1x64.size inb).toLoadRect tbl) shapeCasts_S1x64_S64 j
  refine e1.trans ?_
  rw [View.readAt_apply]
  congr 1
  refine Shape.idx_ext₂ ?_ ?_
  · show r + 1 * 0 = r; omega
  · show 0 + 1 * j.val = j.val; omega

end General

section Stored

variable {Val : EltTy → Type}

/-- One stored row of the gather, entry by entry. The row was loaded from row `s` of the two-row scratch, through the whole
    scratch, right after a whole-row copy of row `r` of the table landed in that scratch row (through the row's own view, over
    whatever older copies `L` lay there); its two shape casts, dropping the unit axis and putting it back, cancel. So its
    entry `(0, j)` is the table's entry `(r, j)`. -/
theorem stored_row_apply {sp sp' : Space}
    (scr : Memref sig .tc sp S2x64 .f32) (s : Nat)
    (inbS : ∀ a, (![s, 0] : Fin 2 → Nat) a + S1x64.size a ≤ S2x64.size a)
    (hsS : ∀ a, (Rect.unit (s := S2x64) ![s, 0] S1x64.size inbS).stride a = 1)
    (hqS : (Rect.unit (s := S2x64) ![s, 0] S1x64.size inbS).shape.Squeezes S64)
    (g : ((scr.slice (Rect.unit (s := S2x64) ![s, 0] S1x64.size inbS) hsS).squeeze S64 hqS).view.ty.Contents Val)
    (tab : Memref sig .tc sp' S100000x64 .f32) (r : Nat) (hr : r < 100000)
    (inbT : ∀ a, (![r, 0] : Fin 2 → Nat) a + S1x64.size a ≤ S100000x64.size a)
    (hsT : ∀ a, (Rect.unit (s := S100000x64) ![r, 0] S1x64.size inbT).stride a = 1)
    (hqT : (Rect.unit (s := S100000x64) ![r, 0] S1x64.size inbT).shape.Squeezes S64)
    (tbl : tab.view.ty.Contents Val) (L : List (View.Piece Val S64 .f32))
    (hc1 : S1x64.ShapeCasts S64) (hc2 : S64.ShapeCasts S1x64) (x : S1x64.Idx) :
    shapeCast S1x64 (shapeCast S64 (scr.view.readAt Val (Rect.unit (s := S2x64) ![s, 0] S1x64.size inbS).toLoadRect
        (((scr.slice (Rect.unit (s := S2x64) ![s, 0] S1x64.size inbS) hsS).squeeze S64 hqS).view.writes Val g
          (⟨Rect.whole S64, ReadAs.same.apply (View.read Val ((tab.slice (Rect.unit (s := S100000x64) ![r, 0] S1x64.size inbT) hsT).squeeze S64 hqT).view tbl)⟩ :: L))) hc1) hc2 x
      = tab.view.read Val tbl (ix2 ⟨r, hr⟩ ⟨(x 1).val, idx2_lt1 x⟩) := by
  obtain ⟨u, j, rfl⟩ : ∃ (u : Fin 1) (j : Fin 64), x = ix2 u j := ⟨x 0, x 1, eq_ix2 x⟩
  refine (shapeCast_a_1a_apply _ hc2 u j).trans ?_
  have hA := (Memref.read_squeeze_slice scr (Rect.unit (s := S2x64) ![s, 0] S1x64.size inbS) hsS hqS hc1
      (((scr.slice (Rect.unit (s := S2x64) ![s, 0] S1x64.size inbS) hsS).squeeze S64 hqS).view.writes Val g
          (⟨Rect.whole S64, ReadAs.same.apply (View.read Val ((tab.slice (Rect.unit (s := S100000x64) ![r, 0] S1x64.size inbT) hsT).squeeze S64 hqT).view tbl)⟩ :: L))).symm.trans
    (read_writes_whole_cons _ g _ L)
  refine (congrFun hA (ix1 j)).trans ?_
  exact read_row_slice tab r hr inbT hsT hqT tbl j

end Stored

/-- The id the body reads for output row `k`, through the id buffer's own view, is the block's `k`-th id. -/
theorem id_word (arg1 : Memref sig .tc .smem S128 .i32) (harg1 : arg1.IsWhole) (ids : Vec F S128 .i32)
    (k : Nat) (hk : k < 128) (inbI : ∀ a, (![k] : Fin 1 → Nat) a + S1.size a ≤ S128.size a)
    (hf : 0 < (Rect.unit (s := S128) ![k] S1.size inbI).toLoadRect.shape.numel) :
    arg1.view.readAt (Elt F) (Rect.unit (s := S128) ![k] S1.size inbI).toLoadRect (harg1.unread ids) (Shape.Idx.first hf)
      = ids (ix1 ⟨k, hk⟩) := by
  rw [harg1.readAt_unread]
  congr 1
  funext a
  match a with
  | ⟨0, _⟩ => exact Fin.ext (show k + 1 * 0 = k by omega)

/-- Output row `k` as stored agrees with the gathered block on its whole rectangle: the stored row is the table's row at the
    `k`-th id (`stored_row_apply`), and an id below the table's height is its own row. -/
theorem stored_piece_agrees {sp sp' : Space} (arg1 : Memref sig .tc .smem S128 .i32) (harg1 : arg1.IsWhole) (ids : Vec F S128 .i32)
    (hlt : ∀ j : S128.Idx, BitVec.toNat (ids j : BitVec 32) < 100000)
    (k : Nat)
    (inbK : ∀ a, (![k, 0] : Fin 2 → Nat) a + (![1, 64] : Fin 2 → Nat) a ≤ S128x64.size a)
    (inbI : ∀ a, (![k] : Fin 1 → Nat) a + S1.size a ≤ S128.size a)
    (hf : 0 < (Rect.unit (s := S128) ![k] S1.size inbI).toLoadRect.shape.numel)
    (scr : Memref sig .tc sp S2x64 .f32) (s : Nat)
    (inbS : ∀ a, (![s, 0] : Fin 2 → Nat) a + S1x64.size a ≤ S2x64.size a)
    (hsS : ∀ a, (Rect.unit (s := S2x64) ![s, 0] S1x64.size inbS).stride a = 1)
    (hqS : (Rect.unit (s := S2x64) ![s, 0] S1x64.size inbS).shape.Squeezes S64)
    (g : ((scr.slice (Rect.unit (s := S2x64) ![s, 0] S1x64.size inbS) hsS).squeeze S64 hqS).view.ty.Contents (Elt F))
    (tab : Memref sig .tc sp' S100000x64 .f32)
    (inbT : ∀ a, (![BitVec.toNat (arg1.view.readAt (Elt F) (Rect.unit (s := S128) ![k] S1.size inbI).toLoadRect (harg1.unread ids) (Shape.Idx.first hf) : BitVec 32), 0] : Fin 2 → Nat) a + S1x64.size a ≤ S100000x64.size a)
    (hsT : ∀ a, (Rect.unit (s := S100000x64) ![BitVec.toNat (arg1.view.readAt (Elt F) (Rect.unit (s := S128) ![k] S1.size inbI).toLoadRect (harg1.unread ids) (Shape.Idx.first hf) : BitVec 32), 0] S1x64.size inbT).stride a = 1)
    (hqT : (Rect.unit (s := S100000x64) ![BitVec.toNat (arg1.view.readAt (Elt F) (Rect.unit (s := S128) ![k] S1.size inbI).toLoadRect (harg1.unread ids) (Shape.Idx.first hf) : BitVec 32), 0] S1x64.size inbT).shape.Squeezes S64)
    (tbl : tab.view.ty.Contents (Elt F)) (L : List (View.Piece (Elt F) S64 .f32))
    (hc1 : S1x64.ShapeCasts S64) (hc2 : S64.ShapeCasts S1x64) :
    ∀ x : (Rect.unit (s := S128x64) ![k, 0] ![1, 64] inbK).shape.Idx,
      shapeCast S1x64 (shapeCast S64 (scr.view.readAt (Elt F) (Rect.unit (s := S2x64) ![s, 0] S1x64.size inbS).toLoadRect
        (((scr.slice (Rect.unit (s := S2x64) ![s, 0] S1x64.size inbS) hsS).squeeze S64 hqS).view.writes (Elt F) g
          (⟨Rect.whole S64, ReadAs.same.apply (View.read (Elt F) ((tab.slice (Rect.unit (s := S100000x64) ![BitVec.toNat (arg1.view.readAt (Elt F) (Rect.unit (s := S128) ![k] S1.size inbI).toLoadRect (harg1.unread ids) (Shape.Idx.first hf) : BitVec 32), 0] S1x64.size inbT) hsT).squeeze S64 hqT).view tbl)⟩ :: L))) hc1) hc2 x
      = (gatherRows (tab.view.read (Elt F) tbl) ids : Vec F S128x64 .f32) ((Rect.unit (s := S128x64) ![k, 0] ![1, 64] inbK).emb x) := by
  intro x
  have hk : k < 128 := by have h := inbK 0; change k + 1 ≤ 128 at h; omega
  have hw := id_word arg1 harg1 ids k hk inbI hf
  have hr : BitVec.toNat (arg1.view.readAt (Elt F) (Rect.unit (s := S128) ![k] S1.size inbI).toLoadRect (harg1.unread ids) (Shape.Idx.first hf) : BitVec 32) < 100000 := by
    rw [hw]; exact hlt _
  refine (stored_row_apply scr s inbS hsS hqS g tab _ hr inbT hsT hqT tbl L hc1 hc2 x).trans ?_
  rw [gatherRows_apply]
  congr 1
  have h0 : (x 0).val = 0 := by have := (x 0).isLt; change (x 0).val < 1 at this; omega
  have hi : (ix1 ⟨(((Rect.unit (s := S128x64) ![k, 0] ![1, 64] inbK).emb x) 0).val, idx2_lt0 _⟩ : S128.Idx) = ix1 ⟨k, hk⟩ := by
    congr 1; exact Fin.ext (show k + 1 * (x 0).val = k by omega)
  refine Shape.idx_ext₂ ?_ ?_
  · show BitVec.toNat _ = (rowOf _).val
    rw [hi, rowOf_val (hlt _), hw]
  · show (x 1).val = 0 + 1 * (x 1).val; omega

set_option maxHeartbeats 0 in
/-- The canon of call 0's 128 stored rows is the gathered block: row `k` of the output block is row `ids k` of the table. -/
theorem rows_canon0 (c : Dev nD) (i : grid0.Coords) (arg1 : Memref sig .tc .smem S128 .i32) (harg1 : arg1.IsWhole)
    (arg3 : Memref sig .tc .vmem S128x64 .f32) (harg3 : arg3.IsWhole)
    (ids : Vec F S128 .i32) (tbl : TableBuf0 (F := F) c)
    (hlt : ∀ j : S128.Idx, BitVec.toNat (ids j : BitVec 32) < 100000) :
    View.canon (rowCopyRun0 c i arg1 harg1 arg3 harg3 ids tbl (hids_of_lt arg1 harg1 ids hlt)).1
      = (gatherRows (tableM0.view.read (Elt F) tbl) ids : Vec F S128x64 .f32) := by
  funext y
  refine View.canon_apply_of_pieces (gatherRows (tableM0.view.read (Elt F) tbl) ids : Vec F S128x64 .f32) _ ?_ y
    (rows_cover0 c i arg1 harg1 arg3 harg3 ids tbl (hids_of_lt arg1 harg1 ids hlt) y)
  unfold rowCopyRun0
  dsimp only
  sl_unfold_words
  repeat' (first | exact List.forall_mem_nil _ | refine List.forall_mem_cons.2 ⟨?_, ?_⟩)
  all_goals exact stored_piece_agrees arg1 harg1 ids hlt _ (by decide) _ _ scr0 _ _ _ _ _ tableM0 _ _ _ tbl _ _ _

set_option maxHeartbeats 0 in
/-- The canon of call 1's 128 stored rows is the gathered block: row `k` of the output block is row `ids k` of the table. -/
theorem rows_canon1 (c : Dev nD) (i : grid1.Coords) (arg1 : Memref sig .tc .smem S128 .i32) (harg1 : arg1.IsWhole)
    (arg3 : Memref sig .tc .vmem S128x64 .f32) (harg3 : arg3.IsWhole)
    (ids : Vec F S128 .i32) (tbl : TableBuf1 (F := F) c)
    (hlt : ∀ j : S128.Idx, BitVec.toNat (ids j : BitVec 32) < 100000) :
    View.canon (rowCopyRun1 c i arg1 harg1 arg3 harg3 ids tbl (hids_of_lt arg1 harg1 ids hlt)).1
      = (gatherRows (tableM1.view.read (Elt F) tbl) ids : Vec F S128x64 .f32) := by
  funext y
  refine View.canon_apply_of_pieces (gatherRows (tableM1.view.read (Elt F) tbl) ids : Vec F S128x64 .f32) _ ?_ y
    (rows_cover1 c i arg1 harg1 arg3 harg3 ids tbl (hids_of_lt arg1 harg1 ids hlt) y)
  unfold rowCopyRun1
  dsimp only
  sl_unfold_words
  repeat' (first | exact List.forall_mem_nil _ | refine List.forall_mem_cons.2 ⟨?_, ?_⟩)
  all_goals exact stored_piece_agrees arg1 harg1 ids hlt _ (by decide) _ _ scr1 _ _ _ _ _ tableM1 _ _ _ tbl _ _ _

end Cert.Kernel.Hand

end
-- ==== Proof.KB.Region.lean ====
/-
  Each call of the gather kernel as a pipeline region: what its windows' buffers hold after the body at each grid point
  (the id block unchanged; the output block = the table's rows those ids name), the invariant the body keeps (its scratch,
  its two copy semaphores at zero, the table unchanged), and that the body meets this at every point, because every id of
  the point's block is below the table's height.
-/
import proofs.«407166_j13718125543734_1_alg».proof.Proof.Gen.Kernel.Launch
import proofs.«407166_j13718125543734_1_alg».proof.Proof.Gen.Kernel.Skeleton
import proofs.«407166_j13718125543734_1_alg».proof.Proof.Gen.Kernel.Points
import proofs.«407166_j13718125543734_1_alg».proof.Proof.KB.Rows
import proofs.«407166_j13718125543734_1_alg».proof.Proof.KB.RowsValue
import proofs.«407166_j13718125543734_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

open Cert.Spec

/-! ## The two-row scratch as its rows -/

theorem inb_row (s : Fin 2) : ∀ a, (![s.val, 0] : Fin 2 → Nat) a + S1x64.size a ≤ S2x64.size a := by
  have := s.isLt; intro a; fin_cases a <;> simp <;> omega
/-- Row `s` of a 2 × 64 buffer. -/
abbrev rowSet (s : Fin 2) : Finset S2x64.Idx := (Rect.unit (s := S2x64) ![s.val, 0] S1x64.size (inb_row s)).set
/-- The two rows are disjoint and make up the buffer. -/
theorem rows_disjoint (s s' : Fin 2) (h : s ≠ s') : Disjoint (rowSet s) (rowSet s') :=
  Ring.lead_disjoint (s := S2x64) (0 : Fin 2) 1 (fun s : Fin 2 => (![s.val, 0] : Fin 2 → Nat)) S1x64.size inb_row (fun s => by simp) rfl s s' h
theorem rows_union : Finset.univ.biUnion rowSet = Finset.univ :=
  Ring.lead_cover (s := S2x64) (0 : Fin 2) 1 (fun s : Fin 2 => (![s.val, 0] : Fin 2 → Nat)) S1x64.size inb_row (fun s => by simp)
    (fun s a ha => by fin_cases a <;> first | exact absurd rfl ha | rfl) rfl (fun a ha => by fin_cases a <;> first | exact absurd rfl ha | rfl) rfl

/-- Row `s` of call 0's scratch as a set of its elements, and the row memrefs' element sets. -/
theorem rowA0_set : (rowA0 : Memref sig .tc .vmem S64 .f32).view.set = rowSet 0 := by
  simp only [Memref.view_squeeze, View.set_reshape]; exact View.set_slice_whole _ _
theorem rowB0_set : (rowB0 : Memref sig .tc .vmem S64 .f32).view.set = rowSet 1 := by
  simp only [Memref.view_squeeze, View.set_reshape]; exact View.set_slice_whole _ _
theorem rowPtA0_eq (c : Dev nD) (f) : rowPt (F := F) c rowA0 f = (((c : Thread nD τ).loc cc0_scratch0) ↦[rowSet 0]{fullShare} f : sProp 𝕄) := by
  unfold rowPt; rw [rowA0_set]
theorem rowPtB0_eq (c : Dev nD) (f) : rowPt (F := F) c rowB0 f = (((c : Thread nD τ).loc cc0_scratch0) ↦[rowSet 1]{fullShare} f : sProp 𝕄) := by
  unfold rowPt; rw [rowB0_set]
/-- The scratch whole at some contents is its two rows at some contents each, and back. -/
theorem scr_split0 (c : Dev nD) :
    iprop(∃ f : Buf (Elt F) ((c : Thread nD τ).loc cc0_scratch0), ((c : Thread nD τ).loc cc0_scratch0) ↦{fullShare} f)
      ⊢ (iprop((∃ f, rowPt (F := F) c rowA0 f) ∗ ∃ f, rowPt (F := F) c rowB0 f) : sProp 𝕄) :=
  Ring.slots2_split (U := Pipeline.UD sig nD τ) (ℓ := (c : Thread nD τ).loc cc0_scratch0) (q := fullShare) rowSet rows_disjoint rows_union
    (rowPt c rowA0) (rowPt c rowB0) (rowPtA0_eq c) (rowPtB0_eq c)
theorem scr_join0 (c : Dev nD) :
    (iprop((∃ f, rowPt (F := F) c rowA0 f) ∗ ∃ f, rowPt (F := F) c rowB0 f) : sProp 𝕄)
      ⊢ iprop(∃ f : Buf (Elt F) ((c : Thread nD τ).loc cc0_scratch0), ((c : Thread nD τ).loc cc0_scratch0) ↦{fullShare} f) :=
  Ring.slots2_join (U := Pipeline.UD sig nD τ) (ℓ := (c : Thread nD τ).loc cc0_scratch0) (q := fullShare) rowSet rows_disjoint rows_union
    (rowPt c rowA0) (rowPt c rowB0) (rowPtA0_eq c) (rowPtB0_eq c)

/-- Row `s` of call 1's scratch as a set of its elements, and the row memrefs' element sets. -/
theorem rowA1_set : (rowA1 : Memref sig .tc .vmem S64 .f32).view.set = rowSet 0 := by
  simp only [Memref.view_squeeze, View.set_reshape]; exact View.set_slice_whole _ _
theorem rowB1_set : (rowB1 : Memref sig .tc .vmem S64 .f32).view.set = rowSet 1 := by
  simp only [Memref.view_squeeze, View.set_reshape]; exact View.set_slice_whole _ _
theorem rowPtA1_eq (c : Dev nD) (f) : rowPt (F := F) c rowA1 f = (((c : Thread nD τ).loc cc1_scratch0) ↦[rowSet 0]{fullShare} f : sProp 𝕄) := by
  unfold rowPt; rw [rowA1_set]
theorem rowPtB1_eq (c : Dev nD) (f) : rowPt (F := F) c rowB1 f = (((c : Thread nD τ).loc cc1_scratch0) ↦[rowSet 1]{fullShare} f : sProp 𝕄) := by
  unfold rowPt; rw [rowB1_set]
/-- The scratch whole at some contents is its two rows at some contents each, and back. -/
theorem scr_split1 (c : Dev nD) :
    iprop(∃ f : Buf (Elt F) ((c : Thread nD τ).loc cc1_scratch0), ((c : Thread nD τ).loc cc1_scratch0) ↦{fullShare} f)
      ⊢ (iprop((∃ f, rowPt (F := F) c rowA1 f) ∗ ∃ f, rowPt (F := F) c rowB1 f) : sProp 𝕄) :=
  Ring.slots2_split (U := Pipeline.UD sig nD τ) (ℓ := (c : Thread nD τ).loc cc1_scratch0) (q := fullShare) rowSet rows_disjoint rows_union
    (rowPt c rowA1) (rowPt c rowB1) (rowPtA1_eq c) (rowPtB1_eq c)
theorem scr_join1 (c : Dev nD) :
    (iprop((∃ f, rowPt (F := F) c rowA1 f) ∗ ∃ f, rowPt (F := F) c rowB1 f) : sProp 𝕄)
      ⊢ iprop(∃ f : Buf (Elt F) ((c : Thread nD τ).loc cc1_scratch0), ((c : Thread nD τ).loc cc1_scratch0) ↦{fullShare} f) :=
  Ring.slots2_join (U := Pipeline.UD sig nD τ) (ℓ := (c : Thread nD τ).loc cc1_scratch0) (q := fullShare) rowSet rows_disjoint rows_union
    (rowPt c rowA1) (rowPt c rowB1) (rowPtA1_eq c) (rowPtB1_eq c)

section Regions
variable (V : (c : Dev nD) → (b : Ref sig .tc) → Buf (Elt F) ((c : Thread nD τ).loc b))

/-! # Call 0 (pipeline 0): proof data and body obligation, at the contents `V` the call is entered from -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 128 node ids of point `t`: block `t` of the id array. -/
abbrev idsAt0 (c : Dev nD) (t : Fin cfg0.N) : Vec F S128 .i32 := iblk0 V c 0 t

/-- The table call 0 gathers from, as the call finds it. -/
abbrev tableAt0 (c : Dev nD) : FVec F S100000x64 .f32 := V c main_arg0

/-- The body's own two copy semaphores, by their numbers in the pool; none is a window's. -/
abbrev osem0 : Fin 2 → SemLoc sig := fun j => (![SemLoc.dma 4, SemLoc.dma 5] : Fin 2 → SemLoc sig) j
theorem ownSemFacts0 : Pipeline.OwnSemFacts spec0 osem0 := by decide
/-- The one buffer left in HBM that the body copies from: unscoped, no window's array. -/
def H0 : Finset (Ref sig .tc) := {main_arg0}
theorem H0_sub : H0 ⊆ Pipeline.restRefs sig spec0 := by decide

/-- The proof data of pipeline 0 on core `c`: the arrays as the call finds them; after the body at point `t` the id
    window's buffer still holds its block and the output window's buffer holds the rows of the table those ids name; the
    invariant keeps the scratch, the generator register, the two copy semaphores at zero and the table at its entry
    contents; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => (gatherRows (tableAt0 V c) (idsAt0 V c t) : Vec F S128x64 .f32)
  Φ _ := Pipeline.ΦD osem0 spec0 H0 V c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) :
    (dat0 V c).after 1 t = (gatherRows (tableAt0 V c) (idsAt0 V c t) : Vec F S128x64 .f32) := by dsimp only [dat0]

/-- The id window's buffer holds block `t` of the id array when the body starts at point `t`: the window is fetched at
    every point and the body leaves it as it found it. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Every id of point `t`'s block is an entry of the id array, hence below the table's height. -/
theorem ids_lt0 (hV : ∀ (c : Dev nD) (e : S1600000.Idx), BitVec.toNat (V c main_arg1 e : BitVec 32) < 100000) (c : Dev nD)
    (t : Fin cfg0.N) (j : S128.Idx) : BitVec.toNat (idsAt0 V c t j : BitVec 32) < 100000 := by
  show BitVec.toNat (((cfg0.win 0).blk t).view.read (Elt F) (V c (Pipeline.arrRef spec0 0)) j : BitVec 32) < 100000
  rw [View.read_apply]
  exact hV c _

/-- The copy semaphores at zero, one by one. -/
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The table's points-to at the call's entry contents. -/
theorem tablePts0_eq (c : Dev nD) :
    (bigSep H0 (fun b => ((c : Thread nD τ).loc b) ↦{fullShare} V c b) : sProp 𝕄) = iprop(tablePt0 c (V c main_arg0)) := by
  rw [BI.bigSep_eq_bigSepL_of_eq [main_arg0] (by decide) (by decide)]; rfl

/-- The invariant, conjunct by conjunct: every scoped buffer no window of this call stages (the call's scratch among them)
    whole at some contents, the generator register, the two copy semaphores at zero, the table at its entry contents. -/
theorem inv0_eq (c : Dev nD) :
    (Pipeline.ΦD osem0 spec0 H0 V c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)) ∗ (∃ r, prngReg c r)
          ∗ iprop(semVal ((c : Thread nD τ), SemLoc.dma 4) 0 ∗ semVal ((c : Thread nD τ), SemLoc.dma 5) 0) ∗ iprop(tablePt0 c (V c main_arg0))) := by
  rw [Pipeline.ΦD_eq, scopedRest0_eq, ownSems0_eq, tablePts0_eq]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 4000000 in
/-- The body at any point: the invariant hands it its scratch (as two rows), the copy semaphores at zero and the table; the
    id window's buffer holds the point's ids, all below the table's height, so the run applies; what it leaves in the output
    window's buffer is, read back, the gathered block; the scratch rows rejoin and everything else returns as it was. -/
theorem sound_body0 (hV : ∀ (c : Dev nD) (e : S1600000.Idx), BitVec.toNat (V c main_arg1 e : BitVec 32) < 100000) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl, after0_0, after0_1]
  rw [show (dat0 V c).Φ t.castSucc = Pipeline.ΦD osem0 spec0 H0 V c from rfl, inv0_eq]
  unfold Dat.owesAt Pipeline.owesWithin
  rw [show (dat0 V c).owed t.castSucc = 0 from rfl, show (dat0 V c).owed t.succ = 0 from rfl]
  iintro ⟨⟨⟨HS, HR1, HR2, HR3, HR4, HR5⟩, Hg, ⟨Hq0, Hq1⟩, Hh0⟩, ⟨%W, -, HW⟩, ⟨%d0, H0⟩, ⟨%d1, H1⟩⟩
  ihave Hrows := (scr_split0 (F := F) c) $$ HS
  icases Hrows with ⟨HA, HB⟩
  iapply ((rowCopyRun0 c (grid0.coords t) _ _ _ _ (idsAt0 V c t) (V c main_arg0)
    (hids_of_lt _ _ (idsAt0 V c t) (ids_lt0 V hV c t))).2 W _)
  isplitl [H0]; · iexact H0
  isplitl [H1]; · iexists _; iexact H1
  isplitl [HA]; · iexact HA
  isplitl [HB]; · iexact HB
  isplitl [Hq0]; · iexact Hq0
  isplitl [Hq1]; · iexact Hq1
  isplitl [Hh0]; · iexact Hh0
  isplitl [HW]; · iexact HW
  iintro ⟨H0, ⟨%e1, H1⟩, HA, HB, Hq0, Hq1, Hh0, ⟨%W', HW'⟩⟩
  isplitl [HR1 HR2 HR3 HR4 HR5 HA HB Hg Hq0 Hq1 Hh0]
  · isplitl [HR1 HR2 HR3 HR4 HR5 HA HB]
    ·
      isplitl [HA HB]; · iapply (scr_join0 c); isplitl [HA] <;> iassumption
      isplitl [HR1]; · iexact HR1
      isplitl [HR2]; · iexact HR2
      isplitl [HR3]; · iexact HR3
      isplitl [HR4]; · iexact HR4
      iexact HR5
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  unfold owns; iexists _; isplitr
  swap; · iexact H1
  ipureintro
  rw [View.read_writes_eq_canon _ _ _ (rows_cover0 c _ _ _ _ _ _ _ _)]
  exact rows_canon0 c _ _ _ _ _ (idsAt0 V c t) (V c main_arg0) (ids_lt0 V hV c t)

set_option maxRecDepth 400000 in
/-- The body obligation of call 0 at every point, given that every id of the id array is below the table's height. -/
theorem body_obligation0 (hV : ∀ (c : Dev nD) (e : S1600000.Idx), BitVec.toNat (V c main_arg1 e : BitVec 32) < 100000) (c : Dev nD) :
    BodyObligation (dat0 (F := F) V c) (defs₀ (F := F)) Variants.none () Set.univ := fun t => by
  rw [bigSep_W0, bigSep_W0]
  exact sound_body0 V hV c t

/-! # Call 1 (pipeline 1): proof data and body obligation, at the contents `V` the call is entered from -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 128 node ids of point `t`: block `t` of the id array. -/
abbrev idsAt1 (c : Dev nD) (t : Fin cfg1.N) : Vec F S128 .i32 := iblk1 V c 0 t

/-- The table call 1 gathers from, as the call finds it. -/
abbrev tableAt1 (c : Dev nD) : FVec F S100000x64 .f32 := V c main_v14

/-- The body's own two copy semaphores, by their numbers in the pool; none is a window's. -/
abbrev osem1 : Fin 2 → SemLoc sig := fun j => (![SemLoc.dma 10, SemLoc.dma 11] : Fin 2 → SemLoc sig) j
theorem ownSemFacts1 : Pipeline.OwnSemFacts spec1 osem1 := by decide
/-- The one buffer left in HBM that the body copies from: unscoped, no window's array. -/
def H1 : Finset (Ref sig .tc) := {main_v14}
theorem H1_sub : H1 ⊆ Pipeline.restRefs sig spec1 := by decide

/-- The proof data of pipeline 1 on core `c`: the arrays as the call finds them; after the body at point `t` the id
    window's buffer still holds its block and the output window's buffer holds the rows of the table those ids name; the
    invariant keeps the scratch, the generator register, the two copy semaphores at zero and the table at its entry
    contents; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => (gatherRows (tableAt1 V c) (idsAt1 V c t) : Vec F S128x64 .f32)
  Φ _ := Pipeline.ΦD osem1 spec1 H1 V c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) :
    (dat1 V c).after 1 t = (gatherRows (tableAt1 V c) (idsAt1 V c t) : Vec F S128x64 .f32) := by dsimp only [dat1]

/-- The id window's buffer holds block `t` of the id array when the body starts at point `t`: the window is fetched at
    every point and the body leaves it as it found it. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Every id of point `t`'s block is an entry of the id array, hence below the table's height. -/
theorem ids_lt1 (hV : ∀ (c : Dev nD) (e : S1600000.Idx), BitVec.toNat (V c main_arg1 e : BitVec 32) < 100000) (c : Dev nD)
    (t : Fin cfg1.N) (j : S128.Idx) : BitVec.toNat (idsAt1 V c t j : BitVec 32) < 100000 := by
  show BitVec.toNat (((cfg1.win 0).blk t).view.read (Elt F) (V c (Pipeline.arrRef spec1 0)) j : BitVec 32) < 100000
  rw [View.read_apply]
  exact hV c _

/-- The copy semaphores at zero, one by one. -/
theorem ownSems1_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 10) 0 ∗ semVal ((c : Thread nD τ), SemLoc.dma 11) 0) := by
  rw [Pipeline.ownSems0_eq_of_list c osem1 [0, 1] (by decide) (by decide)]; rfl
/-- The table's points-to at the call's entry contents. -/
theorem tablePts1_eq (c : Dev nD) :
    (bigSep H1 (fun b => ((c : Thread nD τ).loc b) ↦{fullShare} V c b) : sProp 𝕄) = iprop(tablePt1 c (V c main_v14)) := by
  rw [BI.bigSep_eq_bigSepL_of_eq [main_v14] (by decide) (by decide)]; rfl

/-- The invariant, conjunct by conjunct: every scoped buffer no window of this call stages (the call's scratch among them)
    whole at some contents, the generator register, the two copy semaphores at zero, the table at its entry contents. -/
theorem inv1_eq (c : Dev nD) :
    (Pipeline.ΦD osem1 spec1 H1 V c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)) ∗ (∃ r, prngReg c r)
          ∗ iprop(semVal ((c : Thread nD τ), SemLoc.dma 10) 0 ∗ semVal ((c : Thread nD τ), SemLoc.dma 11) 0) ∗ iprop(tablePt1 c (V c main_v14))) := by
  rw [Pipeline.ΦD_eq, scopedRest1_eq, ownSems1_eq, tablePts1_eq]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

set_option maxHeartbeats 4000000 in
/-- The body at any point: the invariant hands it its scratch (as two rows), the copy semaphores at zero and the table; the
    id window's buffer holds the point's ids, all below the table's height, so the run applies; what it leaves in the output
    window's buffer is, read back, the gathered block; the scratch rows rejoin and everything else returns as it was. -/
theorem sound_body1 (hV : ∀ (c : Dev nD) (e : S1600000.Idx), BitVec.toNat (V c main_arg1 e : BitVec 32) < 100000) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl, after1_0, after1_1]
  rw [show (dat1 V c).Φ t.castSucc = Pipeline.ΦD osem1 spec1 H1 V c from rfl, inv1_eq]
  unfold Dat.owesAt Pipeline.owesWithin
  rw [show (dat1 V c).owed t.castSucc = 0 from rfl, show (dat1 V c).owed t.succ = 0 from rfl]
  iintro ⟨⟨⟨HR0, HR1, HR2, HS, HR4, HR5⟩, Hg, ⟨Hq0, Hq1⟩, Hh0⟩, ⟨%W, -, HW⟩, ⟨%d0, H0⟩, ⟨%d1, H1⟩⟩
  ihave Hrows := (scr_split1 (F := F) c) $$ HS
  icases Hrows with ⟨HA, HB⟩
  iapply ((rowCopyRun1 c (grid1.coords t) _ _ _ _ (idsAt1 V c t) (V c main_v14)
    (hids_of_lt _ _ (idsAt1 V c t) (ids_lt1 V hV c t))).2 W _)
  isplitl [H0]; · iexact H0
  isplitl [H1]; · iexists _; iexact H1
  isplitl [HA]; · iexact HA
  isplitl [HB]; · iexact HB
  isplitl [Hq0]; · iexact Hq0
  isplitl [Hq1]; · iexact Hq1
  isplitl [Hh0]; · iexact Hh0
  isplitl [HW]; · iexact HW
  iintro ⟨H0, ⟨%e1, H1⟩, HA, HB, Hq0, Hq1, Hh0, ⟨%W', HW'⟩⟩
  isplitl [HR0 HR1 HR2 HR4 HR5 HA HB Hg Hq0 Hq1 Hh0]
  · isplitl [HR0 HR1 HR2 HR4 HR5 HA HB]
    ·
      isplitl [HR0]; · iexact HR0
      isplitl [HR1]; · iexact HR1
      isplitl [HR2]; · iexact HR2
      isplitl [HA HB]; · iapply (scr_join1 c); isplitl [HA] <;> iassumption
      isplitl [HR4]; · iexact HR4
      iexact HR5
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  unfold owns; iexists _; isplitr
  swap; · iexact H1
  ipureintro
  rw [View.read_writes_eq_canon _ _ _ (rows_cover1 c _ _ _ _ _ _ _ _)]
  exact rows_canon1 c _ _ _ _ _ (idsAt1 V c t) (V c main_v14) (ids_lt1 V hV c t)

set_option maxRecDepth 400000 in
/-- The body obligation of call 1 at every point, given that every id of the id array is below the table's height. -/
theorem body_obligation1 (hV : ∀ (c : Dev nD) (e : S1600000.Idx), BitVec.toNat (V c main_arg1 e : BitVec 32) < 100000) (c : Dev nD) :
    BodyObligation (dat1 (F := F) V c) (defs₀ (F := F)) Variants.none () Set.univ := fun t => by
  rw [bigSep_W1, bigSep_W1]
  exact sound_body1 V hV c t

end Regions

end Cert.Kernel.Hand

end
-- ==== Proof.KB.Fold.lean ====
/-
  The TensorCore's buffer contents at each boundary between the items of the kernel program's @main, folded from the
  launch memory: a stretch of host operations applies them; a call leaves its arrays at what its write-backs leave and
  every other buffer as it was.
-/
import proofs.«407166_j13718125543734_1_alg».proof.Proof.Gen.Kernel.Launch
import proofs.«407166_j13718125543734_1_alg».proof.Proof.Gen.Kernel.Skeleton
import proofs.«407166_j13718125543734_1_alg».proof.Proof.Gen.Kernel.Points
import proofs.«407166_j13718125543734_1_alg».proof.Proof.KB.Region
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Fold
variable (m : (ℓ : Loc nD τ sig) → Buf (Elt F) ℓ)

/-- Core `c`'s buffers at launch. -/
abbrev W0 (c : Dev nD) : Valuation τ sig (Elt F) := fun b => m (c, b)
/-- After the first stretch of host operations (the degree count and its inverse). -/
def W1 (c : Dev nD) : Valuation τ sig (Elt F) := StableHlo.after hostOps0 (W0 m c)
/-- The same read at the TensorCore's references: what call 0 is entered from. -/
abbrev V1 : (c : Dev nD) → (b : Ref sig .tc) → Buf (Elt F) ((c : Thread nD τ).loc b) := fun c b => W1 m c b
/-- After call 0: its arrays at what the pipeline leaves, every other buffer as entered. -/
def W2 (c : Dev nD) : Valuation τ sig (Elt F) :=
  Pipeline.withArrays spec0 c (W1 m c) fun w => (dat0 (V1 m) c).arrAt w cfg0.N
/-- After the second stretch (the first layer's scatter-add and scaling). -/
def W3 (c : Dev nD) : Valuation τ sig (Elt F) := StableHlo.after hostOps1 (W2 m c)
/-- What call 1 is entered from. -/
abbrev V3 : (c : Dev nD) → (b : Ref sig .tc) → Buf (Elt F) ((c : Thread nD τ).loc b) := fun c b => W3 m c b
/-- After call 1. -/
def W4 (c : Dev nD) : Valuation τ sig (Elt F) :=
  Pipeline.withArrays spec1 c (W3 m c) fun w => (dat1 (V3 m) c).arrAt w cfg1.N
/-- After the last stretch (the second layer's scatter-add and scaling, and the average): the contents at the return. -/
def W5 (c : Dev nD) : Valuation τ sig (Elt F) := StableHlo.after hostOps2 (W4 m c)

end Fold

end Cert.Kernel.Hand

end
-- ==== Proof.KB.MainRun.lean ====
/-
  The kernel program runs: @main is three stretches of host operations around two calls of the gather kernel; each call is
  a pipeline region entered from, and left at, the buffer contents of Fold.lean, its body meeting its obligation because the
  source ids are rows of the table. Every weakly fair execution therefore terminates without a fault, and the final
  memory holds every unscoped buffer at the last valuation.
-/
import proofs.«407166_j13718125543734_1_alg».proof.Proof.Gen.Kernel.Launch
import proofs.«407166_j13718125543734_1_alg».proof.Proof.Gen.Kernel.Skeleton
import proofs.«407166_j13718125543734_1_alg».proof.Proof.Gen.Kernel.Points
import proofs.«407166_j13718125543734_1_alg».proof.Proof.KB.Fold
import proofs.«407166_j13718125543734_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Run
variable (m : (ℓ : Loc nD τ sig) → Buf (Elt F) ℓ) (ρ : Dev nD → PrngReg)

/-! # What each call leaves in the unscoped buffers -/

/-- The contents call 0 leaves, read at the TensorCore's references. -/
abbrev V2 : (c : Dev nD) → (b : Ref sig .tc) → Buf (Elt F) ((c : Thread nD τ).loc b) := fun c b => W2 m c b
/-- The contents call 1 leaves, read at the TensorCore's references. -/
abbrev V4 : (c : Dev nD) → (b : Ref sig .tc) → Buf (Elt F) ((c : Thread nD τ).loc b) := fun c b => W4 m c b

/-- After call 0 each of its two arrays holds what the pipeline's write-backs leave there, -/
theorem V2_array (c : Dev nD) (w : Fin cfg0.W) : (dat0 (V1 m) c).arrAt w cfg0.N = V2 m c (Pipeline.arrRef spec0 w) := by
  unfold V2 W2; exact (Pipeline.withArrays_arr spec0 launch0.win.arr_inj c (W1 m c) (fun w => (dat0 (V1 m) c).arrAt w cfg0.N) w).symm
/-- and a buffer that is neither of them holds what it held when the call was entered. -/
theorem V2_other (c : Dev nD) (b : Ref sig .tc) (hb : ∀ w, Pipeline.arrRef spec0 w ≠ b) : V2 m c b = V1 m c b := by
  unfold V2 V1 W2; exact Pipeline.withArrays_of_ne spec0 c _ _ b hb
/-- The same two facts for call 1. -/
theorem V4_array (c : Dev nD) (w : Fin cfg1.W) : (dat1 (V3 m) c).arrAt w cfg1.N = V4 m c (Pipeline.arrRef spec1 w) := by
  unfold V4 W4; exact (Pipeline.withArrays_arr spec1 launch1.win.arr_inj c (W3 m c) (fun w => (dat1 (V3 m) c).arrAt w cfg1.N) w).symm
theorem V4_other (c : Dev nD) (b : Ref sig .tc) (hb : ∀ w, Pipeline.arrRef spec1 w ≠ b) : V4 m c b = V3 m c b := by
  unfold V4 V3 W4; exact Pipeline.withArrays_of_ne spec1 c _ _ b hb

/-! # The id array is never written: both calls find it as launched -/

/-- The first stretch writes no argument: call 0 finds the ids as launched. -/
theorem ids_at1 (c : Dev nD) : V1 m c main_arg1 = m ((c : Thread nD τ).loc main_arg1) := by
  unfold V1 W1; exact StableHlo.after_of_writes_sub hostOps0 _ hostOps0_writes (by decide)
/-- Call 0 reads the ids through an input window, which it hands back as entered, and the second stretch writes no
    argument: call 1 finds the ids as launched. -/
theorem ids_at3 (c : Dev nD) : V3 m c main_arg1 = m ((c : Thread nD τ).loc main_arg1) :=
  calc V3 m c main_arg1
    _ = V2 m c main_arg1 := by unfold V3 V2 W3; exact StableHlo.after_of_writes_sub hostOps1 _ hostOps1_writes (by decide)
    _ = (dat0 (V1 m) c).arrAt 0 cfg0.N := (V2_array m c 0).symm
    _ = V1 m c main_arg1 := ((dat0 (V1 m) c).arrAt_in 0 rfl _).trans (A_eq0 (V1 m) c 0)
    _ = m ((c : Thread nD τ).loc main_arg1) := ids_at1 m c

/-! # The proof data of both calls, and what rides beside the buffers -/

/-- Each call's proof data at the contents that call is entered from: call 0 from `V1`, call 1 from `V3`. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
/-- Nothing here is case-split, and no core owes another anything: no semaphore carries a level. -/
abbrev oneCase : Variants := Variants.none
abbrev noLev : GSem nD τ sig → Finset Unit := fun _ => ∅
abbrev lev0 : GSem nD τ sig → Unit → ℕ := fun _ _ => 0
/-- Beside the buffers a core carries, through every item, its generator register at some state and its dues, which
    are none. -/
abbrev Rest (c : Dev nD) : sProp 𝕄 := iprop((∃ r, prngReg c r) ∗ ∃ W, owes (c : Thread nD τ) (0 : CellTallies nD τ sig Unit) W)
/-- A core between two items: every unscoped buffer at the boundary's contents, and the rest. -/
abbrev At (W : Dev nD → Valuation τ sig (Elt F)) (c : Dev nD) : sProp 𝕄 :=
  iprop(StableHlo.held (c : Thread nD τ) (Pipeline.ucRefs τ sig) (W c) ∗ Rest c)

/-- A stretch of host operations, run over the unscoped buffers from the contents `W`: it leaves them at the
    operations' fold of `W`, the rest untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ oneCase noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-! # The two calls as regions -/

/-- The ids are rows of the table wherever a call reads them. -/
theorem ids_rows1 (hsrc : ∀ (c : Dev nD) (e : S1600000.Idx), BitVec.toNat (m ((c : Thread nD τ).loc main_arg1) e : BitVec 32) < 100000)
    (c : Dev nD) (e : S1600000.Idx) : BitVec.toNat (V1 m c main_arg1 e : BitVec 32) < 100000 := by
  rw [ids_at1 m c]; exact hsrc c e
theorem ids_rows3 (hsrc : ∀ (c : Dev nD) (e : S1600000.Idx), BitVec.toNat (m ((c : Thread nD τ).loc main_arg1) e : BitVec 32) < 100000)
    (c : Dev nD) (e : S1600000.Idx) : BitVec.toNat (V3 m c main_arg1 e : BitVec 32) < 100000 := by
  rw [ids_at3 m c]; exact hsrc c e

section Calls
variable (hsrc : ∀ (c : Dev nD) (e : S1600000.Idx), BitVec.toNat (m ((c : Thread nD τ).loc main_arg1) e : BitVec 32) < 100000)

set_option backward.isDefEq.respectTransparency.types false in
/-- Call 0, entered from `W1` and left at `W2`. -/
def call0 : Pipeline.RegionSeg (pcfgs (F := F)) adm (pdats m) () defs₀ oneCase noLev lev0 0 where
  win := launch0.win.to₀
  block_pos := launch0.block_pos
  stage_whole := launch0.stage_whole
  K := Fin 2
  osem := osem0
  ho := ownSemFacts0
  hbody c := (body_obligation0 (V1 m) (ids_rows1 m hsrc) c).loose
  hwaits := Pipeline.hwaits_of_owed_zero _ _ _ _ noLev lev0 0 fun _ _ => rfl
  pre := At (W1 m)
  post := At (W2 m)
  X c := iprop((∃ r, prngReg c r) ∗ Pipeline.ownSems0 (Ix := Unit) (Name := ℕ) (U := Pipeline.UD sig nD τ) (Lvl := ℕ) (Val := Elt F) (τ := τ) osem0 c ∗ (bigSep H0 fun b => (((c : Thread nD τ)).loc b) ↦{fullShare} V1 m c b))
  Y c := iprop((∃ r, prngReg c r) ∗ (bigSep H0 fun b => (((c : Thread nD τ)).loc b) ↦{fullShare} V1 m c b))
  Z c := bigSep (Pipeline.restRefs sig spec0 \ H0) fun b => (((c : Thread nD τ)).loc b) ↦{fullShare} V1 m c b
  hentry c := by
    -- the unscoped buffers the call is entered from are its two arrays, the table it gathers from, and the others
    have harr := Pipeline.arrays_of_unscopedBufs (p := 0) (pcfgs (F := F)) adm (pdats m) launch0.win launch0.arr_whole c
      ((pdats m 0 c).share_full fun _ => rfl) (V1 m c) fun _ => rfl
    rw [Pipeline.unscopedBufs_held] at harr
    have htab := Pipeline.unscopedRest_sdiff (Val := Elt F) spec0 H0 H0_sub c (V1 m c)
    iintro ⟨⟨Hbufs, Hreg, Hdue⟩, Hsems, -⟩
    ihave Hsplit := harr $$ Hbufs
    icases Hsplit with ⟨Harr, Hrest⟩
    ihave Hsplit := (Entails.of_eq htab) $$ Hrest
    icases Hsplit with ⟨Htab, Hoth⟩
    imodintro
    isplitl [Harr]; · iexact Harr
    isplitr
    · -- no table is prefetched
      unfold Pipeline.prefHeld; rw [show (Finset.univ : Finset (Fin 0)) = ∅ from rfl, BI.bigSep_empty]; iempintro
    isplitl [Hdue]
    · -- the dues are none, and so within any bound
      unfold Pipeline.Dat.owesAt Pipeline.owesWithin
      icases Hdue with ⟨%W, Hdue⟩
      iexists W
      isplitr; · ipureintro; exact fun _ _ => Or.inl trivial
      iexact Hdue
    isplitr [Hoth]
    · isplitl [Hreg]; · iexact Hreg
      isplitl [Hsems]; · iexact Hsems
      iexact Htab
    iexact Hoth
  hin c := by
    rw [show (pdats m 0 c).Φ 0 = Pipeline.ΦD osem0 spec0 H0 (V1 m) c from rfl, Pipeline.ΦD_eq]
    iintro ⟨⟨Hreg, Hsems, Htab⟩, -, Hscr⟩
    isplitl [Hscr]; · iexact Hscr
    isplitl [Hreg]; · iexact Hreg
    isplitl [Hsems]; · iexact Hsems
    iexact Htab
  hout c := by
    rw [show (pdats m 0 c).Φ (Fin.last _) = Pipeline.ΦD osem0 spec0 H0 (V1 m) c from rfl, Pipeline.ΦD_eq]
    iintro ⟨Hscr, Hreg, Hsems, Htab⟩
    isplitl [Hreg Htab]
    · isplitl [Hreg]; · iexact Hreg
      iexact Htab
    isplitl [Hsems]; · iexact Hsems
    iexact Hscr
  hexit c := by
    -- the two arrays at what the call leaves, the table and the others as entered: every unscoped buffer at the exit contents
    have hback := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (V2_array m c)
      (fun b hb => V2_other m c b fun w e => hb (Finset.mem_image.mpr ⟨w, Finset.mem_univ _, e⟩))
    rw [Pipeline.unscopedBufs_held] at hback
    have htab := Pipeline.unscopedRest_sdiff (Val := Elt F) spec0 H0 H0_sub c (V1 m c)
    iintro ⟨Harr, Hdue, ⟨Hreg, Htab⟩, Hoth⟩
    ihave Hrest := (Entails.of_eq htab.symm) $$ [Htab Hoth]
    · isplitl [Htab]; · iexact Htab
      iexact Hoth
    imodintro
    isplitl [Harr Hrest]
    · iapply hback
      isplitl [Harr]; · iexact Harr
      iexact Hrest
    isplitl [Hreg]; · iexact Hreg
    unfold Pipeline.Dat.owesAt Pipeline.owesWithin
    icases Hdue with ⟨%W, -, Hdue⟩
    iexists W; iexact Hdue

set_option backward.isDefEq.respectTransparency.types false in
/-- Call 1, entered from `W3` and left at `W4`. -/
def call1 : Pipeline.RegionSeg (pcfgs (F := F)) adm (pdats m) () defs₀ oneCase noLev lev0 1 where
  win := launch1.win.to₀
  block_pos := launch1.block_pos
  stage_whole := launch1.stage_whole
  K := Fin 2
  osem := osem1
  ho := ownSemFacts1
  hbody c := (body_obligation1 (V3 m) (ids_rows3 m hsrc) c).loose
  hwaits := Pipeline.hwaits_of_owed_zero _ _ _ _ noLev lev0 1 fun _ _ => rfl
  pre := At (W3 m)
  post := At (W4 m)
  X c := iprop((∃ r, prngReg c r) ∗ Pipeline.ownSems0 (Ix := Unit) (Name := ℕ) (U := Pipeline.UD sig nD τ) (Lvl := ℕ) (Val := Elt F) (τ := τ) osem1 c ∗ (bigSep H1 fun b => (((c : Thread nD τ)).loc b) ↦{fullShare} V3 m c b))
  Y c := iprop((∃ r, prngReg c r) ∗ (bigSep H1 fun b => (((c : Thread nD τ)).loc b) ↦{fullShare} V3 m c b))
  Z c := bigSep (Pipeline.restRefs sig spec1 \ H1) fun b => (((c : Thread nD τ)).loc b) ↦{fullShare} V3 m c b
  hentry c := by
    -- the unscoped buffers the call is entered from are its two arrays, the table it gathers from, and the others
    have harr := Pipeline.arrays_of_unscopedBufs (p := 1) (pcfgs (F := F)) adm (pdats m) launch1.win launch1.arr_whole c
      ((pdats m 1 c).share_full fun _ => rfl) (V3 m c) fun _ => rfl
    rw [Pipeline.unscopedBufs_held] at harr
    have htab := Pipeline.unscopedRest_sdiff (Val := Elt F) spec1 H1 H1_sub c (V3 m c)
    iintro ⟨⟨Hbufs, Hreg, Hdue⟩, Hsems, -⟩
    ihave Hsplit := harr $$ Hbufs
    icases Hsplit with ⟨Harr, Hrest⟩
    ihave Hsplit := (Entails.of_eq htab) $$ Hrest
    icases Hsplit with ⟨Htab, Hoth⟩
    imodintro
    isplitl [Harr]; · iexact Harr
    isplitr
    · -- no table is prefetched
      unfold Pipeline.prefHeld; rw [show (Finset.univ : Finset (Fin 0)) = ∅ from rfl, BI.bigSep_empty]; iempintro
    isplitl [Hdue]
    · -- the dues are none, and so within any bound
      unfold Pipeline.Dat.owesAt Pipeline.owesWithin
      icases Hdue with ⟨%W, Hdue⟩
      iexists W
      isplitr; · ipureintro; exact fun _ _ => Or.inl trivial
      iexact Hdue
    isplitr [Hoth]
    · isplitl [Hreg]; · iexact Hreg
      isplitl [Hsems]; · iexact Hsems
      iexact Htab
    iexact Hoth
  hin c := by
    rw [show (pdats m 1 c).Φ 0 = Pipeline.ΦD osem1 spec1 H1 (V3 m) c from rfl, Pipeline.ΦD_eq]
    iintro ⟨⟨Hreg, Hsems, Htab⟩, -, Hscr⟩
    isplitl [Hscr]; · iexact Hscr
    isplitl [Hreg]; · iexact Hreg
    isplitl [Hsems]; · iexact Hsems
    iexact Htab
  hout c := by
    rw [show (pdats m 1 c).Φ (Fin.last _) = Pipeline.ΦD osem1 spec1 H1 (V3 m) c from rfl, Pipeline.ΦD_eq]
    iintro ⟨Hscr, Hreg, Hsems, Htab⟩
    isplitl [Hreg Htab]
    · isplitl [Hreg]; · iexact Hreg
      iexact Htab
    isplitl [Hsems]; · iexact Hsems
    iexact Hscr
  hexit c := by
    -- the two arrays at what the call leaves, the table and the others as entered: every unscoped buffer at the exit contents
    have hback := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (V4_array m c)
      (fun b hb => V4_other m c b fun w e => hb (Finset.mem_image.mpr ⟨w, Finset.mem_univ _, e⟩))
    rw [Pipeline.unscopedBufs_held] at hback
    have htab := Pipeline.unscopedRest_sdiff (Val := Elt F) spec1 H1 H1_sub c (V3 m c)
    iintro ⟨Harr, Hdue, ⟨Hreg, Htab⟩, Hoth⟩
    ihave Hrest := (Entails.of_eq htab.symm) $$ [Htab Hoth]
    · isplitl [Htab]; · iexact Htab
      iexact Hoth
    imodintro
    isplitl [Harr Hrest]
    · iapply hback
      isplitl [Harr]; · iexact Harr
      iexact Hrest
    isplitl [Hreg]; · iexact Hreg
    unfold Pipeline.Dat.owesAt Pipeline.owesWithin
    icases Hdue with ⟨%W, -, Hdue⟩
    iexists W; iexact Hdue

/-! # @main as its five items -/

/-- The three stretches and the two calls, in @main's order, each entered from what the one before it leaves. -/
abbrev items : List (Pipeline.Seg (pcfgs (F := F)) adm (pdats m) () defs₀ oneCase noLev lev0) :=
  [ .host (stretch hostOps0 hostOps0_sub hostOps0_fresh (W0 m)),
    .region (call0 m hsrc),
    .host (stretch hostOps1 hostOps1_sub hostOps1_fresh (W2 m)),
    .region (call1 m hsrc),
    .host (stretch hostOps2 hostOps2_sub hostOps2_fresh (W4 m)) ]

/-- @main is the run of those items. -/
theorem main_items (c : Dev nD) : main (F := F) c = Pipeline.Seg.run (items m hsrc) := (main_chain c).trans (by chain_rfl)

end Calls

set_option backward.isDefEq.respectTransparency.types false in
/-- From any memory whose source ids are below the table's height, with zero counters: every weakly fair execution of
    @main terminates, nothing faulting, and every unscoped buffer of every core ends at `W5`. -/
theorem run_all (hsrc : ∀ (c : Dev nD) (e : S1600000.Idx), BitVec.toNat (m ((c : Thread nD τ).loc main_arg1) e : BitVec 32) < 100000) :
    θ_run defs (onTc (τ := τ) (main (F := F))) ⟨m, fun _ => 0, ρ⟩
      (fun r => ∀ c : Dev nD, ∀ b ∈ Pipeline.ucRefs τ sig, r.2.mem (((c : Thread nD τ)).1, b) = W5 m c b) := by
  refine Pipeline.θ_run_regions_kit (pcfgs (F := F)) adm (pdats m) () cellOf_inj embL defs₀ oneCase noLev lev0 m ρ main (items m hsrc)
    (fun c Q => by rw [main_items m hsrc c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := ?launch)
    (T₀ := At (W0 m))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => ?last⟩)
    (hinit := ?first)
    (QY := fun c s => ∀ b ∈ Pipeline.ucRefs τ sig, s.mem (((c : Thread nD τ)).1, b) = W5 m c b)
    (hfin := fun c s' => ?read) (hQ := fun _ h => h)
  case launch =>
    -- the launch element is a pair: its first half is the staging cells' initial element, its second half is not used
    iintro Hu
    icases (ownU_pair _ _) $$ Hu with ⟨HP, -⟩
    imodintro
    isplitl [HP]; · iexact HP
    have hemp : (BI.emp : sProp 𝕄) ⊢ bigSep Finset.univ (fun _ : Dev nD => (BI.emp : sProp 𝕄)) := by rw [BI.bigSep_emp_const]
    iapply hemp; iempintro
  case last =>
    -- the last stretch leaves the buffers at its fold of W4, which is W5; the dues move out of the rest
    show iprop(StableHlo.held (c : Thread nD τ) (Pipeline.ucRefs τ sig) (W5 m c) ∗ Rest c) ⊢ _
    iintro ⟨Hh, Hp, HO⟩
    isplitr [HO]
    · isplitl [Hh]; · iexact Hh
      iexact Hp
    iexact HO
  case first =>
    -- at launch every core holds its unscoped buffers at the launch memory, its register and no dues
    refine Pipeline.initEach noLev lev0 fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  case read =>
    -- holding every unscoped buffer at W5 against the final state: the state has them at W5
    iintro ⟨⟨Hh, -⟩, HSI⟩
    unfold StableHlo.held
    imodintro
    iapply (pointsTo_read_all (Pipeline.ucRefs τ sig) (fun b => (((c : Thread nD τ)).1, b)) (W5 m c) s')
    isplitl [Hh] <;> iassumption

end Run

end Cert.Kernel.Hand

end
-- ==== Proof.KB.Kept.lean ====
/-
  What no item of @main changes: the three arguments at the return, and the id array as each call finds it, are the
  launch's. No host operation writes them and a call changes only its output array.
-/
import proofs.«407166_j13718125543734_1_alg».proof.Proof.Gen.Kernel.Launch
import proofs.«407166_j13718125543734_1_alg».proof.Proof.Gen.Kernel.Skeleton
import proofs.«407166_j13718125543734_1_alg».proof.Proof.Gen.Kernel.Points
import proofs.«407166_j13718125543734_1_alg».proof.Proof.KB.Fold
import proofs.«407166_j13718125543734_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Kept
variable (m : (ℓ : Loc nD τ sig) → Buf (Elt F) ℓ)

/-! ## One step of the walk back through the fold -/

/-- A host stretch leaves a buffer it does not write as it was. -/
theorem W1_of (c : Dev nD) (r : Ref sig .tc) (h : r ∉ hostOps0_W) :
    W1 m c (Proc.devRef .tc r) = m ((c : Thread nD τ).loc r) := by
  unfold W1; exact (StableHlo.after_of_writes_sub hostOps0 _ Gen.hostOps0_writes h).trans rfl
theorem W3_of (c : Dev nD) (r : Ref sig .tc) (h : r ∉ hostOps1_W) :
    W3 m c (Proc.devRef .tc r) = W2 m c (Proc.devRef .tc r) := by
  unfold W3; exact StableHlo.after_of_writes_sub hostOps1 _ Gen.hostOps1_writes h
theorem W5_of (c : Dev nD) (r : Ref sig .tc) (h : r ∉ hostOps2_W) :
    W5 m c (Proc.devRef .tc r) = W4 m c (Proc.devRef .tc r) := by
  unfold W5; exact StableHlo.after_of_writes_sub hostOps2 _ Gen.hostOps2_writes h

/-- A call leaves its arrays at what its write-backs leave, and every other buffer as entered. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-! ## The id array: an input window's array, which no write-back touches -/

/-- The id array as each call finds it is the launch's. -/
theorem V1_src (c : Dev nD) : V1 m c main_arg1 = m ((c : Thread nD τ).loc main_arg1) :=
  W1_of m c main_arg1 (by decide)
theorem W2_arg1 (c : Dev nD) : W2 m c (Proc.devRef .tc main_arg1) = m ((c : Thread nD τ).loc main_arg1) :=
  (W2_arr m c 0).trans <| ((dat0 (V1 m) c).arrAt_in 0 rfl _).trans <| (A_eq0 (V1 m) c 0).trans (V1_src m c)
theorem V3_src (c : Dev nD) : V3 m c main_arg1 = m ((c : Thread nD τ).loc main_arg1) :=
  (W3_of m c main_arg1 (by decide)).trans (W2_arg1 m c)

/-! ## The arguments -/

/-- No item of @main writes an argument. -/
theorem W5_arg0 (c : Dev nD) : W5 m c (Proc.devRef .tc main_arg0) = m ((c : Thread nD τ).loc main_arg0) :=
  (W5_of m c main_arg0 (by decide)).trans <| (W4_of_ne m c main_arg0 (by decide)).trans <|
    (W3_of m c main_arg0 (by decide)).trans <| (W2_of_ne m c main_arg0 (by decide)).trans <| W1_of m c main_arg0 (by decide)
theorem W5_arg1 (c : Dev nD) : W5 m c (Proc.devRef .tc main_arg1) = m ((c : Thread nD τ).loc main_arg1) :=
  (W5_of m c main_arg1 (by decide)).trans <| (W4_arr m c 0).trans <|
    ((dat1 (V3 m) c).arrAt_in 0 rfl _).trans <| (A_eq1 (V3 m) c 0).trans (V3_src m c)
theorem W3_arg2 (c : Dev nD) : W3 m c (Proc.devRef .tc main_arg2) = m ((c : Thread nD τ).loc main_arg2) :=
  (W3_of m c main_arg2 (by decide)).trans <| (W2_of_ne m c main_arg2 (by decide)).trans <| W1_of m c main_arg2 (by decide)
theorem W5_arg2 (c : Dev nD) : W5 m c (Proc.devRef .tc main_arg2) = m ((c : Thread nD τ).loc main_arg2) :=
  (W5_of m c main_arg2 (by decide)).trans <| (W4_of_ne m c main_arg2 (by decide)).trans <| W3_arg2 m c

end Kept

end Cert.Kernel.Hand

end
-- ==== Proof.ClaimsK.lean ====
/-
  The word-level kernel program's frame. Its text is the idealized program's in another namespace, and its run is the same
  run read at the word-level instance: under the precondition the source ids are rows of the table, so both calls of the
  gather kernel run, and the last valuation holds the three arguments as launched.
-/
import proofs.«407166_j13718125543734_1_alg».proof.Defs
import proofs.«407166_j13718125543734_1_alg».proof.Proof.Gen.Kernel
import proofs.«407166_j13718125543734_1_alg».proof.Proof.Gen.Pre_finite_inputs
import proofs.«407166_j13718125543734_1_alg».proof.Proof.SrcRange
import proofs.«407166_j13718125543734_1_alg».proof.Proof.KB.MainRun
import proofs.«407166_j13718125543734_1_alg».proof.Proof.KB.Kept

noncomputable section

open Idealize.ShloMosaic Idealize.ShloMosaic.TcCoe Idealize.SL.Sem

namespace Cert.Proof.ClaimsK

/-- Under the kernel program's precondition every source id of every core is below the table's height: the range test reads
    the ids only, whatever the floats are. -/
theorem hsrc_of_pre (m : (ℓ : Loc Cert.Kernel.nD Cert.Kernel.τ Cert.Kernel.sig) → Buf (Elt Bits) ℓ)
    (hpre : Cert.Pre_Kernel m) (c : Dev Cert.Kernel.nD) (e : Cert.Kernel.S1600000.Idx) :
    BitVec.toNat (m ((c : Thread Cert.Kernel.nD Cert.Kernel.τ).loc Cert.Kernel.main_arg1) e : BitVec 32) < 100000 :=
  Cert.SrcRange.src_lt (F := Bits) _ _ _ (hpre c) e

/-- The kernel program runs, and its arguments end as launched. -/
theorem frame_k : Cert.frame_Kernel := fun m ρ hpre =>
  (θ_run Cert.Kernel.defs _ _).mono
    (fun r h c =>
      ⟨(h c (Proc.devRef .tc Cert.Kernel.main_arg0)
          (Finset.mem_filter.mpr ⟨StableHlo.devRef_mem_tcRefs Cert.Kernel.main_arg0, by decide⟩)).trans
          (Cert.Kernel.Hand.W5_arg0 m c),
        (h c (Proc.devRef .tc Cert.Kernel.main_arg1)
          (Finset.mem_filter.mpr ⟨StableHlo.devRef_mem_tcRefs Cert.Kernel.main_arg1, by decide⟩)).trans
          (Cert.Kernel.Hand.W5_arg1 m c),
        (h c (Proc.devRef .tc Cert.Kernel.main_arg2)
          (Finset.mem_filter.mpr ⟨StableHlo.devRef_mem_tcRefs Cert.Kernel.main_arg2, by decide⟩)).trans
          (Cert.Kernel.Hand.W5_arg2 m c)⟩)
    (Cert.Kernel.Hand.run_all (F := Bits) m ρ (hsrc_of_pre m hpre))

end Cert.Proof.ClaimsK

end
-- ==== Proof.lean ====
/-
  Two GCN mean-aggregation layers, averaged: a layer gathers each edge's source row, sums the rows per destination node and
  scales by the node's degree. The kernel program does the gather with a Pallas kernel (128 one-row copies out of the table
  per grid point, double-buffered through a two-row scratch) and multiplies by 1 / max(deg, 1); the reference uses jnp's
  gather and divides by max(deg, 1). Claimed under the precondition "every feature finite and every source id in
  [0, 100000)" (the second conjunct is what keeps the kernel's row copies inside the table): both kernel programs and the
  reference run and leave their arguments unchanged, and at the ideal instance the two results are equal entry by entry —
  the gathers agree because a source id in range is its own row, and x · (1/d) = x / d on the extended reals for d ≥ 1.
  The frames and the result's value come from the program's run (Proof/KI, Proof/KB), the reference's from its generated
  run, the equality from Proof/RefSide.lean; Proof/Claims.lean and Proof/ClaimsK.lean assemble them.
-/
import proofs.«407166_j13718125543734_1_alg».proof.Defs
import proofs.«407166_j13718125543734_1_alg».proof.Proof.Gen.Kernel
import proofs.«407166_j13718125543734_1_alg».proof.Proof.Gen.Kernel.Skeleton
import proofs.«407166_j13718125543734_1_alg».proof.Proof.Gen.Kernel.Launch
import proofs.«407166_j13718125543734_1_alg».proof.Proof.Gen.Kernel.Regions
import proofs.«407166_j13718125543734_1_alg».proof.Proof.Gen.Kernel.Points
import proofs.«407166_j13718125543734_1_alg».proof.Proof.Gen.KernelIdeal
import proofs.«407166_j13718125543734_1_alg».proof.Proof.Gen.KernelIdeal.Skeleton
import proofs.«407166_j13718125543734_1_alg».proof.Proof.Gen.KernelIdeal.Launch
import proofs.«407166_j13718125543734_1_alg».proof.Proof.Gen.KernelIdeal.Regions
import proofs.«407166_j13718125543734_1_alg».proof.Proof.Gen.KernelIdeal.Points
import proofs.«407166_j13718125543734_1_alg».proof.Proof.Gen.ReferenceIdeal
import proofs.«407166_j13718125543734_1_alg».proof.Proof.Gen.Pre_finite_inputs
import proofs.«407166_j13718125543734_1_alg».proof.Proof.Gen.ReferenceIdeal.Run
import proofs.«407166_j13718125543734_1_alg».proof.Proof.Gen.ReferenceIdeal.Read
import proofs.«407166_j13718125543734_1_alg».proof.Proof.Claims
import proofs.«407166_j13718125543734_1_alg».proof.Proof.ClaimsK
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.ClaimsK.frame_k, Cert.Proof.Claims.frame_ki, Cert.Proof.Claims.frame_ri, trivial, Cert.Proof.Claims.algebraic⟩

end Cert.Proof

end
